-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v74_0)) (v1 : (c : Dev Cert.KernelIdeal.nD) → Buf (Elt Ideal) ((c.tc : Thread Cert.KernelIdeal.nD Cert.KernelIdeal.τ).loc Cert.KernelIdeal.main_v74_1)) (v2 : (c : Dev Cert.KernelIdeal.nD) → Buf (Elt Ideal) ((c.tc : Thread Cert.KernelIdeal.nD Cert.KernelIdeal.τ).loc Cert.KernelIdeal.main_v74_2)) (v3 : (c : Dev Cert.KernelIdeal.nD) → Buf (Elt Ideal) ((c.tc : Thread Cert.KernelIdeal.nD Cert.KernelIdeal.τ).loc Cert.KernelIdeal.main_v74_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74_0) = v0 c
          ∧ r.2.mem ((c.tc : Thread Cert.KernelIdeal.nD Cert.KernelIdeal.τ).loc Cert.KernelIdeal.main_v74_1) = v1 c
          ∧ r.2.mem ((c.tc : Thread Cert.KernelIdeal.nD Cert.KernelIdeal.τ).loc Cert.KernelIdeal.main_v74_2) = v2 c
          ∧ r.2.mem ((c.tc : Thread Cert.KernelIdeal.nD Cert.KernelIdeal.τ).loc Cert.KernelIdeal.main_v74_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S32768x2 : Shape := ⟨2, ![32768, 2]⟩
abbrev S32768x4096 : Shape := ⟨2, ![32768, 4096]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S4096x15 : Shape := ⟨2, ![4096, 15]⟩
abbrev S15 : Shape := ⟨1, ![15]⟩
abbrev S4096x11 : Shape := ⟨2, ![4096, 11]⟩
abbrev S11 : Shape := ⟨1, ![11]⟩
abbrev S4096x24 : Shape := ⟨2, ![4096, 24]⟩
abbrev S24 : Shape := ⟨1, ![24]⟩
abbrev S4096x4 : Shape := ⟨2, ![4096, 4]⟩
abbrev S4 : Shape := ⟨1, ![4]⟩
abbrev S22801x51 : Shape := ⟨2, ![22801, 51]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S32768x4096 : S_.BroadcastsInDim S32768x4096 (![] : Fin 0 → Fin S32768x4096.rank)
  reducesTo_S32768x4096_S_d0_1 : S32768x4096.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x15 : S_.BroadcastsInDim S4096x15 (![] : Fin 0 → Fin S4096x15.rank)
  reducesTo_S4096x15_S_d0_1 : S4096x15.ReducesTo [0, 1] S_
  bcast_S_S15 : S_.BroadcastsInDim S15 (![] : Fin 0 → Fin S15.rank)
  reducesTo_S15_S_d0 : S15.ReducesTo [0] S_
  bcast_S_S4096x11 : S_.BroadcastsInDim S4096x11 (![] : Fin 0 → Fin S4096x11.rank)
  reducesTo_S4096x11_S_d0_1 : S4096x11.ReducesTo [0, 1] S_
  bcast_S_S11 : S_.BroadcastsInDim S11 (![] : Fin 0 → Fin S11.rank)
  reducesTo_S11_S_d0 : S11.ReducesTo [0] S_
  bcast_S_S4096x24 : S_.BroadcastsInDim S4096x24 (![] : Fin 0 → Fin S4096x24.rank)
  reducesTo_S4096x24_S_d0_1 : S4096x24.ReducesTo [0, 1] S_
  bcast_S_S24 : S_.BroadcastsInDim S24 (![] : Fin 0 → Fin S24.rank)
  reducesTo_S24_S_d0 : S24.ReducesTo [0] S_
  bcast_S_S4096x4 : S_.BroadcastsInDim S4096x4 (![] : Fin 0 → Fin S4096x4.rank)
  reducesTo_S4096x4_S_d0_1 : S4096x4.ReducesTo [0, 1] S_
  bcast_S_S4 : S_.BroadcastsInDim S4 (![] : Fin 0 → Fin S4.rank)
  reducesTo_S4_S_d0 : S4.ReducesTo [0] S_
  bcast_S_S22801x51 : S_.BroadcastsInDim S22801x51 (![] : Fin 0 → Fin S22801x51.rank)
  reducesTo_S22801x51_S_d0_1 : S22801x51.ReducesTo [0, 1] S_
  bcast_S_S32768x2 : S_.BroadcastsInDim S32768x2 (![] : Fin 0 → Fin S32768x2.rank)
  reducesTo_S32768x2_S_d0_1 : S32768x2.ReducesTo [0, 1] S_

variable [Facts]

def fn_part7 {F : FTy → Type} [FloatOps F] (main_arg3 : IVec S32768x2 32) (main_v113 : IVec S_ 1) (main_v118 : IVec S32768x2 1) (main_c_46 : IVec S_ 1) : IVec S_ 1 :=
  let main_v119 : IVec S_ 1 := (fun x v => Host.reduce IntOp.andi x v reducesTo_S32768x2_S_d0_1 h_S_) main_v118 main_c_46
  let main_v120 : IVec S_ 1 := andi main_v113 main_v119
  let main_c_47 : IVec S_ 32 := constantI S_ 32 0#32
  let main_v121 : IVec S32768x2 32 := broadcastInDim S32768x2 ![] bcast_S_S32768x2 main_c_47
  let main_v122 : IVec S32768x2 1 := cmpi .sge main_arg3 main_v121
  let main_c_48 : IVec S_ 32 := constantI S_ 32 151#32
  let main_v123 : IVec S32768x2 32 := broadcastInDim S32768x2 ![] bcast_S_S32768x2 main_c_48
  let main_v124 : IVec S32768x2 1 := cmpi .slt main_arg3 main_v123
  let main_v125 : IVec S32768x2 1 := andi main_v122 main_v124
  let main_c_49 : IVec S_ 1 := constantI S_ 1 1#1
  let main_v126 : IVec S_ 1 := (fun x v => Host.reduce IntOp.andi x v reducesTo_S32768x2_S_d0_1 h_S_) main_v125 main_c_49
  let main_v127 : IVec S_ 1 := andi main_v120 main_v126
  main_v127

def fn_part6 {F : FTy → Type} [FloatOps F] (main_arg1 : IVec S32768x2 32) (main_arg3 : IVec S32768x2 32) (main_arg23 : FVec F S4 .f32) (main_arg24 : FVec F S22801x51 .f32) (main_v98 : IVec S_ 1) (main_v101 : IVec S4096x4 1) (main_c_39 : IVec S_ 1) : IVec S_ 1 :=
  let main_v102 : IVec S_ 1 := (fun x v => Host.reduce IntOp.andi x v reducesTo_S4096x4_S_d0_1 h_S_) main_v101 main_c_39
  let main_v103 : IVec S_ 1 := andi main_v98 main_v102
  let main_v104 : FVec F S4 .f32 := Host.absf main_arg23
  let main_cst_40 : FVec F S_ .f32 := constant S_ .f32 0x7F800000#32
  let main_v105 : FVec F S4 .f32 := broadcastInDim S4 ![] bcast_S_S4 main_cst_40
  let main_v106 : IVec S4 1 := cmpf .olt main_v104 main_v105
  let main_c_41 : IVec S_ 1 := constantI S_ 1 1#1
  let main_v107 : IVec S_ 1 := (fun x v => Host.reduce IntOp.andi x v reducesTo_S4_S_d0 h_S_) main_v106 main_c_41
  let main_v108 : IVec S_ 1 := andi main_v103 main_v107
  let main_v109 : FVec F S22801x51 .f32 := Host.absf main_arg24
  let main_cst_42 : FVec F S_ .f32 := constant S_ .f32 0x7F800000#32
  let main_v110 : FVec F S22801x51 .f32 := broadcastInDim S22801x51 ![] bcast_S_S22801x51 main_cst_42
  let main_v111 : IVec S22801x51 1 := cmpf .olt main_v109 main_v110
  let main_c_43 : IVec S_ 1 := constantI S_ 1 1#1
  let main_v112 : IVec S_ 1 := (fun x v => Host.reduce IntOp.andi x v reducesTo_S22801x51_S_d0_1 h_S_) main_v111 main_c_43
  let main_v113 : IVec S_ 1 := andi main_v108 main_v112
  let main_c_44 : IVec S_ 32 := constantI S_ 32 0#32
  let main_v114 : IVec S32768x2 32 := broadcastInDim S32768x2 ![] bcast_S_S32768x2 main_c_44
  let main_v115 : IVec S32768x2 1 := cmpi .sge main_arg1 main_v114
  let main_c_45 : IVec S_ 32 := constantI S_ 32 8192#32
  let main_v116 : IVec S32768x2 32 := broadcastInDim S32768x2 ![] bcast_S_S32768x2 main_c_45
  let main_v117 : IVec S32768x2 1 := cmpi .slt main_arg1 main_v116
  let main_v118 : IVec S32768x2 1 := andi main_v115 main_v117
  let main_c_46 : IVec S_ 1 := constantI S_ 1 1#1
  fn_part7 (F := F) main_arg3 main_v113 main_v118 main_c_46

def fn_part5 {F : FTy → Type} [FloatOps F] (main_arg1 : IVec S32768x2 32) (main_arg3 : IVec S32768x2 32) (main_arg20 : FVec F S4096x24 .f32) (main_arg21 : FVec F S24 .f32) (main_arg22 : FVec F S4096x4 .f32) (main_arg23 : FVec F S4 .f32) (main_arg24 : FVec F S22801x51 .f32) (main_v83 : IVec S_ 1) (main_v84 : FVec F S11 .f32) (main_cst_32 : FVec F S_ .f32) : IVec S_ 1 :=
  let main_v85 : FVec F S11 .f32 := broadcastInDim S11 ![] bcast_S_S11 main_cst_32
  let main_v86 : IVec S11 1 := cmpf .olt main_v84 main_v85
  let main_c_33 : IVec S_ 1 := constantI S_ 1 1#1
  let main_v87 : IVec S_ 1 := (fun x v => Host.reduce IntOp.andi x v reducesTo_S11_S_d0 h_S_) main_v86 main_c_33
  let main_v88 : IVec S_ 1 := andi main_v83 main_v87
  let main_v89 : FVec F S4096x24 .f32 := Host.absf main_arg20
  let main_cst_34 : FVec F S_ .f32 := constant S_ .f32 0x7F800000#32
  let main_v90 : FVec F S4096x24 .f32 := broadcastInDim S4096x24 ![] bcast_S_S4096x24 main_cst_34
  let main_v91 : IVec S4096x24 1 := cmpf .olt main_v89 main_v90
  let main_c_35 : IVec S_ 1 := constantI S_ 1 1#1
  let main_v92 : IVec S_ 1 := (fun x v => Host.reduce IntOp.andi x v reducesTo_S4096x24_S_d0_1 h_S_) main_v91 main_c_35
  let main_v93 : IVec S_ 1 := andi main_v88 main_v92
  let main_v94 : FVec F S24 .f32 := Host.absf main_arg21
  let main_cst_36 : FVec F S_ .f32 := constant S_ .f32 0x7F800000#32
  let main_v95 : FVec F S24 .f32 := broadcastInDim S24 ![] bcast_S_S24 main_cst_36
  let main_v96 : IVec S24 1 := cmpf .olt main_v94 main_v95
  let main_c_37 : IVec S_ 1 := constantI S_ 1 1#1
  let main_v97 : IVec S_ 1 := (fun x v => Host.reduce IntOp.andi x v reducesTo_S24_S_d0 h_S_) main_v96 main_c_37
  let main_v98 : IVec S_ 1 := andi main_v93 main_v97
  let main_v99 : FVec F S4096x4 .f32 := Host.absf main_arg22
  let main_cst_38 : FVec F S_ .f32 := constant S_ .f32 0x7F800000#32
  let main_v100 : FVec F S4096x4 .f32 := broadcastInDim S4096x4 ![] bcast_S_S4096x4 main_cst_38
  let main_v101 : IVec S4096x4 1 := cmpf .olt main_v99 main_v100
  let main_c_39 : IVec S_ 1 := constantI S_ 1 1#1
  fn_part6 (F := F) main_arg1 main_arg3 main_arg23 main_arg24 main_v98 main_v101 main_c_39

def fn_part4 {F : FTy → Type} [FloatOps F] (main_arg1 : IVec S32768x2 32) (main_arg3 : IVec S32768x2 32) (main_arg16 : FVec F S4096x15 .f32) (main_arg17 : FVec F S15 .f32) (main_arg18 : FVec F S4096x11 .f32) (main_arg19 : FVec F S11 .f32) (main_arg20 : FVec F S4096x24 .f32) (main_arg21 : FVec F S24 .f32) (main_arg22 : FVec F S4096x4 .f32) (main_arg23 : FVec F S4 .f32) (main_arg24 : FVec F S22801x51 .f32) (main_v63 : IVec S_ 1) (main_v67 : IVec S_ 1) : IVec S_ 1 :=
  let main_v68 : IVec S_ 1 := andi main_v63 main_v67
  let main_v69 : FVec F S4096x15 .f32 := Host.absf main_arg16
  let main_cst_26 : FVec F S_ .f32 := constant S_ .f32 0x7F800000#32
  let main_v70 : FVec F S4096x15 .f32 := broadcastInDim S4096x15 ![] bcast_S_S4096x15 main_cst_26
  let main_v71 : IVec S4096x15 1 := cmpf .olt main_v69 main_v70
  let main_c_27 : IVec S_ 1 := constantI S_ 1 1#1
  let main_v72 : IVec S_ 1 := (fun x v => Host.reduce IntOp.andi x v reducesTo_S4096x15_S_d0_1 h_S_) main_v71 main_c_27
  let main_v73 : IVec S_ 1 := andi main_v68 main_v72
  let main_v74 : FVec F S15 .f32 := Host.absf main_arg17
  let main_cst_28 : FVec F S_ .f32 := constant S_ .f32 0x7F800000#32
  let main_v75 : FVec F S15 .f32 := broadcastInDim S15 ![] bcast_S_S15 main_cst_28
  let main_v76 : IVec S15 1 := cmpf .olt main_v74 main_v75
  let main_c_29 : IVec S_ 1 := constantI S_ 1 1#1
  let main_v77 : IVec S_ 1 := (fun x v => Host.reduce IntOp.andi x v reducesTo_S15_S_d0 h_S_) main_v76 main_c_29
  let main_v78 : IVec S_ 1 := andi main_v73 main_v77
  let main_v79 : FVec F S4096x11 .f32 := Host.absf main_arg18
  let main_cst_30 : FVec F S_ .f32 := constant S_ .f32 0x7F800000#32
  let main_v80 : FVec F S4096x11 .f32 := broadcastInDim S4096x11 ![] bcast_S_S4096x11 main_cst_30
  let main_v81 : IVec S4096x11 1 := cmpf .olt main_v79 main_v80
  let main_c_31 : IVec S_ 1 := constantI S_ 1 1#1
  let main_v82 : IVec S_ 1 := (fun x v => Host.reduce IntOp.andi x v reducesTo_S4096x11_S_d0_1 h_S_) main_v81 main_c_31
  let main_v83 : IVec S_ 1 := andi main_v78 main_v82
  let main_v84 : FVec F S11 .f32 := Host.absf main_arg19
  let main_cst_32 : FVec F S_ .f32 := constant S_ .f32 0x7F800000#32
  fn_part5 (F := F) main_arg1 main_arg3 main_arg20 main_arg21 main_arg22 main_arg23 main_arg24 main_v83 main_v84 main_cst_32

def fn_part3 {F : FTy → Type} [FloatOps F] (main_arg1 : IVec S32768x2 32) (main_arg3 : IVec S32768x2 32) (main_arg13 : FVec F S24 .f32) (main_arg14 : FVec F S4096x4 .f32) (main_arg15 : FVec F S4 .f32) (main_arg16 : FVec F S4096x15 .f32) (main_arg17 : FVec F S15 .f32) (main_arg18 : FVec F S4096x11 .f32) (main_arg19 : FVec F S11 .f32) (main_arg20 : FVec F S4096x24 .f32) (main_arg21 : FVec F S24 .f32) (main_arg22 : FVec F S4096x4 .f32) (main_arg23 : FVec F S4 .f32) (main_arg24 : FVec F S22801x51 .f32) (main_v48 : IVec S_ 1) (main_v49 : FVec F S4096x24 .f32) (main_v50 : FVec F S4096x24 .f32) : IVec S_ 1 :=
  let main_v51 : IVec S4096x24 1 := cmpf .olt main_v49 main_v50
  let main_c_19 : IVec S_ 1 := constantI S_ 1 1#1
  let main_v52 : IVec S_ 1 := (fun x v => Host.reduce IntOp.andi x v reducesTo_S4096x24_S_d0_1 h_S_) main_v51 main_c_19
  let main_v53 : IVec S_ 1 := andi main_v48 main_v52
  let main_v54 : FVec F S24 .f32 := Host.absf main_arg13
  let main_cst_20 : FVec F S_ .f32 := constant S_ .f32 0x7F800000#32
  let main_v55 : FVec F S24 .f32 := broadcastInDim S24 ![] bcast_S_S24 main_cst_20
  let main_v56 : IVec S24 1 := cmpf .olt main_v54 main_v55
  let main_c_21 : IVec S_ 1 := constantI S_ 1 1#1
  let main_v57 : IVec S_ 1 := (fun x v => Host.reduce IntOp.andi x v reducesTo_S24_S_d0 h_S_) main_v56 main_c_21
  let main_v58 : IVec S_ 1 := andi main_v53 main_v57
  let main_v59 : FVec F S4096x4 .f32 := Host.absf main_arg14
  let main_cst_22 : FVec F S_ .f32 := constant S_ .f32 0x7F800000#32
  let main_v60 : FVec F S4096x4 .f32 := broadcastInDim S4096x4 ![] bcast_S_S4096x4 main_cst_22
  let main_v61 : IVec S4096x4 1 := cmpf .olt main_v59 main_v60
  let main_c_23 : IVec S_ 1 := constantI S_ 1 1#1
  let main_v62 : IVec S_ 1 := (fun x v => Host.reduce IntOp.andi x v reducesTo_S4096x4_S_d0_1 h_S_) main_v61 main_c_23
  let main_v63 : IVec S_ 1 := andi main_v58 main_v62
  let main_v64 : FVec F S4 .f32 := Host.absf main_arg15
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_arg1 main_arg3 main_arg16 main_arg17 main_arg18 main_arg19 main_arg20 main_arg21 main_arg22 main_arg23 main_arg24 main_v63 main_v67

def fn_part2 {F : FTy → Type} [FloatOps F] (main_arg1 : IVec S32768x2 32) (main_arg3 : IVec S32768x2 32) (main_arg9 : FVec F S15 .f32) (main_arg10 : FVec F S4096x11 .f32) (main_arg11 : FVec F S11 .f32) (main_arg12 : FVec F S4096x24 .f32) (main_arg13 : FVec F S24 .f32) (main_arg14 : FVec F S4096x4 .f32) (main_arg15 : FVec F S4 .f32) (main_arg16 : FVec F S4096x15 .f32) (main_arg17 : FVec F S15 .f32) (main_arg18 : FVec F S4096x11 .f32) (main_arg19 : FVec F S11 .f32) (main_arg20 : FVec F S4096x24 .f32) (main_arg21 : FVec F S24 .f32) (main_arg22 : FVec F S4096x4 .f32) (main_arg23 : FVec F S4 .f32) (main_arg24 : FVec F S22801x51 .f32) (main_v33 : IVec S_ 1) : IVec S_ 1 :=
  let main_v34 : FVec F S15 .f32 := Host.absf main_arg9
  let main_cst_12 : FVec F S_ .f32 := constant S_ .f32 0x7F800000#32
  let main_v35 : FVec F S15 .f32 := broadcastInDim S15 ![] bcast_S_S15 main_cst_12
  let main_v36 : IVec S15 1 := cmpf .olt main_v34 main_v35
  let main_c_13 : IVec S_ 1 := constantI S_ 1 1#1
  let main_v37 : IVec S_ 1 := (fun x v => Host.reduce IntOp.andi x v reducesTo_S15_S_d0 h_S_) main_v36 main_c_13
  let main_v38 : IVec S_ 1 := andi main_v33 main_v37
  let main_v39 : FVec F S4096x11 .f32 := Host.absf main_arg10
  let main_cst_14 : FVec F S_ .f32 := constant S_ .f32 0x7F800000#32
  let main_v40 : FVec F S4096x11 .f32 := broadcastInDim S4096x11 ![] bcast_S_S4096x11 main_cst_14
  let main_v41 : IVec S4096x11 1 := cmpf .olt main_v39 main_v40
  let main_c_15 : IVec S_ 1 := constantI S_ 1 1#1
  let main_v42 : IVec S_ 1 := (fun x v => Host.reduce IntOp.andi x v reducesTo_S4096x11_S_d0_1 h_S_) main_v41 main_c_15
  let main_v43 : IVec S_ 1 := andi main_v38 main_v42
  let main_v44 : FVec F S11 .f32 := Host.absf main_arg11
  let main_cst_16 : FVec F S_ .f32 := constant S_ .f32 0x7F800000#32
  let main_v45 : FVec F S11 .f32 := broadcastInDim S11 ![] bcast_S_S11 main_cst_16
  let main_v46 : IVec S11 1 := cmpf .olt main_v44 main_v45
  let main_c_17 : IVec S_ 1 := constantI S_ 1 1#1
  let main_v47 : IVec S_ 1 := (fun x v => Host.reduce IntOp.andi x v reducesTo_S11_S_d0 h_S_) main_v46 main_c_17
  let main_v48 : IVec S_ 1 := andi main_v43 main_v47
  let main_v49 : FVec F S4096x24 .f32 := Host.absf main_arg12
  let main_cst_18 : FVec F S_ .f32 := constant S_ .f32 0x7F800000#32
  let main_v50 : FVec F S4096x24 .f32 := broadcastInDim S4096x24 ![] bcast_S_S4096x24 main_cst_18
  fn_part3 (F := F) main_arg1 main_arg3 main_arg13 main_arg14 main_arg15 main_arg16 main_arg17 main_arg18 main_arg19 main_arg20 main_arg21 main_arg22 main_arg23 main_arg24 main_v48 main_v49 main_v50

def fn_part1 {F : FTy → Type} [FloatOps F] (main_arg1 : IVec S32768x2 32) (main_arg3 : IVec S32768x2 32) (main_arg6 : FVec F S1024x4096 .f32) (main_arg7 : FVec F S4096 .f32) (main_arg8 : FVec F S4096x15 .f32) (main_arg9 : FVec F S15 .f32) (main_arg10 : FVec F S4096x11 .f32) (main_arg11 : FVec F S11 .f32) (main_arg12 : FVec F S4096x24 .f32) (main_arg13 : FVec F S24 .f32) (main_arg14 : FVec F S4096x4 .f32) (main_arg15 : FVec F S4 .f32) (main_arg16 : FVec F S4096x15 .f32) (main_arg17 : FVec F S15 .f32) (main_arg18 : FVec F S4096x11 .f32) (main_arg19 : FVec F S11 .f32) (main_arg20 : FVec F S4096x24 .f32) (main_arg21 : FVec F S24 .f32) (main_arg22 : FVec F S4096x4 .f32) (main_arg23 : FVec F S4 .f32) (main_arg24 : FVec F S22801x51 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4096 .f32 := Host.absf main_arg6
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg7
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x15 .f32 := Host.absf main_arg8
  let main_cst_10 : FVec F S_ .f32 := constant S_ .f32 0x7F800000#32
  let main_v30 : FVec F S4096x15 .f32 := broadcastInDim S4096x15 ![] bcast_S_S4096x15 main_cst_10
  let main_v31 : IVec S4096x15 1 := cmpf .olt main_v29 main_v30
  let main_c_11 : IVec S_ 1 := constantI S_ 1 1#1
  let main_v32 : IVec S_ 1 := (fun x v => Host.reduce IntOp.andi x v reducesTo_S4096x15_S_d0_1 h_S_) main_v31 main_c_11
  let main_v33 : IVec S_ 1 := andi main_v28 main_v32
  fn_part2 (F := F) main_arg1 main_arg3 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8192x512 .f32) (main_arg1 : IVec S32768x2 32) (main_arg2 : FVec F S32768x4096 .f32) (main_arg3 : IVec S32768x2 32) (main_arg4 : FVec F S512x1024 .f32) (main_arg5 : FVec F S1024 .f32) (main_arg6 : FVec F S1024x4096 .f32) (main_arg7 : FVec F S4096 .f32) (main_arg8 : FVec F S4096x15 .f32) (main_arg9 : FVec F S15 .f32) (main_arg10 : FVec F S4096x11 .f32) (main_arg11 : FVec F S11 .f32) (main_arg12 : FVec F S4096x24 .f32) (main_arg13 : FVec F S24 .f32) (main_arg14 : FVec F S4096x4 .f32) (main_arg15 : FVec F S4 .f32) (main_arg16 : FVec F S4096x15 .f32) (main_arg17 : FVec F S15 .f32) (main_arg18 : FVec F S4096x11 .f32) (main_arg19 : FVec F S11 .f32) (main_arg20 : FVec F S4096x24 .f32) (main_arg21 : FVec F S24 .f32) (main_arg22 : FVec F S4096x4 .f32) (main_arg23 : FVec F S4 .f32) (main_arg24 : FVec F S22801x51 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S32768x4096 .f32 := Host.absf main_arg2
  let main_cst_0 : FVec F S_ .f32 := constant S_ .f32 0x7F800000#32
  let main_v5 : FVec F S32768x4096 .f32 := broadcastInDim S32768x4096 ![] bcast_S_S32768x4096 main_cst_0
  let main_v6 : IVec S32768x4096 1 := cmpf .olt main_v4 main_v5
  let main_c_1 : IVec S_ 1 := constantI S_ 1 1#1
  let main_v7 : IVec S_ 1 := (fun x v => Host.reduce IntOp.andi x v reducesTo_S32768x4096_S_d0_1 h_S_) main_v6 main_c_1
  let main_v8 : IVec S_ 1 := andi main_v3 main_v7
  let main_v9 : FVec F S512x1024 .f32 := Host.absf main_arg4
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg3 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8192x512 : Shape := ⟨2, ![8192, 512]⟩
abbrev S32768x2 : Shape := ⟨2, ![32768, 2]⟩
abbrev S32768x4096 : Shape := ⟨2, ![32768, 4096]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S4096x15 : Shape := ⟨2, ![4096, 15]⟩
abbrev S15 : Shape := ⟨1, ![15]⟩
abbrev S4096x11 : Shape := ⟨2, ![4096, 11]⟩
abbrev S11 : Shape := ⟨1, ![11]⟩
abbrev S4096x24 : Shape := ⟨2, ![4096, 24]⟩
abbrev S24 : Shape := ⟨1, ![24]⟩
abbrev S4096x4 : Shape := ⟨2, ![4096, 4]⟩
abbrev S4 : Shape := ⟨1, ![4]⟩
abbrev S22801x51 : Shape := ⟨2, ![22801, 51]⟩
abbrev S1x1024 : Shape := ⟨2, ![1, 1024]⟩
abbrev S8192x1024 : Shape := ⟨2, ![8192, 1024]⟩
abbrev S1024x512 : Shape := ⟨2, ![1024, 512]⟩
abbrev S1024x1024 : Shape := ⟨2, ![1024, 1024]⟩
abbrev S32768x1 : Shape := ⟨2, ![32768, 1]⟩
abbrev S32768 : Shape := ⟨1, ![32768]⟩
abbrev S_ : Shape := ⟨0, ![]⟩
abbrev S1 : Shape := ⟨1, ![1]⟩
abbrev S1x1 : Shape := ⟨2, ![1, 1]⟩
abbrev S32768x512 : Shape := ⟨2, ![32768, 512]⟩
abbrev S32768x1024 : Shape := ⟨2, ![32768, 1024]⟩
abbrev S32768x51 : Shape := ⟨2, ![32768, 51]⟩
abbrev S15x1 : Shape := ⟨2, ![15, 1]⟩
abbrev S32768x15 : Shape := ⟨2, ![32768, 15]⟩
abbrev S11x1 : Shape := ⟨2, ![11, 1]⟩
abbrev S32768x11 : Shape := ⟨2, ![32768, 11]⟩
abbrev S24x1 : Shape := ⟨2, ![24, 1]⟩
abbrev S32768x24 : Shape := ⟨2, ![32768, 24]⟩
abbrev S32768x4 : Shape := ⟨2, ![32768, 4]⟩
abbrev S1x4096 : Shape := ⟨2, ![1, 4096]⟩
abbrev S1x15 : Shape := ⟨2, ![1, 15]⟩
abbrev S1x11 : Shape := ⟨2, ![1, 11]⟩
abbrev S1x24 : Shape := ⟨2, ![1, 24]⟩
abbrev S1x4 : Shape := ⟨2, ![1, 4]⟩
abbrev S512x4096 : Shape := ⟨2, ![512, 4096]⟩
abbrev S512x15 : Shape := ⟨2, ![512, 15]⟩
abbrev S512x11 : Shape := ⟨2, ![512, 11]⟩
abbrev S512x24 : Shape := ⟨2, ![512, 24]⟩
abbrev S512x4 : Shape := ⟨2, ![512, 4]⟩

abbrev nBuf : Space → Nat
  | .hbm => 182
  | .vmem => 44
  | .smem => 0
  | _ => 0

abbrev hbmTy0_0 (i : Nat) : BufTy := match i % 128 with
  | 0 => ⟨S8192x512, .f32⟩
  | 1 => ⟨S32768x2, .i32⟩
  | 2 => ⟨S32768x4096, .f32⟩
  | 3 => ⟨S32768x2, .i32⟩
  | 4 => ⟨S512x1024, .f32⟩
  | 5 => ⟨S1024, .f32⟩
  | 6 => ⟨S1024x4096, .f32⟩
  | 7 => ⟨S4096, .f32⟩
  | 8 => ⟨S4096x15, .f32⟩
  | 9 => ⟨S15, .f32⟩
  | 10 => ⟨S4096x11, .f32⟩
  | 11 => ⟨S11, .f32⟩
  | 12 => ⟨S4096x24, .f32⟩
  | 13 => ⟨S24, .f32⟩
  | 14 => ⟨S4096x4, .f32⟩
  | 15 => ⟨S4, .f32⟩
  | 16 => ⟨S4096x15, .f32⟩
  | 17 => ⟨S15, .f32⟩
  | 18 => ⟨S4096x11, .f32⟩
  | 19 => ⟨S11, .f32⟩
  | 20 => ⟨S4096x24, .f32⟩
  | 21 => ⟨S24, .f32⟩
  | 22 => ⟨S4096x4, .f32⟩
  | 23 => ⟨S4, .f32⟩
  | 24 => ⟨S22801x51, .f32⟩
  | 25 => ⟨S15, .i32⟩
  | 26 => ⟨S11, .i32⟩
  | 27 => ⟨S24, .i32⟩
  | 28 => ⟨S512x1024, .bf16⟩
  | 29 => ⟨S1x1024, .f32⟩
  | 30 => ⟨S8192x1024, .f32⟩
  | 31 => ⟨S8192x512, .f32⟩
  | 32 => ⟨S8192x512, .f32⟩
  | 33 => ⟨S32768x1, .i32⟩
  | 34 => ⟨S32768, .i32⟩
  | 35 => ⟨S_, .i32⟩
  | 36 => ⟨S32768, .i32⟩
  | 37 => ⟨S32768, .i1⟩
  | 38 => ⟨S_, .i32⟩
  | 39 => ⟨S32768, .i32⟩
  | 40 => ⟨S32768, .i32⟩
  | 41 => ⟨S32768, .i32⟩
  | 42 => ⟨S32768x1, .i32⟩
  | 43 => ⟨S1, .i32⟩
  | 44 => ⟨S_, .i32⟩
  | 45 => ⟨S32768x1, .i32⟩
  | 46 => ⟨S32768x1, .i1⟩
  | 47 => ⟨S1x1, .i32⟩
  | 48 => ⟨S32768x1, .i32⟩
  | 49 => ⟨S32768x1, .i1⟩
  | 50 => ⟨S32768x1, .i1⟩
  | 51 => ⟨S_, .i1⟩
  | 52 => ⟨S32768, .i1⟩
  | 53 => ⟨S32768x512, .f32⟩
  | 54 => ⟨S32768x512, .i1⟩
  | 55 => ⟨S_, .f32⟩
  | 56 => ⟨S32768x512, .f32⟩
  | 57 => ⟨S32768x512, .f32⟩
  | 58 => ⟨S32768x1, .i32⟩
  | 59 => ⟨S32768, .i32⟩
  | 60 => ⟨S_, .i32⟩
  | 61 => ⟨S32768, .i32⟩
  | 62 => ⟨S32768, .i1⟩
  | 63 => ⟨S_, .i32⟩
  | 64 => ⟨S32768, .i32⟩
  | 65 => ⟨S32768, .i32⟩
  | 66 => ⟨S32768, .i32⟩
  | 67 => ⟨S32768x1, .i32⟩
  | 68 => ⟨S1, .i32⟩
  | 69 => ⟨S_, .i32⟩
  | 70 => ⟨S32768x1, .i32⟩
  | 71 => ⟨S32768x1, .i1⟩
  | 72 => ⟨S1x1, .i32⟩
  | 73 => ⟨S32768x1, .i32⟩
  | 74 => ⟨S32768x1, .i1⟩
  | 75 => ⟨S32768x1, .i1⟩
  | 76 => ⟨S_, .i1⟩
  | 77 => ⟨S32768, .i1⟩
  | 78 => ⟨S32768x512, .f32⟩
  | 79 => ⟨S32768x512, .i1⟩
  | 80 => ⟨S_, .f32⟩
  | 81 => ⟨S32768x512, .f32⟩
  | 82 => ⟨S32768x512, .f32⟩
  | 83 => ⟨S32768x1024, .f32⟩
  | 84 => ⟨S32768x1, .i32⟩
  | 85 => ⟨S32768, .i32⟩
  | 86 => ⟨S_, .i32⟩
  | 87 => ⟨S32768, .i32⟩
  | 88 => ⟨S32768, .i32⟩
  | 89 => ⟨S32768x1, .i32⟩
  | 90 => ⟨S32768, .i32⟩
  | 91 => ⟨S32768, .i32⟩
  | 92 => ⟨S_, .i32⟩
  | 93 => ⟨S32768, .i32⟩
  | 94 => ⟨S32768, .i1⟩
  | 95 => ⟨S_, .i32⟩
  | 96 => ⟨S32768, .i32⟩
  | 97 => ⟨S32768, .i32⟩
  | 98 => ⟨S32768, .i32⟩
  | 99 => ⟨S32768x1, .i32⟩
  | 100 => ⟨S1, .i32⟩
  | 101 => ⟨S_, .i32⟩
  | 102 => ⟨S32768x1, .i32⟩
  | 103 => ⟨S32768x1, .i1⟩
  | 104 => ⟨S1x1, .i32⟩
  | 105 => ⟨S32768x1, .i32⟩
  | 106 => ⟨S32768x1, .i1⟩
  | 107 => ⟨S32768x1, .i1⟩
  | 108 => ⟨S_, .i1⟩
  | 109 => ⟨S32768, .i1⟩
  | 110 => ⟨S32768x51, .f32⟩
  | 111 => ⟨S32768x51, .i1⟩
  | 112 => ⟨S_, .f32⟩
  | 113 => ⟨S32768x51, .f32⟩
  | 114 => ⟨S32768x51, .f32⟩
  | 115 => ⟨S_, .i32⟩
  | 116 => ⟨S15, .i32⟩
  | 117 => ⟨S15, .i1⟩
  | 118 => ⟨S_, .i32⟩
  | 119 => ⟨S15, .i32⟩
  | 120 => ⟨S15, .i32⟩
  | 121 => ⟨S15, .i32⟩
  | 122 => ⟨S15x1, .i32⟩
  | 123 => ⟨S32768x15, .f32⟩
  | 124 => ⟨S_, .i32⟩
  | 125 => ⟨S11, .i32⟩
  | 126 => ⟨S11, .i1⟩
  | 127 => ⟨S_, .i32⟩
  | _ => ⟨S8192x512, .f32⟩

abbrev hbmTy0_1 (i : Nat) : BufTy := match i % 128 with
  | 0 => ⟨S11, .i32⟩
  | 1 => ⟨S11, .i32⟩
  | 2 => ⟨S11, .i32⟩
  | 3 => ⟨S11x1, .i32⟩
  | 4 => ⟨S32768x11, .f32⟩
  | 5 => ⟨S_, .i32⟩
  | 6 => ⟨S24, .i32⟩
  | 7 => ⟨S24, .i1⟩
  | 8 => ⟨S_, .i32⟩
  | 9 => ⟨S24, .i32⟩
  | 10 => ⟨S24, .i32⟩
  | 11 => ⟨S24, .i32⟩
  | 12 => ⟨S24x1, .i32⟩
  | 13 => ⟨S32768x24, .f32⟩
  | 14 => ⟨S32768x1, .f32⟩
  | 15 => ⟨S32768, .f32⟩
  | 16 => ⟨S32768, .f32⟩
  | 17 => ⟨S32768x15, .f32⟩
  | 18 => ⟨S_, .f32⟩
  | 19 => ⟨S32768, .f32⟩
  | 20 => ⟨S32768x11, .f32⟩
  | 21 => ⟨S_, .f32⟩
  | 22 => ⟨S32768, .f32⟩
  | 23 => ⟨S32768x24, .f32⟩
  | 24 => ⟨S_, .f32⟩
  | 25 => ⟨S32768, .f32⟩
  | 26 => ⟨S32768x1, .f32⟩
  | 27 => ⟨S32768x1, .f32⟩
  | 28 => ⟨S32768x1, .f32⟩
  | 29 => ⟨S32768x1, .f32⟩
  | 30 => ⟨S32768x4, .f32⟩
  | 31 => ⟨S32768x4, .f32⟩
  | 32 => ⟨S1024x4096, .bf16⟩
  | 33 => ⟨S1x4096, .f32⟩
  | 34 => ⟨S4096x15, .bf16⟩
  | 35 => ⟨S4096x11, .bf16⟩
  | 36 => ⟨S4096x24, .bf16⟩
  | 37 => ⟨S4096x4, .bf16⟩
  | 38 => ⟨S4096x15, .bf16⟩
  | 39 => ⟨S4096x11, .bf16⟩
  | 40 => ⟨S4096x24, .bf16⟩
  | 41 => ⟨S4096x4, .bf16⟩
  | 42 => ⟨S1x15, .f32⟩
  | 43 => ⟨S1x11, .f32⟩
  | 44 => ⟨S1x24, .f32⟩
  | 45 => ⟨S1x4, .f32⟩
  | 46 => ⟨S1x15, .f32⟩
  | 47 => ⟨S1x11, .f32⟩
  | 48 => ⟨S1x24, .f32⟩
  | 49 => ⟨S1x4, .f32⟩
  | 50 => ⟨S32768x15, .f32⟩
  | 51 => ⟨S32768x11, .f32⟩
  | 52 => ⟨S32768x24, .f32⟩
  | 53 => ⟨S32768x4, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S512x1024, .f32⟩
  | .local _ .vmem, ⟨7, _⟩ => ⟨S512x1024, .f32⟩
  | .local _ .vmem, ⟨8, _⟩ => ⟨S512x4096, .f32⟩
  | .local _ .vmem, ⟨9, _⟩ => ⟨S512x4096, .f32⟩
  | .local _ .vmem, ⟨10, _⟩ => ⟨S512x15, .f32⟩
  | .local _ .vmem, ⟨11, _⟩ => ⟨S512x15, .f32⟩
  | .local _ .vmem, ⟨12, _⟩ => ⟨S512x11, .f32⟩
  | .local _ .vmem, ⟨13, _⟩ => ⟨S512x11, .f32⟩
  | .local _ .vmem, ⟨14, _⟩ => ⟨S512x24, .f32⟩
  | .local _ .vmem, ⟨15, _⟩ => ⟨S512x24, .f32⟩
  | .local _ .vmem, ⟨16, _⟩ => ⟨S512x4, .f32⟩
  | .local _ .vmem, ⟨17, _⟩ => ⟨S512x4, .f32⟩
  | .local _ .vmem, ⟨18, _⟩ => ⟨S1024x4096, .bf16⟩
  | .local _ .vmem, ⟨19, _⟩ => ⟨S1x4096, .f32⟩
  | .local _ .vmem, ⟨20, _⟩ => ⟨S4096x15, .bf16⟩
  | .local _ .vmem, ⟨21, _⟩ => ⟨S1x15, .f32⟩
  | .local _ .vmem, ⟨22, _⟩ => ⟨S4096x11, .bf16⟩
  | .local _ .vmem, ⟨23, _⟩ => ⟨S1x11, .f32⟩
  | .local _ .vmem, ⟨24, _⟩ => ⟨S4096x24, .bf16⟩
  | .local _ .vmem, ⟨25, _⟩ => ⟨S1x24, .f32⟩
  | .local _ .vmem, ⟨26, _⟩ => ⟨S4096x4, .bf16⟩
  | .local _ .vmem, ⟨27, _⟩ => ⟨S1x4, .f32⟩
  | .local _ .vmem, ⟨28, _⟩ => ⟨S4096x15, .bf16⟩
  | .local _ .vmem, ⟨29, _⟩ => ⟨S1x15, .f32⟩
  | .local _ .vmem, ⟨30, _⟩ => ⟨S4096x11, .bf16⟩
  | .local _ .vmem, ⟨31, _⟩ => ⟨S1x11, .f32⟩
  | .local _ .vmem, ⟨32, _⟩ => ⟨S4096x24, .bf16⟩
  | .local _ .vmem, ⟨33, _⟩ => ⟨S1x24, .f32⟩
  | .local _ .vmem, ⟨34, _⟩ => ⟨S4096x4, .bf16⟩
  | .local _ .vmem, ⟨35, _⟩ => ⟨S1x4, .f32⟩
  | .local _ .vmem, ⟨36, _⟩ => ⟨S512x15, .f32⟩
  | .local _ .vmem, ⟨37, _⟩ => ⟨S512x15, .f32⟩
  | .local _ .vmem, ⟨38, _⟩ => ⟨S512x11, .f32⟩
  | .local _ .vmem, ⟨39, _⟩ => ⟨S512x11, .f32⟩
  | .local _ .vmem, ⟨40, _⟩ => ⟨S512x24, .f32⟩
  | .local _ .vmem, ⟨41, _⟩ => ⟨S512x24, .f32⟩
  | .local _ .vmem, ⟨42, _⟩ => ⟨S512x4, .f32⟩
  | .local _ .vmem, ⟨43, _⟩ => ⟨S512x4, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_c_0 : Ref sig .tc := ⟨.hbm, 26, rfl⟩
abbrev main_c_1 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_c_2 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v19 : Ref sig .tc := ⟨.hbm, 114, rfl⟩
abbrev main_c_3 : Ref sig .tc := ⟨.hbm, 115, rfl⟩
abbrev main_v20 : Ref sig .tc := ⟨.hbm, 116, rfl⟩
abbrev main_v21 : Ref sig .tc := ⟨.hbm, 117, rfl⟩
abbrev main_c_4 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_c_5 : Ref sig .tc := ⟨.hbm, 124, rfl⟩
abbrev main_v27 : Ref sig .tc := ⟨.hbm, 125, rfl⟩
abbrev main_v28 : Ref sig .tc := ⟨.hbm, 126, rfl⟩
abbrev main_c_6 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_c_7 : Ref sig .tc := ⟨.hbm, 133, rfl⟩
abbrev main_v34 : Ref sig .tc := ⟨.hbm, 134, rfl⟩
abbrev main_v35 : Ref sig .tc := ⟨.hbm, 135, rfl⟩
abbrev main_c_8 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_cst : Ref sig .tc := ⟨.hbm, 146, rfl⟩
abbrev main_v45 : Ref sig .tc := ⟨.hbm, 147, rfl⟩
abbrev main_v46 : Ref sig .tc := ⟨.hbm, 148, rfl⟩
abbrev main_cst_9 : Ref sig .tc := ⟨.hbm, 149, rfl⟩
abbrev main_v47 : Ref sig .tc := ⟨.hbm, 150, rfl⟩
abbrev main_v48 : Ref sig .tc := ⟨.hbm, 151, rfl⟩
abbrev main_cst_10 : Ref sig .tc := ⟨.hbm, 152, rfl⟩
abbrev main_v49 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74_0 : Ref sig .tc := ⟨.hbm, 178, rfl⟩
abbrev main_v74_1 : Ref sig .tc := ⟨.hbm, 179, rfl⟩
abbrev main_v74_2 : Ref sig .tc := ⟨.hbm, 180, rfl⟩
abbrev main_v74_3 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg16_0 : Ref sig .tc := ⟨.vmem, 28, rfl⟩
abbrev cc1_stg17_0 : Ref sig .tc := ⟨.vmem, 29, rfl⟩
abbrev cc1_stg18_0 : Ref sig .tc := ⟨.vmem, 30, rfl⟩
abbrev cc1_stg19_0 : Ref sig .tc := ⟨.vmem, 31, rfl⟩
abbrev cc1_stg20_0 : Ref sig .tc := ⟨.vmem, 32, rfl⟩
abbrev cc1_stg21_0 : Ref sig .tc := ⟨.vmem, 33, rfl⟩
abbrev cc1_stg22_0 : Ref sig .tc := ⟨.vmem, 34, rfl⟩
abbrev cc1_stg23_0 : Ref sig .tc := ⟨.vmem, 35, rfl⟩
abbrev cc1_stg24_0 : Ref sig .tc := ⟨.vmem, 36, rfl⟩
abbrev cc1_stg24_1 : Ref sig .tc := ⟨.vmem, 37, rfl⟩
abbrev cc1_stg25_0 : Ref sig .tc := ⟨.vmem, 38, rfl⟩
abbrev cc1_stg25_1 : Ref sig .tc := ⟨.vmem, 39, rfl⟩
abbrev cc1_stg26_0 : Ref sig .tc := ⟨.vmem, 40, rfl⟩
abbrev cc1_stg26_1 : Ref sig .tc := ⟨.vmem, 41, rfl⟩
abbrev cc1_stg27_0 : Ref sig .tc := ⟨.vmem, 42, rfl⟩
abbrev cc1_stg27_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem17_0 : DmaSem sig := 29
abbrev cc1_sem18_0 : DmaSem sig := 30
abbrev cc1_sem19_0 : DmaSem sig := 31
abbrev cc1_sem20_0 : DmaSem sig := 32
abbrev cc1_sem21_0 : DmaSem sig := 33
abbrev cc1_sem22_0 : DmaSem sig := 34
abbrev cc1_sem23_0 : DmaSem sig := 35
abbrev cc1_sem24_0 : DmaSem sig := 36
abbrev cc1_sem24_1 : DmaSem sig := 37
abbrev cc1_sem25_0 : DmaSem sig := 38
abbrev cc1_sem25_1 : DmaSem sig := 39
abbrev cc1_sem26_0 : DmaSem sig := 40
abbrev cc1_sem26_1 : DmaSem sig := 41
abbrev cc1_sem27_0 : DmaSem sig := 42
abbrev cc1_sem27_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_25 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_26 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_27 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x15 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x11 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x24 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x4096 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4096x15 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x15 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4096x11 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x11 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4096x24 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x24 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S4096x4 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x4 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S4096x15 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x15 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S4096x11 .bf16 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x11 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S4096x24 .bf16 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x24 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S4096x4 .bf16 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x4 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 2 → Memref sig .tc .vmem S512x15 .f32 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true]

abbrev stage1_25 : Fin 2 → Memref sig .tc .vmem S512x11 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true]

abbrev stage1_26 : Fin 2 → Memref sig .tc .vmem S512x24 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true]

abbrev stage1_27 : Fin 2 → Memref sig .tc .vmem S512x4 .f32 := fun | 0 => Memref.whole cc1_stg27_0 | 1 => Memref.whole cc1_stg27_1 | ⟨_ + 2, h⟩ => absurd h (Nat.not_lt.2 (Nat.le_add_left _ _))
abbrev sem1_27 : Fin 2 → DmaSem sig := fun | 0 => cc1_sem27_0 | 1 => cc1_sem27_1 | ⟨_ + 2, h⟩ => absurd h (Nat.not_lt.2 (Nat.le_add_left _ _))
abbrev reads1_27 : Fin grid1.rank → Bool := ![true]

class Facts₀ : Prop where
  bitsLt_bf16_f32 : FTy.bits .bf16 < FTy.bits .f32
  shapeCasts_S1024_S1x1024 : S1024.ShapeCasts S1x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  slices_S8192x1024_S8192x512_0_0 : S8192x1024.Slices ![0, 0] S8192x512
  slices_S8192x1024_S8192x512_0_512 : S8192x1024.Slices ![0, 512] S8192x512
  slices_S32768x2_S32768x1_0_0 : S32768x2.Slices ![0, 0] S32768x1
  shapeCasts_S32768x1_S32768 : S32768x1.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768_S32768x512_0 : S32768.BroadcastsInDim S32768x512 (![0] : Fin 1 → Fin S32768x512.rank)
  bcast_S_S32768x512 : S_.BroadcastsInDim S32768x512 (![] : Fin 0 → Fin S32768x512.rank)
  slices_S32768x2_S32768x1_0_1 : S32768x2.Slices ![0, 1] S32768x1
  concatenates_S32768x512_S32768x512_S32768x1024_d1 : Shape.Concatenates [S32768x512, S32768x512] S32768x1024 1
  bcast_S32768_S32768x51_0 : S32768.BroadcastsInDim S32768x51 (![0] : Fin 1 → Fin S32768x51.rank)
  bcast_S_S32768x51 : S_.BroadcastsInDim S32768x51 (![] : Fin 0 → Fin S32768x51.rank)
  bcast_S_S15 : S_.BroadcastsInDim S15 (![] : Fin 0 → Fin S15.rank)
  bcast_S15_S15x1_0 : S15.BroadcastsInDim S15x1 (![0] : Fin 1 → Fin S15x1.rank)
  bcast_S_S11 : S_.BroadcastsInDim S11 (![] : Fin 0 → Fin S11.rank)
  bcast_S11_S11x1_0 : S11.BroadcastsInDim S11x1 (![0] : Fin 1 → Fin S11x1.rank)
  bcast_S_S24 : S_.BroadcastsInDim S24 (![] : Fin 0 → Fin S24.rank)
  bcast_S24_S24x1_0 : S24.BroadcastsInDim S24x1 (![0] : Fin 1 → Fin S24x1.rank)
  slices_S32768x51_S32768x1_0_0 : S32768x51.Slices ![0, 0] S32768x1
  reducesTo_S32768x15_S32768_d1 : S32768x15.ReducesTo [1] S32768
  reducesTo_S32768x11_S32768_d1 : S32768x11.ReducesTo [1] S32768
  reducesTo_S32768x24_S32768_d1 : S32768x24.ReducesTo [1] S32768
  concatenates_S32768x1_S32768x1_S32768x1_S32768x1_S32768x4_d1 : Shape.Concatenates [S32768x1, S32768x1, S32768x1, S32768x1] S32768x4 1
  shapeCasts_S4096_S1x4096 : S4096.ShapeCasts S1x4096
  shapeCasts_S15_S1x15 : S15.ShapeCasts S1x15
  shapeCasts_S11_S1x11 : S11.ShapeCasts S1x11
  shapeCasts_S24_S1x24 : S24.ShapeCasts S1x24
  shapeCasts_S4_S1x4 : S4.ShapeCasts S1x4
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  inb_S4096x15_S4096x15_0_0 : ∀ a, (![0, 0] : Fin 2 → Nat) a + S4096x15.size a ≤ S4096x15.size a
  h_S4096x15 : 0 < S4096x15.numel
  shapeCasts_S4096x15_S4096x15 : S4096x15.ShapeCasts S4096x15
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S512x15 : S1x15.Broadcasts S512x15
  inb_S4096x11_S4096x11_0_0 : ∀ a, (![0, 0] : Fin 2 → Nat) a + S4096x11.size a ≤ S4096x11.size a
  h_S4096x11 : 0 < S4096x11.numel
  shapeCasts_S4096x11_S4096x11 : S4096x11.ShapeCasts S4096x11
  inb_S1x11_S1x11_0_0 : ∀ a, (![0, 0] : Fin 2 → Nat) a + S1x11.size a ≤ S1x11.size a
  h_S1x11 : 0 < S1x11.numel
  shapeCasts_S1x11_S1x11 : S1x11.ShapeCasts S1x11
  broadcasts_S1x11_S512x11 : S1x11.Broadcasts S512x11
  inb_S4096x24_S4096x24_0_0 : ∀ a, (![0, 0] : Fin 2 → Nat) a + S4096x24.size a ≤ S4096x24.size a
  h_S4096x24 : 0 < S4096x24.numel
  shapeCasts_S4096x24_S4096x24 : S4096x24.ShapeCasts S4096x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S512x24 : S1x24.Broadcasts S512x24
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S512x4 : S1x4.Broadcasts S512x4
  inb_S512x15_S512x15_0_0 : ∀ a, (![0, 0] : Fin 2 → Nat) a + S512x15.size a ≤ S512x15.size a
  h_S512x15 : 0 < S512x15.numel
  shapeCasts_S512x15_S512x15 : S512x15.ShapeCasts S512x15
  inb_S512x11_S512x11_0_0 : ∀ a, (![0, 0] : Fin 2 → Nat) a + S512x11.size a ≤ S512x11.size a
  h_S512x11 : 0 < S512x11.numel
  shapeCasts_S512x11_S512x11 : S512x11.ShapeCasts S512x11
  inb_S512x24_S512x24_0_0 : ∀ a, (![0, 0] : Fin 2 → Nat) a + S512x24.size a ≤ S512x24.size a
  h_S512x24 : 0 < S512x24.numel
  shapeCasts_S512x24_S512x24 : S512x24.ShapeCasts S512x24
  inb_S512x4_S512x4_0_0 : ∀ a, (![0, 0] : Fin 2 → Nat) a + S512x4.size a ≤ S512x4.size a
  h_S512x4 : 0 < S512x4.numel
  shapeCasts_S512x4_S512x4 : S512x4.ShapeCasts S512x4
  dot_S1024x512_S512x1024_S1024x1024_1_0_0_1_n_n_wf : DotDims.WF S1024x512 S512x1024 S1024x1024 [1] [0] [0] [1] [] []
  gather_S8192x512_S32768x1_S32768x512_1_0_n_n_0_1_1512_wf : GatherDims.WF S8192x512 S32768x1 S32768x512 [1] [0] [] [0] [] 1 ![1, 512]
  gather_S22801x51_S32768x1_S32768x51_1_0_n_n_0_1_151_wf : GatherDims.WF S22801x51 S32768x1 S32768x51 [1] [0] [] [0] [] 1 ![1, 51]
  gather_S32768x51_S15x1_S32768x15_0_1_n_n_1_1_327681_wf : GatherDims.WF S32768x51 S15x1 S32768x15 [0] [1] [] [1] [] 1 ![32768, 1]
  gather_S32768x51_S11x1_S32768x11_0_1_n_n_1_1_327681_wf : GatherDims.WF S32768x51 S11x1 S32768x11 [0] [1] [] [1] [] 1 ![32768, 1]
  gather_S32768x51_S24x1_S32768x24_0_1_n_n_1_1_327681_wf : GatherDims.WF S32768x51 S24x1 S32768x24 [0] [1] [] [1] [] 1 ![32768, 1]
  dot_S512x1024_S1024x4096_S512x4096_1_0_0_1_n_n_wf : DotDims.WF S512x1024 S1024x4096 S512x4096 [1] [0] [0] [1] [] []
  dot_S512x4096_S4096x15_S512x15_1_0_0_1_n_n_wf : DotDims.WF S512x4096 S4096x15 S512x15 [1] [0] [0] [1] [] []
  dot_S512x4096_S4096x11_S512x11_1_0_0_1_n_n_wf : DotDims.WF S512x4096 S4096x11 S512x11 [1] [0] [0] [1] [] []
  dot_S512x4096_S4096x24_S512x24_1_0_0_1_n_n_wf : DotDims.WF S512x4096 S4096x24 S512x24 [1] [0] [0] [1] [] []
  dot_S512x4096_S4096x4_S512x4_1_0_0_1_n_n_wf : DotDims.WF S512x4096 S4096x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S32768x1024.size a
  hwx1_0 : ∀ i : grid1.Coords, EltTy.bits .f32 = 32 ∨ (Rect.block (s := S32768x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S32768x4096.size a
  hwx1_1 : ∀ i : grid1.Coords, EltTy.bits .f32 = 32 ∨ (Rect.block (s := S32768x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x15.size a ≤ S32768x15.size a
  hwx1_2 : ∀ i : grid1.Coords, EltTy.bits .f32 = 32 ∨ (Rect.block (s := S32768x15) S512x15.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x11.size a ≤ S32768x11.size a
  hwx1_3 : ∀ i : grid1.Coords, EltTy.bits .f32 = 32 ∨ (Rect.block (s := S32768x11) S512x11.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x24.size a ≤ S32768x24.size a
  hwx1_4 : ∀ i : grid1.Coords, EltTy.bits .f32 = 32 ∨ (Rect.block (s := S32768x24) S512x24.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x4.size a ≤ S32768x4.size a
  hwx1_5 : ∀ i : grid1.Coords, EltTy.bits .f32 = 32 ∨ (Rect.block (s := S32768x4) S512x4.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x4096.size a ≤ S1024x4096.size a
  hwx1_6 : ∀ i : grid1.Coords, EltTy.bits .bf16 = 32 ∨ (Rect.block (s := S1024x4096) S1024x4096.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x4096.size a ≤ S1x4096.size a
  hwx1_7 : ∀ i : grid1.Coords, EltTy.bits .f32 = 32 ∨ (Rect.block (s := S1x4096) S1x4096.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4096x15.size a ≤ S4096x15.size a
  hwx1_8 : ∀ i : grid1.Coords, EltTy.bits .bf16 = 32 ∨ (Rect.block (s := S4096x15) S4096x15.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x15.size a ≤ S1x15.size a
  hwx1_9 : ∀ i : grid1.Coords, EltTy.bits .f32 = 32 ∨ (Rect.block (s := S1x15) S1x15.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S4096x11.size a ≤ S4096x11.size a
  hwx1_10 : ∀ i : grid1.Coords, EltTy.bits .bf16 = 32 ∨ (Rect.block (s := S4096x11) S4096x11.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x11.size a ≤ S1x11.size a
  hwx1_11 : ∀ i : grid1.Coords, EltTy.bits .f32 = 32 ∨ (Rect.block (s := S1x11) S1x11.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S4096x24.size a ≤ S4096x24.size a
  hwx1_12 : ∀ i : grid1.Coords, EltTy.bits .bf16 = 32 ∨ (Rect.block (s := S4096x24) S4096x24.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x24.size a ≤ S1x24.size a
  hwx1_13 : ∀ i : grid1.Coords, EltTy.bits .f32 = 32 ∨ (Rect.block (s := S1x24) S1x24.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S4096x4.size a ≤ S4096x4.size a
  hwx1_14 : ∀ i : grid1.Coords, EltTy.bits .bf16 = 32 ∨ (Rect.block (s := S4096x4) S4096x4.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x4.size a ≤ S1x4.size a
  hwx1_15 : ∀ i : grid1.Coords, EltTy.bits .f32 = 32 ∨ (Rect.block (s := S1x4) S1x4.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S4096x15.size a ≤ S4096x15.size a
  hwx1_16 : ∀ i : grid1.Coords, EltTy.bits .bf16 = 32 ∨ (Rect.block (s := S4096x15) S4096x15.size (cc1_transform_16 i) (hinb1_16 i)).WholeWords (EltTy.packing .bf16)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x15.size a ≤ S1x15.size a
  hwx1_17 : ∀ i : grid1.Coords, EltTy.bits .f32 = 32 ∨ (Rect.block (s := S1x15) S1x15.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S4096x11.size a ≤ S4096x11.size a
  hwx1_18 : ∀ i : grid1.Coords, EltTy.bits .bf16 = 32 ∨ (Rect.block (s := S4096x11) S4096x11.size (cc1_transform_18 i) (hinb1_18 i)).WholeWords (EltTy.packing .bf16)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S1x11.size a ≤ S1x11.size a
  hwx1_19 : ∀ i : grid1.Coords, EltTy.bits .f32 = 32 ∨ (Rect.block (s := S1x11) S1x11.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S4096x24.size a ≤ S4096x24.size a
  hwx1_20 : ∀ i : grid1.Coords, EltTy.bits .bf16 = 32 ∨ (Rect.block (s := S4096x24) S4096x24.size (cc1_transform_20 i) (hinb1_20 i)).WholeWords (EltTy.packing .bf16)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S1x24.size a ≤ S1x24.size a
  hwx1_21 : ∀ i : grid1.Coords, EltTy.bits .f32 = 32 ∨ (Rect.block (s := S1x24) S1x24.size (cc1_transform_21 i) (hinb1_21 i)).WholeWords (EltTy.packing .f32)
  hstage1_22 : ∀ j, (stage1_22 j).IsWhole
  nbuf1_22 : grid1.bufCount reads1_22 true = 1
  hreads1_22 : ∀ i i' : grid1.Coords, (∀ a, reads1_22 a = true → i a = i' a) → cc1_transform_22 i = cc1_transform_22 i'
  hinb1_22 : ∀ (i : grid1.Coords) a, (cc1_transform_22 i a + 1) * S4096x4.size a ≤ S4096x4.size a
  hwx1_22 : ∀ i : grid1.Coords, EltTy.bits .bf16 = 32 ∨ (Rect.block (s := S4096x4) S4096x4.size (cc1_transform_22 i) (hinb1_22 i)).WholeWords (EltTy.packing .bf16)
  hstage1_23 : ∀ j, (stage1_23 j).IsWhole
  nbuf1_23 : grid1.bufCount reads1_23 true = 1
  hreads1_23 : ∀ i i' : grid1.Coords, (∀ a, reads1_23 a = true → i a = i' a) → cc1_transform_23 i = cc1_transform_23 i'
  hinb1_23 : ∀ (i : grid1.Coords) a, (cc1_transform_23 i a + 1) * S1x4.size a ≤ S1x4.size a
  hwx1_23 : ∀ i : grid1.Coords, EltTy.bits .f32 = 32 ∨ (Rect.block (s := S1x4) S1x4.size (cc1_transform_23 i) (hinb1_23 i)).WholeWords (EltTy.packing .f32)
  hstage1_24 : ∀ j, (stage1_24 j).IsWhole
  nbuf1_24 : grid1.bufCount reads1_24 false = 2
  hreads1_24 : ∀ i i' : grid1.Coords, (∀ a, reads1_24 a = true → i a = i' a) → cc1_transform_24 i = cc1_transform_24 i'
  hinb1_24 : ∀ (i : grid1.Coords) a, (cc1_transform_24 i a + 1) * S512x15.size a ≤ S32768x15.size a
  hwx1_24 : ∀ i : grid1.Coords, EltTy.bits .f32 = 32 ∨ (Rect.block (s := S32768x15) S512x15.size (cc1_transform_24 i) (hinb1_24 i)).WholeWords (EltTy.packing .f32)
  hstage1_25 : ∀ j, (stage1_25 j).IsWhole
  nbuf1_25 : grid1.bufCount reads1_25 false = 2
  hreads1_25 : ∀ i i' : grid1.Coords, (∀ a, reads1_25 a = true → i a = i' a) → cc1_transform_25 i = cc1_transform_25 i'
  hinb1_25 : ∀ (i : grid1.Coords) a, (cc1_transform_25 i a + 1) * S512x11.size a ≤ S32768x11.size a
  hwx1_25 : ∀ i : grid1.Coords, EltTy.bits .f32 = 32 ∨ (Rect.block (s := S32768x11) S512x11.size (cc1_transform_25 i) (hinb1_25 i)).WholeWords (EltTy.packing .f32)
  hstage1_26 : ∀ j, (stage1_26 j).IsWhole
  nbuf1_26 : grid1.bufCount reads1_26 false = 2
  hreads1_26 : ∀ i i' : grid1.Coords, (∀ a, reads1_26 a = true → i a = i' a) → cc1_transform_26 i = cc1_transform_26 i'
  hinb1_26 : ∀ (i : grid1.Coords) a, (cc1_transform_26 i a + 1) * S512x24.size a ≤ S32768x24.size a
  hwx1_26 : ∀ i : grid1.Coords, EltTy.bits .f32 = 32 ∨ (Rect.block (s := S32768x24) S512x24.size (cc1_transform_26 i) (hinb1_26 i)).WholeWords (EltTy.packing .f32)
  hstage1_27 : ∀ j, (stage1_27 j).IsWhole
  nbuf1_27 : grid1.bufCount reads1_27 false = 2
  hreads1_27 : ∀ i i' : grid1.Coords, (∀ a, reads1_27 a = true → i a = i' a) → cc1_transform_27 i = cc1_transform_27 i'
  hinb1_27 : ∀ (i : grid1.Coords) a, (cc1_transform_27 i a + 1) * S512x4.size a ≤ S32768x4.size a
  hwx1_27 : ∀ i : grid1.Coords, EltTy.bits .f32 = 32 ∨ (Rect.block (s := S32768x4) S512x4.size (cc1_transform_27 i) (hinb1_27 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def gather_S8192x512_S32768x1_S32768x512_1_0_n_n_0_1_1512 : GatherDims S8192x512 S32768x1 S32768x512 where
  offsetDims := [1]
  collapsedSliceDims := [0]
  operandBatchingDims := []
  startIndicesBatchingDims := []
  startIndexMap := [0]
  indexVectorDim := 1
  sliceSizes := ![1, 512]
  wf := gather_S8192x512_S32768x1_S32768x512_1_0_n_n_0_1_1512_wf
def gather_S22801x51_S32768x1_S32768x51_1_0_n_n_0_1_151 : GatherDims S22801x51 S32768x1 S32768x51 where
  offsetDims := [1]
  collapsedSliceDims := [0]
  operandBatchingDims := []
  startIndicesBatchingDims := []
  startIndexMap := [0]
  indexVectorDim := 1
  sliceSizes := ![1, 51]
  wf := gather_S22801x51_S32768x1_S32768x51_1_0_n_n_0_1_151_wf
def gather_S32768x51_S15x1_S32768x15_0_1_n_n_1_1_327681 : GatherDims S32768x51 S15x1 S32768x15 where
  offsetDims := [0]
  collapsedSliceDims := [1]
  operandBatchingDims := []
  startIndicesBatchingDims := []
  startIndexMap := [1]
  indexVectorDim := 1
  sliceSizes := ![32768, 1]
  wf := gather_S32768x51_S15x1_S32768x15_0_1_n_n_1_1_327681_wf
def gather_S32768x51_S11x1_S32768x11_0_1_n_n_1_1_327681 : GatherDims S32768x51 S11x1 S32768x11 where
  offsetDims := [0]
  collapsedSliceDims := [1]
  operandBatchingDims := []
  startIndicesBatchingDims := []
  startIndexMap := [1]
  indexVectorDim := 1
  sliceSizes := ![32768, 1]
  wf := gather_S32768x51_S11x1_S32768x11_0_1_n_n_1_1_327681_wf
def gather_S32768x51_S24x1_S32768x24_0_1_n_n_1_1_327681 : GatherDims S32768x51 S24x1 S32768x24 where
  offsetDims := [0]
  collapsedSliceDims := [1]
  operandBatchingDims := []
  startIndicesBatchingDims := []
  startIndexMap := [1]
  indexVectorDim := 1
  sliceSizes := ![32768, 1]
  wf := gather_S32768x51_S24x1_S32768x24_0_1_n_n_1_1_327681_wf
def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S512x4096_S4096x15_S512x15_1_0_0_1_n_n : DotDims S512x4096 S4096x15 S512x15 where
  lhsContracting := [1]
  rhsContracting := [0]
  lhsNonContracting := [0]
  rhsNonContracting := [1]
  lhsBatch := []
  rhsBatch := []
  wf := dot_S512x4096_S4096x15_S512x15_1_0_0_1_n_n_wf
def dot_S512x4096_S4096x11_S512x11_1_0_0_1_n_n : DotDims S512x4096 S4096x11 S512x11 where
  lhsContracting := [1]
  rhsContracting := [0]
  lhsNonContracting := [0]
  rhsNonContracting := [1]
  lhsBatch := []
  rhsBatch := []
  wf := dot_S512x4096_S4096x11_S512x11_1_0_0_1_n_n_wf
def dot_S512x4096_S4096x24_S512x24_1_0_0_1_n_n : DotDims S512x4096 S4096x24 S512x24 where
  lhsContracting := [1]
  rhsContracting := [0]
  lhsNonContracting := [0]
  rhsNonContracting := [1]
  lhsBatch := []
  rhsBatch := []
  wf := dot_S512x4096_S4096x24_S512x24_1_0_0_1_n_n_wf
def dot_S512x4096_S4096x4_S512x4_1_0_0_1_n_n : DotDims S512x4096 S4096x4 S512x4 where
  lhsContracting := [1]
  rhsContracting := [0]
  lhsNonContracting := [0]
  rhsNonContracting := [1]
  lhsBatch := []
  rhsBatch := []
  wf := dot_S512x4096_S4096x4_S512x4_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S512x15.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S512x11.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v40) S512x24.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v55) S512x4.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v56) S1024x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v57) S1x4096.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v58) S4096x15.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v66) S1x15.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v59) S4096x11.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v67) S1x11.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v60) S4096x24.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v68) S1x24.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v61) S4096x4.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v69) S1x4.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v62) S4096x15.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v70) S1x15.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v63) S4096x11.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v71) S1x11.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v64) S4096x24.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_v72) S1x24.size cc1_transform_21 reads1_21 false true 1 stage1_21 sem1_21
    hrank1 hreads1_21 hinb1_21 nbuf1_21 (Memref.isWhole_whole _) hwx1_21 hstage1_21

abbrev win1_22 : Pipeline.Window sig grid1 :=
  Pipeline.Window.ofSpec (Memref.whole main_v65) S4096x4.size cc1_transform_22 reads1_22 false true 1 stage1_22 sem1_22
    hrank1 hreads1_22 hinb1_22 nbuf1_22 (Memref.isWhole_whole _) hwx1_22 hstage1_22

abbrev win1_23 : Pipeline.Window sig grid1 :=
  Pipeline.Window.ofSpec (Memref.whole main_v73) S1x4.size cc1_transform_23 reads1_23 false true 1 stage1_23 sem1_23
    hrank1 hreads1_23 hinb1_23 nbuf1_23 (Memref.isWhole_whole _) hwx1_23 hstage1_23

abbrev win1_24 : Pipeline.Window sig grid1 :=
  Pipeline.Window.ofSpec (Memref.whole main_v74_0) S512x15.size cc1_transform_24 reads1_24 true false 2 stage1_24 sem1_24
    hrank1 hreads1_24 hinb1_24 nbuf1_24 (Memref.isWhole_whole _) hwx1_24 hstage1_24

abbrev win1_25 : Pipeline.Window sig grid1 :=
  Pipeline.Window.ofSpec (Memref.whole main_v74_1) S512x11.size cc1_transform_25 reads1_25 true false 2 stage1_25 sem1_25
    hrank1 hreads1_25 hinb1_25 nbuf1_25 (Memref.isWhole_whole _) hwx1_25 hstage1_25

abbrev win1_26 : Pipeline.Window sig grid1 :=
  Pipeline.Window.ofSpec (Memref.whole main_v74_2) S512x24.size cc1_transform_26 reads1_26 true false 2 stage1_26 sem1_26
    hrank1 hreads1_26 hinb1_26 nbuf1_26 (Memref.isWhole_whole _) hwx1_26 hstage1_26

abbrev win1_27 : Pipeline.Window sig grid1 :=
  Pipeline.Window.ofSpec (Memref.whole main_v74_3) S512x4.size cc1_transform_27 reads1_27 true false 2 stage1_27 sem1_27
    hrank1 hreads1_27 hinb1_27 nbuf1_27 (Memref.isWhole_whole _) hwx1_27 hstage1_27

abbrev win1 : Fin 28 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | 24 => win1_24 | 25 => win1_25 | 26 => win1_26 | 27 => win1_27 | ⟨_ + 28, h⟩ => absurd h (Nat.not_lt.2 (Nat.le_add_left _ _))
abbrev spec1 : Fin 28 → Pipeline.WinSpec sig grid1.rank := fun w => (win1 w).toWinSpec

class Facts : Prop extends Facts₀ where

variable [Facts]
-- ==== ReferenceIdeal.lean ====
abbrev S8192x512 : Shape := ⟨2, ![8192, 512]⟩
abbrev S32768x2 : Shape := ⟨2, ![32768, 2]⟩
abbrev S32768x4096 : Shape := ⟨2, ![32768, 4096]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S4096x15 : Shape := ⟨2, ![4096, 15]⟩
abbrev S15 : Shape := ⟨1, ![15]⟩
abbrev S4096x11 : Shape := ⟨2, ![4096, 11]⟩
abbrev S11 : Shape := ⟨1, ![11]⟩
abbrev S4096x24 : Shape := ⟨2, ![4096, 24]⟩
abbrev S24 : Shape := ⟨1, ![24]⟩
abbrev S4096x4 : Shape := ⟨2, ![4096, 4]⟩
abbrev S4 : Shape := ⟨1, ![4]⟩
abbrev S22801x51 : Shape := ⟨2, ![22801, 51]⟩
abbrev S8192x1024 : Shape := ⟨2, ![8192, 1024]⟩
abbrev S1x1024 : Shape := ⟨2, ![1, 1024]⟩
abbrev S32768x1 : Shape := ⟨2, ![32768, 1]⟩
abbrev S32768 : Shape := ⟨1, ![32768]⟩
abbrev S_ : Shape := ⟨0, ![]⟩
abbrev S32768x512 : Shape := ⟨2, ![32768, 512]⟩
abbrev S32768x1024 : Shape := ⟨2, ![32768, 1024]⟩
abbrev S1x4096 : Shape := ⟨2, ![1, 4096]⟩
abbrev S32768x15 : Shape := ⟨2, ![32768, 15]⟩
abbrev S1x15 : Shape := ⟨2, ![1, 15]⟩
abbrev S32768x11 : Shape := ⟨2, ![32768, 11]⟩
abbrev S1x11 : Shape := ⟨2, ![1, 11]⟩
abbrev S32768x24 : Shape := ⟨2, ![32768, 24]⟩
abbrev S1x24 : Shape := ⟨2, ![1, 24]⟩
abbrev S32768x4 : Shape := ⟨2, ![32768, 4]⟩
abbrev S1x4 : Shape := ⟨2, ![1, 4]⟩
abbrev S32768x51 : Shape := ⟨2, ![32768, 51]⟩
abbrev S15x1 : Shape := ⟨2, ![15, 1]⟩
abbrev S11x1 : Shape := ⟨2, ![11, 1]⟩
abbrev S24x1 : Shape := ⟨2, ![24, 1]⟩

abbrev nBuf : Space → Nat
  | .hbm => 166
  | .vmem => 0
  | .smem => 0
  | _ => 0

abbrev hbmTy0_0 (i : Nat) : BufTy := match i % 128 with
  | 0 => ⟨S8192x512, .f32⟩
  | 1 => ⟨S32768x2, .i32⟩
  | 2 => ⟨S32768x4096, .f32⟩
  | 3 => ⟨S32768x2, .i32⟩
  | 4 => ⟨S512x1024, .f32⟩
  | 5 => ⟨S1024, .f32⟩
  | 6 => ⟨S1024x4096, .f32⟩
  | 7 => ⟨S4096, .f32⟩
  | 8 => ⟨S4096x15, .f32⟩
  | 9 => ⟨S15, .f32⟩
  | 10 => ⟨S4096x11, .f32⟩
  | 11 => ⟨S11, .f32⟩
  | 12 => ⟨S4096x24, .f32⟩
  | 13 => ⟨S24, .f32⟩
  | 14 => ⟨S4096x4, .f32⟩
  | 15 => ⟨S4, .f32⟩
  | 16 => ⟨S4096x15, .f32⟩
  | 17 => ⟨S15, .f32⟩
  | 18 => ⟨S4096x11, .f32⟩
  | 19 => ⟨S11, .f32⟩
  | 20 => ⟨S4096x24, .f32⟩
  | 21 => ⟨S24, .f32⟩
  | 22 => ⟨S4096x4, .f32⟩
  | 23 => ⟨S4, .f32⟩
  | 24 => ⟨S22801x51, .f32⟩
  | 25 => ⟨S15, .i32⟩
  | 26 => ⟨S11, .i32⟩
  | 27 => ⟨S24, .i32⟩
  | 28 => ⟨S8192x1024, .f32⟩
  | 29 => ⟨S1x1024, .f32⟩
  | 30 => ⟨S8192x1024, .f32⟩
  | 31 => ⟨S8192x1024, .f32⟩
  | 32 => ⟨S8192x512, .f32⟩
  | 33 => ⟨S8192x512, .f32⟩
  | 34 => ⟨S32768x1, .i32⟩
  | 35 => ⟨S32768, .i32⟩
  | 36 => ⟨S_, .i32⟩
  | 37 => ⟨S32768, .i32⟩
  | 38 => ⟨S32768, .i1⟩
  | 39 => ⟨S_, .i32⟩
  | 40 => ⟨S32768, .i32⟩
  | 41 => ⟨S32768, .i32⟩
  | 42 => ⟨S32768, .i32⟩
  | 43 => ⟨S32768x1, .i32⟩
  | 44 => ⟨S32768x512, .f32⟩
  | 45 => ⟨S32768x1, .i32⟩
  | 46 => ⟨S32768, .i32⟩
  | 47 => ⟨S_, .i32⟩
  | 48 => ⟨S32768, .i32⟩
  | 49 => ⟨S32768, .i1⟩
  | 50 => ⟨S_, .i32⟩
  | 51 => ⟨S32768, .i32⟩
  | 52 => ⟨S32768, .i32⟩
  | 53 => ⟨S32768, .i32⟩
  | 54 => ⟨S32768x1, .i32⟩
  | 55 => ⟨S32768x512, .f32⟩
  | 56 => ⟨S32768x1024, .f32⟩
  | 57 => ⟨S32768x4096, .f32⟩
  | 58 => ⟨S1x4096, .f32⟩
  | 59 => ⟨S32768x4096, .f32⟩
  | 60 => ⟨S32768x4096, .f32⟩
  | 61 => ⟨S_, .f32⟩
  | 62 => ⟨S32768x4096, .f32⟩
  | 63 => ⟨S32768x4096, .f32⟩
  | 64 => ⟨S32768x15, .f32⟩
  | 65 => ⟨S1x15, .f32⟩
  | 66 => ⟨S32768x15, .f32⟩
  | 67 => ⟨S32768x15, .f32⟩
  | 68 => ⟨S32768x11, .f32⟩
  | 69 => ⟨S1x11, .f32⟩
  | 70 => ⟨S32768x11, .f32⟩
  | 71 => ⟨S32768x11, .f32⟩
  | 72 => ⟨S32768x24, .f32⟩
  | 73 => ⟨S1x24, .f32⟩
  | 74 => ⟨S32768x24, .f32⟩
  | 75 => ⟨S32768x24, .f32⟩
  | 76 => ⟨S32768x4, .f32⟩
  | 77 => ⟨S1x4, .f32⟩
  | 78 => ⟨S32768x4, .f32⟩
  | 79 => ⟨S32768x4, .f32⟩
  | 80 => ⟨S32768x15, .f32⟩
  | 81 => ⟨S1x15, .f32⟩
  | 82 => ⟨S32768x15, .f32⟩
  | 83 => ⟨S32768x15, .f32⟩
  | 84 => ⟨S32768x11, .f32⟩
  | 85 => ⟨S1x11, .f32⟩
  | 86 => ⟨S32768x11, .f32⟩
  | 87 => ⟨S32768x11, .f32⟩
  | 88 => ⟨S32768x24, .f32⟩
  | 89 => ⟨S1x24, .f32⟩
  | 90 => ⟨S32768x24, .f32⟩
  | 91 => ⟨S32768x24, .f32⟩
  | 92 => ⟨S32768x4, .f32⟩
  | 93 => ⟨S1x4, .f32⟩
  | 94 => ⟨S32768x4, .f32⟩
  | 95 => ⟨S32768x4, .f32⟩
  | 96 => ⟨S32768x1, .i32⟩
  | 97 => ⟨S32768, .i32⟩
  | 98 => ⟨S_, .i32⟩
  | 99 => ⟨S32768, .i32⟩
  | 100 => ⟨S32768, .i32⟩
  | 101 => ⟨S32768x1, .i32⟩
  | 102 => ⟨S32768, .i32⟩
  | 103 => ⟨S32768, .i32⟩
  | 104 => ⟨S_, .i32⟩
  | 105 => ⟨S32768, .i32⟩
  | 106 => ⟨S32768, .i1⟩
  | 107 => ⟨S_, .i32⟩
  | 108 => ⟨S32768, .i32⟩
  | 109 => ⟨S32768, .i32⟩
  | 110 => ⟨S32768, .i32⟩
  | 111 => ⟨S32768x1, .i32⟩
  | 112 => ⟨S32768x51, .f32⟩
  | 113 => ⟨S_, .i32⟩
  | 114 => ⟨S15, .i32⟩
  | 115 => ⟨S15, .i1⟩
  | 116 => ⟨S_, .i32⟩
  | 117 => ⟨S15, .i32⟩
  | 118 => ⟨S15, .i32⟩
  | 119 => ⟨S15, .i32⟩
  | 120 => ⟨S15x1, .i32⟩
  | 121 => ⟨S32768x15, .f32⟩
  | 122 => ⟨S_, .i32⟩
  | 123 => ⟨S11, .i32⟩
  | 124 => ⟨S11, .i1⟩
  | 125 => ⟨S_, .i32⟩
  | 126 => ⟨S11, .i32⟩
  | 127 => ⟨S11, .i32⟩
  | _ => ⟨S8192x512, .f32⟩

abbrev hbmTy0_1 (i : Nat) : BufTy := match i % 128 with
  | 0 => ⟨S11, .i32⟩
  | 1 => ⟨S11x1, .i32⟩
  | 2 => ⟨S32768x11, .f32⟩
  | 3 => ⟨S_, .i32⟩
  | 4 => ⟨S24, .i32⟩
  | 5 => ⟨S24, .i1⟩
  | 6 => ⟨S_, .i32⟩
  | 7 => ⟨S24, .i32⟩
  | 8 => ⟨S24, .i32⟩
  | 9 => ⟨S24, .i32⟩
  | 10 => ⟨S24x1, .i32⟩
  | 11 => ⟨S32768x24, .f32⟩
  | 12 => ⟨S32768x1, .f32⟩
  | 13 => ⟨S32768, .f32⟩
  | 14 => ⟨S32768, .f32⟩
  | 15 => ⟨S32768x15, .f32⟩
  | 16 => ⟨S_, .f32⟩
  | 17 => ⟨S32768, .f32⟩
  | 18 => ⟨S32768x11, .f32⟩
  | 19 => ⟨S_, .f32⟩
  | 20 => ⟨S32768, .f32⟩
  | 21 => ⟨S32768x24, .f32⟩
  | 22 => ⟨S_, .f32⟩
  | 23 => ⟨S32768, .f32⟩
  | 24 => ⟨S32768x1, .f32⟩
  | 25 => ⟨S32768x1, .f32⟩
  | 26 => ⟨S32768x1, .f32⟩
  | 27 => ⟨S32768x1, .f32⟩
  | 28 => ⟨S32768x4, .f32⟩
  | 29 => ⟨S32768x4, .f32⟩
  | 30 => ⟨S32768x15, .f32⟩
  | 31 => ⟨S32768x15, .f32⟩
  | 32 => ⟨S32768x11, .f32⟩
  | 33 => ⟨S32768x11, .f32⟩
  | 34 => ⟨S32768x24, .f32⟩
  | 35 => ⟨S32768x24, .f32⟩
  | 36 => ⟨S32768x4, .f32⟩
  | 37 => ⟨S32768x4, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_c_0 : Ref sig .tc := ⟨.hbm, 26, rfl⟩
abbrev main_c_1 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c_2 : Ref sig .tc := ⟨.hbm, 36, rfl⟩
abbrev main_v8 : Ref sig .tc := ⟨.hbm, 37, rfl⟩
abbrev main_v9 : Ref sig .tc := ⟨.hbm, 38, rfl⟩
abbrev main_c_3 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_4 : Ref sig .tc := ⟨.hbm, 47, rfl⟩
abbrev main_v17 : Ref sig .tc := ⟨.hbm, 48, rfl⟩
abbrev main_v18 : Ref sig .tc := ⟨.hbm, 49, rfl⟩
abbrev main_c_5 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call0_cst : Ref sig .tc := ⟨.hbm, 61, rfl⟩
abbrev main_call0_v0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_6 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_7 : Ref sig .tc := ⟨.hbm, 104, rfl⟩
abbrev main_v69 : Ref sig .tc := ⟨.hbm, 105, rfl⟩
abbrev main_v70 : Ref sig .tc := ⟨.hbm, 106, rfl⟩
abbrev main_c_8 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_9 : Ref sig .tc := ⟨.hbm, 113, rfl⟩
abbrev main_v76 : Ref sig .tc := ⟨.hbm, 114, rfl⟩
abbrev main_v77 : Ref sig .tc := ⟨.hbm, 115, rfl⟩
abbrev main_c_10 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_11 : Ref sig .tc := ⟨.hbm, 122, rfl⟩
abbrev main_v83 : Ref sig .tc := ⟨.hbm, 123, rfl⟩
abbrev main_v84 : Ref sig .tc := ⟨.hbm, 124, rfl⟩
abbrev main_c_12 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_13 : Ref sig .tc := ⟨.hbm, 131, rfl⟩
abbrev main_v90 : Ref sig .tc := ⟨.hbm, 132, rfl⟩
abbrev main_v91 : Ref sig .tc := ⟨.hbm, 133, rfl⟩
abbrev main_c_14 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst : Ref sig .tc := ⟨.hbm, 144, rfl⟩
abbrev main_v101 : Ref sig .tc := ⟨.hbm, 145, rfl⟩
abbrev main_v102 : Ref sig .tc := ⟨.hbm, 146, rfl⟩
abbrev main_cst_15 : Ref sig .tc := ⟨.hbm, 147, rfl⟩
abbrev main_v103 : Ref sig .tc := ⟨.hbm, 148, rfl⟩
abbrev main_v104 : Ref sig .tc := ⟨.hbm, 149, rfl⟩
abbrev main_cst_16 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S8192x1024_S8192x512_0_0 : S8192x1024.Slices ![0, 0] S8192x512
  slices_S8192x1024_S8192x512_0_512 : S8192x1024.Slices ![0, 512] S8192x512
  slices_S32768x2_S32768x1_0_0 : S32768x2.Slices ![0, 0] S32768x1
  shapeCasts_S32768x1_S32768 : S32768x1.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S32768x2_S32768x1_0_1 : S32768x2.Slices ![0, 1] S32768x1
  concatenates_S32768x512_S32768x512_S32768x1024_d1 : Shape.Concatenates [S32768x512, S32768x512] S32768x1024 1
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  bcast_S_S32768x4096 : S_.BroadcastsInDim S32768x4096 (![] : Fin 0 → Fin S32768x4096.rank)
  bcast_S15_S1x15_1 : S15.BroadcastsInDim S1x15 (![1] : Fin 1 → Fin S1x15.rank)
  bcast_S1x15_S32768x15_0_1 : S1x15.BroadcastsInDim S32768x15 (![0, 1] : Fin 2 → Fin S32768x15.rank)
  bcast_S11_S1x11_1 : S11.BroadcastsInDim S1x11 (![1] : Fin 1 → Fin S1x11.rank)
  bcast_S1x11_S32768x11_0_1 : S1x11.BroadcastsInDim S32768x11 (![0, 1] : Fin 2 → Fin S32768x11.rank)
  bcast_S24_S1x24_1 : S24.BroadcastsInDim S1x24 (![1] : Fin 1 → Fin S1x24.rank)
  bcast_S1x24_S32768x24_0_1 : S1x24.BroadcastsInDim S32768x24 (![0, 1] : Fin 2 → Fin S32768x24.rank)
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  bcast_S_S15 : S_.BroadcastsInDim S15 (![] : Fin 0 → Fin S15.rank)
  bcast_S15_S15x1_0 : S15.BroadcastsInDim S15x1 (![0] : Fin 1 → Fin S15x1.rank)
  bcast_S_S11 : S_.BroadcastsInDim S11 (![] : Fin 0 → Fin S11.rank)
  bcast_S11_S11x1_0 : S11.BroadcastsInDim S11x1 (![0] : Fin 1 → Fin S11x1.rank)
  bcast_S_S24 : S_.BroadcastsInDim S24 (![] : Fin 0 → Fin S24.rank)
  bcast_S24_S24x1_0 : S24.BroadcastsInDim S24x1 (![0] : Fin 1 → Fin S24x1.rank)
  slices_S32768x51_S32768x1_0_0 : S32768x51.Slices ![0, 0] S32768x1
  reducesTo_S32768x15_S32768_d1 : S32768x15.ReducesTo [1] S32768
  h_S_ : 0 < S_.numel
  reducesTo_S32768x11_S32768_d1 : S32768x11.ReducesTo [1] S32768
  reducesTo_S32768x24_S32768_d1 : S32768x24.ReducesTo [1] S32768
  concatenates_S32768x1_S32768x1_S32768x1_S32768x1_S32768x4_d1 : Shape.Concatenates [S32768x1, S32768x1, S32768x1, S32768x1] S32768x4 1
  dot_S8192x512_S512x1024_S8192x1024_1_0_0_1_n_n_wf : DotDims.WF S8192x512 S512x1024 S8192x1024 [1] [0] [0] [1] [] []
  gather_S8192x512_S32768x1_S32768x512_1_0_n_n_0_1_1512_wf : GatherDims.WF S8192x512 S32768x1 S32768x512 [1] [0] [] [0] [] 1 ![1, 512]
  dot_S32768x1024_S1024x4096_S32768x4096_1_0_0_1_n_n_wf : DotDims.WF S32768x1024 S1024x4096 S32768x4096 [1] [0] [0] [1] [] []
  dot_S32768x4096_S4096x15_S32768x15_1_0_0_1_n_n_wf : DotDims.WF S32768x4096 S4096x15 S32768x15 [1] [0] [0] [1] [] []
  dot_S32768x4096_S4096x11_S32768x11_1_0_0_1_n_n_wf : DotDims.WF S32768x4096 S4096x11 S32768x11 [1] [0] [0] [1] [] []
  dot_S32768x4096_S4096x24_S32768x24_1_0_0_1_n_n_wf : DotDims.WF S32768x4096 S4096x24 S32768x24 [1] [0] [0] [1] [] []
  dot_S32768x4096_S4096x4_S32768x4_1_0_0_1_n_n_wf : DotDims.WF S32768x4096 S4096x4 S32768x4 [1] [0] [0] [1] [] []
  gather_S22801x51_S32768x1_S32768x51_1_0_n_n_0_1_151_wf : GatherDims.WF S22801x51 S32768x1 S32768x51 [1] [0] [] [0] [] 1 ![1, 51]
  gather_S32768x51_S15x1_S32768x15_0_1_n_n_1_1_327681_wf : GatherDims.WF S32768x51 S15x1 S32768x15 [0] [1] [] [1] [] 1 ![32768, 1]
  gather_S32768x51_S11x1_S32768x11_0_1_n_n_1_1_327681_wf : GatherDims.WF S32768x51 S11x1 S32768x11 [0] [1] [] [1] [] 1 ![32768, 1]
  gather_S32768x51_S24x1_S32768x24_0_1_n_n_1_1_327681_wf : GatherDims.WF S32768x51 S24x1 S32768x24 [0] [1] [] [1] [] 1 ![32768, 1]

variable [Facts₀]

def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def gather_S8192x512_S32768x1_S32768x512_1_0_n_n_0_1_1512 : GatherDims S8192x512 S32768x1 S32768x512 where
  offsetDims := [1]
  collapsedSliceDims := [0]
  operandBatchingDims := []
  startIndicesBatchingDims := []
  startIndexMap := [0]
  indexVectorDim := 1
  sliceSizes := ![1, 512]
  wf := gather_S8192x512_S32768x1_S32768x512_1_0_n_n_0_1_1512_wf
def dot_S32768x1024_S1024x4096_S32768x4096_1_0_0_1_n_n : DotDims S32768x1024 S1024x4096 S32768x4096 where
  lhsContracting := [1]
  rhsContracting := [0]
  lhsNonContracting := [0]
  rhsNonContracting := [1]
  lhsBatch := []
  rhsBatch := []
  wf := dot_S32768x1024_S1024x4096_S32768x4096_1_0_0_1_n_n_wf
def dot_S32768x4096_S4096x15_S32768x15_1_0_0_1_n_n : DotDims S32768x4096 S4096x15 S32768x15 where
  lhsContracting := [1]
  rhsContracting := [0]
  lhsNonContracting := [0]
  rhsNonContracting := [1]
  lhsBatch := []
  rhsBatch := []
  wf := dot_S32768x4096_S4096x15_S32768x15_1_0_0_1_n_n_wf
def dot_S32768x4096_S4096x11_S32768x11_1_0_0_1_n_n : DotDims S32768x4096 S4096x11 S32768x11 where
  lhsContracting := [1]
  rhsContracting := [0]
  lhsNonContracting := [0]
  rhsNonContracting := [1]
  lhsBatch := []
  rhsBatch := []
  wf := dot_S32768x4096_S4096x11_S32768x11_1_0_0_1_n_n_wf
def dot_S32768x4096_S4096x24_S32768x24_1_0_0_1_n_n : DotDims S32768x4096 S4096x24 S32768x24 where
  lhsContracting := [1]
  rhsContracting := [0]
  lhsNonContracting := [0]
  rhsNonContracting := [1]
  lhsBatch := []
  rhsBatch := []
  wf := dot_S32768x4096_S4096x24_S32768x24_1_0_0_1_n_n_wf
def dot_S32768x4096_S4096x4_S32768x4_1_0_0_1_n_n : DotDims S32768x4096 S4096x4 S32768x4 where
  lhsContracting := [1]
  rhsContracting := [0]
  lhsNonContracting := [0]
  rhsNonContracting := [1]
  lhsBatch := []
  rhsBatch := []
  wf := dot_S32768x4096_S4096x4_S32768x4_1_0_0_1_n_n_wf
def gather_S22801x51_S32768x1_S32768x51_1_0_n_n_0_1_151 : GatherDims S22801x51 S32768x1 S32768x51 where
  offsetDims := [1]
  collapsedSliceDims := [0]
  operandBatchingDims := []
  startIndicesBatchingDims := []
  startIndexMap := [0]
  indexVectorDim := 1
  sliceSizes := ![1, 51]
  wf := gather_S22801x51_S32768x1_S32768x51_1_0_n_n_0_1_151_wf
def gather_S32768x51_S15x1_S32768x15_0_1_n_n_1_1_327681 : GatherDims S32768x51 S15x1 S32768x15 where
  offsetDims := [0]
  collapsedSliceDims := [1]
  operandBatchingDims := []
  startIndicesBatchingDims := []
  startIndexMap := [1]
  indexVectorDim := 1
  sliceSizes := ![32768, 1]
  wf := gather_S32768x51_S15x1_S32768x15_0_1_n_n_1_1_327681_wf
def gather_S32768x51_S11x1_S32768x11_0_1_n_n_1_1_327681 : GatherDims S32768x51 S11x1 S32768x11 where
  offsetDims := [0]
  collapsedSliceDims := [1]
  operandBatchingDims := []
  startIndicesBatchingDims := []
  startIndexMap := [1]
  indexVectorDim := 1
  sliceSizes := ![32768, 1]
  wf := gather_S32768x51_S11x1_S32768x11_0_1_n_n_1_1_327681_wf
def gather_S32768x51_S24x1_S32768x24_0_1_n_n_1_1_327681 : GatherDims S32768x51 S24x1 S32768x24 where
  offsetDims := [0]
  collapsedSliceDims := [1]
  operandBatchingDims := []
  startIndicesBatchingDims := []
  startIndexMap := [1]
  indexVectorDim := 1
  sliceSizes := ![32768, 1]
  wf := gather_S32768x51_S24x1_S32768x24_0_1_n_n_1_1_327681_wf

class Facts : Prop extends Facts₀ where

variable [Facts]
-- ==== Proof.K.R0.lean ====
/-
  The first kernel region: the post-embedding projection, one grid point per block of 1024 rows.

  At grid point `t` the pipeline stages rows `1024·t … 1024·t + 1023` of the object contexts (1024 × 512), the
  whole projection matrix (512 × 1024, already narrowed to bf16 by the host) and the whole bias row (1 × 1024); the
  body multiplies the staged rows by the matrix, adds the bias row to every row of the product and stores the
  1024 × 1024 result over the whole output block, which the pipeline writes back as rows `1024·t …` of the
  projected array. Nothing is carried from one grid point to the next: the body has one control case and every
  access is a whole-buffer rectangle.

  Stated for any float instance and for ANY contents `V` of the core's buffers at the moment the region is
  entered: the blocks the windows cut out of `V`, the one value the body stores as a function of the three blocks
  it loads, the body's run, the pipeline's proof data (inputs left in place, the output block at the stored
  value, nothing owed) and the body obligation at every grid point.
-/
import proofs.«407185_j88871463289477_1_alg».proof.Proof.Gen.Kernel.Launch
import proofs.«407185_j88871463289477_1_alg».proof.Proof.Gen.Kernel.Skeleton
import proofs.«407185_j88871463289477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block window `w` cuts out of its array at grid point `t`, the array read as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every grid point, whether the pipeline fetched it
    there or left it from an earlier point (the matrix and the bias row are fetched once: their block index never
    moves), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole staged block of rows, of the matrix, of the bias row, of the output. -/
abbrev rRows : Rect S1024x512 := Rect.unit (s := S1024x512) ![0, 0] S1024x512.size inb_S1024x512_S1024x512_0_0
abbrev rMat : Rect S512x1024 := Rect.unit (s := S512x1024) ![0, 0] S512x1024.size inb_S512x1024_S512x1024_0_0
abbrev rBias : Rect S1x1024 := Rect.unit (s := S1x1024) ![0, 0] S1x1024.size inb_S1x1024_S1x1024_0_0
abbrev rOut : Rect S1024x1024 := Rect.unit (s := S1024x1024) ![0, 0] S1024x1024.size inb_S1024x1024_S1024x1024_0_0

/-- The output block after the body: its one store, the product of the staged rows with the matrix plus the bias
    row, laid over the whole block. -/
def out0_3 (x0 : Vec F S1024x512 .f32) (x1 : Vec F S512x1024 .bf16) (x2 : Vec F S1x1024 .f32) : Vec F S1024x1024 .f32 :=
  View.canon [⟨rOut, k0_pay1 (View.ld x0 rRows) (View.ld x1 rMat) (View.ld x2 rBias)⟩]

/-- The one store covers the block. -/
theorem cover0_3 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's run -/

set_option maxHeartbeats 1000000 in
/-- On whole staging buffers, the three inputs' at contents `x0`, `x1`, `x2` and the output's at anything, the body
    runs to its continuation with the inputs as they were and the output at `out0_3 x0 x1 x2`. -/
theorem sound_kernel0 (c : Dev nD) (E : Set ℕ) (i : grid0.Coords)
    (arg1 : Memref sig .tc .vmem S1024x512 .f32) (harg1 : arg1.IsWhole) (arg2 : Memref sig .tc .vmem S512x1024 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x512 .f32) (x1 : Vec F S512x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__post_emb_kernel i arg1 harg1 arg2 harg2 arg3 harg3 arg4 harg4) K := by
  simp only [cc0__post_emb_kernel_eq_skeleton]; unfold cc0__post_emb_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Region 0's proof data on core `c`: the arrays as the region finds them; after the body at grid point `t` each
    input's buffer still at its block and the output's at `out0_3` of the three input blocks; the invariant that of a
    body with one control case (the scoped rest and the generator register untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic grid point -/

/-- What the body is called with at grid point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' buffers hold their blocks, so the body's run applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The second kernel region: the two-branch classifier over pair rows, one grid point per block of 512 pair rows.

  At grid point `t` the pipeline stages rows `512·t … 512·t + 511` of six row-blocked arrays — the pair contexts
  (512 × 1024), the visual features (512 × 4096) and the four additive bias blocks (512 × 15, 512 × 11, 512 × 24,
  512 × 4) — and, once for the whole grid because their block index never moves, eighteen whole arrays: the
  post-concatenation matrix (1024 × 4096, narrowed to bf16 by the host) with its bias row (1 × 4096), and for each
  of the two branches the four heads' matrices (4096 × 15, 4096 × 11, 4096 × 24, 4096 × 4, bf16) with their bias
  rows (1 × 15, 1 × 11, 1 × 24, 1 × 4).

  The body forms the hidden block  h = bf16 (max (bf16 ctx · W_post + b_post) 0)  (512 × 4096) from the context
  rows, and the narrowed visual block  v = bf16 vis.  For each head of width n ∈ {15, 11, 24, 4}, with context
  matrix and bias row (Wc, bc), visual matrix and bias row (Wv, bv) and additive bias block a, it stores over
  the whole output block of width n the sum

      ((v · Wv + bv) + (h · Wc + bc)) + a,

  every bias row spread over the 512 rows. Output block 24 (width 15) is so a function of windows 0, 1, 2, 6, 7,
  8, 9, 16, 17; block 25 (width 11) of 0, 1, 3, 6, 7, 10, 11, 18, 19; block 26 (width 24) of 0, 1, 4, 6, 7, 12, 13,
  20, 21; block 27 (width 4) of 0, 1, 5, 6, 7, 14, 15, 22, 23. Nothing is carried from one grid point to the next:
  the body has one control case and every access is a whole-buffer rectangle.

  Stated for any float instance and for ANY contents `V` of the core's buffers at the moment the region is
  entered: the blocks the windows cut out of `V`, the four values the body stores as functions of the input
  blocks it loads, the body's run, the pipeline's proof data (inputs left in place, each output block at its stored
  value, nothing owed) and the body obligation at every grid point.
-/
import proofs.«407185_j88871463289477_1_alg».proof.Proof.Gen.Kernel.Launch
import proofs.«407185_j88871463289477_1_alg».proof.Proof.Gen.Kernel.Skeleton
import proofs.«407185_j88871463289477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block window `w` cuts out of its array at grid point `t`, the array read as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every grid point, whether the pipeline fetched it
    there or left it from an earlier point (the eighteen whole arrays are fetched once: their block index never
    moves), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)

theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)

theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)

theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)

theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)

theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)

theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)

theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output blocks -/

/-- The whole staged block of context rows, of visual rows; of a 512-row block of width 15, 11, 24, 4 (an additive
    bias block or an output block); the whole post-concatenation matrix and its bias row; a head's whole matrix and
    bias row, by the head's width. -/
abbrev r1Ctx : Rect S512x1024 := Rect.unit (s := S512x1024) ![0, 0] S512x1024.size inb_S512x1024_S512x1024_0_0
abbrev r1Vis : Rect S512x4096 := Rect.unit (s := S512x4096) ![0, 0] S512x4096.size inb_S512x4096_S512x4096_0_0
abbrev r1Blk15 : Rect S512x15 := Rect.unit (s := S512x15) ![0, 0] S512x15.size inb_S512x15_S512x15_0_0
abbrev r1Blk11 : Rect S512x11 := Rect.unit (s := S512x11) ![0, 0] S512x11.size inb_S512x11_S512x11_0_0
abbrev r1Blk24 : Rect S512x24 := Rect.unit (s := S512x24) ![0, 0] S512x24.size inb_S512x24_S512x24_0_0
abbrev r1Blk4 : Rect S512x4 := Rect.unit (s := S512x4) ![0, 0] S512x4.size inb_S512x4_S512x4_0_0
abbrev r1Post : Rect S1024x4096 := Rect.unit (s := S1024x4096) ![0, 0] S1024x4096.size inb_S1024x4096_S1024x4096_0_0
abbrev r1PostRow : Rect S1x4096 := Rect.unit (s := S1x4096) ![0, 0] S1x4096.size inb_S1x4096_S1x4096_0_0
abbrev r1Mat15 : Rect S4096x15 := Rect.unit (s := S4096x15) ![0, 0] S4096x15.size inb_S4096x15_S4096x15_0_0
abbrev r1Row15 : Rect S1x15 := Rect.unit (s := S1x15) ![0, 0] S1x15.size inb_S1x15_S1x15_0_0
abbrev r1Mat11 : Rect S4096x11 := Rect.unit (s := S4096x11) ![0, 0] S4096x11.size inb_S4096x11_S4096x11_0_0
abbrev r1Row11 : Rect S1x11 := Rect.unit (s := S1x11) ![0, 0] S1x11.size inb_S1x11_S1x11_0_0
abbrev r1Mat24 : Rect S4096x24 := Rect.unit (s := S4096x24) ![0, 0] S4096x24.size inb_S4096x24_S4096x24_0_0
abbrev r1Row24 : Rect S1x24 := Rect.unit (s := S1x24) ![0, 0] S1x24.size inb_S1x24_S1x24_0_0
abbrev r1Mat4 : Rect S4096x4 := Rect.unit (s := S4096x4) ![0, 0] S4096x4.size inb_S4096x4_S4096x4_0_0
abbrev r1Row4 : Rect S1x4 := Rect.unit (s := S1x4) ![0, 0] S1x4.size inb_S1x4_S1x4_0_0

/-- Output block 24 (width 15) after the body: its one store, laid over the whole block — the visual head
    (narrowed visual rows times the head's visual matrix, plus its bias row) plus the context head (hidden block
    times the head's context matrix, plus its bias row) plus the additive bias block. -/
def out1_24 (x0 : Vec F S512x1024 .f32) (x1 : Vec F S512x4096 .f32) (x2 : Vec F S512x15 .f32) (x6 : Vec F S1024x4096 .bf16) (x7 : Vec F S1x4096 .f32)
    (x8 : Vec F S4096x15 .bf16) (x9 : Vec F S1x15 .f32) (x16 : Vec F S4096x15 .bf16) (x17 : Vec F S1x15 .f32) : Vec F S512x15 .f32 :=
  View.canon [⟨r1Blk15, k1_pay1 (k1_pay7 (View.ld x0 r1Ctx) (View.ld x6 r1Post) (View.ld x7 r1PostRow) (View.ld x8 r1Mat15) (View.ld x9 r1Row15))
    (k1_pay13 (k1_pay6 (View.ld x1 r1Vis)) (View.ld x16 r1Mat15) (View.ld x17 r1Row15)) (View.ld x2 r1Blk15)⟩]

/-- Output block 25 (width 11): the same sum for the head of width 11. -/
def out1_25 (x0 : Vec F S512x1024 .f32) (x1 : Vec F S512x4096 .f32) (x3 : Vec F S512x11 .f32) (x6 : Vec F S1024x4096 .bf16) (x7 : Vec F S1x4096 .f32)
    (x10 : Vec F S4096x11 .bf16) (x11 : Vec F S1x11 .f32) (x18 : Vec F S4096x11 .bf16) (x19 : Vec F S1x11 .f32) : Vec F S512x11 .f32 :=
  View.canon [⟨r1Blk11, k1_pay2 (k1_pay8 (View.ld x0 r1Ctx) (View.ld x6 r1Post) (View.ld x7 r1PostRow) (View.ld x10 r1Mat11) (View.ld x11 r1Row11))
    (k1_pay14 (k1_pay6 (View.ld x1 r1Vis)) (View.ld x18 r1Mat11) (View.ld x19 r1Row11)) (View.ld x3 r1Blk11)⟩]

/-- Output block 26 (width 24): the same sum for the head of width 24, its context product and context bias row
    joined after the product is formed. -/
def out1_26 (x0 : Vec F S512x1024 .f32) (x1 : Vec F S512x4096 .f32) (x4 : Vec F S512x24 .f32) (x6 : Vec F S1024x4096 .bf16) (x7 : Vec F S1x4096 .f32)
    (x12 : Vec F S4096x24 .bf16) (x13 : Vec F S1x24 .f32) (x20 : Vec F S4096x24 .bf16) (x21 : Vec F S1x24 .f32) : Vec F S512x24 .f32 :=
  View.canon [⟨r1Blk24, k1_pay3 (k1_pay11 (k1_pay9 (View.ld x0 r1Ctx) (View.ld x6 r1Post) (View.ld x7 r1PostRow) (View.ld x12 r1Mat24)) (k1_pay10 (View.ld x13 r1Row24)))
    (k1_pay15 (k1_pay6 (View.ld x1 r1Vis)) (View.ld x20 r1Mat24) (View.ld x21 r1Row24)) (View.ld x4 r1Blk24)⟩]

/-- Output block 27 (width 4): the same sum for the head of width 4, its visual product and visual bias row joined
    at the store. -/
def out1_27 (x0 : Vec F S512x1024 .f32) (x1 : Vec F S512x4096 .f32) (x5 : Vec F S512x4 .f32) (x6 : Vec F S1024x4096 .bf16) (x7 : Vec F S1x4096 .f32)
    (x14 : Vec F S4096x4 .bf16) (x15 : Vec F S1x4 .f32) (x22 : Vec F S4096x4 .bf16) (x23 : Vec F S1x4 .f32) : Vec F S512x4 .f32 :=
  View.canon [⟨r1Blk4, k1_pay4 (k1_pay12 (k1_pay5 (View.ld x0 r1Ctx) (View.ld x6 r1Post) (View.ld x7 r1PostRow)) (View.ld x14 r1Mat4) (View.ld x15 r1Row4))
    (k1_pay16 (k1_pay6 (View.ld x1 r1Vis)) (View.ld x22 r1Mat4)) (k1_pay17 (View.ld x23 r1Row4)) (View.ld x5 r1Blk4)⟩]

/-- Each output's one store covers its block. -/
theorem cover1_24 (p0 : Vec F S512x15 .f32) (y : S512x15.Idx) :
    ∃ pc ∈ ([⟨r1Blk15, p0⟩] : List (View.Piece (Elt F) S512x15 .f32)), y ∈ pc.1.set :=
  View.cover_of_tiled [⟨r1Blk15, p0⟩] S512x15.size (by rfl) y

theorem cover1_25 (p0 : Vec F S512x11 .f32) (y : S512x11.Idx) :
    ∃ pc ∈ ([⟨r1Blk11, p0⟩] : List (View.Piece (Elt F) S512x11 .f32)), y ∈ pc.1.set :=
  View.cover_of_tiled [⟨r1Blk11, p0⟩] S512x11.size (by rfl) y

theorem cover1_26 (p0 : Vec F S512x24 .f32) (y : S512x24.Idx) :
    ∃ pc ∈ ([⟨r1Blk24, p0⟩] : List (View.Piece (Elt F) S512x24 .f32)), y ∈ pc.1.set :=
  View.cover_of_tiled [⟨r1Blk24, p0⟩] S512x24.size (by rfl) y

theorem cover1_27 (p0 : Vec F S512x4 .f32) (y : S512x4.Idx) :
    ∃ pc ∈ ([⟨r1Blk4, p0⟩] : List (View.Piece (Elt F) S512x4 .f32)), y ∈ pc.1.set :=
  View.cover_of_tiled [⟨r1Blk4, p0⟩] S512x4.size (by rfl) y

/-! ## The body's run -/

set_option maxHeartbeats 4000000 in
/-- On whole staging buffers, the twenty-four inputs' at contents `x0 … x23` and the four outputs' at anything, the
    body runs to its continuation with the inputs as they were and the outputs at `out1_24 … out1_27` of the blocks
    each depends on. -/
theorem sound_kernel1 (c : Dev nD) (E : Set ℕ) (i : grid1.Coords)
    (arg1 : Memref sig .tc .vmem S512x1024 .f32) (harg1 : arg1.IsWhole) (arg2 : Memref sig .tc .vmem S512x4096 .f32) (harg2 : arg2.IsWhole)
    (arg3 : Memref sig .tc .vmem S512x15 .f32) (harg3 : arg3.IsWhole) (arg4 : Memref sig .tc .vmem S512x11 .f32) (harg4 : arg4.IsWhole)
    (arg5 : Memref sig .tc .vmem S512x24 .f32) (harg5 : arg5.IsWhole) (arg6 : Memref sig .tc .vmem S512x4 .f32) (harg6 : arg6.IsWhole)
    (arg7 : Memref sig .tc .vmem S1024x4096 .bf16) (harg7 : arg7.IsWhole) (arg8 : Memref sig .tc .vmem S1x4096 .f32) (harg8 : arg8.IsWhole)
    (arg9 : Memref sig .tc .vmem S4096x15 .bf16) (harg9 : arg9.IsWhole) (arg10 : Memref sig .tc .vmem S1x15 .f32) (harg10 : arg10.IsWhole)
    (arg11 : Memref sig .tc .vmem S4096x11 .bf16) (harg11 : arg11.IsWhole) (arg12 : Memref sig .tc .vmem S1x11 .f32) (harg12 : arg12.IsWhole)
    (arg13 : Memref sig .tc .vmem S4096x24 .bf16) (harg13 : arg13.IsWhole) (arg14 : Memref sig .tc .vmem S1x24 .f32) (harg14 : arg14.IsWhole)
    (arg15 : Memref sig .tc .vmem S4096x4 .bf16) (harg15 : arg15.IsWhole) (arg16 : Memref sig .tc .vmem S1x4 .f32) (harg16 : arg16.IsWhole)
    (arg17 : Memref sig .tc .vmem S4096x15 .bf16) (harg17 : arg17.IsWhole) (arg18 : Memref sig .tc .vmem S1x15 .f32) (harg18 : arg18.IsWhole)
    (arg19 : Memref sig .tc .vmem S4096x11 .bf16) (harg19 : arg19.IsWhole) (arg20 : Memref sig .tc .vmem S1x11 .f32) (harg20 : arg20.IsWhole)
    (arg21 : Memref sig .tc .vmem S4096x24 .bf16) (harg21 : arg21.IsWhole) (arg22 : Memref sig .tc .vmem S1x24 .f32) (harg22 : arg22.IsWhole)
    (arg23 : Memref sig .tc .vmem S4096x4 .bf16) (harg23 : arg23.IsWhole) (arg24 : Memref sig .tc .vmem S1x4 .f32) (harg24 : arg24.IsWhole)
    (arg25 : Memref sig .tc .vmem S512x15 .f32) (harg25 : arg25.IsWhole) (arg26 : Memref sig .tc .vmem S512x11 .f32) (harg26 : arg26.IsWhole)
    (arg27 : Memref sig .tc .vmem S512x24 .f32) (harg27 : arg27.IsWhole) (arg28 : Memref sig .tc .vmem S512x4 .f32) (harg28 : arg28.IsWhole)
    (x0 : Vec F S512x1024 .f32) (x1 : Vec F S512x4096 .f32) (x2 : Vec F S512x15 .f32) (x3 : Vec F S512x11 .f32) (x4 : Vec F S512x24 .f32) (x5 : Vec F S512x4 .f32)
    (x6 : Vec F S1024x4096 .bf16) (x7 : Vec F S1x4096 .f32) (x8 : Vec F S4096x15 .bf16) (x9 : Vec F S1x15 .f32) (x10 : Vec F S4096x11 .bf16) (x11 : Vec F S1x11 .f32)
    (x12 : Vec F S4096x24 .bf16) (x13 : Vec F S1x24 .f32) (x14 : Vec F S4096x4 .bf16) (x15 : Vec F S1x4 .f32) (x16 : Vec F S4096x15 .bf16) (x17 : Vec F S1x15 .f32)
    (x18 : Vec F S4096x11 .bf16) (x19 : Vec F S1x11 .f32) (x20 : Vec F S4096x24 .bf16) (x21 : Vec F S1x24 .f32) (x22 : Vec F S4096x4 .bf16) (x23 : Vec F S1x4 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ owns (c : Thread nD τ) arg17 fullShare x16 ∗ owns (c : Thread nD τ) arg18 fullShare x17
        ∗ owns (c : Thread nD τ) arg19 fullShare x18 ∗ owns (c : Thread nD τ) arg20 fullShare x19 ∗ owns (c : Thread nD τ) arg21 fullShare x20
        ∗ owns (c : Thread nD τ) arg22 fullShare x21 ∗ owns (c : Thread nD τ) arg23 fullShare x22 ∗ owns (c : Thread nD τ) arg24 fullShare x23
        ∗ (∃ d, owns (c : Thread nD τ) arg25 fullShare d) ∗ (∃ d, owns (c : Thread nD τ) arg26 fullShare d)
        ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15 ∗ owns (c : Thread nD τ) arg17 fullShare x16 ∗ owns (c : Thread nD τ) arg18 fullShare x17
            ∗ owns (c : Thread nD τ) arg19 fullShare x18 ∗ owns (c : Thread nD τ) arg20 fullShare x19 ∗ owns (c : Thread nD τ) arg21 fullShare x20
            ∗ owns (c : Thread nD τ) arg22 fullShare x21 ∗ owns (c : Thread nD τ) arg23 fullShare x22 ∗ owns (c : Thread nD τ) arg24 fullShare x23
            ∗ owns (c : Thread nD τ) arg25 fullShare (out1_24 x0 x1 x2 x6 x7 x8 x9 x16 x17)
            ∗ owns (c : Thread nD τ) arg26 fullShare (out1_25 x0 x1 x3 x6 x7 x10 x11 x18 x19)
            ∗ owns (c : Thread nD τ) arg27 fullShare (out1_26 x0 x1 x4 x6 x7 x12 x13 x20 x21)
            ∗ owns (c : Thread nD τ) arg28 fullShare (out1_27 x0 x1 x5 x6 x7 x14 x15 x22 x23)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg19 harg19 arg20 harg20
            arg21 harg21 arg22 harg22 arg23 harg23 arg24 harg24 arg25 harg25 arg26 harg26 arg27 harg27 arg28 harg28) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
    ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩,
    ⟨%d24, %f24, -, H24⟩, ⟨%d25, %f25, -, H25⟩, ⟨%d26, %f26, -, H26⟩, ⟨%d27, %f27, -, H27⟩, Hk⟩
  subst hf0; subst hf1; subst hf2; subst hf3; subst hf4; subst hf5; subst hf6; subst hf7; subst hf8; subst hf9; subst hf10; subst hf11
  subst hf12; subst hf13; subst hf14; subst hf15; subst hf16; subst hf17; subst hf18; subst hf19; subst hf20; subst hf21; subst hf22; subst hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    exact View.read_writes_eq_canon _ _ _ (cover1_24 _)
  isplitl [H25]
  · iexists _; isplitr
    swap; · iexact H25
    ipureintro
    exact View.read_writes_eq_canon _ _ _ (cover1_25 _)
  isplitl [H26]
  · iexists _; isplitr
    swap; · iexact H26
    ipureintro
    exact View.read_writes_eq_canon _ _ _ (cover1_26 _)
  iexists _; isplitr
  swap; · iexact H27
  ipureintro
  exact View.read_writes_eq_canon _ _ _ (cover1_27 _)

/-! ## The pipeline's proof data -/

/-- Region 1's proof data on core `c`: the arrays as the region finds them; after the body at grid point `t` each
    input's buffer still at its block and each output's at its stored value of the nine input blocks it depends
    on; the invariant that of a body with one control case (the scoped rest and the generator register untouched);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => out1_24 (iblk1 V c 0 t) (iblk1 V c 1 t) (iblk1 V c 2 t) (iblk1 V c 6 t) (iblk1 V c 7 t) (iblk1 V c 8 t) (iblk1 V c 9 t) (iblk1 V c 16 t) (iblk1 V c 17 t)
    | ⟨25, _⟩ => out1_25 (iblk1 V c 0 t) (iblk1 V c 1 t) (iblk1 V c 3 t) (iblk1 V c 6 t) (iblk1 V c 7 t) (iblk1 V c 10 t) (iblk1 V c 11 t) (iblk1 V c 18 t) (iblk1 V c 19 t)
    | ⟨26, _⟩ => out1_26 (iblk1 V c 0 t) (iblk1 V c 1 t) (iblk1 V c 4 t) (iblk1 V c 6 t) (iblk1 V c 7 t) (iblk1 V c 12 t) (iblk1 V c 13 t) (iblk1 V c 20 t) (iblk1 V c 21 t)
    | ⟨27, _⟩ => out1_27 (iblk1 V c 0 t) (iblk1 V c 1 t) (iblk1 V c 5 t) (iblk1 V c 6 t) (iblk1 V c 7 t) (iblk1 V c 14 t) (iblk1 V c 15 t) (iblk1 V c 22 t) (iblk1 V c 23 t)
    | ⟨_ + 28, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) :
    (dat1 V c).after 24 t = out1_24 (iblk1 V c 0 t) (iblk1 V c 1 t) (iblk1 V c 2 t) (iblk1 V c 6 t) (iblk1 V c 7 t) (iblk1 V c 8 t) (iblk1 V c 9 t) (iblk1 V c 16 t) (iblk1 V c 17 t) := by dsimp only [dat1]
theorem after1_25 (c : Dev nD) (t : Fin cfg1.N) :
    (dat1 V c).after 25 t = out1_25 (iblk1 V c 0 t) (iblk1 V c 1 t) (iblk1 V c 3 t) (iblk1 V c 6 t) (iblk1 V c 7 t) (iblk1 V c 10 t) (iblk1 V c 11 t) (iblk1 V c 18 t) (iblk1 V c 19 t) := by dsimp only [dat1]
theorem after1_26 (c : Dev nD) (t : Fin cfg1.N) :
    (dat1 V c).after 26 t = out1_26 (iblk1 V c 0 t) (iblk1 V c 1 t) (iblk1 V c 4 t) (iblk1 V c 6 t) (iblk1 V c 7 t) (iblk1 V c 12 t) (iblk1 V c 13 t) (iblk1 V c 20 t) (iblk1 V c 21 t) := by dsimp only [dat1]
theorem after1_27 (c : Dev nD) (t : Fin cfg1.N) :
    (dat1 V c).after 27 t = out1_27 (iblk1 V c 0 t) (iblk1 V c 1 t) (iblk1 V c 5 t) (iblk1 V c 6 t) (iblk1 V c 7 t) (iblk1 V c 14 t) (iblk1 V c 15 t) (iblk1 V c 22 t) (iblk1 V c 23 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d

/-! ## The body obligation, at a generic grid point -/

/-- What the body is called with at grid point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d))
    ∗ (∃ d, owns (c : Thread nD τ) (st1_26 t) fullShare ((dat1 V c).before 26 t d))
    ∗ (∃ d, owns (c : Thread nD τ) (st1_27 t) fullShare ((dat1 V c).before 27 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t)
    ∗ owns (c : Thread nD τ) (st1_26 t) fullShare ((dat1 V c).after 26 t)
    ∗ owns (c : Thread nD τ) (st1_27 t) fullShare ((dat1 V c).after 27 t))

set_option maxHeartbeats 4000000 in
/-- The body at any grid point: the inputs' buffers hold their blocks, so the body's run applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel1 c Set.univ _ _ _ _ _ _ _ _ _ _ _ _ _ _ _ _ _ _ _ _ _ _ _ _ _ _ _ _ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Regs.lean ====
/-
  The kernel program's run as ten items over named buffer contents, and its two kernel regions as segment records.

  Between two items a core holds every unscoped buffer at a known valuation beside its generator register and the
  fact that it owes nothing. The host stretches move the valuation by the operations' own fold. A kernel region is
  entered with its windows' arrays at the current valuation, leaves each INPUT array as it found it and each OUTPUT
  array at what its grid points wrote back, and leaves every other buffer alone: region 0 changes only the projected
  rows, region 1 only the four result arrays. `outsB` names exactly those contents — the projected rows after region 0,
  and, over the valuation that choice fixes at region 1's entry, the four results after region 1 — so that the
  generated valuations `V2` and `V10` at that choice ARE the regions' exit contents.
-/
import proofs.«407185_j88871463289477_1_alg».proof.Proof.Gen.Kernel.Regions
import proofs.«407185_j88871463289477_1_alg».proof.Proof.K.R0
import proofs.«407185_j88871463289477_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions leave -/

/-- Region 0's entry contents, read at the TensorCore's references. -/
abbrev En0 : (c : Dev nD) → (b : Ref sig .tc) → Buf (Elt F) ((c : Thread nD τ).loc b) := fun c b => V1 m c b

/-- The projected rows as region 0 leaves them: its output window's write-backs folded over the grid. -/
def erOut (c : Dev nD) : Buf (Elt F) ((c : Thread nD τ).loc main_v2) := (dat0 (En0 m) c).arrAt 3 cfg0.N

/-- First stage: region 0's output named, nothing else. -/
def outsA : Outs (F := F) := fun _ r c => if h : r = main_v2 then h ▸ erOut m c else V1 m c r

theorem outsA_v2 (c : Dev nD) : outsA m 2 main_v2 c = erOut m c := by
  unfold outsA; rw [dif_pos rfl]

/-- Region 1's entry contents under that choice. -/
abbrev En1 : (c : Dev nD) → (b : Ref sig .tc) → Buf (Elt F) ((c : Thread nD τ).loc b) := fun c b => V9 m (outsA m) c b

/-- Second stage: also the four result arrays as region 1 leaves them. -/
def outsB : Outs (F := F) := fun J r c =>
  if h : r = main_v74_0 then h ▸ ((dat1 (En1 m) c).arrAt 24 cfg1.N : Buf (Elt F) ((c : Thread nD τ).loc main_v74_0))
  else if h : r = main_v74_1 then h ▸ ((dat1 (En1 m) c).arrAt 25 cfg1.N : Buf (Elt F) ((c : Thread nD τ).loc main_v74_1))
  else if h : r = main_v74_2 then h ▸ ((dat1 (En1 m) c).arrAt 26 cfg1.N : Buf (Elt F) ((c : Thread nD τ).loc main_v74_2))
  else if h : r = main_v74_3 then h ▸ ((dat1 (En1 m) c).arrAt 27 cfg1.N : Buf (Elt F) ((c : Thread nD τ).loc main_v74_3))
  else outsA m J r c

theorem outsB_v2 (c : Dev nD) : outsB m 2 main_v2 c = erOut m c := by
  unfold outsB
  rw [dif_neg (by decide), dif_neg (by decide), dif_neg (by decide), dif_neg (by decide)]
  exact outsA_v2 m c
theorem outsB_r0 (c : Dev nD) : outsB m 10 main_v74_0 c = (dat1 (En1 m) c).arrAt 24 cfg1.N := by
  unfold outsB; rw [dif_pos rfl]
theorem outsB_r1 (c : Dev nD) : outsB m 10 main_v74_1 c = (dat1 (En1 m) c).arrAt 25 cfg1.N := by
  unfold outsB; rw [dif_neg (by decide), dif_pos rfl]
theorem outsB_r2 (c : Dev nD) : outsB m 10 main_v74_2 c = (dat1 (En1 m) c).arrAt 26 cfg1.N := by
  unfold outsB; rw [dif_neg (by decide), dif_neg (by decide), dif_pos rfl]
theorem outsB_r3 (c : Dev nD) : outsB m 10 main_v74_3 c = (dat1 (En1 m) c).arrAt 27 cfg1.N := by
  unfold outsB; rw [dif_neg (by decide), dif_neg (by decide), dif_neg (by decide), dif_pos rfl]

/-- The second stage does not move the valuations up to region 1's entry: they read `outs` only at the projected rows. -/
theorem V2B (c : Dev nD) : V2 m (outsB m) c = V2 m (outsA m) c := by
  show Function.update (V1 m c) main_v2 (outsB m 2 main_v2 c) = Function.update (V1 m c) main_v2 (outsA m 2 main_v2 c)
  rw [outsB_v2, outsA_v2]
theorem V9B (c : Dev nD) : V9 m (outsB m) c = V9 m (outsA m) c := by
  show StableHlo.after hostOps1_6 (StableHlo.after hostOps1_5 (StableHlo.after hostOps1_4 (StableHlo.after hostOps1_3
    (StableHlo.after hostOps1_2 (StableHlo.after hostOps1_1 (StableHlo.after hostOps1 (V2 m (outsB m) c))))))) = _
  rw [V2B]

/-! ## Region 0's exit contents are `V2` at that choice -/

theorem V2_v2 (c : Dev nD) : V2 m (outsB m) c main_v2 = erOut m c := by
  show Function.update (V1 m c) main_v2 (outsB m 2 main_v2 c) main_v2 = _
  rw [Function.update_self, outsB_v2]

theorem hF0 (c : Dev nD) : ∀ w : Fin cfg0.W, (dat0 (En0 m) c).arrAt w cfg0.N = V2 m (outsB m) c (Pipeline.arrRef spec0 w)
  | ⟨0, _⟩ => ((dat0 (En0 m) c).arrAt_in 0 rfl _).trans ((A_eq0 (En0 m) c 0).trans (V2_of m (outsB m) c _ (by decide)).symm)
  | ⟨1, _⟩ => ((dat0 (En0 m) c).arrAt_in 1 rfl _).trans ((A_eq0 (En0 m) c 1).trans (V2_of m (outsB m) c _ (by decide)).symm)
  | ⟨2, _⟩ => ((dat0 (En0 m) c).arrAt_in 2 rfl _).trans ((A_eq0 (En0 m) c 2).trans (V2_of m (outsB m) c _ (by decide)).symm)
  | ⟨3, _⟩ => (V2_v2 m c).symm

theorem hrest0 (c : Dev nD) : ∀ b, b ∉ Finset.univ.image (Pipeline.arrRef spec0) → V2 m (outsB m) c b = V1 m c b :=
  fun b hb => V2_of m (outsB m) c b (by
    intro h
    rw [List.mem_singleton] at h
    exact hb (Finset.mem_image.mpr ⟨3, Finset.mem_univ _, h.symm⟩))

/-! ## Region 1's exit contents are `V10` at that choice -/

theorem V10_r0 (c : Dev nD) : V10 m (outsB m) c main_v74_0 = (dat1 (En1 m) c).arrAt 24 cfg1.N := by
  rw [← outsB_r0]
  show Function.update (Function.update (Function.update (Function.update (V9 m (outsB m) c) main_v74_0 (outsB m 10 main_v74_0 c)) main_v74_1 (outsB m 10 main_v74_1 c)) main_v74_2 (outsB m 10 main_v74_2 c)) main_v74_3 (outsB m 10 main_v74_3 c) main_v74_0 = _
  rw [Function.update_of_ne (StableHlo.devRef_ne_of_ne (by decide)), Function.update_of_ne (StableHlo.devRef_ne_of_ne (by decide)),
    Function.update_of_ne (StableHlo.devRef_ne_of_ne (by decide)), Function.update_self]
theorem V10_r1 (c : Dev nD) : V10 m (outsB m) c main_v74_1 = (dat1 (En1 m) c).arrAt 25 cfg1.N := by
  rw [← outsB_r1]
  show Function.update (Function.update (Function.update (Function.update (V9 m (outsB m) c) main_v74_0 (outsB m 10 main_v74_0 c)) main_v74_1 (outsB m 10 main_v74_1 c)) main_v74_2 (outsB m 10 main_v74_2 c)) main_v74_3 (outsB m 10 main_v74_3 c) main_v74_1 = _
  rw [Function.update_of_ne (StableHlo.devRef_ne_of_ne (by decide)), Function.update_of_ne (StableHlo.devRef_ne_of_ne (by decide)), Function.update_self]
theorem V10_r2 (c : Dev nD) : V10 m (outsB m) c main_v74_2 = (dat1 (En1 m) c).arrAt 26 cfg1.N := by
  rw [← outsB_r2]
  show Function.update (Function.update (Function.update (Function.update (V9 m (outsB m) c) main_v74_0 (outsB m 10 main_v74_0 c)) main_v74_1 (outsB m 10 main_v74_1 c)) main_v74_2 (outsB m 10 main_v74_2 c)) main_v74_3 (outsB m 10 main_v74_3 c) main_v74_2 = _
  rw [Function.update_of_ne (StableHlo.devRef_ne_of_ne (by decide)), Function.update_self]
theorem V10_r3 (c : Dev nD) : V10 m (outsB m) c main_v74_3 = (dat1 (En1 m) c).arrAt 27 cfg1.N := by
  rw [← outsB_r3]
  show Function.update (Function.update (Function.update (Function.update (V9 m (outsB m) c) main_v74_0 (outsB m 10 main_v74_0 c)) main_v74_1 (outsB m 10 main_v74_1 c)) main_v74_2 (outsB m 10 main_v74_2 c)) main_v74_3 (outsB m 10 main_v74_3 c) main_v74_3 = _
  rw [Function.update_self]

/-- An input window's array leaves region 1 as it entered: it is none of the four result arrays. -/
theorem hF1_in (c : Dev nD) (w : Fin cfg1.W) (hw : (cfg1.win w).isOut = false)
    (hr : Pipeline.arrRef spec1 w ∉ ([main_v74_0, main_v74_1, main_v74_2, main_v74_3] : List (Ref sig .tc))) :
    (dat1 (En1 m) c).arrAt w cfg1.N = V10 m (outsB m) c (Pipeline.arrRef spec1 w) :=
  ((dat1 (En1 m) c).arrAt_in w hw _).trans ((A_eq1 (En1 m) c w).trans
    ((congrFun (V9B m c) _).symm.trans (V10_of m (outsB m) c _ hr).symm))

theorem hF1_0 (c : Dev nD) : (dat1 (En1 m) c).arrAt 0 cfg1.N = V10 m (outsB m) c (Pipeline.arrRef spec1 0) :=
  hF1_in m c 0 rfl (by decide)
theorem hF1_1 (c : Dev nD) : (dat1 (En1 m) c).arrAt 1 cfg1.N = V10 m (outsB m) c (Pipeline.arrRef spec1 1) :=
  hF1_in m c 1 rfl (by decide)
theorem hF1_2 (c : Dev nD) : (dat1 (En1 m) c).arrAt 2 cfg1.N = V10 m (outsB m) c (Pipeline.arrRef spec1 2) :=
  hF1_in m c 2 rfl (by decide)
theorem hF1_3 (c : Dev nD) : (dat1 (En1 m) c).arrAt 3 cfg1.N = V10 m (outsB m) c (Pipeline.arrRef spec1 3) :=
  hF1_in m c 3 rfl (by decide)
theorem hF1_4 (c : Dev nD) : (dat1 (En1 m) c).arrAt 4 cfg1.N = V10 m (outsB m) c (Pipeline.arrRef spec1 4) :=
  hF1_in m c 4 rfl (by decide)
theorem hF1_5 (c : Dev nD) : (dat1 (En1 m) c).arrAt 5 cfg1.N = V10 m (outsB m) c (Pipeline.arrRef spec1 5) :=
  hF1_in m c 5 rfl (by decide)
theorem hF1_6 (c : Dev nD) : (dat1 (En1 m) c).arrAt 6 cfg1.N = V10 m (outsB m) c (Pipeline.arrRef spec1 6) :=
  hF1_in m c 6 rfl (by decide)
theorem hF1_7 (c : Dev nD) : (dat1 (En1 m) c).arrAt 7 cfg1.N = V10 m (outsB m) c (Pipeline.arrRef spec1 7) :=
  hF1_in m c 7 rfl (by decide)
theorem hF1_8 (c : Dev nD) : (dat1 (En1 m) c).arrAt 8 cfg1.N = V10 m (outsB m) c (Pipeline.arrRef spec1 8) :=
  hF1_in m c 8 rfl (by decide)
theorem hF1_9 (c : Dev nD) : (dat1 (En1 m) c).arrAt 9 cfg1.N = V10 m (outsB m) c (Pipeline.arrRef spec1 9) :=
  hF1_in m c 9 rfl (by decide)
theorem hF1_10 (c : Dev nD) : (dat1 (En1 m) c).arrAt 10 cfg1.N = V10 m (outsB m) c (Pipeline.arrRef spec1 10) :=
  hF1_in m c 10 rfl (by decide)
theorem hF1_11 (c : Dev nD) : (dat1 (En1 m) c).arrAt 11 cfg1.N = V10 m (outsB m) c (Pipeline.arrRef spec1 11) :=
  hF1_in m c 11 rfl (by decide)
theorem hF1_12 (c : Dev nD) : (dat1 (En1 m) c).arrAt 12 cfg1.N = V10 m (outsB m) c (Pipeline.arrRef spec1 12) :=
  hF1_in m c 12 rfl (by decide)
theorem hF1_13 (c : Dev nD) : (dat1 (En1 m) c).arrAt 13 cfg1.N = V10 m (outsB m) c (Pipeline.arrRef spec1 13) :=
  hF1_in m c 13 rfl (by decide)
theorem hF1_14 (c : Dev nD) : (dat1 (En1 m) c).arrAt 14 cfg1.N = V10 m (outsB m) c (Pipeline.arrRef spec1 14) :=
  hF1_in m c 14 rfl (by decide)
theorem hF1_15 (c : Dev nD) : (dat1 (En1 m) c).arrAt 15 cfg1.N = V10 m (outsB m) c (Pipeline.arrRef spec1 15) :=
  hF1_in m c 15 rfl (by decide)
theorem hF1_16 (c : Dev nD) : (dat1 (En1 m) c).arrAt 16 cfg1.N = V10 m (outsB m) c (Pipeline.arrRef spec1 16) :=
  hF1_in m c 16 rfl (by decide)
theorem hF1_17 (c : Dev nD) : (dat1 (En1 m) c).arrAt 17 cfg1.N = V10 m (outsB m) c (Pipeline.arrRef spec1 17) :=
  hF1_in m c 17 rfl (by decide)
theorem hF1_18 (c : Dev nD) : (dat1 (En1 m) c).arrAt 18 cfg1.N = V10 m (outsB m) c (Pipeline.arrRef spec1 18) :=
  hF1_in m c 18 rfl (by decide)
theorem hF1_19 (c : Dev nD) : (dat1 (En1 m) c).arrAt 19 cfg1.N = V10 m (outsB m) c (Pipeline.arrRef spec1 19) :=
  hF1_in m c 19 rfl (by decide)
theorem hF1_20 (c : Dev nD) : (dat1 (En1 m) c).arrAt 20 cfg1.N = V10 m (outsB m) c (Pipeline.arrRef spec1 20) :=
  hF1_in m c 20 rfl (by decide)
theorem hF1_21 (c : Dev nD) : (dat1 (En1 m) c).arrAt 21 cfg1.N = V10 m (outsB m) c (Pipeline.arrRef spec1 21) :=
  hF1_in m c 21 rfl (by decide)
theorem hF1_22 (c : Dev nD) : (dat1 (En1 m) c).arrAt 22 cfg1.N = V10 m (outsB m) c (Pipeline.arrRef spec1 22) :=
  hF1_in m c 22 rfl (by decide)
theorem hF1_23 (c : Dev nD) : (dat1 (En1 m) c).arrAt 23 cfg1.N = V10 m (outsB m) c (Pipeline.arrRef spec1 23) :=
  hF1_in m c 23 rfl (by decide)

set_option maxHeartbeats 2000000 in
theorem hF1 (c : Dev nD) : ∀ w : Fin cfg1.W, (dat1 (En1 m) c).arrAt w cfg1.N = V10 m (outsB m) c (Pipeline.arrRef spec1 w) := fun
  | 0 => hF1_0 m c
  | 1 => hF1_1 m c
  | 2 => hF1_2 m c
  | 3 => hF1_3 m c
  | 4 => hF1_4 m c
  | 5 => hF1_5 m c
  | 6 => hF1_6 m c
  | 7 => hF1_7 m c
  | 8 => hF1_8 m c
  | 9 => hF1_9 m c
  | 10 => hF1_10 m c
  | 11 => hF1_11 m c
  | 12 => hF1_12 m c
  | 13 => hF1_13 m c
  | 14 => hF1_14 m c
  | 15 => hF1_15 m c
  | 16 => hF1_16 m c
  | 17 => hF1_17 m c
  | 18 => hF1_18 m c
  | 19 => hF1_19 m c
  | 20 => hF1_20 m c
  | 21 => hF1_21 m c
  | 22 => hF1_22 m c
  | 23 => hF1_23 m c
  | 24 => (V10_r0 m c).symm
  | 25 => (V10_r1 m c).symm
  | 26 => (V10_r2 m c).symm
  | 27 => (V10_r3 m c).symm
  | ⟨_ + 28, h⟩ => absurd h (Nat.not_lt.2 (Nat.le_add_left _ _))

theorem hrest1 (c : Dev nD) : ∀ b, b ∉ Finset.univ.image (Pipeline.arrRef spec1) → V10 m (outsB m) c b = V9 m (outsA m) c b :=
  fun b hb => (V10_of m (outsB m) c b (by
    intro h
    simp only [List.mem_cons, List.mem_singleton, List.not_mem_nil, or_false] at h
    rcases h with h | h | h | h
    · exact hb (Finset.mem_image.mpr ⟨24, Finset.mem_univ _, h.symm⟩)
    · exact hb (Finset.mem_image.mpr ⟨25, Finset.mem_univ _, h.symm⟩)
    · exact hb (Finset.mem_image.mpr ⟨26, Finset.mem_univ _, h.symm⟩)
    · exact hb (Finset.mem_image.mpr ⟨27, Finset.mem_univ _, h.symm⟩))).trans (congrFun (V9B m c) _)

/-! ## The proof data family and the rest state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c

abbrev 𝒱₀ : Variants := Variants.none
abbrev Lnone : GSem nD τ sig → Finset Unit := fun _ => ∅
abbrev lv0 : GSem nD τ sig → Unit → ℕ := fun _ _ => 0

/-- What rides beside the buffers through every item: the generator register at some state, and nothing owed. -/
abbrev Rest (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered with every unscoped buffer at `V1`, left with them at `V2`. -/
def reg0 : Pipeline.RegionSeg (pcfgs (F := F)) adm (pdats m) () defs₀ 𝒱₀ Lnone lv0 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ Lnone lv0 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outsB m) c) ∗ Rest c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (fun b => V2 m (outsB m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `V9`, left with them at `V10`. -/
def reg1 : Pipeline.RegionSeg (pcfgs (F := F)) adm (pdats m) () defs₀ 𝒱₀ Lnone lv0 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ Lnone lv0 1 fun _ _ => rfl
  pre c := iprop(StableHlo.held (c : Thread nD τ) (Pipeline.ucRefs τ sig) (V9 m (outsB m) c) ∗ Rest c)
  post c := iprop(StableHlo.held (c : Thread nD τ) (Pipeline.ucRefs τ sig) (V10 m (outsB m) c) ∗ Rest c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none, V9B]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (fun b => V10 m (outsB m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
/-
  The word-level kernel program runs to the end, faults nowhere and leaves its argument arrays unchanged: its ten
  items over the named buffer contents, the two kernel regions entered and left as the segment records say, the
  rest state "the generator register at some state, nothing owed" riding beside the buffers throughout.
-/
import proofs.«407185_j88871463289477_1_alg».proof.Proof.K.Regs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_cond m emb₁ () 𝒱₀ Lnone lv0 (fun _ _ => rfl) ρ (outsB m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach Lnone lv0 fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl) (reg1 m) (fun c => .rfl) (fun c => .rfl)

end Cert.Kernel.Hand

end
-- ==== Proof.KI.R0.lean ====
/-
  The first kernel region: the post-embedding projection, one grid point per block of 1024 rows.

  At grid point `t` the pipeline stages rows `1024·t … 1024·t + 1023` of the object contexts (1024 × 512), the
  whole projection matrix (512 × 1024, already narrowed to bf16 by the host) and the whole bias row (1 × 1024); the
  body multiplies the staged rows by the matrix, adds the bias row to every row of the product and stores the
  1024 × 1024 result over the whole output block, which the pipeline writes back as rows `1024·t …` of the
  projected array. Nothing is carried from one grid point to the next: the body has one control case and every
  access is a whole-buffer rectangle.

  Stated for any float instance and for ANY contents `V` of the core's buffers at the moment the region is
  entered: the blocks the windows cut out of `V`, the one value the body stores as a function of the three blocks
  it loads, the body's run, the pipeline's proof data (inputs left in place, the output block at the stored
  value, nothing owed) and the body obligation at every grid point.
-/
import proofs.«407185_j88871463289477_1_alg».proof.Proof.Gen.KernelIdeal.Launch
import proofs.«407185_j88871463289477_1_alg».proof.Proof.Gen.KernelIdeal.Skeleton
import proofs.«407185_j88871463289477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block window `w` cuts out of its array at grid point `t`, the array read as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every grid point, whether the pipeline fetched it
    there or left it from an earlier point (the matrix and the bias row are fetched once: their block index never
    moves), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole staged block of rows, of the matrix, of the bias row, of the output. -/
abbrev rRows : Rect S1024x512 := Rect.unit (s := S1024x512) ![0, 0] S1024x512.size inb_S1024x512_S1024x512_0_0
abbrev rMat : Rect S512x1024 := Rect.unit (s := S512x1024) ![0, 0] S512x1024.size inb_S512x1024_S512x1024_0_0
abbrev rBias : Rect S1x1024 := Rect.unit (s := S1x1024) ![0, 0] S1x1024.size inb_S1x1024_S1x1024_0_0
abbrev rOut : Rect S1024x1024 := Rect.unit (s := S1024x1024) ![0, 0] S1024x1024.size inb_S1024x1024_S1024x1024_0_0

/-- The output block after the body: its one store, the product of the staged rows with the matrix plus the bias
    row, laid over the whole block. -/
def out0_3 (x0 : Vec F S1024x512 .f32) (x1 : Vec F S512x1024 .bf16) (x2 : Vec F S1x1024 .f32) : Vec F S1024x1024 .f32 :=
  View.canon [⟨rOut, k0_pay1 (View.ld x0 rRows) (View.ld x1 rMat) (View.ld x2 rBias)⟩]

/-- The one store covers the block. -/
theorem cover0_3 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's run -/

set_option maxHeartbeats 1000000 in
/-- On whole staging buffers, the three inputs' at contents `x0`, `x1`, `x2` and the output's at anything, the body
    runs to its continuation with the inputs as they were and the output at `out0_3 x0 x1 x2`. -/
theorem sound_kernel0 (c : Dev nD) (E : Set ℕ) (i : grid0.Coords)
    (arg1 : Memref sig .tc .vmem S1024x512 .f32) (harg1 : arg1.IsWhole) (arg2 : Memref sig .tc .vmem S512x1024 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x512 .f32) (x1 : Vec F S512x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__post_emb_kernel i arg1 harg1 arg2 harg2 arg3 harg3 arg4 harg4) K := by
  simp only [cc0__post_emb_kernel_eq_skeleton]; unfold cc0__post_emb_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Region 0's proof data on core `c`: the arrays as the region finds them; after the body at grid point `t` each
    input's buffer still at its block and the output's at `out0_3` of the three input blocks; the invariant that of a
    body with one control case (the scoped rest and the generator register untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic grid point -/

/-- What the body is called with at grid point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' buffers hold their blocks, so the body's run applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The second kernel region: the two-branch classifier over pair rows, one grid point per block of 512 pair rows.

  At grid point `t` the pipeline stages rows `512·t … 512·t + 511` of six row-blocked arrays — the pair contexts
  (512 × 1024), the visual features (512 × 4096) and the four additive bias blocks (512 × 15, 512 × 11, 512 × 24,
  512 × 4) — and, once for the whole grid because their block index never moves, eighteen whole arrays: the
  post-concatenation matrix (1024 × 4096, narrowed to bf16 by the host) with its bias row (1 × 4096), and for each
  of the two branches the four heads' matrices (4096 × 15, 4096 × 11, 4096 × 24, 4096 × 4, bf16) with their bias
  rows (1 × 15, 1 × 11, 1 × 24, 1 × 4).

  The body forms the hidden block  h = bf16 (max (bf16 ctx · W_post + b_post) 0)  (512 × 4096) from the context
  rows, and the narrowed visual block  v = bf16 vis.  For each head of width n ∈ {15, 11, 24, 4}, with context
  matrix and bias row (Wc, bc), visual matrix and bias row (Wv, bv) and additive bias block a, it stores over
  the whole output block of width n the sum

      ((v · Wv + bv) + (h · Wc + bc)) + a,

  every bias row spread over the 512 rows. Output block 24 (width 15) is so a function of windows 0, 1, 2, 6, 7,
  8, 9, 16, 17; block 25 (width 11) of 0, 1, 3, 6, 7, 10, 11, 18, 19; block 26 (width 24) of 0, 1, 4, 6, 7, 12, 13,
  20, 21; block 27 (width 4) of 0, 1, 5, 6, 7, 14, 15, 22, 23. Nothing is carried from one grid point to the next:
  the body has one control case and every access is a whole-buffer rectangle.

  Stated for any float instance and for ANY contents `V` of the core's buffers at the moment the region is
  entered: the blocks the windows cut out of `V`, the four values the body stores as functions of the input
  blocks it loads, the body's run, the pipeline's proof data (inputs left in place, each output block at its stored
  value, nothing owed) and the body obligation at every grid point.
-/
import proofs.«407185_j88871463289477_1_alg».proof.Proof.Gen.KernelIdeal.Launch
import proofs.«407185_j88871463289477_1_alg».proof.Proof.Gen.KernelIdeal.Skeleton
import proofs.«407185_j88871463289477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block window `w` cuts out of its array at grid point `t`, the array read as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every grid point, whether the pipeline fetched it
    there or left it from an earlier point (the eighteen whole arrays are fetched once: their block index never
    moves), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)

theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)

theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)

theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)

theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)

theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)

theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)

theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output blocks -/

/-- The whole staged block of context rows, of visual rows; of a 512-row block of width 15, 11, 24, 4 (an additive
    bias block or an output block); the whole post-concatenation matrix and its bias row; a head's whole matrix and
    bias row, by the head's width. -/
abbrev r1Ctx : Rect S512x1024 := Rect.unit (s := S512x1024) ![0, 0] S512x1024.size inb_S512x1024_S512x1024_0_0
abbrev r1Vis : Rect S512x4096 := Rect.unit (s := S512x4096) ![0, 0] S512x4096.size inb_S512x4096_S512x4096_0_0
abbrev r1Blk15 : Rect S512x15 := Rect.unit (s := S512x15) ![0, 0] S512x15.size inb_S512x15_S512x15_0_0
abbrev r1Blk11 : Rect S512x11 := Rect.unit (s := S512x11) ![0, 0] S512x11.size inb_S512x11_S512x11_0_0
abbrev r1Blk24 : Rect S512x24 := Rect.unit (s := S512x24) ![0, 0] S512x24.size inb_S512x24_S512x24_0_0
abbrev r1Blk4 : Rect S512x4 := Rect.unit (s := S512x4) ![0, 0] S512x4.size inb_S512x4_S512x4_0_0
abbrev r1Post : Rect S1024x4096 := Rect.unit (s := S1024x4096) ![0, 0] S1024x4096.size inb_S1024x4096_S1024x4096_0_0
abbrev r1PostRow : Rect S1x4096 := Rect.unit (s := S1x4096) ![0, 0] S1x4096.size inb_S1x4096_S1x4096_0_0
abbrev r1Mat15 : Rect S4096x15 := Rect.unit (s := S4096x15) ![0, 0] S4096x15.size inb_S4096x15_S4096x15_0_0
abbrev r1Row15 : Rect S1x15 := Rect.unit (s := S1x15) ![0, 0] S1x15.size inb_S1x15_S1x15_0_0
abbrev r1Mat11 : Rect S4096x11 := Rect.unit (s := S4096x11) ![0, 0] S4096x11.size inb_S4096x11_S4096x11_0_0
abbrev r1Row11 : Rect S1x11 := Rect.unit (s := S1x11) ![0, 0] S1x11.size inb_S1x11_S1x11_0_0
abbrev r1Mat24 : Rect S4096x24 := Rect.unit (s := S4096x24) ![0, 0] S4096x24.size inb_S4096x24_S4096x24_0_0
abbrev r1Row24 : Rect S1x24 := Rect.unit (s := S1x24) ![0, 0] S1x24.size inb_S1x24_S1x24_0_0
abbrev r1Mat4 : Rect S4096x4 := Rect.unit (s := S4096x4) ![0, 0] S4096x4.size inb_S4096x4_S4096x4_0_0
abbrev r1Row4 : Rect S1x4 := Rect.unit (s := S1x4) ![0, 0] S1x4.size inb_S1x4_S1x4_0_0

/-- Output block 24 (width 15) after the body: its one store, laid over the whole block — the visual head
    (narrowed visual rows times the head's visual matrix, plus its bias row) plus the context head (hidden block
    times the head's context matrix, plus its bias row) plus the additive bias block. -/
def out1_24 (x0 : Vec F S512x1024 .f32) (x1 : Vec F S512x4096 .f32) (x2 : Vec F S512x15 .f32) (x6 : Vec F S1024x4096 .bf16) (x7 : Vec F S1x4096 .f32)
    (x8 : Vec F S4096x15 .bf16) (x9 : Vec F S1x15 .f32) (x16 : Vec F S4096x15 .bf16) (x17 : Vec F S1x15 .f32) : Vec F S512x15 .f32 :=
  View.canon [⟨r1Blk15, k1_pay1 (k1_pay7 (View.ld x0 r1Ctx) (View.ld x6 r1Post) (View.ld x7 r1PostRow) (View.ld x8 r1Mat15) (View.ld x9 r1Row15))
    (k1_pay13 (k1_pay6 (View.ld x1 r1Vis)) (View.ld x16 r1Mat15) (View.ld x17 r1Row15)) (View.ld x2 r1Blk15)⟩]

/-- Output block 25 (width 11): the same sum for the head of width 11. -/
def out1_25 (x0 : Vec F S512x1024 .f32) (x1 : Vec F S512x4096 .f32) (x3 : Vec F S512x11 .f32) (x6 : Vec F S1024x4096 .bf16) (x7 : Vec F S1x4096 .f32)
    (x10 : Vec F S4096x11 .bf16) (x11 : Vec F S1x11 .f32) (x18 : Vec F S4096x11 .bf16) (x19 : Vec F S1x11 .f32) : Vec F S512x11 .f32 :=
  View.canon [⟨r1Blk11, k1_pay2 (k1_pay8 (View.ld x0 r1Ctx) (View.ld x6 r1Post) (View.ld x7 r1PostRow) (View.ld x10 r1Mat11) (View.ld x11 r1Row11))
    (k1_pay14 (k1_pay6 (View.ld x1 r1Vis)) (View.ld x18 r1Mat11) (View.ld x19 r1Row11)) (View.ld x3 r1Blk11)⟩]

/-- Output block 26 (width 24): the same sum for the head of width 24, its context product and context bias row
    joined after the product is formed. -/
def out1_26 (x0 : Vec F S512x1024 .f32) (x1 : Vec F S512x4096 .f32) (x4 : Vec F S512x24 .f32) (x6 : Vec F S1024x4096 .bf16) (x7 : Vec F S1x4096 .f32)
    (x12 : Vec F S4096x24 .bf16) (x13 : Vec F S1x24 .f32) (x20 : Vec F S4096x24 .bf16) (x21 : Vec F S1x24 .f32) : Vec F S512x24 .f32 :=
  View.canon [⟨r1Blk24, k1_pay3 (k1_pay11 (k1_pay9 (View.ld x0 r1Ctx) (View.ld x6 r1Post) (View.ld x7 r1PostRow) (View.ld x12 r1Mat24)) (k1_pay10 (View.ld x13 r1Row24)))
    (k1_pay15 (k1_pay6 (View.ld x1 r1Vis)) (View.ld x20 r1Mat24) (View.ld x21 r1Row24)) (View.ld x4 r1Blk24)⟩]

/-- Output block 27 (width 4): the same sum for the head of width 4, its visual product and visual bias row joined
    at the store. -/
def out1_27 (x0 : Vec F S512x1024 .f32) (x1 : Vec F S512x4096 .f32) (x5 : Vec F S512x4 .f32) (x6 : Vec F S1024x4096 .bf16) (x7 : Vec F S1x4096 .f32)
    (x14 : Vec F S4096x4 .bf16) (x15 : Vec F S1x4 .f32) (x22 : Vec F S4096x4 .bf16) (x23 : Vec F S1x4 .f32) : Vec F S512x4 .f32 :=
  View.canon [⟨r1Blk4, k1_pay4 (k1_pay12 (k1_pay5 (View.ld x0 r1Ctx) (View.ld x6 r1Post) (View.ld x7 r1PostRow)) (View.ld x14 r1Mat4) (View.ld x15 r1Row4))
    (k1_pay16 (k1_pay6 (View.ld x1 r1Vis)) (View.ld x22 r1Mat4)) (k1_pay17 (View.ld x23 r1Row4)) (View.ld x5 r1Blk4)⟩]

/-- Each output's one store covers its block. -/
theorem cover1_24 (p0 : Vec F S512x15 .f32) (y : S512x15.Idx) :
    ∃ pc ∈ ([⟨r1Blk15, p0⟩] : List (View.Piece (Elt F) S512x15 .f32)), y ∈ pc.1.set :=
  View.cover_of_tiled [⟨r1Blk15, p0⟩] S512x15.size (by rfl) y

theorem cover1_25 (p0 : Vec F S512x11 .f32) (y : S512x11.Idx) :
    ∃ pc ∈ ([⟨r1Blk11, p0⟩] : List (View.Piece (Elt F) S512x11 .f32)), y ∈ pc.1.set :=
  View.cover_of_tiled [⟨r1Blk11, p0⟩] S512x11.size (by rfl) y

theorem cover1_26 (p0 : Vec F S512x24 .f32) (y : S512x24.Idx) :
    ∃ pc ∈ ([⟨r1Blk24, p0⟩] : List (View.Piece (Elt F) S512x24 .f32)), y ∈ pc.1.set :=
  View.cover_of_tiled [⟨r1Blk24, p0⟩] S512x24.size (by rfl) y

theorem cover1_27 (p0 : Vec F S512x4 .f32) (y : S512x4.Idx) :
    ∃ pc ∈ ([⟨r1Blk4, p0⟩] : List (View.Piece (Elt F) S512x4 .f32)), y ∈ pc.1.set :=
  View.cover_of_tiled [⟨r1Blk4, p0⟩] S512x4.size (by rfl) y

/-! ## The body's run -/

set_option maxHeartbeats 4000000 in
/-- On whole staging buffers, the twenty-four inputs' at contents `x0 … x23` and the four outputs' at anything, the
    body runs to its continuation with the inputs as they were and the outputs at `out1_24 … out1_27` of the blocks
    each depends on. -/
theorem sound_kernel1 (c : Dev nD) (E : Set ℕ) (i : grid1.Coords)
    (arg1 : Memref sig .tc .vmem S512x1024 .f32) (harg1 : arg1.IsWhole) (arg2 : Memref sig .tc .vmem S512x4096 .f32) (harg2 : arg2.IsWhole)
    (arg3 : Memref sig .tc .vmem S512x15 .f32) (harg3 : arg3.IsWhole) (arg4 : Memref sig .tc .vmem S512x11 .f32) (harg4 : arg4.IsWhole)
    (arg5 : Memref sig .tc .vmem S512x24 .f32) (harg5 : arg5.IsWhole) (arg6 : Memref sig .tc .vmem S512x4 .f32) (harg6 : arg6.IsWhole)
    (arg7 : Memref sig .tc .vmem S1024x4096 .bf16) (harg7 : arg7.IsWhole) (arg8 : Memref sig .tc .vmem S1x4096 .f32) (harg8 : arg8.IsWhole)
    (arg9 : Memref sig .tc .vmem S4096x15 .bf16) (harg9 : arg9.IsWhole) (arg10 : Memref sig .tc .vmem S1x15 .f32) (harg10 : arg10.IsWhole)
    (arg11 : Memref sig .tc .vmem S4096x11 .bf16) (harg11 : arg11.IsWhole) (arg12 : Memref sig .tc .vmem S1x11 .f32) (harg12 : arg12.IsWhole)
    (arg13 : Memref sig .tc .vmem S4096x24 .bf16) (harg13 : arg13.IsWhole) (arg14 : Memref sig .tc .vmem S1x24 .f32) (harg14 : arg14.IsWhole)
    (arg15 : Memref sig .tc .vmem S4096x4 .bf16) (harg15 : arg15.IsWhole) (arg16 : Memref sig .tc .vmem S1x4 .f32) (harg16 : arg16.IsWhole)
    (arg17 : Memref sig .tc .vmem S4096x15 .bf16) (harg17 : arg17.IsWhole) (arg18 : Memref sig .tc .vmem S1x15 .f32) (harg18 : arg18.IsWhole)
    (arg19 : Memref sig .tc .vmem S4096x11 .bf16) (harg19 : arg19.IsWhole) (arg20 : Memref sig .tc .vmem S1x11 .f32) (harg20 : arg20.IsWhole)
    (arg21 : Memref sig .tc .vmem S4096x24 .bf16) (harg21 : arg21.IsWhole) (arg22 : Memref sig .tc .vmem S1x24 .f32) (harg22 : arg22.IsWhole)
    (arg23 : Memref sig .tc .vmem S4096x4 .bf16) (harg23 : arg23.IsWhole) (arg24 : Memref sig .tc .vmem S1x4 .f32) (harg24 : arg24.IsWhole)
    (arg25 : Memref sig .tc .vmem S512x15 .f32) (harg25 : arg25.IsWhole) (arg26 : Memref sig .tc .vmem S512x11 .f32) (harg26 : arg26.IsWhole)
    (arg27 : Memref sig .tc .vmem S512x24 .f32) (harg27 : arg27.IsWhole) (arg28 : Memref sig .tc .vmem S512x4 .f32) (harg28 : arg28.IsWhole)
    (x0 : Vec F S512x1024 .f32) (x1 : Vec F S512x4096 .f32) (x2 : Vec F S512x15 .f32) (x3 : Vec F S512x11 .f32) (x4 : Vec F S512x24 .f32) (x5 : Vec F S512x4 .f32)
    (x6 : Vec F S1024x4096 .bf16) (x7 : Vec F S1x4096 .f32) (x8 : Vec F S4096x15 .bf16) (x9 : Vec F S1x15 .f32) (x10 : Vec F S4096x11 .bf16) (x11 : Vec F S1x11 .f32)
    (x12 : Vec F S4096x24 .bf16) (x13 : Vec F S1x24 .f32) (x14 : Vec F S4096x4 .bf16) (x15 : Vec F S1x4 .f32) (x16 : Vec F S4096x15 .bf16) (x17 : Vec F S1x15 .f32)
    (x18 : Vec F S4096x11 .bf16) (x19 : Vec F S1x11 .f32) (x20 : Vec F S4096x24 .bf16) (x21 : Vec F S1x24 .f32) (x22 : Vec F S4096x4 .bf16) (x23 : Vec F S1x4 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ owns (c : Thread nD τ) arg17 fullShare x16 ∗ owns (c : Thread nD τ) arg18 fullShare x17
        ∗ owns (c : Thread nD τ) arg19 fullShare x18 ∗ owns (c : Thread nD τ) arg20 fullShare x19 ∗ owns (c : Thread nD τ) arg21 fullShare x20
        ∗ owns (c : Thread nD τ) arg22 fullShare x21 ∗ owns (c : Thread nD τ) arg23 fullShare x22 ∗ owns (c : Thread nD τ) arg24 fullShare x23
        ∗ (∃ d, owns (c : Thread nD τ) arg25 fullShare d) ∗ (∃ d, owns (c : Thread nD τ) arg26 fullShare d)
        ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15 ∗ owns (c : Thread nD τ) arg17 fullShare x16 ∗ owns (c : Thread nD τ) arg18 fullShare x17
            ∗ owns (c : Thread nD τ) arg19 fullShare x18 ∗ owns (c : Thread nD τ) arg20 fullShare x19 ∗ owns (c : Thread nD τ) arg21 fullShare x20
            ∗ owns (c : Thread nD τ) arg22 fullShare x21 ∗ owns (c : Thread nD τ) arg23 fullShare x22 ∗ owns (c : Thread nD τ) arg24 fullShare x23
            ∗ owns (c : Thread nD τ) arg25 fullShare (out1_24 x0 x1 x2 x6 x7 x8 x9 x16 x17)
            ∗ owns (c : Thread nD τ) arg26 fullShare (out1_25 x0 x1 x3 x6 x7 x10 x11 x18 x19)
            ∗ owns (c : Thread nD τ) arg27 fullShare (out1_26 x0 x1 x4 x6 x7 x12 x13 x20 x21)
            ∗ owns (c : Thread nD τ) arg28 fullShare (out1_27 x0 x1 x5 x6 x7 x14 x15 x22 x23)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg19 harg19 arg20 harg20
            arg21 harg21 arg22 harg22 arg23 harg23 arg24 harg24 arg25 harg25 arg26 harg26 arg27 harg27 arg28 harg28) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
    ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩,
    ⟨%d24, %f24, -, H24⟩, ⟨%d25, %f25, -, H25⟩, ⟨%d26, %f26, -, H26⟩, ⟨%d27, %f27, -, H27⟩, Hk⟩
  subst hf0; subst hf1; subst hf2; subst hf3; subst hf4; subst hf5; subst hf6; subst hf7; subst hf8; subst hf9; subst hf10; subst hf11
  subst hf12; subst hf13; subst hf14; subst hf15; subst hf16; subst hf17; subst hf18; subst hf19; subst hf20; subst hf21; subst hf22; subst hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    exact View.read_writes_eq_canon _ _ _ (cover1_24 _)
  isplitl [H25]
  · iexists _; isplitr
    swap; · iexact H25
    ipureintro
    exact View.read_writes_eq_canon _ _ _ (cover1_25 _)
  isplitl [H26]
  · iexists _; isplitr
    swap; · iexact H26
    ipureintro
    exact View.read_writes_eq_canon _ _ _ (cover1_26 _)
  iexists _; isplitr
  swap; · iexact H27
  ipureintro
  exact View.read_writes_eq_canon _ _ _ (cover1_27 _)

/-! ## The pipeline's proof data -/

/-- Region 1's proof data on core `c`: the arrays as the region finds them; after the body at grid point `t` each
    input's buffer still at its block and each output's at its stored value of the nine input blocks it depends
    on; the invariant that of a body with one control case (the scoped rest and the generator register untouched);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => out1_24 (iblk1 V c 0 t) (iblk1 V c 1 t) (iblk1 V c 2 t) (iblk1 V c 6 t) (iblk1 V c 7 t) (iblk1 V c 8 t) (iblk1 V c 9 t) (iblk1 V c 16 t) (iblk1 V c 17 t)
    | ⟨25, _⟩ => out1_25 (iblk1 V c 0 t) (iblk1 V c 1 t) (iblk1 V c 3 t) (iblk1 V c 6 t) (iblk1 V c 7 t) (iblk1 V c 10 t) (iblk1 V c 11 t) (iblk1 V c 18 t) (iblk1 V c 19 t)
    | ⟨26, _⟩ => out1_26 (iblk1 V c 0 t) (iblk1 V c 1 t) (iblk1 V c 4 t) (iblk1 V c 6 t) (iblk1 V c 7 t) (iblk1 V c 12 t) (iblk1 V c 13 t) (iblk1 V c 20 t) (iblk1 V c 21 t)
    | ⟨27, _⟩ => out1_27 (iblk1 V c 0 t) (iblk1 V c 1 t) (iblk1 V c 5 t) (iblk1 V c 6 t) (iblk1 V c 7 t) (iblk1 V c 14 t) (iblk1 V c 15 t) (iblk1 V c 22 t) (iblk1 V c 23 t)
    | ⟨_ + 28, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) :
    (dat1 V c).after 24 t = out1_24 (iblk1 V c 0 t) (iblk1 V c 1 t) (iblk1 V c 2 t) (iblk1 V c 6 t) (iblk1 V c 7 t) (iblk1 V c 8 t) (iblk1 V c 9 t) (iblk1 V c 16 t) (iblk1 V c 17 t) := by dsimp only [dat1]
theorem after1_25 (c : Dev nD) (t : Fin cfg1.N) :
    (dat1 V c).after 25 t = out1_25 (iblk1 V c 0 t) (iblk1 V c 1 t) (iblk1 V c 3 t) (iblk1 V c 6 t) (iblk1 V c 7 t) (iblk1 V c 10 t) (iblk1 V c 11 t) (iblk1 V c 18 t) (iblk1 V c 19 t) := by dsimp only [dat1]
theorem after1_26 (c : Dev nD) (t : Fin cfg1.N) :
    (dat1 V c).after 26 t = out1_26 (iblk1 V c 0 t) (iblk1 V c 1 t) (iblk1 V c 4 t) (iblk1 V c 6 t) (iblk1 V c 7 t) (iblk1 V c 12 t) (iblk1 V c 13 t) (iblk1 V c 20 t) (iblk1 V c 21 t) := by dsimp only [dat1]
theorem after1_27 (c : Dev nD) (t : Fin cfg1.N) :
    (dat1 V c).after 27 t = out1_27 (iblk1 V c 0 t) (iblk1 V c 1 t) (iblk1 V c 5 t) (iblk1 V c 6 t) (iblk1 V c 7 t) (iblk1 V c 14 t) (iblk1 V c 15 t) (iblk1 V c 22 t) (iblk1 V c 23 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d

/-! ## The body obligation, at a generic grid point -/

/-- What the body is called with at grid point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d))
    ∗ (∃ d, owns (c : Thread nD τ) (st1_26 t) fullShare ((dat1 V c).before 26 t d))
    ∗ (∃ d, owns (c : Thread nD τ) (st1_27 t) fullShare ((dat1 V c).before 27 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t)
    ∗ owns (c : Thread nD τ) (st1_26 t) fullShare ((dat1 V c).after 26 t)
    ∗ owns (c : Thread nD τ) (st1_27 t) fullShare ((dat1 V c).after 27 t))

set_option maxHeartbeats 4000000 in
/-- The body at any grid point: the inputs' buffers hold their blocks, so the body's run applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel1 c Set.univ _ _ _ _ _ _ _ _ _ _ _ _ _ _ _ _ _ _ _ _ _ _ _ _ _ _ _ _ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Regs.lean ====
/-
  The kernel program's run as ten items over named buffer contents, and its two kernel regions as segment records.

  Between two items a core holds every unscoped buffer at a known valuation beside its generator register and the
  fact that it owes nothing. The host stretches move the valuation by the operations' own fold. A kernel region is
  entered with its windows' arrays at the current valuation, leaves each INPUT array as it found it and each OUTPUT
  array at what its grid points wrote back, and leaves every other buffer alone: region 0 changes only the projected
  rows, region 1 only the four result arrays. `outsB` names exactly those contents — the projected rows after region 0,
  and, over the valuation that choice fixes at region 1's entry, the four results after region 1 — so that the
  generated valuations `V2` and `V10` at that choice ARE the regions' exit contents.
-/
import proofs.«407185_j88871463289477_1_alg».proof.Proof.Gen.KernelIdeal.Regions
import proofs.«407185_j88871463289477_1_alg».proof.Proof.KI.R0
import proofs.«407185_j88871463289477_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions leave -/

/-- Region 0's entry contents, read at the TensorCore's references. -/
abbrev En0 : (c : Dev nD) → (b : Ref sig .tc) → Buf (Elt F) ((c : Thread nD τ).loc b) := fun c b => V1 m c b

/-- The projected rows as region 0 leaves them: its output window's write-backs folded over the grid. -/
def erOut (c : Dev nD) : Buf (Elt F) ((c : Thread nD τ).loc main_v2) := (dat0 (En0 m) c).arrAt 3 cfg0.N

/-- First stage: region 0's output named, nothing else. -/
def outsA : Outs (F := F) := fun _ r c => if h : r = main_v2 then h ▸ erOut m c else V1 m c r

theorem outsA_v2 (c : Dev nD) : outsA m 2 main_v2 c = erOut m c := by
  unfold outsA; rw [dif_pos rfl]

/-- Region 1's entry contents under that choice. -/
abbrev En1 : (c : Dev nD) → (b : Ref sig .tc) → Buf (Elt F) ((c : Thread nD τ).loc b) := fun c b => V9 m (outsA m) c b

/-- Second stage: also the four result arrays as region 1 leaves them. -/
def outsB : Outs (F := F) := fun J r c =>
  if h : r = main_v74_0 then h ▸ ((dat1 (En1 m) c).arrAt 24 cfg1.N : Buf (Elt F) ((c : Thread nD τ).loc main_v74_0))
  else if h : r = main_v74_1 then h ▸ ((dat1 (En1 m) c).arrAt 25 cfg1.N : Buf (Elt F) ((c : Thread nD τ).loc main_v74_1))
  else if h : r = main_v74_2 then h ▸ ((dat1 (En1 m) c).arrAt 26 cfg1.N : Buf (Elt F) ((c : Thread nD τ).loc main_v74_2))
  else if h : r = main_v74_3 then h ▸ ((dat1 (En1 m) c).arrAt 27 cfg1.N : Buf (Elt F) ((c : Thread nD τ).loc main_v74_3))
  else outsA m J r c

theorem outsB_v2 (c : Dev nD) : outsB m 2 main_v2 c = erOut m c := by
  unfold outsB
  rw [dif_neg (by decide), dif_neg (by decide), dif_neg (by decide), dif_neg (by decide)]
  exact outsA_v2 m c
theorem outsB_r0 (c : Dev nD) : outsB m 10 main_v74_0 c = (dat1 (En1 m) c).arrAt 24 cfg1.N := by
  unfold outsB; rw [dif_pos rfl]
theorem outsB_r1 (c : Dev nD) : outsB m 10 main_v74_1 c = (dat1 (En1 m) c).arrAt 25 cfg1.N := by
  unfold outsB; rw [dif_neg (by decide), dif_pos rfl]
theorem outsB_r2 (c : Dev nD) : outsB m 10 main_v74_2 c = (dat1 (En1 m) c).arrAt 26 cfg1.N := by
  unfold outsB; rw [dif_neg (by decide), dif_neg (by decide), dif_pos rfl]
theorem outsB_r3 (c : Dev nD) : outsB m 10 main_v74_3 c = (dat1 (En1 m) c).arrAt 27 cfg1.N := by
  unfold outsB; rw [dif_neg (by decide), dif_neg (by decide), dif_neg (by decide), dif_pos rfl]

/-- The second stage does not move the valuations up to region 1's entry: they read `outs` only at the projected rows. -/
theorem V2B (c : Dev nD) : V2 m (outsB m) c = V2 m (outsA m) c := by
  show Function.update (V1 m c) main_v2 (outsB m 2 main_v2 c) = Function.update (V1 m c) main_v2 (outsA m 2 main_v2 c)
  rw [outsB_v2, outsA_v2]
theorem V9B (c : Dev nD) : V9 m (outsB m) c = V9 m (outsA m) c := by
  show StableHlo.after hostOps1_6 (StableHlo.after hostOps1_5 (StableHlo.after hostOps1_4 (StableHlo.after hostOps1_3
    (StableHlo.after hostOps1_2 (StableHlo.after hostOps1_1 (StableHlo.after hostOps1 (V2 m (outsB m) c))))))) = _
  rw [V2B]

/-! ## Region 0's exit contents are `V2` at that choice -/

theorem V2_v2 (c : Dev nD) : V2 m (outsB m) c main_v2 = erOut m c := by
  show Function.update (V1 m c) main_v2 (outsB m 2 main_v2 c) main_v2 = _
  rw [Function.update_self, outsB_v2]

theorem hF0 (c : Dev nD) : ∀ w : Fin cfg0.W, (dat0 (En0 m) c).arrAt w cfg0.N = V2 m (outsB m) c (Pipeline.arrRef spec0 w)
  | ⟨0, _⟩ => ((dat0 (En0 m) c).arrAt_in 0 rfl _).trans ((A_eq0 (En0 m) c 0).trans (V2_of m (outsB m) c _ (by decide)).symm)
  | ⟨1, _⟩ => ((dat0 (En0 m) c).arrAt_in 1 rfl _).trans ((A_eq0 (En0 m) c 1).trans (V2_of m (outsB m) c _ (by decide)).symm)
  | ⟨2, _⟩ => ((dat0 (En0 m) c).arrAt_in 2 rfl _).trans ((A_eq0 (En0 m) c 2).trans (V2_of m (outsB m) c _ (by decide)).symm)
  | ⟨3, _⟩ => (V2_v2 m c).symm

theorem hrest0 (c : Dev nD) : ∀ b, b ∉ Finset.univ.image (Pipeline.arrRef spec0) → V2 m (outsB m) c b = V1 m c b :=
  fun b hb => V2_of m (outsB m) c b (by
    intro h
    rw [List.mem_singleton] at h
    exact hb (Finset.mem_image.mpr ⟨3, Finset.mem_univ _, h.symm⟩))

/-! ## Region 1's exit contents are `V10` at that choice -/

theorem V10_r0 (c : Dev nD) : V10 m (outsB m) c main_v74_0 = (dat1 (En1 m) c).arrAt 24 cfg1.N := by
  rw [← outsB_r0]
  show Function.update (Function.update (Function.update (Function.update (V9 m (outsB m) c) main_v74_0 (outsB m 10 main_v74_0 c)) main_v74_1 (outsB m 10 main_v74_1 c)) main_v74_2 (outsB m 10 main_v74_2 c)) main_v74_3 (outsB m 10 main_v74_3 c) main_v74_0 = _
  rw [Function.update_of_ne (StableHlo.devRef_ne_of_ne (by decide)), Function.update_of_ne (StableHlo.devRef_ne_of_ne (by decide)),
    Function.update_of_ne (StableHlo.devRef_ne_of_ne (by decide)), Function.update_self]
theorem V10_r1 (c : Dev nD) : V10 m (outsB m) c main_v74_1 = (dat1 (En1 m) c).arrAt 25 cfg1.N := by
  rw [← outsB_r1]
  show Function.update (Function.update (Function.update (Function.update (V9 m (outsB m) c) main_v74_0 (outsB m 10 main_v74_0 c)) main_v74_1 (outsB m 10 main_v74_1 c)) main_v74_2 (outsB m 10 main_v74_2 c)) main_v74_3 (outsB m 10 main_v74_3 c) main_v74_1 = _
  rw [Function.update_of_ne (StableHlo.devRef_ne_of_ne (by decide)), Function.update_of_ne (StableHlo.devRef_ne_of_ne (by decide)), Function.update_self]
theorem V10_r2 (c : Dev nD) : V10 m (outsB m) c main_v74_2 = (dat1 (En1 m) c).arrAt 26 cfg1.N := by
  rw [← outsB_r2]
  show Function.update (Function.update (Function.update (Function.update (V9 m (outsB m) c) main_v74_0 (outsB m 10 main_v74_0 c)) main_v74_1 (outsB m 10 main_v74_1 c)) main_v74_2 (outsB m 10 main_v74_2 c)) main_v74_3 (outsB m 10 main_v74_3 c) main_v74_2 = _
  rw [Function.update_of_ne (StableHlo.devRef_ne_of_ne (by decide)), Function.update_self]
theorem V10_r3 (c : Dev nD) : V10 m (outsB m) c main_v74_3 = (dat1 (En1 m) c).arrAt 27 cfg1.N := by
  rw [← outsB_r3]
  show Function.update (Function.update (Function.update (Function.update (V9 m (outsB m) c) main_v74_0 (outsB m 10 main_v74_0 c)) main_v74_1 (outsB m 10 main_v74_1 c)) main_v74_2 (outsB m 10 main_v74_2 c)) main_v74_3 (outsB m 10 main_v74_3 c) main_v74_3 = _
  rw [Function.update_self]

/-- An input window's array leaves region 1 as it entered: it is none of the four result arrays. -/
theorem hF1_in (c : Dev nD) (w : Fin cfg1.W) (hw : (cfg1.win w).isOut = false)
    (hr : Pipeline.arrRef spec1 w ∉ ([main_v74_0, main_v74_1, main_v74_2, main_v74_3] : List (Ref sig .tc))) :
    (dat1 (En1 m) c).arrAt w cfg1.N = V10 m (outsB m) c (Pipeline.arrRef spec1 w) :=
  ((dat1 (En1 m) c).arrAt_in w hw _).trans ((A_eq1 (En1 m) c w).trans
    ((congrFun (V9B m c) _).symm.trans (V10_of m (outsB m) c _ hr).symm))

theorem hF1_0 (c : Dev nD) : (dat1 (En1 m) c).arrAt 0 cfg1.N = V10 m (outsB m) c (Pipeline.arrRef spec1 0) :=
  hF1_in m c 0 rfl (by decide)
theorem hF1_1 (c : Dev nD) : (dat1 (En1 m) c).arrAt 1 cfg1.N = V10 m (outsB m) c (Pipeline.arrRef spec1 1) :=
  hF1_in m c 1 rfl (by decide)
theorem hF1_2 (c : Dev nD) : (dat1 (En1 m) c).arrAt 2 cfg1.N = V10 m (outsB m) c (Pipeline.arrRef spec1 2) :=
  hF1_in m c 2 rfl (by decide)
theorem hF1_3 (c : Dev nD) : (dat1 (En1 m) c).arrAt 3 cfg1.N = V10 m (outsB m) c (Pipeline.arrRef spec1 3) :=
  hF1_in m c 3 rfl (by decide)
theorem hF1_4 (c : Dev nD) : (dat1 (En1 m) c).arrAt 4 cfg1.N = V10 m (outsB m) c (Pipeline.arrRef spec1 4) :=
  hF1_in m c 4 rfl (by decide)
theorem hF1_5 (c : Dev nD) : (dat1 (En1 m) c).arrAt 5 cfg1.N = V10 m (outsB m) c (Pipeline.arrRef spec1 5) :=
  hF1_in m c 5 rfl (by decide)
theorem hF1_6 (c : Dev nD) : (dat1 (En1 m) c).arrAt 6 cfg1.N = V10 m (outsB m) c (Pipeline.arrRef spec1 6) :=
  hF1_in m c 6 rfl (by decide)
theorem hF1_7 (c : Dev nD) : (dat1 (En1 m) c).arrAt 7 cfg1.N = V10 m (outsB m) c (Pipeline.arrRef spec1 7) :=
  hF1_in m c 7 rfl (by decide)
theorem hF1_8 (c : Dev nD) : (dat1 (En1 m) c).arrAt 8 cfg1.N = V10 m (outsB m) c (Pipeline.arrRef spec1 8) :=
  hF1_in m c 8 rfl (by decide)
theorem hF1_9 (c : Dev nD) : (dat1 (En1 m) c).arrAt 9 cfg1.N = V10 m (outsB m) c (Pipeline.arrRef spec1 9) :=
  hF1_in m c 9 rfl (by decide)
theorem hF1_10 (c : Dev nD) : (dat1 (En1 m) c).arrAt 10 cfg1.N = V10 m (outsB m) c (Pipeline.arrRef spec1 10) :=
  hF1_in m c 10 rfl (by decide)
theorem hF1_11 (c : Dev nD) : (dat1 (En1 m) c).arrAt 11 cfg1.N = V10 m (outsB m) c (Pipeline.arrRef spec1 11) :=
  hF1_in m c 11 rfl (by decide)
theorem hF1_12 (c : Dev nD) : (dat1 (En1 m) c).arrAt 12 cfg1.N = V10 m (outsB m) c (Pipeline.arrRef spec1 12) :=
  hF1_in m c 12 rfl (by decide)
theorem hF1_13 (c : Dev nD) : (dat1 (En1 m) c).arrAt 13 cfg1.N = V10 m (outsB m) c (Pipeline.arrRef spec1 13) :=
  hF1_in m c 13 rfl (by decide)
theorem hF1_14 (c : Dev nD) : (dat1 (En1 m) c).arrAt 14 cfg1.N = V10 m (outsB m) c (Pipeline.arrRef spec1 14) :=
  hF1_in m c 14 rfl (by decide)
theorem hF1_15 (c : Dev nD) : (dat1 (En1 m) c).arrAt 15 cfg1.N = V10 m (outsB m) c (Pipeline.arrRef spec1 15) :=
  hF1_in m c 15 rfl (by decide)
theorem hF1_16 (c : Dev nD) : (dat1 (En1 m) c).arrAt 16 cfg1.N = V10 m (outsB m) c (Pipeline.arrRef spec1 16) :=
  hF1_in m c 16 rfl (by decide)
theorem hF1_17 (c : Dev nD) : (dat1 (En1 m) c).arrAt 17 cfg1.N = V10 m (outsB m) c (Pipeline.arrRef spec1 17) :=
  hF1_in m c 17 rfl (by decide)
theorem hF1_18 (c : Dev nD) : (dat1 (En1 m) c).arrAt 18 cfg1.N = V10 m (outsB m) c (Pipeline.arrRef spec1 18) :=
  hF1_in m c 18 rfl (by decide)
theorem hF1_19 (c : Dev nD) : (dat1 (En1 m) c).arrAt 19 cfg1.N = V10 m (outsB m) c (Pipeline.arrRef spec1 19) :=
  hF1_in m c 19 rfl (by decide)
theorem hF1_20 (c : Dev nD) : (dat1 (En1 m) c).arrAt 20 cfg1.N = V10 m (outsB m) c (Pipeline.arrRef spec1 20) :=
  hF1_in m c 20 rfl (by decide)
theorem hF1_21 (c : Dev nD) : (dat1 (En1 m) c).arrAt 21 cfg1.N = V10 m (outsB m) c (Pipeline.arrRef spec1 21) :=
  hF1_in m c 21 rfl (by decide)
theorem hF1_22 (c : Dev nD) : (dat1 (En1 m) c).arrAt 22 cfg1.N = V10 m (outsB m) c (Pipeline.arrRef spec1 22) :=
  hF1_in m c 22 rfl (by decide)
theorem hF1_23 (c : Dev nD) : (dat1 (En1 m) c).arrAt 23 cfg1.N = V10 m (outsB m) c (Pipeline.arrRef spec1 23) :=
  hF1_in m c 23 rfl (by decide)

set_option maxHeartbeats 2000000 in
theorem hF1 (c : Dev nD) : ∀ w : Fin cfg1.W, (dat1 (En1 m) c).arrAt w cfg1.N = V10 m (outsB m) c (Pipeline.arrRef spec1 w) := fun
  | 0 => hF1_0 m c
  | 1 => hF1_1 m c
  | 2 => hF1_2 m c
  | 3 => hF1_3 m c
  | 4 => hF1_4 m c
  | 5 => hF1_5 m c
  | 6 => hF1_6 m c
  | 7 => hF1_7 m c
  | 8 => hF1_8 m c
  | 9 => hF1_9 m c
  | 10 => hF1_10 m c
  | 11 => hF1_11 m c
  | 12 => hF1_12 m c
  | 13 => hF1_13 m c
  | 14 => hF1_14 m c
  | 15 => hF1_15 m c
  | 16 => hF1_16 m c
  | 17 => hF1_17 m c
  | 18 => hF1_18 m c
  | 19 => hF1_19 m c
  | 20 => hF1_20 m c
  | 21 => hF1_21 m c
  | 22 => hF1_22 m c
  | 23 => hF1_23 m c
  | 24 => (V10_r0 m c).symm
  | 25 => (V10_r1 m c).symm
  | 26 => (V10_r2 m c).symm
  | 27 => (V10_r3 m c).symm
  | ⟨_ + 28, h⟩ => absurd h (Nat.not_lt.2 (Nat.le_add_left _ _))

theorem hrest1 (c : Dev nD) : ∀ b, b ∉ Finset.univ.image (Pipeline.arrRef spec1) → V10 m (outsB m) c b = V9 m (outsA m) c b :=
  fun b hb => (V10_of m (outsB m) c b (by
    intro h
    simp only [List.mem_cons, List.mem_singleton, List.not_mem_nil, or_false] at h
    rcases h with h | h | h | h
    · exact hb (Finset.mem_image.mpr ⟨24, Finset.mem_univ _, h.symm⟩)
    · exact hb (Finset.mem_image.mpr ⟨25, Finset.mem_univ _, h.symm⟩)
    · exact hb (Finset.mem_image.mpr ⟨26, Finset.mem_univ _, h.symm⟩)
    · exact hb (Finset.mem_image.mpr ⟨27, Finset.mem_univ _, h.symm⟩))).trans (congrFun (V9B m c) _)

/-! ## The proof data family and the rest state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c

abbrev 𝒱₀ : Variants := Variants.none
abbrev Lnone : GSem nD τ sig → Finset Unit := fun _ => ∅
abbrev lv0 : GSem nD τ sig → Unit → ℕ := fun _ _ => 0

/-- What rides beside the buffers through every item: the generator register at some state, and nothing owed. -/
abbrev Rest (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered with every unscoped buffer at `V1`, left with them at `V2`. -/
def reg0 : Pipeline.RegionSeg (pcfgs (F := F)) adm (pdats m) () defs₀ 𝒱₀ Lnone lv0 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ Lnone lv0 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outsB m) c) ∗ Rest c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (fun b => V2 m (outsB m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `V9`, left with them at `V10`. -/
def reg1 : Pipeline.RegionSeg (pcfgs (F := F)) adm (pdats m) () defs₀ 𝒱₀ Lnone lv0 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ Lnone lv0 1 fun _ _ => rfl
  pre c := iprop(StableHlo.held (c : Thread nD τ) (Pipeline.ucRefs τ sig) (V9 m (outsB m) c) ∗ Rest c)
  post c := iprop(StableHlo.held (c : Thread nD τ) (Pipeline.ucRefs τ sig) (V10 m (outsB m) c) ∗ Rest c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none, V9B]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (fun b => V10 m (outsB m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunAll.lean ====
/-
  The idealized kernel program's run, read whole: from any memory with zero counters every weakly fair execution
  terminates, nothing faulting, and every unscoped buffer of every core ends at the last valuation — the launch memory
  moved by the seven host stretches' folds and by what the two kernel regions write back. The argument arrays and the
  four result arrays are then read off that valuation.
-/
import proofs.«407185_j88871463289477_1_alg».proof.Proof.KI.Regs
import proofs.«407185_j88871463289477_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    every unscoped buffer of every core at the last valuation. -/
theorem run_all : θ_run defs (onTc (τ := τ) (main (F := F))) ⟨m, fun _ => 0, ρ⟩ (fun r => ∀ c : Dev nD,
    ∀ b ∈ Pipeline.ucRefs τ sig, r.2.mem ((c : Thread nD τ).1, b) = V10 m (outsB m) c b) :=
  Cert.KernelIdeal.GenP.run_cond m emb₁ () 𝒱₀ Lnone lv0 (fun _ _ => rfl) ρ (outsB m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach Lnone lv0 fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl) (reg1 m) (fun c => .rfl) (fun c => .rfl)

end Cert.KernelIdeal.Hand

end
-- ==== Proof.KI.Ends.lean ====
/-
  What the idealized kernel program's run leaves, read off the last valuation: every argument array as launched (no host
  operation writes one, a kernel region only reads them), and each of the four result arrays at what the second
  kernel region's grid points wrote back.
-/
import proofs.«407185_j88871463289477_1_alg».proof.Proof.KI.RunAll

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The program runs to the end, faults nowhere, and leaves its arguments unchanged. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨(h c (Proc.devRef .tc main_arg0) (Finset.mem_filter.mpr ⟨StableHlo.devRef_mem_tcRefs main_arg0, by decide⟩)).trans (V10_main_arg0 m (outsB m) c),
      (h c (Proc.devRef .tc main_arg1) (Finset.mem_filter.mpr ⟨StableHlo.devRef_mem_tcRefs main_arg1, by decide⟩)).trans (V10_main_arg1 m (outsB m) c),
      (h c (Proc.devRef .tc main_arg2) (Finset.mem_filter.mpr ⟨StableHlo.devRef_mem_tcRefs main_arg2, by decide⟩)).trans (V10_main_arg2 m (outsB m) c),
      (h c (Proc.devRef .tc main_arg3) (Finset.mem_filter.mpr ⟨StableHlo.devRef_mem_tcRefs main_arg3, by decide⟩)).trans (V10_main_arg3 m (outsB m) c),
      (h c (Proc.devRef .tc main_arg4) (Finset.mem_filter.mpr ⟨StableHlo.devRef_mem_tcRefs main_arg4, by decide⟩)).trans (V10_main_arg4 m (outsB m) c),
      (h c (Proc.devRef .tc main_arg5) (Finset.mem_filter.mpr ⟨StableHlo.devRef_mem_tcRefs main_arg5, by decide⟩)).trans (V10_main_arg5 m (outsB m) c),
      (h c (Proc.devRef .tc main_arg6) (Finset.mem_filter.mpr ⟨StableHlo.devRef_mem_tcRefs main_arg6, by decide⟩)).trans (V10_main_arg6 m (outsB m) c),
      (h c (Proc.devRef .tc main_arg7) (Finset.mem_filter.mpr ⟨StableHlo.devRef_mem_tcRefs main_arg7, by decide⟩)).trans (V10_main_arg7 m (outsB m) c),
      (h c (Proc.devRef .tc main_arg8) (Finset.mem_filter.mpr ⟨StableHlo.devRef_mem_tcRefs main_arg8, by decide⟩)).trans (V10_main_arg8 m (outsB m) c),
      (h c (Proc.devRef .tc main_arg9) (Finset.mem_filter.mpr ⟨StableHlo.devRef_mem_tcRefs main_arg9, by decide⟩)).trans (V10_main_arg9 m (outsB m) c),
      (h c (Proc.devRef .tc main_arg10) (Finset.mem_filter.mpr ⟨StableHlo.devRef_mem_tcRefs main_arg10, by decide⟩)).trans (V10_main_arg10 m (outsB m) c),
      (h c (Proc.devRef .tc main_arg11) (Finset.mem_filter.mpr ⟨StableHlo.devRef_mem_tcRefs main_arg11, by decide⟩)).trans (V10_main_arg11 m (outsB m) c),
      (h c (Proc.devRef .tc main_arg12) (Finset.mem_filter.mpr ⟨StableHlo.devRef_mem_tcRefs main_arg12, by decide⟩)).trans (V10_main_arg12 m (outsB m) c),
      (h c (Proc.devRef .tc main_arg13) (Finset.mem_filter.mpr ⟨StableHlo.devRef_mem_tcRefs main_arg13, by decide⟩)).trans (V10_main_arg13 m (outsB m) c),
      (h c (Proc.devRef .tc main_arg14) (Finset.mem_filter.mpr ⟨StableHlo.devRef_mem_tcRefs main_arg14, by decide⟩)).trans (V10_main_arg14 m (outsB m) c),
      (h c (Proc.devRef .tc main_arg15) (Finset.mem_filter.mpr ⟨StableHlo.devRef_mem_tcRefs main_arg15, by decide⟩)).trans (V10_main_arg15 m (outsB m) c),
      (h c (Proc.devRef .tc main_arg16) (Finset.mem_filter.mpr ⟨StableHlo.devRef_mem_tcRefs main_arg16, by decide⟩)).trans (V10_main_arg16 m (outsB m) c),
      (h c (Proc.devRef .tc main_arg17) (Finset.mem_filter.mpr ⟨StableHlo.devRef_mem_tcRefs main_arg17, by decide⟩)).trans (V10_main_arg17 m (outsB m) c),
      (h c (Proc.devRef .tc main_arg18) (Finset.mem_filter.mpr ⟨StableHlo.devRef_mem_tcRefs main_arg18, by decide⟩)).trans (V10_main_arg18 m (outsB m) c),
      (h c (Proc.devRef .tc main_arg19) (Finset.mem_filter.mpr ⟨StableHlo.devRef_mem_tcRefs main_arg19, by decide⟩)).trans (V10_main_arg19 m (outsB m) c),
      (h c (Proc.devRef .tc main_arg20) (Finset.mem_filter.mpr ⟨StableHlo.devRef_mem_tcRefs main_arg20, by decide⟩)).trans (V10_main_arg20 m (outsB m) c),
      (h c (Proc.devRef .tc main_arg21) (Finset.mem_filter.mpr ⟨StableHlo.devRef_mem_tcRefs main_arg21, by decide⟩)).trans (V10_main_arg21 m (outsB m) c),
      (h c (Proc.devRef .tc main_arg22) (Finset.mem_filter.mpr ⟨StableHlo.devRef_mem_tcRefs main_arg22, by decide⟩)).trans (V10_main_arg22 m (outsB m) c),
      (h c (Proc.devRef .tc main_arg23) (Finset.mem_filter.mpr ⟨StableHlo.devRef_mem_tcRefs main_arg23, by decide⟩)).trans (V10_main_arg23 m (outsB m) c),
      (h c (Proc.devRef .tc main_arg24) (Finset.mem_filter.mpr ⟨StableHlo.devRef_mem_tcRefs main_arg24, by decide⟩)).trans (V10_main_arg24 m (outsB m) c)⟩) (run_all m ρ)

/-- The same run with the four result arrays named: each is the second region's output window folded over its grid. -/
theorem run_results : θ_run defs (onTc (τ := τ) (main (F := F))) ⟨m, fun _ => 0, ρ⟩ (fun r => ∀ c : Dev nD,
      r.2.mem ((c.tc : Thread nD τ).loc main_v74_0) = (dat1 (En1 m) c).arrAt 24 cfg1.N
      ∧ r.2.mem ((c.tc : Thread nD τ).loc main_v74_1) = (dat1 (En1 m) c).arrAt 25 cfg1.N
      ∧ r.2.mem ((c.tc : Thread nD τ).loc main_v74_2) = (dat1 (En1 m) c).arrAt 26 cfg1.N
      ∧ r.2.mem ((c.tc : Thread nD τ).loc main_v74_3) = (dat1 (En1 m) c).arrAt 27 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨(h c (Proc.devRef .tc main_v74_0) (Finset.mem_filter.mpr ⟨StableHlo.devRef_mem_tcRefs main_v74_0, by decide⟩)).trans (V10_r0 m c),
      (h c (Proc.devRef .tc main_v74_1) (Finset.mem_filter.mpr ⟨StableHlo.devRef_mem_tcRefs main_v74_1, by decide⟩)).trans (V10_r1 m c),
      (h c (Proc.devRef .tc main_v74_2) (Finset.mem_filter.mpr ⟨StableHlo.devRef_mem_tcRefs main_v74_2, by decide⟩)).trans (V10_r2 m c),
      (h c (Proc.devRef .tc main_v74_3) (Finset.mem_filter.mpr ⟨StableHlo.devRef_mem_tcRefs main_v74_3, by decide⟩)).trans (V10_r3 m c),
      (h c (Proc.devRef .tc main_arg0) (Finset.mem_filter.mpr ⟨StableHlo.devRef_mem_tcRefs main_arg0, by decide⟩)).trans (V10_main_arg0 m (outsB m) c),
      (h c (Proc.devRef .tc main_arg1) (Finset.mem_filter.mpr ⟨StableHlo.devRef_mem_tcRefs main_arg1, by decide⟩)).trans (V10_main_arg1 m (outsB m) c),
      (h c (Proc.devRef .tc main_arg2) (Finset.mem_filter.mpr ⟨StableHlo.devRef_mem_tcRefs main_arg2, by decide⟩)).trans (V10_main_arg2 m (outsB m) c),
      (h c (Proc.devRef .tc main_arg3) (Finset.mem_filter.mpr ⟨StableHlo.devRef_mem_tcRefs main_arg3, by decide⟩)).trans (V10_main_arg3 m (outsB m) c),
      (h c (Proc.devRef .tc main_arg4) (Finset.mem_filter.mpr ⟨StableHlo.devRef_mem_tcRefs main_arg4, by decide⟩)).trans (V10_main_arg4 m (outsB m) c),
      (h c (Proc.devRef .tc main_arg5) (Finset.mem_filter.mpr ⟨StableHlo.devRef_mem_tcRefs main_arg5, by decide⟩)).trans (V10_main_arg5 m (outsB m) c),
      (h c (Proc.devRef .tc main_arg6) (Finset.mem_filter.mpr ⟨StableHlo.devRef_mem_tcRefs main_arg6, by decide⟩)).trans (V10_main_arg6 m (outsB m) c),
      (h c (Proc.devRef .tc main_arg7) (Finset.mem_filter.mpr ⟨StableHlo.devRef_mem_tcRefs main_arg7, by decide⟩)).trans (V10_main_arg7 m (outsB m) c),
      (h c (Proc.devRef .tc main_arg8) (Finset.mem_filter.mpr ⟨StableHlo.devRef_mem_tcRefs main_arg8, by decide⟩)).trans (V10_main_arg8 m (outsB m) c),
      (h c (Proc.devRef .tc main_arg9) (Finset.mem_filter.mpr ⟨StableHlo.devRef_mem_tcRefs main_arg9, by decide⟩)).trans (V10_main_arg9 m (outsB m) c),
      (h c (Proc.devRef .tc main_arg10) (Finset.mem_filter.mpr ⟨StableHlo.devRef_mem_tcRefs main_arg10, by decide⟩)).trans (V10_main_arg10 m (outsB m) c),
      (h c (Proc.devRef .tc main_arg11) (Finset.mem_filter.mpr ⟨StableHlo.devRef_mem_tcRefs main_arg11, by decide⟩)).trans (V10_main_arg11 m (outsB m) c),
      (h c (Proc.devRef .tc main_arg12) (Finset.mem_filter.mpr ⟨StableHlo.devRef_mem_tcRefs main_arg12, by decide⟩)).trans (V10_main_arg12 m (outsB m) c),
      (h c (Proc.devRef .tc main_arg13) (Finset.mem_filter.mpr ⟨StableHlo.devRef_mem_tcRefs main_arg13, by decide⟩)).trans (V10_main_arg13 m (outsB m) c),
      (h c (Proc.devRef .tc main_arg14) (Finset.mem_filter.mpr ⟨StableHlo.devRef_mem_tcRefs main_arg14, by decide⟩)).trans (V10_main_arg14 m (outsB m) c),
      (h c (Proc.devRef .tc main_arg15) (Finset.mem_filter.mpr ⟨StableHlo.devRef_mem_tcRefs main_arg15, by decide⟩)).trans (V10_main_arg15 m (outsB m) c),
      (h c (Proc.devRef .tc main_arg16) (Finset.mem_filter.mpr ⟨StableHlo.devRef_mem_tcRefs main_arg16, by decide⟩)).trans (V10_main_arg16 m (outsB m) c),
      (h c (Proc.devRef .tc main_arg17) (Finset.mem_filter.mpr ⟨StableHlo.devRef_mem_tcRefs main_arg17, by decide⟩)).trans (V10_main_arg17 m (outsB m) c),
      (h c (Proc.devRef .tc main_arg18) (Finset.mem_filter.mpr ⟨StableHlo.devRef_mem_tcRefs main_arg18, by decide⟩)).trans (V10_main_arg18 m (outsB m) c),
      (h c (Proc.devRef .tc main_arg19) (Finset.mem_filter.mpr ⟨StableHlo.devRef_mem_tcRefs main_arg19, by decide⟩)).trans (V10_main_arg19 m (outsB m) c),
      (h c (Proc.devRef .tc main_arg20) (Finset.mem_filter.mpr ⟨StableHlo.devRef_mem_tcRefs main_arg20, by decide⟩)).trans (V10_main_arg20 m (outsB m) c),
      (h c (Proc.devRef .tc main_arg21) (Finset.mem_filter.mpr ⟨StableHlo.devRef_mem_tcRefs main_arg21, by decide⟩)).trans (V10_main_arg21 m (outsB m) c),
      (h c (Proc.devRef .tc main_arg22) (Finset.mem_filter.mpr ⟨StableHlo.devRef_mem_tcRefs main_arg22, by decide⟩)).trans (V10_main_arg22 m (outsB m) c),
      (h c (Proc.devRef .tc main_arg23) (Finset.mem_filter.mpr ⟨StableHlo.devRef_mem_tcRefs main_arg23, by decide⟩)).trans (V10_main_arg23 m (outsB m) c),
      (h c (Proc.devRef .tc main_arg24) (Finset.mem_filter.mpr ⟨StableHlo.devRef_mem_tcRefs main_arg24, by decide⟩)).trans (V10_main_arg24 m (outsB m) c)⟩) (run_all m ρ)

end Cert.KernelIdeal.Hand

end
-- ==== Proof.RI.Run.lean ====
/-
  The reference program's run, stage by stage.

  What the reference computes, for 32768 (subject, object) pairs over 8192 objects:

  * the object contexts (8192 × 512) go through an affine map into 1024 columns; the first 512 columns of a
    projected row are the object's HEAD representation, the last 512 its TAIL representation;
  * for each pair the subject's head row and the object's tail row are picked out (an index below zero counts
    from the end: 8192 is added to it) and laid side by side: the pair context, 1024 wide;
  * the pair context goes through an affine map into 4096 columns and every entry is replaced by the larger of
    itself and zero: the hidden activation;
  * four affine heads (15, 11, 24 and 4 columns wide) read the hidden activation, and four more of the same
    widths read the pair's visual features (32768 × 4096);
  * the pair's two labels (s, o) name row 151·s + o of the frequency table (22801 × 51; below zero, 22801 is
    added): the pair's frequency row, 51 wide. Three fixed lists of columns (15, 11 and 24 long; a column
    below zero has 51 added) cut three bias blocks out of it; the fourth bias block, 4 wide, is the logarithm
    of [ exp of column 0, the sum over the 15 of exp, the sum over the 11 of exp, the sum over the 24 of exp ];
  * each result is visual head + context head, then + bias block, entry by entry, in that order of addition.

  Below: each stage as a pure function of the arrays it reads; the program's operations as consecutive lists,
  one per stage; for each list what it leaves in the buffers later stages read and that it leaves every buffer
  it does not write alone; the four results as functions of the twenty-five arguments; and the run.
-/
import proofs.«407185_j88871463289477_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-! ## The stages as pure functions -/

/-- The fifteen, eleven and twenty-four frequency columns of the three heads that take a block of the row. -/
def cols15 : IVec S15 32 := fun i => lit0 (S15.rowMajor i)
@[inherit_doc cols15] def cols11 : IVec S11 32 := fun i => lit1 (S11.rowMajor i)
@[inherit_doc cols15] def cols24 : IVec S24 32 := fun i => lit2 (S24.rowMajor i)

/-- The projected object rows: contexts times the projection matrix, plus the bias vector on every row. -/
def objProj (x : FVec F S8192x512 .f32) (w : FVec F S512x1024 .f32) (b : FVec F S1024 .f32) : FVec F S8192x1024 .f32 :=
  addf (Host.dotGeneral dot_S8192x512_S512x1024_S8192x1024_1_0_0_1_n_n none x w)
    (broadcastInDim S8192x1024 ![0, 1] bcast_S1x1024_S8192x1024_0_1 (broadcastInDim S1x1024 ![1] bcast_S1024_S1x1024_1 b))

/-- Columns 0 … 511 of the projected rows: the head representations. -/
def headHalf (y : FVec F S8192x1024 .f32) : FVec F S8192x512 .f32 :=
  extractStridedSlice S8192x512 ![0, 0] y slices_S8192x1024_S8192x512_0_0

/-- Columns 512 … 1023 of the projected rows: the tail representations. -/
def tailHalf (y : FVec F S8192x1024 .f32) : FVec F S8192x512 .f32 :=
  extractStridedSlice S8192x512 ![0, 512] y slices_S8192x1024_S8192x512_0_512

/-- Column 0 of a two-column integer array, as a vector. -/
def column0 (p : IVec S32768x2 32) : IVec S32768 32 :=
  shapeCast S32768 (extractStridedSlice S32768x1 ![0, 0] p slices_S32768x2_S32768x1_0_0) shapeCasts_S32768x1_S32768

/-- Column 1 of a two-column integer array, as a vector. -/
def column1 (p : IVec S32768x2 32) : IVec S32768 32 :=
  shapeCast S32768 (extractStridedSlice S32768x1 ![0, 1] p slices_S32768x2_S32768x1_0_1) shapeCasts_S32768x1_S32768

/-- An object index made a row number: below zero it has 8192 added; then stood up as a one-column array. -/
def objRow (k : IVec S32768 32) : IVec S32768x1 32 :=
  broadcastInDim S32768x1 ![0] bcast_S32768_S32768x1_0
    (select (cmpi .slt k (broadcastInDim S32768 ![] bcast_S_S32768 (constantI S_ 32 0#32)))
      (addi k (broadcastInDim S32768 ![] bcast_S_S32768 (constantI S_ 32 8192#32))) k)

/-- One 512-wide row of the table per pair, at the pair's row number. -/
def pickRows (tbl : FVec F S8192x512 .f32) (k : IVec S32768x1 32) : FVec F S32768x512 .f32 :=
  Host.gather gather_S8192x512_S32768x1_S32768x512_1_0_n_n_0_1_1512 tbl k

/-- The pair context: the subject's head row beside the object's tail row. -/
def pairCtx (hd tl : FVec F S32768x512 .f32) : FVec F S32768x1024 .f32 :=
  concatenate S32768x1024 1 [⟨S32768x512, hd⟩, ⟨S32768x512, tl⟩] concatenates_S32768x512_S32768x512_S32768x1024_d1

/-- The hidden activation: the pair context times the mixing matrix plus the bias vector, then the larger of each
    entry and zero. -/
def hiddenAct (p : FVec F S32768x1024 .f32) (w : FVec F S1024x4096 .f32) (b : FVec F S4096 .f32) : FVec F S32768x4096 .f32 :=
  maximumf
    (addf (Host.dotGeneral dot_S32768x1024_S1024x4096_S32768x4096_1_0_0_1_n_n none p w)
      (broadcastInDim S32768x4096 ![0, 1] bcast_S1x4096_S32768x4096_0_1 (broadcastInDim S1x4096 ![1] bcast_S4096_S1x4096_1 b)))
    (broadcastInDim S32768x4096 ![] bcast_S_S32768x4096 (constant (F := F) S_ .f32 0x00000000#32))

/-- A head fifteen wide: features times the head's matrix plus its bias vector on every row. -/
def head15 (h : FVec F S32768x4096 .f32) (w : FVec F S4096x15 .f32) (b : FVec F S15 .f32) : FVec F S32768x15 .f32 :=
  addf (Host.dotGeneral dot_S32768x4096_S4096x15_S32768x15_1_0_0_1_n_n none h w)
    (broadcastInDim S32768x15 ![0, 1] bcast_S1x15_S32768x15_0_1 (broadcastInDim S1x15 ![1] bcast_S15_S1x15_1 b))

/-- A head eleven wide. -/
def head11 (h : FVec F S32768x4096 .f32) (w : FVec F S4096x11 .f32) (b : FVec F S11 .f32) : FVec F S32768x11 .f32 :=
  addf (Host.dotGeneral dot_S32768x4096_S4096x11_S32768x11_1_0_0_1_n_n none h w)
    (broadcastInDim S32768x11 ![0, 1] bcast_S1x11_S32768x11_0_1 (broadcastInDim S1x11 ![1] bcast_S11_S1x11_1 b))

/-- A head twenty-four wide. -/
def head24 (h : FVec F S32768x4096 .f32) (w : FVec F S4096x24 .f32) (b : FVec F S24 .f32) : FVec F S32768x24 .f32 :=
  addf (Host.dotGeneral dot_S32768x4096_S4096x24_S32768x24_1_0_0_1_n_n none h w)
    (broadcastInDim S32768x24 ![0, 1] bcast_S1x24_S32768x24_0_1 (broadcastInDim S1x24 ![1] bcast_S24_S1x24_1 b))

/-- A head four wide. -/
def head4 (h : FVec F S32768x4096 .f32) (w : FVec F S4096x4 .f32) (b : FVec F S4 .f32) : FVec F S32768x4 .f32 :=
  addf (Host.dotGeneral dot_S32768x4096_S4096x4_S32768x4_1_0_0_1_n_n none h w)
    (broadcastInDim S32768x4 ![0, 1] bcast_S1x4_S32768x4_0_1 (broadcastInDim S1x4 ![1] bcast_S4_S1x4_1 b))

/-- The pair's row number in the frequency table: 151 times the subject label plus the object label; below zero it
    has 22801 added; stood up as a one-column array. -/
def freqRowNo (p : IVec S32768x2 32) : IVec S32768x1 32 :=
  broadcastInDim S32768x1 ![0] bcast_S32768_S32768x1_0
    (select
      (cmpi .slt (addi (muli (column0 p) (broadcastInDim S32768 ![] bcast_S_S32768 (constantI S_ 32 151#32))) (column1 p))
        (broadcastInDim S32768 ![] bcast_S_S32768 (constantI S_ 32 0#32)))
      (addi (addi (muli (column0 p) (broadcastInDim S32768 ![] bcast_S_S32768 (constantI S_ 32 151#32))) (column1 p))
        (broadcastInDim S32768 ![] bcast_S_S32768 (constantI S_ 32 22801#32)))
      (addi (muli (column0 p) (broadcastInDim S32768 ![] bcast_S_S32768 (constantI S_ 32 151#32))) (column1 p)))

/-- The pair's frequency row, 51 wide. -/
def freqRow (tbl : FVec F S22801x51 .f32) (p : IVec S32768x2 32) : FVec F S32768x51 .f32 :=
  Host.gather gather_S22801x51_S32768x1_S32768x51_1_0_n_n_0_1_151 tbl (freqRowNo p)

/-- Fifteen columns of the frequency row, in the order of the list (a column below zero has 51 added). -/
def bias15 (row : FVec F S32768x51 .f32) (t : IVec S15 32) : FVec F S32768x15 .f32 :=
  Host.gather gather_S32768x51_S15x1_S32768x15_0_1_n_n_1_1_327681 row
    (broadcastInDim S15x1 ![0] bcast_S15_S15x1_0
      (select (cmpi .slt t (broadcastInDim S15 ![] bcast_S_S15 (constantI S_ 32 0#32)))
        (addi t (broadcastInDim S15 ![] bcast_S_S15 (constantI S_ 32 51#32))) t))

/-- Eleven columns of the frequency row. -/
def bias11 (row : FVec F S32768x51 .f32) (t : IVec S11 32) : FVec F S32768x11 .f32 :=
  Host.gather gather_S32768x51_S11x1_S32768x11_0_1_n_n_1_1_327681 row
    (broadcastInDim S11x1 ![0] bcast_S11_S11x1_0
      (select (cmpi .slt t (broadcastInDim S11 ![] bcast_S_S11 (constantI S_ 32 0#32)))
        (addi t (broadcastInDim S11 ![] bcast_S_S11 (constantI S_ 32 51#32))) t))

/-- Twenty-four columns of the frequency row. -/
def bias24 (row : FVec F S32768x51 .f32) (t : IVec S24 32) : FVec F S32768x24 .f32 :=
  Host.gather gather_S32768x51_S24x1_S32768x24_0_1_n_n_1_1_327681 row
    (broadcastInDim S24x1 ![0] bcast_S24_S24x1_0
      (select (cmpi .slt t (broadcastInDim S24 ![] bcast_S_S24 (constantI S_ 32 0#32)))
        (addi t (broadcastInDim S24 ![] bcast_S_S24 (constantI S_ 32 51#32))) t))

/-- The four-wide bias block: the logarithm of [ exp of the row's column 0, and for each of the three blocks the sum
    along the block of exp (from zero) ]. -/
def bias4 (row : FVec F S32768x51 .f32) (b15 : FVec F S32768x15 .f32) (b11 : FVec F S32768x11 .f32)
    (b24 : FVec F S32768x24 .f32) : FVec F S32768x4 .f32 :=
  Host.log (concatenate S32768x4 1
    [⟨S32768x1, broadcastInDim S32768x1 ![0] bcast_S32768_S32768x1_0
        (Host.exp (shapeCast S32768 (extractStridedSlice S32768x1 ![0, 0] row slices_S32768x51_S32768x1_0_0) shapeCasts_S32768x1_S32768))⟩,
     ⟨S32768x1, broadcastInDim S32768x1 ![0] bcast_S32768_S32768x1_0
        (Host.reduceAdd (Host.exp b15) (constant (F := F) S_ .f32 0x00000000#32) reducesTo_S32768x15_S32768_d1 h_S_)⟩,
     ⟨S32768x1, broadcastInDim S32768x1 ![0] bcast_S32768_S32768x1_0
        (Host.reduceAdd (Host.exp b11) (constant (F := F) S_ .f32 0x00000000#32) reducesTo_S32768x11_S32768_d1 h_S_)⟩,
     ⟨S32768x1, broadcastInDim S32768x1 ![0] bcast_S32768_S32768x1_0
        (Host.reduceAdd (Host.exp b24) (constant (F := F) S_ .f32 0x00000000#32) reducesTo_S32768x24_S32768_d1 h_S_)⟩]
    concatenates_S32768x1_S32768x1_S32768x1_S32768x1_S32768x4_d1)

/-- A result: the visual head plus the context head, then plus the bias block. -/
def fused {S : Shape} (vis ctx bias : FVec F S .f32) : FVec F S .f32 := addf (addf vis ctx) bias

/-! ## The operations, stage by stage

The program's operations in its own order, cut into consecutive lists. The contents of a buffer of shape `S` and
element type `e` are written `𝒞[S, e]`. -/

local notation "𝒞[" S ", " e "]" => BufTy.Contents (Elt F) (⟨S, e⟩ : BufTy)

/-- The three lists of frequency columns: literal integer vectors. -/
def colOps : List (HloOp τ sig (Elt F)) :=
  [ nullary main_c (fun i => lit0 (S15.rowMajor i)),
    nullary main_c_0 (fun i => lit1 (S11.rowMajor i)),
    nullary main_c_1 (fun i => lit2 (S24.rowMajor i)) ]

/-- The projection of the object contexts and its two halves. -/
def projOps : List (HloOp τ sig (Elt F)) :=
  [ binary main_arg0 main_arg4 main_v0 ((fun l r => Host.dotGeneral dot_S8192x512_S512x1024_S8192x1024_1_0_0_1_n_n none l r) : 𝒞[S8192x512, .f32] → 𝒞[S512x1024, .f32] → 𝒞[S8192x1024, .f32]),
    unary main_arg5 main_v1 (broadcastInDim S1x1024 ![1] bcast_S1024_S1x1024_1 : 𝒞[S1024, .f32] → 𝒞[S1x1024, .f32]),
    unary main_v1 main_v2 (broadcastInDim S8192x1024 ![0, 1] bcast_S1x1024_S8192x1024_0_1 : 𝒞[S1x1024, .f32] → 𝒞[S8192x1024, .f32]),
    binary main_v0 main_v2 main_v3 (addf : 𝒞[S8192x1024, .f32] → 𝒞[S8192x1024, .f32] → 𝒞[S8192x1024, .f32]),
    unary main_v3 main_v4 ((extractStridedSlice S8192x512 ![0, 0] · slices_S8192x1024_S8192x512_0_0) : 𝒞[S8192x1024, .f32] → 𝒞[S8192x512, .f32]),
    unary main_v3 main_v5 ((extractStridedSlice S8192x512 ![0, 512] · slices_S8192x1024_S8192x512_0_512) : 𝒞[S8192x1024, .f32] → 𝒞[S8192x512, .f32]) ]

/-- The subjects' head rows: the subject indices made row numbers, the rows picked. -/
def headOps : List (HloOp τ sig (Elt F)) :=
  [ unary main_arg1 main_v6 ((extractStridedSlice S32768x1 ![0, 0] · slices_S32768x2_S32768x1_0_0) : 𝒞[S32768x2, .i32] → 𝒞[S32768x1, .i32]),
    reshape main_v6 main_v7 rfl shapeCasts_S32768x1_S32768,
    nullary main_c_2 (constantI S_ 32 0#32),
    unary main_c_2 main_v8 (broadcastInDim S32768 ![] bcast_S_S32768 : 𝒞[S_, .i32] → 𝒞[S32768, .i32]),
    binary main_v7 main_v8 main_v9 (cmpi .slt : 𝒞[S32768, .i32] → 𝒞[S32768, .i32] → 𝒞[S32768, .i1]),
    nullary main_c_3 (constantI S_ 32 8192#32),
    unary main_c_3 main_v10 (broadcastInDim S32768 ![] bcast_S_S32768 : 𝒞[S_, .i32] → 𝒞[S32768, .i32]),
    binary main_v7 main_v10 main_v11 (addi : 𝒞[S32768, .i32] → 𝒞[S32768, .i32] → 𝒞[S32768, .i32]),
    ternary main_v9 main_v11 main_v7 main_v12 (select : 𝒞[S32768, .i1] → 𝒞[S32768, .i32] → 𝒞[S32768, .i32] → 𝒞[S32768, .i32]),
    unary main_v12 main_v13 (broadcastInDim S32768x1 ![0] bcast_S32768_S32768x1_0 : 𝒞[S32768, .i32] → 𝒞[S32768x1, .i32]),
    binary main_v4 main_v13 main_v14 ((fun x i => Host.gather gather_S8192x512_S32768x1_S32768x512_1_0_n_n_0_1_1512 x i) : 𝒞[S8192x512, .f32] → 𝒞[S32768x1, .i32] → 𝒞[S32768x512, .f32]) ]

/-- The objects' tail rows, the same way from the second index column. -/
def tailOps : List (HloOp τ sig (Elt F)) :=
  [ unary main_arg1 main_v15 ((extractStridedSlice S32768x1 ![0, 1] · slices_S32768x2_S32768x1_0_1) : 𝒞[S32768x2, .i32] → 𝒞[S32768x1, .i32]),
    reshape main_v15 main_v16 rfl shapeCasts_S32768x1_S32768,
    nullary main_c_4 (constantI S_ 32 0#32),
    unary main_c_4 main_v17 (broadcastInDim S32768 ![] bcast_S_S32768 : 𝒞[S_, .i32] → 𝒞[S32768, .i32]),
    binary main_v16 main_v17 main_v18 (cmpi .slt : 𝒞[S32768, .i32] → 𝒞[S32768, .i32] → 𝒞[S32768, .i1]),
    nullary main_c_5 (constantI S_ 32 8192#32),
    unary main_c_5 main_v19 (broadcastInDim S32768 ![] bcast_S_S32768 : 𝒞[S_, .i32] → 𝒞[S32768, .i32]),
    binary main_v16 main_v19 main_v20 (addi : 𝒞[S32768, .i32] → 𝒞[S32768, .i32] → 𝒞[S32768, .i32]),
    ternary main_v18 main_v20 main_v16 main_v21 (select : 𝒞[S32768, .i1] → 𝒞[S32768, .i32] → 𝒞[S32768, .i32] → 𝒞[S32768, .i32]),
    unary main_v21 main_v22 (broadcastInDim S32768x1 ![0] bcast_S32768_S32768x1_0 : 𝒞[S32768, .i32] → 𝒞[S32768x1, .i32]),
    binary main_v5 main_v22 main_v23 ((fun x i => Host.gather gather_S8192x512_S32768x1_S32768x512_1_0_n_n_0_1_1512 x i) : 𝒞[S8192x512, .f32] → 𝒞[S32768x1, .i32] → 𝒞[S32768x512, .f32]) ]

/-- The pair context, its affine image, and the larger of each entry and zero (the last three operations are the
    outlined function's, over its call's buffers). -/
def hiddenOps : List (HloOp τ sig (Elt F)) :=
  [ binary main_v14 main_v23 main_v24 ((fun a b => concatenate S32768x1024 1 [⟨S32768x512, a⟩, ⟨S32768x512, b⟩] concatenates_S32768x512_S32768x512_S32768x1024_d1) : 𝒞[S32768x512, .f32] → 𝒞[S32768x512, .f32] → 𝒞[S32768x1024, .f32]),
    binary main_v24 main_arg6 main_v25 ((fun l r => Host.dotGeneral dot_S32768x1024_S1024x4096_S32768x4096_1_0_0_1_n_n none l r) : 𝒞[S32768x1024, .f32] → 𝒞[S1024x4096, .f32] → 𝒞[S32768x4096, .f32]),
    unary main_arg7 main_v26 (broadcastInDim S1x4096 ![1] bcast_S4096_S1x4096_1 : 𝒞[S4096, .f32] → 𝒞[S1x4096, .f32]),
    unary main_v26 main_v27 (broadcastInDim S32768x4096 ![0, 1] bcast_S1x4096_S32768x4096_0_1 : 𝒞[S1x4096, .f32] → 𝒞[S32768x4096, .f32]),
    binary main_v25 main_v27 main_v28 (addf : 𝒞[S32768x4096, .f32] → 𝒞[S32768x4096, .f32] → 𝒞[S32768x4096, .f32]),
    TRef.nullary main_call0.cst (constant S_ .f32 0x00000000#32),
    TRef.unary main_call0.cst main_call0.v0 (broadcastInDim S32768x4096 ![] bcast_S_S32768x4096),
    TRef.binary (.of main_v28) main_call0.v0 main_call0.v1 maximumf ]

/-- The four context heads, on the hidden activation. -/
def ctxOps : List (HloOp τ sig (Elt F)) :=
  [ binary main_v29 main_arg8 main_v30 ((fun l r => Host.dotGeneral dot_S32768x4096_S4096x15_S32768x15_1_0_0_1_n_n none l r) : 𝒞[S32768x4096, .f32] → 𝒞[S4096x15, .f32] → 𝒞[S32768x15, .f32]),
    unary main_arg9 main_v31 (broadcastInDim S1x15 ![1] bcast_S15_S1x15_1 : 𝒞[S15, .f32] → 𝒞[S1x15, .f32]),
    unary main_v31 main_v32 (broadcastInDim S32768x15 ![0, 1] bcast_S1x15_S32768x15_0_1 : 𝒞[S1x15, .f32] → 𝒞[S32768x15, .f32]),
    binary main_v30 main_v32 main_v33 (addf : 𝒞[S32768x15, .f32] → 𝒞[S32768x15, .f32] → 𝒞[S32768x15, .f32]),
    binary main_v29 main_arg10 main_v34 ((fun l r => Host.dotGeneral dot_S32768x4096_S4096x11_S32768x11_1_0_0_1_n_n none l r) : 𝒞[S32768x4096, .f32] → 𝒞[S4096x11, .f32] → 𝒞[S32768x11, .f32]),
    unary main_arg11 main_v35 (broadcastInDim S1x11 ![1] bcast_S11_S1x11_1 : 𝒞[S11, .f32] → 𝒞[S1x11, .f32]),
    unary main_v35 main_v36 (broadcastInDim S32768x11 ![0, 1] bcast_S1x11_S32768x11_0_1 : 𝒞[S1x11, .f32] → 𝒞[S32768x11, .f32]),
    binary main_v34 main_v36 main_v37 (addf : 𝒞[S32768x11, .f32] → 𝒞[S32768x11, .f32] → 𝒞[S32768x11, .f32]),
    binary main_v29 main_arg12 main_v38 ((fun l r => Host.dotGeneral dot_S32768x4096_S4096x24_S32768x24_1_0_0_1_n_n none l r) : 𝒞[S32768x4096, .f32] → 𝒞[S4096x24, .f32] → 𝒞[S32768x24, .f32]),
    unary main_arg13 main_v39 (broadcastInDim S1x24 ![1] bcast_S24_S1x24_1 : 𝒞[S24, .f32] → 𝒞[S1x24, .f32]),
    unary main_v39 main_v40 (broadcastInDim S32768x24 ![0, 1] bcast_S1x24_S32768x24_0_1 : 𝒞[S1x24, .f32] → 𝒞[S32768x24, .f32]),
    binary main_v38 main_v40 main_v41 (addf : 𝒞[S32768x24, .f32] → 𝒞[S32768x24, .f32] → 𝒞[S32768x24, .f32]),
    binary main_v29 main_arg14 main_v42 ((fun l r => Host.dotGeneral dot_S32768x4096_S4096x4_S32768x4_1_0_0_1_n_n none l r) : 𝒞[S32768x4096, .f32] → 𝒞[S4096x4, .f32] → 𝒞[S32768x4, .f32]),
    unary main_arg15 main_v43 (broadcastInDim S1x4 ![1] bcast_S4_S1x4_1 : 𝒞[S4, .f32] → 𝒞[S1x4, .f32]),
    unary main_v43 main_v44 (broadcastInDim S32768x4 ![0, 1] bcast_S1x4_S32768x4_0_1 : 𝒞[S1x4, .f32] → 𝒞[S32768x4, .f32]),
    binary main_v42 main_v44 main_v45 (addf : 𝒞[S32768x4, .f32] → 𝒞[S32768x4, .f32] → 𝒞[S32768x4, .f32]) ]

/-- The four visual heads, on the pairs' visual features. -/
def visOps : List (HloOp τ sig (Elt F)) :=
  [ binary main_arg2 main_arg16 main_v46 ((fun l r => Host.dotGeneral dot_S32768x4096_S4096x15_S32768x15_1_0_0_1_n_n none l r) : 𝒞[S32768x4096, .f32] → 𝒞[S4096x15, .f32] → 𝒞[S32768x15, .f32]),
    unary main_arg17 main_v47 (broadcastInDim S1x15 ![1] bcast_S15_S1x15_1 : 𝒞[S15, .f32] → 𝒞[S1x15, .f32]),
    unary main_v47 main_v48 (broadcastInDim S32768x15 ![0, 1] bcast_S1x15_S32768x15_0_1 : 𝒞[S1x15, .f32] → 𝒞[S32768x15, .f32]),
    binary main_v46 main_v48 main_v49 (addf : 𝒞[S32768x15, .f32] → 𝒞[S32768x15, .f32] → 𝒞[S32768x15, .f32]),
    binary main_arg2 main_arg18 main_v50 ((fun l r => Host.dotGeneral dot_S32768x4096_S4096x11_S32768x11_1_0_0_1_n_n none l r) : 𝒞[S32768x4096, .f32] → 𝒞[S4096x11, .f32] → 𝒞[S32768x11, .f32]),
    unary main_arg19 main_v51 (broadcastInDim S1x11 ![1] bcast_S11_S1x11_1 : 𝒞[S11, .f32] → 𝒞[S1x11, .f32]),
    unary main_v51 main_v52 (broadcastInDim S32768x11 ![0, 1] bcast_S1x11_S32768x11_0_1 : 𝒞[S1x11, .f32] → 𝒞[S32768x11, .f32]),
    binary main_v50 main_v52 main_v53 (addf : 𝒞[S32768x11, .f32] → 𝒞[S32768x11, .f32] → 𝒞[S32768x11, .f32]),
    binary main_arg2 main_arg20 main_v54 ((fun l r => Host.dotGeneral dot_S32768x4096_S4096x24_S32768x24_1_0_0_1_n_n none l r) : 𝒞[S32768x4096, .f32] → 𝒞[S4096x24, .f32] → 𝒞[S32768x24, .f32]),
    unary main_arg21 main_v55 (broadcastInDim S1x24 ![1] bcast_S24_S1x24_1 : 𝒞[S24, .f32] → 𝒞[S1x24, .f32]),
    unary main_v55 main_v56 (broadcastInDim S32768x24 ![0, 1] bcast_S1x24_S32768x24_0_1 : 𝒞[S1x24, .f32] → 𝒞[S32768x24, .f32]),
    binary main_v54 main_v56 main_v57 (addf : 𝒞[S32768x24, .f32] → 𝒞[S32768x24, .f32] → 𝒞[S32768x24, .f32]),
    binary main_arg2 main_arg22 main_v58 ((fun l r => Host.dotGeneral dot_S32768x4096_S4096x4_S32768x4_1_0_0_1_n_n none l r) : 𝒞[S32768x4096, .f32] → 𝒞[S4096x4, .f32] → 𝒞[S32768x4, .f32]),
    unary main_arg23 main_v59 (broadcastInDim S1x4 ![1] bcast_S4_S1x4_1 : 𝒞[S4, .f32] → 𝒞[S1x4, .f32]),
    unary main_v59 main_v60 (broadcastInDim S32768x4 ![0, 1] bcast_S1x4_S32768x4_0_1 : 𝒞[S1x4, .f32] → 𝒞[S32768x4, .f32]),
    binary main_v58 main_v60 main_v61 (addf : 𝒞[S32768x4, .f32] → 𝒞[S32768x4, .f32] → 𝒞[S32768x4, .f32]) ]

/-- The pair's frequency row: the two labels made a row number, the row picked. -/
def freqOps : List (HloOp τ sig (Elt F)) :=
  [ unary main_arg3 main_v62 ((extractStridedSlice S32768x1 ![0, 0] · slices_S32768x2_S32768x1_0_0) : 𝒞[S32768x2, .i32] → 𝒞[S32768x1, .i32]),
    reshape main_v62 main_v63 rfl shapeCasts_S32768x1_S32768,
    nullary main_c_6 (constantI S_ 32 151#32),
    unary main_c_6 main_v64 (broadcastInDim S32768 ![] bcast_S_S32768 : 𝒞[S_, .i32] → 𝒞[S32768, .i32]),
    binary main_v63 main_v64 main_v65 (muli : 𝒞[S32768, .i32] → 𝒞[S32768, .i32] → 𝒞[S32768, .i32]),
    unary main_arg3 main_v66 ((extractStridedSlice S32768x1 ![0, 1] · slices_S32768x2_S32768x1_0_1) : 𝒞[S32768x2, .i32] → 𝒞[S32768x1, .i32]),
    reshape main_v66 main_v67 rfl shapeCasts_S32768x1_S32768,
    binary main_v65 main_v67 main_v68 (addi : 𝒞[S32768, .i32] → 𝒞[S32768, .i32] → 𝒞[S32768, .i32]),
    nullary main_c_7 (constantI S_ 32 0#32),
    unary main_c_7 main_v69 (broadcastInDim S32768 ![] bcast_S_S32768 : 𝒞[S_, .i32] → 𝒞[S32768, .i32]),
    binary main_v68 main_v69 main_v70 (cmpi .slt : 𝒞[S32768, .i32] → 𝒞[S32768, .i32] → 𝒞[S32768, .i1]),
    nullary main_c_8 (constantI S_ 32 22801#32),
    unary main_c_8 main_v71 (broadcastInDim S32768 ![] bcast_S_S32768 : 𝒞[S_, .i32] → 𝒞[S32768, .i32]),
    binary main_v68 main_v71 main_v72 (addi : 𝒞[S32768, .i32] → 𝒞[S32768, .i32] → 𝒞[S32768, .i32]),
    ternary main_v70 main_v72 main_v68 main_v73 (select : 𝒞[S32768, .i1] → 𝒞[S32768, .i32] → 𝒞[S32768, .i32] → 𝒞[S32768, .i32]),
    unary main_v73 main_v74 (broadcastInDim S32768x1 ![0] bcast_S32768_S32768x1_0 : 𝒞[S32768, .i32] → 𝒞[S32768x1, .i32]),
    binary main_arg24 main_v74 main_v75 ((fun x i => Host.gather gather_S22801x51_S32768x1_S32768x51_1_0_n_n_0_1_151 x i) : 𝒞[S22801x51, .f32] → 𝒞[S32768x1, .i32] → 𝒞[S32768x51, .f32]) ]

/-- The fifteen-wide bias block: its columns made column numbers, the columns picked. -/
def bias15Ops : List (HloOp τ sig (Elt F)) :=
  [ nullary main_c_9 (constantI S_ 32 0#32),
    unary main_c_9 main_v76 (broadcastInDim S15 ![] bcast_S_S15 : 𝒞[S_, .i32] → 𝒞[S15, .i32]),
    binary main_c main_v76 main_v77 (cmpi .slt : 𝒞[S15, .i32] → 𝒞[S15, .i32] → 𝒞[S15, .i1]),
    nullary main_c_10 (constantI S_ 32 51#32),
    unary main_c_10 main_v78 (broadcastInDim S15 ![] bcast_S_S15 : 𝒞[S_, .i32] → 𝒞[S15, .i32]),
    binary main_c main_v78 main_v79 (addi : 𝒞[S15, .i32] → 𝒞[S15, .i32] → 𝒞[S15, .i32]),
    ternary main_v77 main_v79 main_c main_v80 (select : 𝒞[S15, .i1] → 𝒞[S15, .i32] → 𝒞[S15, .i32] → 𝒞[S15, .i32]),
    unary main_v80 main_v81 (broadcastInDim S15x1 ![0] bcast_S15_S15x1_0 : 𝒞[S15, .i32] → 𝒞[S15x1, .i32]),
    binary main_v75 main_v81 main_v82 ((fun x i => Host.gather gather_S32768x51_S15x1_S32768x15_0_1_n_n_1_1_327681 x i) : 𝒞[S32768x51, .f32] → 𝒞[S15x1, .i32] → 𝒞[S32768x15, .f32]) ]

/-- The eleven-wide bias block. -/
def bias11Ops : List (HloOp τ sig (Elt F)) :=
  [ nullary main_c_11 (constantI S_ 32 0#32),
    unary main_c_11 main_v83 (broadcastInDim S11 ![] bcast_S_S11 : 𝒞[S_, .i32] → 𝒞[S11, .i32]),
    binary main_c_0 main_v83 main_v84 (cmpi .slt : 𝒞[S11, .i32] → 𝒞[S11, .i32] → 𝒞[S11, .i1]),
    nullary main_c_12 (constantI S_ 32 51#32),
    unary main_c_12 main_v85 (broadcastInDim S11 ![] bcast_S_S11 : 𝒞[S_, .i32] → 𝒞[S11, .i32]),
    binary main_c_0 main_v85 main_v86 (addi : 𝒞[S11, .i32] → 𝒞[S11, .i32] → 𝒞[S11, .i32]),
    ternary main_v84 main_v86 main_c_0 main_v87 (select : 𝒞[S11, .i1] → 𝒞[S11, .i32] → 𝒞[S11, .i32] → 𝒞[S11, .i32]),
    unary main_v87 main_v88 (broadcastInDim S11x1 ![0] bcast_S11_S11x1_0 : 𝒞[S11, .i32] → 𝒞[S11x1, .i32]),
    binary main_v75 main_v88 main_v89 ((fun x i => Host.gather gather_S32768x51_S11x1_S32768x11_0_1_n_n_1_1_327681 x i) : 𝒞[S32768x51, .f32] → 𝒞[S11x1, .i32] → 𝒞[S32768x11, .f32]) ]

/-- The twenty-four-wide bias block. -/
def bias24Ops : List (HloOp τ sig (Elt F)) :=
  [ nullary main_c_13 (constantI S_ 32 0#32),
    unary main_c_13 main_v90 (broadcastInDim S24 ![] bcast_S_S24 : 𝒞[S_, .i32] → 𝒞[S24, .i32]),
    binary main_c_1 main_v90 main_v91 (cmpi .slt : 𝒞[S24, .i32] → 𝒞[S24, .i32] → 𝒞[S24, .i1]),
    nullary main_c_14 (constantI S_ 32 51#32),
    unary main_c_14 main_v92 (broadcastInDim S24 ![] bcast_S_S24 : 𝒞[S_, .i32] → 𝒞[S24, .i32]),
    binary main_c_1 main_v92 main_v93 (addi : 𝒞[S24, .i32] → 𝒞[S24, .i32] → 𝒞[S24, .i32]),
    ternary main_v91 main_v93 main_c_1 main_v94 (select : 𝒞[S24, .i1] → 𝒞[S24, .i32] → 𝒞[S24, .i32] → 𝒞[S24, .i32]),
    unary main_v94 main_v95 (broadcastInDim S24x1 ![0] bcast_S24_S24x1_0 : 𝒞[S24, .i32] → 𝒞[S24x1, .i32]),
    binary main_v75 main_v95 main_v96 ((fun x i => Host.gather gather_S32768x51_S24x1_S32768x24_0_1_n_n_1_1_327681 x i) : 𝒞[S32768x51, .f32] → 𝒞[S24x1, .i32] → 𝒞[S32768x24, .f32]) ]

/-- The four-wide bias block: exp of column 0, the three sums of exp, side by side, then the logarithm. -/
def bias4Ops : List (HloOp τ sig (Elt F)) :=
  [ unary main_v75 main_v97 ((extractStridedSlice S32768x1 ![0, 0] · slices_S32768x51_S32768x1_0_0) : 𝒞[S32768x51, .f32] → 𝒞[S32768x1, .f32]),
    reshape main_v97 main_v98 rfl shapeCasts_S32768x1_S32768,
    unary main_v98 main_v99 (Host.exp : 𝒞[S32768, .f32] → 𝒞[S32768, .f32]),
    unary main_v82 main_v100 (Host.exp : 𝒞[S32768x15, .f32] → 𝒞[S32768x15, .f32]),
    nullary main_cst (constant S_ .f32 0x00000000#32),
    binary main_v100 main_cst main_v101 ((fun x v => Host.reduceAdd x v reducesTo_S32768x15_S32768_d1 h_S_) : 𝒞[S32768x15, .f32] → 𝒞[S_, .f32] → 𝒞[S32768, .f32]),
    unary main_v89 main_v102 (Host.exp : 𝒞[S32768x11, .f32] → 𝒞[S32768x11, .f32]),
    nullary main_cst_15 (constant S_ .f32 0x00000000#32),
    binary main_v102 main_cst_15 main_v103 ((fun x v => Host.reduceAdd x v reducesTo_S32768x11_S32768_d1 h_S_) : 𝒞[S32768x11, .f32] → 𝒞[S_, .f32] → 𝒞[S32768, .f32]),
    unary main_v96 main_v104 (Host.exp : 𝒞[S32768x24, .f32] → 𝒞[S32768x24, .f32]),
    nullary main_cst_16 (constant S_ .f32 0x00000000#32),
    binary main_v104 main_cst_16 main_v105 ((fun x v => Host.reduceAdd x v reducesTo_S32768x24_S32768_d1 h_S_) : 𝒞[S32768x24, .f32] → 𝒞[S_, .f32] → 𝒞[S32768, .f32]),
    unary main_v99 main_v106 (broadcastInDim S32768x1 ![0] bcast_S32768_S32768x1_0 : 𝒞[S32768, .f32] → 𝒞[S32768x1, .f32]),
    unary main_v101 main_v107 (broadcastInDim S32768x1 ![0] bcast_S32768_S32768x1_0 : 𝒞[S32768, .f32] → 𝒞[S32768x1, .f32]),
    unary main_v103 main_v108 (broadcastInDim S32768x1 ![0] bcast_S32768_S32768x1_0 : 𝒞[S32768, .f32] → 𝒞[S32768x1, .f32]),
    unary main_v105 main_v109 (broadcastInDim S32768x1 ![0] bcast_S32768_S32768x1_0 : 𝒞[S32768, .f32] → 𝒞[S32768x1, .f32]),
    nary ![main_v106, main_v107, main_v108, main_v109] main_v110 (fun u => concatenate S32768x4 1 [⟨S32768x1, u 0⟩, ⟨S32768x1, u 1⟩, ⟨S32768x1, u 2⟩, ⟨S32768x1, u 3⟩] concatenates_S32768x1_S32768x1_S32768x1_S32768x1_S32768x4_d1),
    unary main_v110 main_v111 (Host.log : 𝒞[S32768x4, .f32] → 𝒞[S32768x4, .f32]) ]

/-- The four results: visual head plus context head, then plus the bias block. -/
def sumOps : List (HloOp τ sig (Elt F)) :=
  [ binary main_v49 main_v33 main_v112 (addf : 𝒞[S32768x15, .f32] → 𝒞[S32768x15, .f32] → 𝒞[S32768x15, .f32]),
    binary main_v112 main_v82 main_v113 (addf : 𝒞[S32768x15, .f32] → 𝒞[S32768x15, .f32] → 𝒞[S32768x15, .f32]),
    binary main_v53 main_v37 main_v114 (addf : 𝒞[S32768x11, .f32] → 𝒞[S32768x11, .f32] → 𝒞[S32768x11, .f32]),
    binary main_v114 main_v89 main_v115 (addf : 𝒞[S32768x11, .f32] → 𝒞[S32768x11, .f32] → 𝒞[S32768x11, .f32]),
    binary main_v57 main_v41 main_v116 (addf : 𝒞[S32768x24, .f32] → 𝒞[S32768x24, .f32] → 𝒞[S32768x24, .f32]),
    binary main_v116 main_v96 main_v117 (addf : 𝒞[S32768x24, .f32] → 𝒞[S32768x24, .f32] → 𝒞[S32768x24, .f32]),
    binary main_v61 main_v45 main_v118 (addf : 𝒞[S32768x4, .f32] → 𝒞[S32768x4, .f32] → 𝒞[S32768x4, .f32]),
    binary main_v118 main_v111 main_v119 (addf : 𝒞[S32768x4, .f32] → 𝒞[S32768x4, .f32] → 𝒞[S32768x4, .f32]) ]

/-- @main's 141 operations, in order. -/
abbrev ops : List (HloOp τ sig (Elt F)) :=
  colOps ++ projOps ++ headOps ++ tailOps ++ hiddenOps ++ ctxOps ++ visOps ++ freqOps ++ bias15Ops ++ bias11Ops ++ bias24Ops
    ++ bias4Ops ++ sumOps

-- the three windows and the outlined function unfolded, 141 binds re-associated
set_option maxRecDepth 8192 in
set_option maxHeartbeats 4000000 in
/-- @main is that straight line: the three windows in a row, the outlined function's body at its call over the
    call's buffers; both sides are one chain of steps once sequencing is re-associated. -/
theorem main_eq (c : Dev nD) : main (F := F) c = seq ops := by
  simp only [main, main_part0, main_part1, main_part2, fn_relu.body, seq, bind_assoc, pure_bind]
  rfl

/-! ## What a list writes, and what it leaves alone -/

/-- What the run asks of a list of operations, and what telling its buffers apart needs: each operation touches
    TensorCore references only, each determines what it writes, and each writes a reference of the list `W`. -/
structure Tidy (l : List (HloOp τ sig (Elt F))) (W : List (Ref sig .tc)) : Prop where
  sub : l.Forall fun op => op.bufs ⊆ tcRefs τ sig
  fresh : l.Forall fun op => op.fresh = ∅
  writes : l.Forall fun op => op.writes ⊆ (W.map (Proc.devRef (τ := τ) .tc)).toFinset

/-- A buffer outside `W` holds after the list what it held before. -/
theorem Tidy.keeps {l : List (HloOp τ sig (Elt F))} {W : List (Ref sig .tc)} (h : Tidy l W) (V : Valuation τ sig (Elt F))
    {r : Ref sig .tc} (hr : r ∉ W) : after l V (no_index (Proc.devRef .tc r)) = V (Proc.devRef .tc r) :=
  after_of_writes_sub l V h.writes hr

/-- Two lists in a row write what either writes. -/
theorem Tidy.append {l₁ l₂ : List (HloOp τ sig (Elt F))} {W₁ W₂ : List (Ref sig .tc)} (h₁ : Tidy l₁ W₁) (h₂ : Tidy l₂ W₂) :
    Tidy (l₁ ++ l₂) (W₁ ++ W₂) where
  sub := List.forall_append.mpr ⟨h₁.sub, h₂.sub⟩
  fresh := List.forall_append.mpr ⟨h₁.fresh, h₂.fresh⟩
  writes := List.forall_append.mpr
    ⟨List.forall_iff_forall_mem.mpr fun op ho => Finset.Subset.trans (List.forall_iff_forall_mem.mp h₁.writes op ho) (by
        rw [List.map_append, List.toFinset_append]; exact Finset.subset_union_left),
     List.forall_iff_forall_mem.mpr fun op ho => Finset.Subset.trans (List.forall_iff_forall_mem.mp h₂.writes op ho) (by
        rw [List.map_append, List.toFinset_append]; exact Finset.subset_union_right)⟩

/-- A result reference listed in `W` is among the device buffers of `W`. -/
theorem wr {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The three facts of a literal list, each read off operation by operation. -/
local macro "tidy_of " c:ident : tactic =>
  `(tactic| exact
    ⟨by unfold $c
        simp only [List.Forall, nullary_bufs_sub, unary_bufs_sub, binary_bufs_sub, ternary_bufs_sub, reshape_bufs_sub,
          nary_bufs_sub, and_self],
     by unfold $c
        simp only [List.Forall]
        repeat' constructor,
     by unfold $c
        simp only [List.Forall]
        (repeat' refine And.intro ?_ ?_) <;> exact wr (by decide)⟩)

abbrev colOps_W : List (Ref sig .tc) := [main_c, main_c_0, main_c_1]
theorem colOps_tidy : Tidy (F := F) colOps colOps_W := by tidy_of colOps

abbrev projOps_W : List (Ref sig .tc) := [main_v0, main_v1, main_v2, main_v3, main_v4, main_v5]
theorem projOps_tidy : Tidy (F := F) projOps projOps_W := by tidy_of projOps

abbrev headOps_W : List (Ref sig .tc) :=
  [main_v6, main_v7, main_c_2, main_v8, main_v9, main_c_3, main_v10, main_v11, main_v12, main_v13, main_v14]
theorem headOps_tidy : Tidy (F := F) headOps headOps_W := by tidy_of headOps

abbrev tailOps_W : List (Ref sig .tc) :=
  [main_v15, main_v16, main_c_4, main_v17, main_v18, main_c_5, main_v19, main_v20, main_v21, main_v22, main_v23]
theorem tailOps_tidy : Tidy (F := F) tailOps tailOps_W := by tidy_of tailOps

abbrev hiddenOps_W : List (Ref sig .tc) :=
  [main_v24, main_v25, main_v26, main_v27, main_v28, main_call0_cst, main_call0_v0, main_v29]
theorem hiddenOps_tidy : Tidy (F := F) hiddenOps hiddenOps_W := by tidy_of hiddenOps

abbrev ctxOps_W : List (Ref sig .tc) :=
  [main_v30, main_v31, main_v32, main_v33, main_v34, main_v35, main_v36, main_v37, main_v38, main_v39, main_v40, main_v41,
   main_v42, main_v43, main_v44, main_v45]
theorem ctxOps_tidy : Tidy (F := F) ctxOps ctxOps_W := by tidy_of ctxOps

abbrev visOps_W : List (Ref sig .tc) :=
  [main_v46, main_v47, main_v48, main_v49, main_v50, main_v51, main_v52, main_v53, main_v54, main_v55, main_v56, main_v57,
   main_v58, main_v59, main_v60, main_v61]
theorem visOps_tidy : Tidy (F := F) visOps visOps_W := by tidy_of visOps

abbrev freqOps_W : List (Ref sig .tc) :=
  [main_v62, main_v63, main_c_6, main_v64, main_v65, main_v66, main_v67, main_v68, main_c_7, main_v69, main_v70, main_c_8,
   main_v71, main_v72, main_v73, main_v74, main_v75]
theorem freqOps_tidy : Tidy (F := F) freqOps freqOps_W := by tidy_of freqOps

abbrev bias15Ops_W : List (Ref sig .tc) :=
  [main_c_9, main_v76, main_v77, main_c_10, main_v78, main_v79, main_v80, main_v81, main_v82]
theorem bias15Ops_tidy : Tidy (F := F) bias15Ops bias15Ops_W := by tidy_of bias15Ops

abbrev bias11Ops_W : List (Ref sig .tc) :=
  [main_c_11, main_v83, main_v84, main_c_12, main_v85, main_v86, main_v87, main_v88, main_v89]
theorem bias11Ops_tidy : Tidy (F := F) bias11Ops bias11Ops_W := by tidy_of bias11Ops

abbrev bias24Ops_W : List (Ref sig .tc) :=
  [main_c_13, main_v90, main_v91, main_c_14, main_v92, main_v93, main_v94, main_v95, main_v96]
theorem bias24Ops_tidy : Tidy (F := F) bias24Ops bias24Ops_W := by tidy_of bias24Ops

abbrev bias4Ops_W : List (Ref sig .tc) :=
  [main_v97, main_v98, main_v99, main_v100, main_cst, main_v101, main_v102, main_cst_15, main_v103, main_v104, main_cst_16,
   main_v105, main_v106, main_v107, main_v108, main_v109, main_v110, main_v111]
theorem bias4Ops_tidy : Tidy (F := F) bias4Ops bias4Ops_W := by tidy_of bias4Ops

abbrev sumOps_W : List (Ref sig .tc) :=
  [main_v112, main_v113, main_v114, main_v115, main_v116, main_v117, main_v118, main_v119]
theorem sumOps_tidy : Tidy (F := F) sumOps sumOps_W := by tidy_of sumOps

/-- Every reference the program writes, in the program's order. -/
abbrev ops_W : List (Ref sig .tc) :=
  colOps_W ++ projOps_W ++ headOps_W ++ tailOps_W ++ hiddenOps_W ++ ctxOps_W ++ visOps_W ++ freqOps_W ++ bias15Ops_W
    ++ bias11Ops_W ++ bias24Ops_W ++ bias4Ops_W ++ sumOps_W

theorem ops_tidy : Tidy (F := F) ops ops_W :=
  ((((((((((((colOps_tidy.append projOps_tidy).append headOps_tidy).append tailOps_tidy).append hiddenOps_tidy).append
    ctxOps_tidy).append visOps_tidy).append freqOps_tidy).append bias15Ops_tidy).append bias11Ops_tidy).append
    bias24Ops_tidy).append bias4Ops_tidy).append sumOps_tidy)

/-! ## What each list leaves in the buffers later stages read

Each equation: the list's operations composed, at the contents `V` the list starts from. -/

/-- One stage's equation: the fold unrolled, each operation's result read at its own buffer and passed over at every
    other, and what is left is the stage function's own body. -/
local macro "stage_of " c:ident : tactic =>
  `(tactic| (unfold $c; after_results) <;> rfl)

theorem colOps_c (V : Valuation τ sig (Elt F)) : after colOps V (no_index ((main_c : Ref sig .tc) : DevRef τ sig)) = cols15 := by stage_of colOps
theorem colOps_c_0 (V : Valuation τ sig (Elt F)) : after colOps V (no_index ((main_c_0 : Ref sig .tc) : DevRef τ sig)) = cols11 := by stage_of colOps
theorem colOps_c_1 (V : Valuation τ sig (Elt F)) : after colOps V (no_index ((main_c_1 : Ref sig .tc) : DevRef τ sig)) = cols24 := by stage_of colOps

theorem projOps_v4 (V : Valuation τ sig (Elt F)) :
    after projOps V (no_index ((main_v4 : Ref sig .tc) : DevRef τ sig))
      = headHalf (objProj (V (main_arg0 : DevRef τ sig)) (V (main_arg4 : DevRef τ sig)) (V (main_arg5 : DevRef τ sig))) := by
  stage_of projOps
theorem projOps_v5 (V : Valuation τ sig (Elt F)) :
    after projOps V (no_index ((main_v5 : Ref sig .tc) : DevRef τ sig))
      = tailHalf (objProj (V (main_arg0 : DevRef τ sig)) (V (main_arg4 : DevRef τ sig)) (V (main_arg5 : DevRef τ sig))) := by
  stage_of projOps

theorem headOps_v14 (V : Valuation τ sig (Elt F)) :
    after headOps V (no_index ((main_v14 : Ref sig .tc) : DevRef τ sig))
      = pickRows (V (main_v4 : DevRef τ sig)) (objRow (column0 (V (main_arg1 : DevRef τ sig)))) := by
  stage_of headOps
theorem tailOps_v23 (V : Valuation τ sig (Elt F)) :
    after tailOps V (no_index ((main_v23 : Ref sig .tc) : DevRef τ sig))
      = pickRows (V (main_v5 : DevRef τ sig)) (objRow (column1 (V (main_arg1 : DevRef τ sig)))) := by
  stage_of tailOps

theorem hiddenOps_v29 (V : Valuation τ sig (Elt F)) :
    after hiddenOps V (no_index ((main_v29 : Ref sig .tc) : DevRef τ sig))
      = hiddenAct (pairCtx (V (main_v14 : DevRef τ sig)) (V (main_v23 : DevRef τ sig))) (V (main_arg6 : DevRef τ sig))
          (V (main_arg7 : DevRef τ sig)) := by
  stage_of hiddenOps

theorem ctxOps_v33 (V : Valuation τ sig (Elt F)) :
    after ctxOps V (no_index ((main_v33 : Ref sig .tc) : DevRef τ sig))
      = head15 (V (main_v29 : DevRef τ sig)) (V (main_arg8 : DevRef τ sig)) (V (main_arg9 : DevRef τ sig)) := by
  stage_of ctxOps
theorem ctxOps_v37 (V : Valuation τ sig (Elt F)) :
    after ctxOps V (no_index ((main_v37 : Ref sig .tc) : DevRef τ sig))
      = head11 (V (main_v29 : DevRef τ sig)) (V (main_arg10 : DevRef τ sig)) (V (main_arg11 : DevRef τ sig)) := by
  stage_of ctxOps
theorem ctxOps_v41 (V : Valuation τ sig (Elt F)) :
    after ctxOps V (no_index ((main_v41 : Ref sig .tc) : DevRef τ sig))
      = head24 (V (main_v29 : DevRef τ sig)) (V (main_arg12 : DevRef τ sig)) (V (main_arg13 : DevRef τ sig)) := by
  stage_of ctxOps
theorem ctxOps_v45 (V : Valuation τ sig (Elt F)) :
    after ctxOps V (no_index ((main_v45 : Ref sig .tc) : DevRef τ sig))
      = head4 (V (main_v29 : DevRef τ sig)) (V (main_arg14 : DevRef τ sig)) (V (main_arg15 : DevRef τ sig)) := by
  stage_of ctxOps

theorem visOps_v49 (V : Valuation τ sig (Elt F)) :
    after visOps V (no_index ((main_v49 : Ref sig .tc) : DevRef τ sig))
      = head15 (V (main_arg2 : DevRef τ sig)) (V (main_arg16 : DevRef τ sig)) (V (main_arg17 : DevRef τ sig)) := by
  stage_of visOps
theorem visOps_v53 (V : Valuation τ sig (Elt F)) :
    after visOps V (no_index ((main_v53 : Ref sig .tc) : DevRef τ sig))
      = head11 (V (main_arg2 : DevRef τ sig)) (V (main_arg18 : DevRef τ sig)) (V (main_arg19 : DevRef τ sig)) := by
  stage_of visOps
theorem visOps_v57 (V : Valuation τ sig (Elt F)) :
    after visOps V (no_index ((main_v57 : Ref sig .tc) : DevRef τ sig))
      = head24 (V (main_arg2 : DevRef τ sig)) (V (main_arg20 : DevRef τ sig)) (V (main_arg21 : DevRef τ sig)) := by
  stage_of visOps
theorem visOps_v61 (V : Valuation τ sig (Elt F)) :
    after visOps V (no_index ((main_v61 : Ref sig .tc) : DevRef τ sig))
      = head4 (V (main_arg2 : DevRef τ sig)) (V (main_arg22 : DevRef τ sig)) (V (main_arg23 : DevRef τ sig)) := by
  stage_of visOps

theorem freqOps_v75 (V : Valuation τ sig (Elt F)) :
    after freqOps V (no_index ((main_v75 : Ref sig .tc) : DevRef τ sig)) = freqRow (V (main_arg24 : DevRef τ sig)) (V (main_arg3 : DevRef τ sig)) := by
  stage_of freqOps

theorem bias15Ops_v82 (V : Valuation τ sig (Elt F)) :
    after bias15Ops V (no_index ((main_v82 : Ref sig .tc) : DevRef τ sig)) = bias15 (V (main_v75 : DevRef τ sig)) (V (main_c : DevRef τ sig)) := by
  stage_of bias15Ops
theorem bias11Ops_v89 (V : Valuation τ sig (Elt F)) :
    after bias11Ops V (no_index ((main_v89 : Ref sig .tc) : DevRef τ sig)) = bias11 (V (main_v75 : DevRef τ sig)) (V (main_c_0 : DevRef τ sig)) := by
  stage_of bias11Ops
theorem bias24Ops_v96 (V : Valuation τ sig (Elt F)) :
    after bias24Ops V (no_index ((main_v96 : Ref sig .tc) : DevRef τ sig)) = bias24 (V (main_v75 : DevRef τ sig)) (V (main_c_1 : DevRef τ sig)) := by
  stage_of bias24Ops

theorem bias4Ops_v111 (V : Valuation τ sig (Elt F)) :
    after bias4Ops V (no_index ((main_v111 : Ref sig .tc) : DevRef τ sig))
      = bias4 (V (main_v75 : DevRef τ sig)) (V (main_v82 : DevRef τ sig)) (V (main_v89 : DevRef τ sig))
          (V (main_v96 : DevRef τ sig)) := by
  stage_of bias4Ops

theorem sumOps_v113 (V : Valuation τ sig (Elt F)) :
    after sumOps V (no_index ((main_v113 : Ref sig .tc) : DevRef τ sig))
      = fused (V (main_v49 : DevRef τ sig)) (V (main_v33 : DevRef τ sig)) (V (main_v82 : DevRef τ sig)) := by
  stage_of sumOps
theorem sumOps_v115 (V : Valuation τ sig (Elt F)) :
    after sumOps V (no_index ((main_v115 : Ref sig .tc) : DevRef τ sig))
      = fused (V (main_v53 : DevRef τ sig)) (V (main_v37 : DevRef τ sig)) (V (main_v89 : DevRef τ sig)) := by
  stage_of sumOps
theorem sumOps_v117 (V : Valuation τ sig (Elt F)) :
    after sumOps V (no_index ((main_v117 : Ref sig .tc) : DevRef τ sig))
      = fused (V (main_v57 : DevRef τ sig)) (V (main_v41 : DevRef τ sig)) (V (main_v96 : DevRef τ sig)) := by
  stage_of sumOps
theorem sumOps_v119 (V : Valuation τ sig (Elt F)) :
    after sumOps V (no_index ((main_v119 : Ref sig .tc) : DevRef τ sig))
      = fused (V (main_v61 : DevRef τ sig)) (V (main_v45 : DevRef τ sig)) (V (main_v111 : DevRef τ sig)) := by
  stage_of sumOps

/-! ## The four results as functions of the twenty-five arguments -/

/-- The hidden activation from the arguments it depends on: the object contexts, the pair indices, the projection's
    matrix and bias, the mixing matrix and bias. -/
def hiddenOf (a0 : FVec F S8192x512 .f32) (a1 : IVec S32768x2 32) (a4 : FVec F S512x1024 .f32) (a5 : FVec F S1024 .f32)
    (a6 : FVec F S1024x4096 .f32) (a7 : FVec F S4096 .f32) : FVec F S32768x4096 .f32 :=
  hiddenAct
    (pairCtx (pickRows (headHalf (objProj a0 a4 a5)) (objRow (column0 a1)))
      (pickRows (tailHalf (objProj a0 a4 a5)) (objRow (column1 a1))))
    a6 a7

/-- The first result, fifteen wide. -/
def out113 (a0 : FVec F S8192x512 .f32) (a1 : IVec S32768x2 32) (a2 : FVec F S32768x4096 .f32) (a3 : IVec S32768x2 32)
    (a4 : FVec F S512x1024 .f32) (a5 : FVec F S1024 .f32) (a6 : FVec F S1024x4096 .f32) (a7 : FVec F S4096 .f32)
    (a8 : FVec F S4096x15 .f32) (a9 : FVec F S15 .f32) (a10 : FVec F S4096x11 .f32) (a11 : FVec F S11 .f32)
    (a12 : FVec F S4096x24 .f32) (a13 : FVec F S24 .f32) (a14 : FVec F S4096x4 .f32) (a15 : FVec F S4 .f32)
    (a16 : FVec F S4096x15 .f32) (a17 : FVec F S15 .f32) (a18 : FVec F S4096x11 .f32) (a19 : FVec F S11 .f32)
    (a20 : FVec F S4096x24 .f32) (a21 : FVec F S24 .f32) (a22 : FVec F S4096x4 .f32) (a23 : FVec F S4 .f32)
    (a24 : FVec F S22801x51 .f32) : FVec F S32768x15 .f32 :=
  fused (head15 a2 a16 a17) (head15 (hiddenOf a0 a1 a4 a5 a6 a7) a8 a9) (bias15 (freqRow a24 a3) cols15)

/-- The second result, eleven wide. -/
def out115 (a0 : FVec F S8192x512 .f32) (a1 : IVec S32768x2 32) (a2 : FVec F S32768x4096 .f32) (a3 : IVec S32768x2 32)
    (a4 : FVec F S512x1024 .f32) (a5 : FVec F S1024 .f32) (a6 : FVec F S1024x4096 .f32) (a7 : FVec F S4096 .f32)
    (a8 : FVec F S4096x15 .f32) (a9 : FVec F S15 .f32) (a10 : FVec F S4096x11 .f32) (a11 : FVec F S11 .f32)
    (a12 : FVec F S4096x24 .f32) (a13 : FVec F S24 .f32) (a14 : FVec F S4096x4 .f32) (a15 : FVec F S4 .f32)
    (a16 : FVec F S4096x15 .f32) (a17 : FVec F S15 .f32) (a18 : FVec F S4096x11 .f32) (a19 : FVec F S11 .f32)
    (a20 : FVec F S4096x24 .f32) (a21 : FVec F S24 .f32) (a22 : FVec F S4096x4 .f32) (a23 : FVec F S4 .f32)
    (a24 : FVec F S22801x51 .f32) : FVec F S32768x11 .f32 :=
  fused (head11 a2 a18 a19) (head11 (hiddenOf a0 a1 a4 a5 a6 a7) a10 a11) (bias11 (freqRow a24 a3) cols11)

/-- The third result, twenty-four wide. -/
def out117 (a0 : FVec F S8192x512 .f32) (a1 : IVec S32768x2 32) (a2 : FVec F S32768x4096 .f32) (a3 : IVec S32768x2 32)
    (a4 : FVec F S512x1024 .f32) (a5 : FVec F S1024 .f32) (a6 : FVec F S1024x4096 .f32) (a7 : FVec F S4096 .f32)
    (a8 : FVec F S4096x15 .f32) (a9 : FVec F S15 .f32) (a10 : FVec F S4096x11 .f32) (a11 : FVec F S11 .f32)
    (a12 : FVec F S4096x24 .f32) (a13 : FVec F S24 .f32) (a14 : FVec F S4096x4 .f32) (a15 : FVec F S4 .f32)
    (a16 : FVec F S4096x15 .f32) (a17 : FVec F S15 .f32) (a18 : FVec F S4096x11 .f32) (a19 : FVec F S11 .f32)
    (a20 : FVec F S4096x24 .f32) (a21 : FVec F S24 .f32) (a22 : FVec F S4096x4 .f32) (a23 : FVec F S4 .f32)
    (a24 : FVec F S22801x51 .f32) : FVec F S32768x24 .f32 :=
  fused (head24 a2 a20 a21) (head24 (hiddenOf a0 a1 a4 a5 a6 a7) a12 a13) (bias24 (freqRow a24 a3) cols24)

/-- The fourth result, four wide. -/
def out119 (a0 : FVec F S8192x512 .f32) (a1 : IVec S32768x2 32) (a2 : FVec F S32768x4096 .f32) (a3 : IVec S32768x2 32)
    (a4 : FVec F S512x1024 .f32) (a5 : FVec F S1024 .f32) (a6 : FVec F S1024x4096 .f32) (a7 : FVec F S4096 .f32)
    (a8 : FVec F S4096x15 .f32) (a9 : FVec F S15 .f32) (a10 : FVec F S4096x11 .f32) (a11 : FVec F S11 .f32)
    (a12 : FVec F S4096x24 .f32) (a13 : FVec F S24 .f32) (a14 : FVec F S4096x4 .f32) (a15 : FVec F S4 .f32)
    (a16 : FVec F S4096x15 .f32) (a17 : FVec F S15 .f32) (a18 : FVec F S4096x11 .f32) (a19 : FVec F S11 .f32)
    (a20 : FVec F S4096x24 .f32) (a21 : FVec F S24 .f32) (a22 : FVec F S4096x4 .f32) (a23 : FVec F S4 .f32)
    (a24 : FVec F S22801x51 .f32) : FVec F S32768x4 .f32 :=
  fused (head4 a2 a22 a23) (head4 (hiddenOf a0 a1 a4 a5 a6 a7) a14 a15)
    (bias4 (freqRow a24 a3) (bias15 (freqRow a24 a3) cols15) (bias11 (freqRow a24 a3) cols11) (bias24 (freqRow a24 a3) cols24))

/-! ## The whole line at the four result buffers

The line is its thirteen lists one after the other. A buffer is read back through the lists from the last: at the
list that writes it, that list's stage equation; at every other list, unchanged. -/

/-- Reads a result buffer back through the thirteen lists to the arguments. -/
local macro "read_back" : tactic =>
  `(tactic| simp (disch := decide) only [ops, after_append,
      sumOps_v113, sumOps_v115, sumOps_v117, sumOps_v119, bias4Ops_v111, bias24Ops_v96, bias11Ops_v89, bias15Ops_v82, freqOps_v75,
      visOps_v49, visOps_v53, visOps_v57, visOps_v61, ctxOps_v33, ctxOps_v37, ctxOps_v41, ctxOps_v45, hiddenOps_v29,
      tailOps_v23, headOps_v14, projOps_v4, projOps_v5, colOps_c, colOps_c_0, colOps_c_1,
      sumOps_tidy.keeps, bias4Ops_tidy.keeps, bias24Ops_tidy.keeps, bias11Ops_tidy.keeps, bias15Ops_tidy.keeps, freqOps_tidy.keeps,
      visOps_tidy.keeps, ctxOps_tidy.keeps, hiddenOps_tidy.keeps, tailOps_tidy.keeps, headOps_tidy.keeps, projOps_tidy.keeps,
      colOps_tidy.keeps])

theorem out113_eq (V : Valuation τ sig (Elt F)) :
    after ops V (main_v113 : DevRef τ sig)
      = out113 (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig))
          (V (main_arg10 : DevRef τ sig)) (V (main_arg11 : DevRef τ sig)) (V (main_arg12 : DevRef τ sig)) (V (main_arg13 : DevRef τ sig)) (V (main_arg14 : DevRef τ sig))
          (V (main_arg15 : DevRef τ sig)) (V (main_arg16 : DevRef τ sig)) (V (main_arg17 : DevRef τ sig)) (V (main_arg18 : DevRef τ sig)) (V (main_arg19 : DevRef τ sig))
          (V (main_arg20 : DevRef τ sig)) (V (main_arg21 : DevRef τ sig)) (V (main_arg22 : DevRef τ sig)) (V (main_arg23 : DevRef τ sig)) (V (main_arg24 : DevRef τ sig)) := by
  read_back
  rfl

theorem out115_eq (V : Valuation τ sig (Elt F)) :
    after ops V (main_v115 : DevRef τ sig)
      = out115 (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig))
          (V (main_arg10 : DevRef τ sig)) (V (main_arg11 : DevRef τ sig)) (V (main_arg12 : DevRef τ sig)) (V (main_arg13 : DevRef τ sig)) (V (main_arg14 : DevRef τ sig))
          (V (main_arg15 : DevRef τ sig)) (V (main_arg16 : DevRef τ sig)) (V (main_arg17 : DevRef τ sig)) (V (main_arg18 : DevRef τ sig)) (V (main_arg19 : DevRef τ sig))
          (V (main_arg20 : DevRef τ sig)) (V (main_arg21 : DevRef τ sig)) (V (main_arg22 : DevRef τ sig)) (V (main_arg23 : DevRef τ sig)) (V (main_arg24 : DevRef τ sig)) := by
  read_back
  rfl

theorem out117_eq (V : Valuation τ sig (Elt F)) :
    after ops V (main_v117 : DevRef τ sig)
      = out117 (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig))
          (V (main_arg10 : DevRef τ sig)) (V (main_arg11 : DevRef τ sig)) (V (main_arg12 : DevRef τ sig)) (V (main_arg13 : DevRef τ sig)) (V (main_arg14 : DevRef τ sig))
          (V (main_arg15 : DevRef τ sig)) (V (main_arg16 : DevRef τ sig)) (V (main_arg17 : DevRef τ sig)) (V (main_arg18 : DevRef τ sig)) (V (main_arg19 : DevRef τ sig))
          (V (main_arg20 : DevRef τ sig)) (V (main_arg21 : DevRef τ sig)) (V (main_arg22 : DevRef τ sig)) (V (main_arg23 : DevRef τ sig)) (V (main_arg24 : DevRef τ sig)) := by
  read_back
  rfl

theorem out119_eq (V : Valuation τ sig (Elt F)) :
    after ops V (main_v119 : DevRef τ sig)
      = out119 (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig))
          (V (main_arg10 : DevRef τ sig)) (V (main_arg11 : DevRef τ sig)) (V (main_arg12 : DevRef τ sig)) (V (main_arg13 : DevRef τ sig)) (V (main_arg14 : DevRef τ sig))
          (V (main_arg15 : DevRef τ sig)) (V (main_arg16 : DevRef τ sig)) (V (main_arg17 : DevRef τ sig)) (V (main_arg18 : DevRef τ sig)) (V (main_arg19 : DevRef τ sig))
          (V (main_arg20 : DevRef τ sig)) (V (main_arg21 : DevRef τ sig)) (V (main_arg22 : DevRef τ sig)) (V (main_arg23 : DevRef τ sig)) (V (main_arg24 : DevRef τ sig)) := by
  read_back
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

set_option quotPrecheck false in
/-- What device `c`'s TensorCore holds in buffer `b` in memory `μ`. -/
local notation "⟪" μ ", " c ", " b "⟫" => μ (((c).tc : Thread nD τ).loc b)

/-- On every device, for any float values, from any memory with zero counters: every weakly fair execution of @main
    terminates with the four result buffers at the four result functions of the arguments' launch contents, and
    the twenty-five arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      ⟪r.2.mem, c, main_v113⟫ = out113 ⟪m, c, main_arg0⟫ ⟪m, c, main_arg1⟫ ⟪m, c, main_arg2⟫ ⟪m, c, main_arg3⟫ ⟪m, c, main_arg4⟫
          ⟪m, c, main_arg5⟫ ⟪m, c, main_arg6⟫ ⟪m, c, main_arg7⟫ ⟪m, c, main_arg8⟫ ⟪m, c, main_arg9⟫ ⟪m, c, main_arg10⟫ ⟪m, c, main_arg11⟫
          ⟪m, c, main_arg12⟫ ⟪m, c, main_arg13⟫ ⟪m, c, main_arg14⟫ ⟪m, c, main_arg15⟫ ⟪m, c, main_arg16⟫ ⟪m, c, main_arg17⟫
          ⟪m, c, main_arg18⟫ ⟪m, c, main_arg19⟫ ⟪m, c, main_arg20⟫ ⟪m, c, main_arg21⟫ ⟪m, c, main_arg22⟫ ⟪m, c, main_arg23⟫ ⟪m, c, main_arg24⟫
      ∧ ⟪r.2.mem, c, main_v115⟫ = out115 ⟪m, c, main_arg0⟫ ⟪m, c, main_arg1⟫ ⟪m, c, main_arg2⟫ ⟪m, c, main_arg3⟫ ⟪m, c, main_arg4⟫
          ⟪m, c, main_arg5⟫ ⟪m, c, main_arg6⟫ ⟪m, c, main_arg7⟫ ⟪m, c, main_arg8⟫ ⟪m, c, main_arg9⟫ ⟪m, c, main_arg10⟫ ⟪m, c, main_arg11⟫
          ⟪m, c, main_arg12⟫ ⟪m, c, main_arg13⟫ ⟪m, c, main_arg14⟫ ⟪m, c, main_arg15⟫ ⟪m, c, main_arg16⟫ ⟪m, c, main_arg17⟫
          ⟪m, c, main_arg18⟫ ⟪m, c, main_arg19⟫ ⟪m, c, main_arg20⟫ ⟪m, c, main_arg21⟫ ⟪m, c, main_arg22⟫ ⟪m, c, main_arg23⟫ ⟪m, c, main_arg24⟫
      ∧ ⟪r.2.mem, c, main_v117⟫ = out117 ⟪m, c, main_arg0⟫ ⟪m, c, main_arg1⟫ ⟪m, c, main_arg2⟫ ⟪m, c, main_arg3⟫ ⟪m, c, main_arg4⟫
          ⟪m, c, main_arg5⟫ ⟪m, c, main_arg6⟫ ⟪m, c, main_arg7⟫ ⟪m, c, main_arg8⟫ ⟪m, c, main_arg9⟫ ⟪m, c, main_arg10⟫ ⟪m, c, main_arg11⟫
          ⟪m, c, main_arg12⟫ ⟪m, c, main_arg13⟫ ⟪m, c, main_arg14⟫ ⟪m, c, main_arg15⟫ ⟪m, c, main_arg16⟫ ⟪m, c, main_arg17⟫
          ⟪m, c, main_arg18⟫ ⟪m, c, main_arg19⟫ ⟪m, c, main_arg20⟫ ⟪m, c, main_arg21⟫ ⟪m, c, main_arg22⟫ ⟪m, c, main_arg23⟫ ⟪m, c, main_arg24⟫
      ∧ ⟪r.2.mem, c, main_v119⟫ = out119 ⟪m, c, main_arg0⟫ ⟪m, c, main_arg1⟫ ⟪m, c, main_arg2⟫ ⟪m, c, main_arg3⟫ ⟪m, c, main_arg4⟫
          ⟪m, c, main_arg5⟫ ⟪m, c, main_arg6⟫ ⟪m, c, main_arg7⟫ ⟪m, c, main_arg8⟫ ⟪m, c, main_arg9⟫ ⟪m, c, main_arg10⟫ ⟪m, c, main_arg11⟫
          ⟪m, c, main_arg12⟫ ⟪m, c, main_arg13⟫ ⟪m, c, main_arg14⟫ ⟪m, c, main_arg15⟫ ⟪m, c, main_arg16⟫ ⟪m, c, main_arg17⟫
          ⟪m, c, main_arg18⟫ ⟪m, c, main_arg19⟫ ⟪m, c, main_arg20⟫ ⟪m, c, main_arg21⟫ ⟪m, c, main_arg22⟫ ⟪m, c, main_arg23⟫ ⟪m, c, main_arg24⟫
      ∧ ⟪r.2.mem, c, main_arg0⟫ = ⟪m, c, main_arg0⟫ ∧ ⟪r.2.mem, c, main_arg1⟫ = ⟪m, c, main_arg1⟫
      ∧ ⟪r.2.mem, c, main_arg2⟫ = ⟪m, c, main_arg2⟫ ∧ ⟪r.2.mem, c, main_arg3⟫ = ⟪m, c, main_arg3⟫
      ∧ ⟪r.2.mem, c, main_arg4⟫ = ⟪m, c, main_arg4⟫ ∧ ⟪r.2.mem, c, main_arg5⟫ = ⟪m, c, main_arg5⟫
      ∧ ⟪r.2.mem, c, main_arg6⟫ = ⟪m, c, main_arg6⟫ ∧ ⟪r.2.mem, c, main_arg7⟫ = ⟪m, c, main_arg7⟫
      ∧ ⟪r.2.mem, c, main_arg8⟫ = ⟪m, c, main_arg8⟫ ∧ ⟪r.2.mem, c, main_arg9⟫ = ⟪m, c, main_arg9⟫
      ∧ ⟪r.2.mem, c, main_arg10⟫ = ⟪m, c, main_arg10⟫ ∧ ⟪r.2.mem, c, main_arg11⟫ = ⟪m, c, main_arg11⟫
      ∧ ⟪r.2.mem, c, main_arg12⟫ = ⟪m, c, main_arg12⟫ ∧ ⟪r.2.mem, c, main_arg13⟫ = ⟪m, c, main_arg13⟫
      ∧ ⟪r.2.mem, c, main_arg14⟫ = ⟪m, c, main_arg14⟫ ∧ ⟪r.2.mem, c, main_arg15⟫ = ⟪m, c, main_arg15⟫
      ∧ ⟪r.2.mem, c, main_arg16⟫ = ⟪m, c, main_arg16⟫ ∧ ⟪r.2.mem, c, main_arg17⟫ = ⟪m, c, main_arg17⟫
      ∧ ⟪r.2.mem, c, main_arg18⟫ = ⟪m, c, main_arg18⟫ ∧ ⟪r.2.mem, c, main_arg19⟫ = ⟪m, c, main_arg19⟫
      ∧ ⟪r.2.mem, c, main_arg20⟫ = ⟪m, c, main_arg20⟫ ∧ ⟪r.2.mem, c, main_arg21⟫ = ⟪m, c, main_arg21⟫
      ∧ ⟪r.2.mem, c, main_arg22⟫ = ⟪m, c, main_arg22⟫ ∧ ⟪r.2.mem, c, main_arg23⟫ = ⟪m, c, main_arg23⟫
      ∧ ⟪r.2.mem, c, main_arg24⟫ = ⟪m, c, main_arg24⟫ :=
  (θ_run defs _ _).mono (fun _ h c =>
      ⟨(h c main_v113).trans (out113_eq _), (h c main_v115).trans (out115_eq _), (h c main_v117).trans (out117_eq _),
        (h c main_v119).trans (out119_eq _),
        (h c main_arg0).trans (ops_tidy.keeps _ (by decide)), (h c main_arg1).trans (ops_tidy.keeps _ (by decide)),
        (h c main_arg2).trans (ops_tidy.keeps _ (by decide)), (h c main_arg3).trans (ops_tidy.keeps _ (by decide)),
        (h c main_arg4).trans (ops_tidy.keeps _ (by decide)), (h c main_arg5).trans (ops_tidy.keeps _ (by decide)),
        (h c main_arg6).trans (ops_tidy.keeps _ (by decide)), (h c main_arg7).trans (ops_tidy.keeps _ (by decide)),
        (h c main_arg8).trans (ops_tidy.keeps _ (by decide)), (h c main_arg9).trans (ops_tidy.keeps _ (by decide)),
        (h c main_arg10).trans (ops_tidy.keeps _ (by decide)), (h c main_arg11).trans (ops_tidy.keeps _ (by decide)),
        (h c main_arg12).trans (ops_tidy.keeps _ (by decide)), (h c main_arg13).trans (ops_tidy.keeps _ (by decide)),
        (h c main_arg14).trans (ops_tidy.keeps _ (by decide)), (h c main_arg15).trans (ops_tidy.keeps _ (by decide)),
        (h c main_arg16).trans (ops_tidy.keeps _ (by decide)), (h c main_arg17).trans (ops_tidy.keeps _ (by decide)),
        (h c main_arg18).trans (ops_tidy.keeps _ (by decide)), (h c main_arg19).trans (ops_tidy.keeps _ (by decide)),
        (h c main_arg20).trans (ops_tidy.keeps _ (by decide)), (h c main_arg21).trans (ops_tidy.keeps _ (by decide)),
        (h c main_arg22).trans (ops_tidy.keeps _ (by decide)), (h c main_arg23).trans (ops_tidy.keeps _ (by decide)),
        (h c main_arg24).trans (ops_tidy.keeps _ (by decide))⟩)
    (run_seq scopedRefs_eq scopedSems_eq defs main (fun _ => ops) main_eq (fun _ => ops_tidy.sub) m ρ
      (fun _ => List.forall_iff_forall_mem.mp ops_tidy.fresh))

end Cert.ReferenceIdeal.Hand

end
-- ==== Proof.Spec.lean ====
/-
  The mathematics both programs compute, index by index over the extended reals, written once over literal
  extents so that the kernel's side and the reference's side can each be shown equal to it.

  * `affine`: rows times a matrix plus a bias row — entry (i, j) is the sum over q of x(i, q) · w(q, j), plus b(0, j).
    A sum of products in one fixed order: no law of the extended reals beyond reading it is ever needed, so the
    entries may be infinite.
  * `relu`: the larger of an entry and zero.
  * `fuse`: the visual head's entry plus the context head's entry, then plus the frequency bias's entry, in that
    order of addition (the order both programs use).
  * `asRow`: a vector of length m read as the single row of a 1 × m array.
-/
import Idealize.ShloMosaic.PureOps.Ideal
import Idealize.ShloMosaic.Lib.ValueIdx

noncomputable section

open scoped BigOperators

namespace Cert.Spec

open Idealize.ShloMosaic Idealize.ShloMosaic.ValueIdx

/-- An n × m array of extended reals. -/
abbrev Mat (n m : Nat) : Type := (⟨2, ![n, m]⟩ : Shape).Idx → EReal

/-- Rows times matrix plus the bias row: entry (i, j) is `∑ q, x (i, q) · w (q, j)`, plus `b (0, j)`. -/
def affine (n k m : Nat) (x : Mat n k) (w : Mat k m) (b : Mat 1 m) : Mat n m :=
  fun j => (∑ q : Fin k, x (ix2 (show Fin n from j 0) q) * w (ix2 q (show Fin m from j 1)))
    + b (ix2 (0 : Fin 1) (show Fin m from j 1))

theorem affine_apply (n k m : Nat) (x : Mat n k) (w : Mat k m) (b : Mat 1 m) (i : Fin n) (j : Fin m) :
    affine n k m x w b (ix2 i j) = (∑ q : Fin k, x (ix2 i q) * w (ix2 q j)) + b (ix2 (0 : Fin 1) j) := rfl

/-- The larger of each entry and zero. -/
def relu (n m : Nat) (y : Mat n m) : Mat n m := fun j => max (y j) 0

theorem relu_apply (n m : Nat) (y : Mat n m) (j : (⟨2, ![n, m]⟩ : Shape).Idx) : relu n m y j = max (y j) 0 := rfl

/-- Visual entry plus context entry, then plus the bias entry. -/
def fuse (n m : Nat) (vis ctx bias : Mat n m) : Mat n m := fun j => (vis j + ctx j) + bias j

theorem fuse_apply (n m : Nat) (vis ctx bias : Mat n m) (j : (⟨2, ![n, m]⟩ : Shape).Idx) :
    fuse n m vis ctx bias j = (vis j + ctx j) + bias j := rfl

/-- A vector of length m as the one row of a 1 × m array. -/
def asRow (m : Nat) (b : (⟨1, ![m]⟩ : Shape).Idx → EReal) : Mat 1 m := fun j => b (ix1 (show Fin m from j 1))

theorem asRow_apply (m : Nat) (b : (⟨1, ![m]⟩ : Shape).Idx → EReal) (i : Fin 1) (j : Fin m) :
    asRow m b (ix2 i j) = b (ix1 j) := rfl

end Cert.Spec

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KI.ValR0.lean ====
/-
  The value of the first kernel region at the ideal instance: the whole projected array the region leaves, as one
  function of the arrays the region was entered with.

  The region's output window cuts the projected array (8192 × 1024) into eight blocks of 1024 whole rows: grid point
  t owns rows 1024·t … 1024·t + 1023, every column. A row r of the array therefore lies in exactly the block of point
  r / 1024, so the eight blocks tile the array and every entry is written by some point.

  What point t writes at place (p, q) of its block is the body's one stored value there: the sum over k of
  (row p of the staged rows at k) · (the matrix at (k, q)), plus the bias row at q. The staged rows are rows
  1024·t + p of the object contexts (the input window moves with the output window along the rows, block index
  (t, 0)), the matrix and the bias row are staged whole (block index (0, 0)), and narrowing to bf16 is the identity
  over the extended reals. So the entry written at row 1024·t + p, column q of the array is the affine map's entry
  there: Σ_k x(1024·t + p, k) · w(k, q) + b(0, q). Each block written is thus that block of ONE array, the affine map
  of the entry contents, and the blocks cover: the array ends holding the affine map.

  The three input arrays are never written back, so they end as the region found them.
-/
import proofs.«407185_j88871463289477_1_alg».proof.Proof.KI.R0
import proofs.«407185_j88871463289477_1_alg».proof.Proof.Spec
import proofs.«407185_j88871463289477_1_alg».proof.Proof.LibDotPlain
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the core's buffer contents when the region is entered, over the extended reals
variable (V : (c : Dev nD) → (b : Ref sig .tc) → Buf (Elt Ideal) ((c : Thread nD τ).loc b))

/-! ## The stored value at a place of the block -/

/-- The zero offsets of a whole-buffer rectangle, as the constant function. -/
theorem zeroOff2 : (![0, 0] : Fin 2 → Nat) = fun _ => 0 := funext fun a => by fin_cases a <;> rfl

/-- The body's contraction is the plain one: rows (1024 × 512) by a matrix (512 × 1024), contracting the rows'
    columns with the matrix's rows. -/
theorem dot0_plain : dot_S1024x512_S512x1024_S1024x1024_1_0_0_1_n_n = DotDims.plain 1024 512 1024 := rfl

/-- The stored value at place (p, q): the sum over k of rows(p, k) · matrix(k, q), plus the bias row at q. -/
theorem pay0_apply (x0 : Vec Ideal S1024x512 .f32) (x1 : Vec Ideal S512x1024 .bf16) (x2 : Vec Ideal S1x1024 .f32)
    (p q : Fin 1024) :
    k0_pay1 x0 x1 x2 (ix2 p q) = (∑ k : Fin 512, x0 (ix2 p k) * x1 (ix2 k q)) + x2 (ix2 (0 : Fin 1) q) := by
  unfold k0_pay1
  rw [dot0_plain]
  refine (addf_apply _ _ _).trans ?_
  refine congrArg₂ (· + ·) ?_ ?_
  · refine (Cert.LibDotPlain.matmul_zero_plain 1024 512 1024 none _ _ p q).trans (Finset.sum_congr rfl fun k _ => ?_)
    rw [shapeCast_self]
    rfl
  · refine (broadcastTo_1b_ab_apply _ _ p q).trans ?_
    rw [shapeCast_self]

/-! ## Where each block sits -/

/-- The index maps over the grid: the rows' window and the output window are at block (t, 0), the matrix's and the
    bias row's at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows' block at point t, at place (p, k), is the object contexts at row 1024·t + p, column k. -/
theorem rows_blk_apply (c : Dev nD) (t : Fin cfg0.N) (p : Fin 1024) (k : Fin 512) (i : Fin 8192) (hi : i.val = 1024 * t.val + p.val) :
    (iblk0 V c 0 t : Vec Ideal S1024x512 .f32) (ix2 p k) = (V c main_arg0 : S8192x512.Idx → EReal) (ix2 i k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * p.val = i.val; rw [e0, hi]; omega
  | ⟨1, _⟩ => show win0_0.index t (1 : Fin 2) * 512 + 1 * k.val = k.val; rw [e1]; omega

/-- The matrix's block at any point is the whole matrix. -/
theorem mat_blk_apply (c : Dev nD) (t : Fin cfg0.N) (k : Fin 512) (q : Fin 1024) :
    (iblk0 V c 1 t : Vec Ideal S512x1024 .bf16) (ix2 k q) = (V c main_v0 : S512x1024.Idx → EReal) (ix2 k q) := by
  obtain ⟨-, -, e2, e3, -⟩ := idx_facts0 t
  unfold iblk0
  rw [View.read_apply]
  show V c main_v0 _ = V c main_v0 _
  congr 1
  funext a
  apply Fin.ext
  match a with
  | ⟨0, _⟩ => show win0_1.index t (0 : Fin 2) * 512 + 1 * k.val = k.val; rw [e2]; omega
  | ⟨1, _⟩ => show win0_1.index t (1 : Fin 2) * 1024 + 1 * q.val = q.val; rw [e3]; omega

/-- The bias row's block at any point is the whole bias row. -/
theorem bias_blk_apply (c : Dev nD) (t : Fin cfg0.N) (q : Fin 1024) :
    (iblk0 V c 2 t : Vec Ideal S1x1024 .f32) (ix2 (0 : Fin 1) q) = (V c main_v1 : S1x1024.Idx → EReal) (ix2 (0 : Fin 1) q) := by
  obtain ⟨-, -, -, -, e4, e5, -⟩ := idx_facts0 t
  unfold iblk0
  rw [View.read_apply]
  show V c main_v1 _ = V c main_v1 _
  congr 1
  funext a
  apply Fin.ext
  match a with
  | ⟨0, _⟩ => show win0_2.index t (0 : Fin 2) * 1 + 1 * (0 : Fin 1).val = (0 : Fin 1).val; rw [e4]; rfl
  | ⟨1, _⟩ => show win0_2.index t (1 : Fin 2) * 1024 + 1 * q.val = q.val; rw [e5]; omega

/-! ## What a point writes back -/

/-- A grid point is one of eight. -/
theorem point_lt (t : Fin cfg0.N) : t.val < 8 := Nat.lt_of_lt_of_eq t.isLt N_0

/-- Place (p, q) of the output's block at point t is row 1024·t + p, column q of the projected array. -/
theorem out_blk_emb (t : Fin cfg0.N) (p q : Fin 1024) (i : Fin 8192) (hi : i.val = 1024 * t.val + p.val) :
    ((cfg0.win 3).blk t).view.emb (ix2 p q) = (ix2 i q : S8192x1024.Idx) := by
  obtain ⟨-, -, -, -, -, -, e6, e7⟩ := idx_facts0 t
  funext a
  apply Fin.ext
  match a with
  | ⟨0, _⟩ => show win0_3.index t (0 : Fin 2) * 1024 + 1 * p.val = i.val; rw [e6, hi]; omega
  | ⟨1, _⟩ => show win0_3.index t (1 : Fin 2) * 1024 + 1 * q.val = q.val; rw [e7]; omega

/-- What point t writes back is block t of the affine map of the arrays the region was entered with. -/
theorem flushed0_3_eq (c : Dev nD) (t : Fin cfg0.N) :
    (dat0 V c).flushed 3 t = ((cfg0.win 3).blk t).view.read (Elt Ideal)
      (Cert.Spec.affine 8192 512 1024 (V c main_arg0) (V c main_v0) (V c main_v1)) := by
  show (cfg0.win 3).cut (grid0.coords t) ((dat0 V c).after 3 t) = _
  rw [after0_3]
  unfold out0_3
  rw [View.canon_unit_zero zeroOff2]
  simp only [View.ld_unit_zero (S := S1024x512) zeroOff2, View.ld_unit_zero (S := S512x1024) zeroOff2,
    View.ld_unit_zero (S := S1x1024) zeroOff2]
  funext y
  obtain ⟨p, q, rfl⟩ : ∃ (p : Fin 1024) (q : Fin 1024), y = ix2 p q := ⟨y 0, y 1, eq_ix2 y⟩
  have hrow : 1024 * t.val + p.val < 8192 := by have := point_lt t; have := p.isLt; omega
  refine (pay0_apply _ _ _ p q).trans ?_
  rw [View.read_apply]
  show _ = Cert.Spec.affine 8192 512 1024 (V c main_arg0) (V c main_v0) (V c main_v1) (((cfg0.win 3).blk t).view.emb (ix2 p q))
  rw [out_blk_emb t p q ⟨_, hrow⟩ rfl, Cert.Spec.affine_apply]
  refine congrArg₂ (· + ·) (Finset.sum_congr rfl fun k _ => ?_) (bias_blk_apply V c t q)
  rw [rows_blk_apply V c t p k ⟨_, hrow⟩ rfl, mat_blk_apply V c t k q]

/-! ## The blocks tile the array -/

/-- An index of the projected array is in point t's block iff each coordinate is in the block's range on its axis. -/
theorem mem_blk0_3 (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v2).slice (win0_3.rect t)).set ↔ _
  rw [View.set_slice_whole, Rect.mem_set_unit]
  exact Iff.rfl

/-- Row r of the projected array is in the block of point r / 1024: every entry is written by some point. -/
theorem tiled0_3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ : ∃ t : Fin cfg0.N, t.val = (i 0).val / 1024 :=
    ⟨⟨(i 0).val / 1024, by rw [show cfg0.N = 8 from N_0]; omega⟩, rfl⟩
  obtain ⟨-, -, -, -, -, -, e6, e7⟩ := idx_facts0 t
  refine ⟨t, flush0_3 t, ?_⟩
  rw [mem_blk0_3]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 1024 ≤ (i 1).val ∧ (i 1).val < win0_3.index t (1 : Fin 2) * 1024 + 1024
    rw [e7]; omega

/-! ## The array the region leaves -/

/-- The projected array after the region: the affine map of the object contexts, the matrix and the bias row as the
    region found them. -/
theorem region0_value (c : Dev nD) :
    (dat0 (F := Ideal) V c).arrAt 3 cfg0.N
      = Cert.Spec.affine 8192 512 1024 (V c main_arg0) (V c main_v0) (V c main_v1) :=
  (dat0 V c).arrAt_eq_of_cover 3 _ (fun t _ => flushed0_3_eq V c t) tiled0_3

/-- The three input arrays are never written back: they end as the region found them. -/
theorem region0_kept0 (c : Dev nD) : (dat0 (F := Ideal) V c).arrAt 0 cfg0.N = V c (Pipeline.arrRef spec0 0) :=
  ((dat0 V c).arrAt_in 0 rfl _).trans (A_eq0 V c 0)

theorem region0_kept1 (c : Dev nD) : (dat0 (F := Ideal) V c).arrAt 1 cfg0.N = V c (Pipeline.arrRef spec0 1) :=
  ((dat0 V c).arrAt_in 1 rfl _).trans (A_eq0 V c 1)

theorem region0_kept2 (c : Dev nD) : (dat0 (F := Ideal) V c).arrAt 2 cfg0.N = V c (Pipeline.arrRef spec0 2) :=
  ((dat0 V c).arrAt_in 2 rfl _).trans (A_eq0 V c 2)

end Cert.KernelIdeal.Hand

end
-- ==== Proof.KI.ValR1.lean ====
/-
  The values of the second kernel region at the ideal instance: each of the four result arrays the region leaves, as
  one function of the arrays the region was entered with.

  The region works on 32768 pair rows, 512 at a time: grid point t (one of 64) owns rows 512·t … 512·t + 511 of the
  pair contexts (width 1024), of the visual features (width 4096), of the four additive bias blocks (widths 15, 11,
  24, 4) and of the four result arrays (the same widths), every column; a row r lies in exactly the block of point
  r / 512, so each result's 64 blocks tile it. The post-concatenation matrix (1024 × 4096) with its bias row, and for
  each of the two branches the four heads' matrices (4096 × n) with their bias rows (1 × n), are staged whole: their
  block index is (0, 0) at every point.

  Over the extended reals narrowing to bf16 is the identity, a shape cast between equal shapes is the identity, a
  product accumulated into the zero array is the plain sum of products, and a bias row spread over the rows adds
  b(0, j) in column j. So at place (p, q) of its block, with i = 512·t + p the row of the arrays, the body holds

      hidden(i, k)  =  max (Σ_j ctx(i, j) · W_post(j, k) + b_post(0, k)) 0                    (k below 4096)
      visual head   =  Σ_k vis(i, k) · Wv(k, q) + bv(0, q)
      context head  =  Σ_k hidden(i, k) · Wc(k, q) + bc(0, q)

  and stores  (visual head + context head) + a(i, q),  the additive bias block joined last: in that order of
  addition, the order of `fuse`. (For the head of width 24 the context product and its bias row are joined one step
  later, for the head of width 4 the visual product and its bias row are joined at the store: the same sums in the same
  order.) Each of these is the entry at (i, q) of ONE array built from the entry contents — `fuse` of the two `affine`
  maps and the bias block, the context branch's rows being `relu` of the `affine` map of the contexts — so each block
  written is that block of that array, and the blocks cover: the result array ends holding it.
-/
import proofs.«407185_j88871463289477_1_alg».proof.Proof.KI.R1
import proofs.«407185_j88871463289477_1_alg».proof.Proof.Spec
import proofs.«407185_j88871463289477_1_alg».proof.Proof.LibDotPlain
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the core's buffer contents when the region is entered, over the extended reals
variable (V : (c : Dev nD) → (b : Ref sig .tc) → Buf (Elt Ideal) ((c : Thread nD τ).loc b))

/-! ## The contractions are plain

Each product of the body contracts the left factor's columns with the right factor's rows and has no batch axis. -/

/-- The zero offsets of a whole-buffer rectangle, as the constant function. -/
theorem zeroOff1 : (![0, 0] : Fin 2 → Nat) = fun _ => 0 := funext fun a => by fin_cases a <;> rfl

/-- Context rows (512 × 1024) by the post-concatenation matrix (1024 × 4096). -/
theorem post1_plain : dot_S512x1024_S1024x4096_S512x4096_1_0_0_1_n_n = DotDims.plain 512 1024 4096 := rfl
/-- A block of 4096 columns (512 × 4096) by a head's matrix (4096 × n), n = 15, 11, 24, 4. -/
theorem head1_15_plain : dot_S512x4096_S4096x15_S512x15_1_0_0_1_n_n = DotDims.plain 512 4096 15 := rfl
theorem head1_11_plain : dot_S512x4096_S4096x11_S512x11_1_0_0_1_n_n = DotDims.plain 512 4096 11 := rfl
theorem head1_24_plain : dot_S512x4096_S4096x24_S512x24_1_0_0_1_n_n = DotDims.plain 512 4096 24 := rfl
theorem head1_4_plain : dot_S512x4096_S4096x4_S512x4_1_0_0_1_n_n = DotDims.plain 512 4096 4 := rfl

/-! ## The hidden block and the narrowed visual block at a place -/

/-- The hidden block at place (p, k): the larger of Σ_j ctx(p, j) · W_post(j, k) + b_post(0, k) and zero. -/
theorem hiddenBlk1_apply (x0 : Vec Ideal S512x1024 .f32) (x6 : Vec Ideal S1024x4096 .bf16) (x7 : Vec Ideal S1x4096 .f32)
    (p : Fin 512) (k : Fin 4096) :
    k1_pay5 x0 x6 x7 (ix2 p k)
      = max ((∑ j : Fin 1024, x0 (ix2 p j) * x6 (ix2 j k)) + x7 (ix2 (0 : Fin 1) k)) 0 := by
  unfold k1_pay5
  rw [post1_plain]
  refine (truncf_apply (φ := .f32) (ψ := .bf16) _ bitsLt_bf16_f32 _).trans ?_
  refine (maximumf_apply _ _ _).trans ?_
  refine congrArg₂ max ?_ Ideal.ofBits_zero_f32
  refine (addf_apply _ _ _).trans ?_
  refine congrArg₂ (· + ·) ?_ ?_
  · refine (Cert.LibDotPlain.matmul_zero_plain 512 1024 4096 none _ _ p k).trans (Finset.sum_congr rfl fun j _ => ?_)
    rw [shapeCast_self, shapeCast_self]
    rfl
  · refine (broadcastTo_1b_ab_apply _ _ p k).trans ?_
    rw [shapeCast_self]

/-- The narrowed visual block is the visual block. -/
theorem narrowVis1_apply (x1 : Vec Ideal S512x4096 .f32) (i : S512x4096.Idx) : k1_pay6 x1 i = x1 i := rfl

/-! ## The heads at a place

A head over a block h of 4096 columns, with matrix w and bias row b, is at place (p, q) the sum over k of
h(p, k) · w(k, q), plus b(0, q). The visual branch's h is the narrowed visual block, the context branch's the hidden
block. -/

/-- The visual head of width 15. -/
theorem visHead1_15_apply (h : FVec Ideal S512x4096 .bf16) (w : Vec Ideal S4096x15 .bf16) (b : Vec Ideal S1x15 .f32)
    (p : Fin 512) (q : Fin 15) :
    k1_pay13 h w b (ix2 p q) = (∑ k : Fin 4096, h (ix2 p k) * w (ix2 k q)) + b (ix2 (0 : Fin 1) q) := by
  unfold k1_pay13
  rw [head1_15_plain]
  refine (addf_apply _ _ _).trans ?_
  refine congrArg₂ (· + ·) ?_ ?_
  · refine (Cert.LibDotPlain.matmul_zero_plain 512 4096 15 none _ _ p q).trans (Finset.sum_congr rfl fun k _ => ?_)
    rw [shapeCast_self]
  · refine (broadcastTo_1b_ab_apply _ _ p q).trans ?_
    rw [shapeCast_self]

/-- The visual head of width 11. -/
theorem visHead1_11_apply (h : FVec Ideal S512x4096 .bf16) (w : Vec Ideal S4096x11 .bf16) (b : Vec Ideal S1x11 .f32)
    (p : Fin 512) (q : Fin 11) :
    k1_pay14 h w b (ix2 p q) = (∑ k : Fin 4096, h (ix2 p k) * w (ix2 k q)) + b (ix2 (0 : Fin 1) q) := by
  unfold k1_pay14
  rw [head1_11_plain]
  refine (addf_apply _ _ _).trans ?_
  refine congrArg₂ (· + ·) ?_ ?_
  · refine (Cert.LibDotPlain.matmul_zero_plain 512 4096 11 none _ _ p q).trans (Finset.sum_congr rfl fun k _ => ?_)
    rw [shapeCast_self]
  · refine (broadcastTo_1b_ab_apply _ _ p q).trans ?_
    rw [shapeCast_self]

/-- The visual head of width 24. -/
theorem visHead1_24_apply (h : FVec Ideal S512x4096 .bf16) (w : Vec Ideal S4096x24 .bf16) (b : Vec Ideal S1x24 .f32)
    (p : Fin 512) (q : Fin 24) :
    k1_pay15 h w b (ix2 p q) = (∑ k : Fin 4096, h (ix2 p k) * w (ix2 k q)) + b (ix2 (0 : Fin 1) q) := by
  unfold k1_pay15
  rw [head1_24_plain]
  refine (addf_apply _ _ _).trans ?_
  refine congrArg₂ (· + ·) ?_ ?_
  · refine (Cert.LibDotPlain.matmul_zero_plain 512 4096 24 none _ _ p q).trans (Finset.sum_congr rfl fun k _ => ?_)
    rw [shapeCast_self]
  · refine (broadcastTo_1b_ab_apply _ _ p q).trans ?_
    rw [shapeCast_self]

/-- The context head of width 4, over any block h (the body passes the hidden block). -/
theorem ctxHead1_4_apply (h : FVec Ideal S512x4096 .bf16) (w : Vec Ideal S4096x4 .bf16) (b : Vec Ideal S1x4 .f32)
    (p : Fin 512) (q : Fin 4) :
    k1_pay12 h w b (ix2 p q) = (∑ k : Fin 4096, h (ix2 p k) * w (ix2 k q)) + b (ix2 (0 : Fin 1) q) := by
  unfold k1_pay12
  rw [head1_4_plain]
  refine (addf_apply _ _ _).trans ?_
  refine congrArg₂ (· + ·) ?_ ?_
  · refine (Cert.LibDotPlain.matmul_zero_plain 512 4096 4 none _ _ p q).trans (Finset.sum_congr rfl fun k _ => ?_)
    rw [shapeCast_self]
  · refine (broadcastTo_1b_ab_apply _ _ p q).trans ?_
    rw [shapeCast_self]

/-- The context head of width 15, over the hidden block. -/
theorem ctxHead1_15_apply (x0 : Vec Ideal S512x1024 .f32) (x6 : Vec Ideal S1024x4096 .bf16) (x7 : Vec Ideal S1x4096 .f32)
    (w : Vec Ideal S4096x15 .bf16) (b : Vec Ideal S1x15 .f32) (p : Fin 512) (q : Fin 15) :
    k1_pay7 x0 x6 x7 w b (ix2 p q)
      = (∑ k : Fin 4096, k1_pay5 x0 x6 x7 (ix2 p k) * w (ix2 k q)) + b (ix2 (0 : Fin 1) q) := by
  unfold k1_pay7
  rw [head1_15_plain]
  refine (addf_apply _ _ _).trans ?_
  refine congrArg₂ (· + ·) ?_ ?_
  · refine (Cert.LibDotPlain.matmul_zero_plain 512 4096 15 none _ _ p q).trans (Finset.sum_congr rfl fun k _ => ?_)
    rw [shapeCast_self]
  · refine (broadcastTo_1b_ab_apply _ _ p q).trans ?_
    rw [shapeCast_self]

/-- The context head of width 11, over the hidden block. -/
theorem ctxHead1_11_apply (x0 : Vec Ideal S512x1024 .f32) (x6 : Vec Ideal S1024x4096 .bf16) (x7 : Vec Ideal S1x4096 .f32)
    (w : Vec Ideal S4096x11 .bf16) (b : Vec Ideal S1x11 .f32) (p : Fin 512) (q : Fin 11) :
    k1_pay8 x0 x6 x7 w b (ix2 p q)
      = (∑ k : Fin 4096, k1_pay5 x0 x6 x7 (ix2 p k) * w (ix2 k q)) + b (ix2 (0 : Fin 1) q) := by
  unfold k1_pay8
  rw [head1_11_plain]
  refine (addf_apply _ _ _).trans ?_
  refine congrArg₂ (· + ·) ?_ ?_
  · refine (Cert.LibDotPlain.matmul_zero_plain 512 4096 11 none _ _ p q).trans (Finset.sum_congr rfl fun k _ => ?_)
    rw [shapeCast_self]
  · refine (broadcastTo_1b_ab_apply _ _ p q).trans ?_
    rw [shapeCast_self]

/-- The context head of width 24, its product with the hidden block formed first and its bias row joined after. -/
theorem ctxHead1_24_apply (x0 : Vec Ideal S512x1024 .f32) (x6 : Vec Ideal S1024x4096 .bf16) (x7 : Vec Ideal S1x4096 .f32)
    (w : Vec Ideal S4096x24 .bf16) (b : Vec Ideal S1x24 .f32) (p : Fin 512) (q : Fin 24) :
    k1_pay11 (k1_pay9 x0 x6 x7 w) (k1_pay10 b) (ix2 p q)
      = (∑ k : Fin 4096, k1_pay5 x0 x6 x7 (ix2 p k) * w (ix2 k q)) + b (ix2 (0 : Fin 1) q) := by
  unfold k1_pay11 k1_pay9 k1_pay10
  rw [head1_24_plain]
  refine (addf_apply _ _ _).trans ?_
  refine congrArg₂ (· + ·) ?_ ?_
  · refine (Cert.LibDotPlain.matmul_zero_plain 512 4096 24 none _ _ p q).trans (Finset.sum_congr rfl fun k _ => ?_)
    rw [shapeCast_self]
  · refine (broadcastTo_1b_ab_apply _ _ p q).trans ?_
    rw [shapeCast_self]

/-! ## The stored values at a place

Visual head plus context head, then plus the additive bias block's entry. -/

/-- Width 15. -/
theorem store1_15_apply (ctx vis : FVec Ideal S512x15 .f32) (a : Vec Ideal S512x15 .f32) (y : S512x15.Idx) :
    k1_pay1 ctx vis a y = (vis y + ctx y) + a y := by
  unfold k1_pay1
  refine (addf_apply _ _ _).trans ?_
  rw [shapeCast_self]
  rfl

/-- Width 11. -/
theorem store1_11_apply (ctx vis : FVec Ideal S512x11 .f32) (a : Vec Ideal S512x11 .f32) (y : S512x11.Idx) :
    k1_pay2 ctx vis a y = (vis y + ctx y) + a y := by
  unfold k1_pay2
  refine (addf_apply _ _ _).trans ?_
  rw [shapeCast_self]
  rfl

/-- Width 24. -/
theorem store1_24_apply (ctx vis : FVec Ideal S512x24 .f32) (a : Vec Ideal S512x24 .f32) (y : S512x24.Idx) :
    k1_pay3 ctx vis a y = (vis y + ctx y) + a y := by
  unfold k1_pay3
  refine (addf_apply _ _ _).trans ?_
  rw [shapeCast_self]
  rfl

/-- Width 4: the visual product and the visual bias row are joined here, before the context head. -/
theorem store1_4_apply (ctx : FVec Ideal S512x4 .f32) (h : FVec Ideal S512x4096 .bf16) (w : Vec Ideal S4096x4 .bf16)
    (b : Vec Ideal S1x4 .f32) (a : Vec Ideal S512x4 .f32) (p : Fin 512) (q : Fin 4) :
    k1_pay4 ctx (k1_pay16 h w) (k1_pay17 b) a (ix2 p q)
      = (((∑ k : Fin 4096, h (ix2 p k) * w (ix2 k q)) + b (ix2 (0 : Fin 1) q)) + ctx (ix2 p q)) + a (ix2 p q) := by
  unfold k1_pay4 k1_pay16 k1_pay17
  rw [head1_4_plain]
  refine (addf_apply _ _ _).trans ?_
  refine congrArg₂ (· + ·) ?_ (congrFun (shapeCast_self a _) _)
  refine (addf_apply _ _ _).trans ?_
  refine congrArg₂ (· + ·) ?_ rfl
  refine (addf_apply _ _ _).trans ?_
  refine congrArg₂ (· + ·) ?_ ?_
  · refine (Cert.LibDotPlain.matmul_zero_plain 512 4096 4 none _ _ p q).trans (Finset.sum_congr rfl fun k _ => ?_)
    rw [shapeCast_self]
  · refine (broadcastTo_1b_ab_apply _ _ p q).trans ?_
    rw [shapeCast_self]

/-! ## Where each block sits -/

/-- A grid point is one of sixty-four. -/
theorem point1_lt (t : Fin cfg1.N) : t.val < 64 := Nat.lt_of_lt_of_eq t.isLt N_1

/-! The six row-blocked inputs and the four outputs are at block (t, 0) at point t. -/
theorem idx1_ctx : ∀ t : Fin cfg1.N, win1_0.index t (0 : Fin 2) = t.val ∧ win1_0.index t (1 : Fin 2) = 0 :=
  (by decide +kernel : ∀ t : Fin grid1.N, _)
theorem idx1_vis : ∀ t : Fin cfg1.N, win1_1.index t (0 : Fin 2) = t.val ∧ win1_1.index t (1 : Fin 2) = 0 :=
  (by decide +kernel : ∀ t : Fin grid1.N, _)
theorem idx1_bias15 : ∀ t : Fin cfg1.N, win1_2.index t (0 : Fin 2) = t.val ∧ win1_2.index t (1 : Fin 2) = 0 :=
  (by decide +kernel : ∀ t : Fin grid1.N, _)
theorem idx1_bias11 : ∀ t : Fin cfg1.N, win1_3.index t (0 : Fin 2) = t.val ∧ win1_3.index t (1 : Fin 2) = 0 :=
  (by decide +kernel : ∀ t : Fin grid1.N, _)
theorem idx1_bias24 : ∀ t : Fin cfg1.N, win1_4.index t (0 : Fin 2) = t.val ∧ win1_4.index t (1 : Fin 2) = 0 :=
  (by decide +kernel : ∀ t : Fin grid1.N, _)
theorem idx1_bias4 : ∀ t : Fin cfg1.N, win1_5.index t (0 : Fin 2) = t.val ∧ win1_5.index t (1 : Fin 2) = 0 :=
  (by decide +kernel : ∀ t : Fin grid1.N, _)
theorem idx1_out15 : ∀ t : Fin cfg1.N, win1_24.index t (0 : Fin 2) = t.val ∧ win1_24.index t (1 : Fin 2) = 0 :=
  (by decide +kernel : ∀ t : Fin grid1.N, _)
theorem idx1_out11 : ∀ t : Fin cfg1.N, win1_25.index t (0 : Fin 2) = t.val ∧ win1_25.index t (1 : Fin 2) = 0 :=
  (by decide +kernel : ∀ t : Fin grid1.N, _)
theorem idx1_out24 : ∀ t : Fin cfg1.N, win1_26.index t (0 : Fin 2) = t.val ∧ win1_26.index t (1 : Fin 2) = 0 :=
  (by decide +kernel : ∀ t : Fin grid1.N, _)
theorem idx1_out4 : ∀ t : Fin cfg1.N, win1_27.index t (0 : Fin 2) = t.val ∧ win1_27.index t (1 : Fin 2) = 0 :=
  (by decide +kernel : ∀ t : Fin grid1.N, _)

/-! The eighteen whole arrays are at block (0, 0) at every point: their index maps are constant. -/
theorem idx1_post (t : Fin cfg1.N) : win1_6.index t (0 : Fin 2) = 0 ∧ win1_6.index t (1 : Fin 2) = 0 := ⟨rfl, rfl⟩
theorem idx1_postRow (t : Fin cfg1.N) : win1_7.index t (0 : Fin 2) = 0 ∧ win1_7.index t (1 : Fin 2) = 0 := ⟨rfl, rfl⟩
theorem idx1_ctxMat15 (t : Fin cfg1.N) : win1_8.index t (0 : Fin 2) = 0 ∧ win1_8.index t (1 : Fin 2) = 0 := ⟨rfl, rfl⟩
theorem idx1_ctxRow15 (t : Fin cfg1.N) : win1_9.index t (0 : Fin 2) = 0 ∧ win1_9.index t (1 : Fin 2) = 0 := ⟨rfl, rfl⟩
theorem idx1_ctxMat11 (t : Fin cfg1.N) : win1_10.index t (0 : Fin 2) = 0 ∧ win1_10.index t (1 : Fin 2) = 0 := ⟨rfl, rfl⟩
theorem idx1_ctxRow11 (t : Fin cfg1.N) : win1_11.index t (0 : Fin 2) = 0 ∧ win1_11.index t (1 : Fin 2) = 0 := ⟨rfl, rfl⟩
theorem idx1_ctxMat24 (t : Fin cfg1.N) : win1_12.index t (0 : Fin 2) = 0 ∧ win1_12.index t (1 : Fin 2) = 0 := ⟨rfl, rfl⟩
theorem idx1_ctxRow24 (t : Fin cfg1.N) : win1_13.index t (0 : Fin 2) = 0 ∧ win1_13.index t (1 : Fin 2) = 0 := ⟨rfl, rfl⟩
theorem idx1_ctxMat4 (t : Fin cfg1.N) : win1_14.index t (0 : Fin 2) = 0 ∧ win1_14.index t (1 : Fin 2) = 0 := ⟨rfl, rfl⟩
theorem idx1_ctxRow4 (t : Fin cfg1.N) : win1_15.index t (0 : Fin 2) = 0 ∧ win1_15.index t (1 : Fin 2) = 0 := ⟨rfl, rfl⟩
theorem idx1_visMat15 (t : Fin cfg1.N) : win1_16.index t (0 : Fin 2) = 0 ∧ win1_16.index t (1 : Fin 2) = 0 := ⟨rfl, rfl⟩
theorem idx1_visRow15 (t : Fin cfg1.N) : win1_17.index t (0 : Fin 2) = 0 ∧ win1_17.index t (1 : Fin 2) = 0 := ⟨rfl, rfl⟩
theorem idx1_visMat11 (t : Fin cfg1.N) : win1_18.index t (0 : Fin 2) = 0 ∧ win1_18.index t (1 : Fin 2) = 0 := ⟨rfl, rfl⟩
theorem idx1_visRow11 (t : Fin cfg1.N) : win1_19.index t (0 : Fin 2) = 0 ∧ win1_19.index t (1 : Fin 2) = 0 := ⟨rfl, rfl⟩
theorem idx1_visMat24 (t : Fin cfg1.N) : win1_20.index t (0 : Fin 2) = 0 ∧ win1_20.index t (1 : Fin 2) = 0 := ⟨rfl, rfl⟩
theorem idx1_visRow24 (t : Fin cfg1.N) : win1_21.index t (0 : Fin 2) = 0 ∧ win1_21.index t (1 : Fin 2) = 0 := ⟨rfl, rfl⟩
theorem idx1_visMat4 (t : Fin cfg1.N) : win1_22.index t (0 : Fin 2) = 0 ∧ win1_22.index t (1 : Fin 2) = 0 := ⟨rfl, rfl⟩
theorem idx1_visRow4 (t : Fin cfg1.N) : win1_23.index t (0 : Fin 2) = 0 ∧ win1_23.index t (1 : Fin 2) = 0 := ⟨rfl, rfl⟩

/-! ## The output blocks: their places, and that they tile

Place (p, q) of an output's block at point t is row 512·t + p, column q of its array; an index of the array is in
point t's block iff each coordinate is in the block's range on its axis; and row r is in the block of point r / 512,
so every entry is written by some point. -/

theorem out1_15_blk_emb (t : Fin cfg1.N) (p : Fin 512) (q : Fin 15) (i : Fin 32768) (hi : i.val = 512 * t.val + p.val) :
    ((cfg1.win 24).blk t).view.emb (ix2 p q) = (ix2 i q : S32768x15.Idx) := by
  obtain ⟨e0, e1⟩ := idx1_out15 t
  funext a
  apply Fin.ext
  match a with
  | ⟨0, _⟩ => show win1_24.index t (0 : Fin 2) * 512 + 1 * p.val = i.val; rw [e0, hi]; omega
  | ⟨1, _⟩ => show win1_24.index t (1 : Fin 2) * 15 + 1 * q.val = q.val; rw [e1]; omega

theorem mem_blk1_24 (t : Fin cfg1.N) (i : S32768x15.Idx) :
    i ∈ ((cfg1.win 24).blk t).view.set ↔ ∀ a : Fin 2, win1_24.index t a * S512x15.size a ≤ (i a).val
      ∧ (i a).val < win1_24.index t a * S512x15.size a + S512x15.size a := by
  show i ∈ ((View.whole main_v74_0).slice (win1_24.rect t)).set ↔ _
  rw [View.set_slice_whole, Rect.mem_set_unit]
  exact Iff.rfl

theorem tiled1_24 (i : S32768x15.Idx) :
    ∃ t : Fin cfg1.N, (cfg1.win 24).flush t = true ∧ i ∈ ((cfg1.win 24).blk t).view.set := by
  have hi0 : (i 0).val < 32768 := (i 0).isLt
  have hi1 : (i 1).val < 15 := (i 1).isLt
  obtain ⟨t, ht⟩ : ∃ t : Fin cfg1.N, t.val = (i 0).val / 512 :=
    ⟨⟨(i 0).val / 512, by rw [show cfg1.N = 64 from N_1]; omega⟩, rfl⟩
  obtain ⟨e0, e1⟩ := idx1_out15 t
  refine ⟨t, flush1_24 t, ?_⟩
  rw [mem_blk1_24]
  intro a
  match a with
  | ⟨0, _⟩ =>
    show win1_24.index t (0 : Fin 2) * 512 ≤ (i 0).val ∧ (i 0).val < win1_24.index t (0 : Fin 2) * 512 + 512
    rw [e0, ht]; omega
  | ⟨1, _⟩ =>
    show win1_24.index t (1 : Fin 2) * 15 ≤ (i 1).val ∧ (i 1).val < win1_24.index t (1 : Fin 2) * 15 + 15
    rw [e1]; omega

theorem out1_11_blk_emb (t : Fin cfg1.N) (p : Fin 512) (q : Fin 11) (i : Fin 32768) (hi : i.val = 512 * t.val + p.val) :
    ((cfg1.win 25).blk t).view.emb (ix2 p q) = (ix2 i q : S32768x11.Idx) := by
  obtain ⟨e0, e1⟩ := idx1_out11 t
  funext a
  apply Fin.ext
  match a with
  | ⟨0, _⟩ => show win1_25.index t (0 : Fin 2) * 512 + 1 * p.val = i.val; rw [e0, hi]; omega
  | ⟨1, _⟩ => show win1_25.index t (1 : Fin 2) * 11 + 1 * q.val = q.val; rw [e1]; omega

theorem mem_blk1_25 (t : Fin cfg1.N) (i : S32768x11.Idx) :
    i ∈ ((cfg1.win 25).blk t).view.set ↔ ∀ a : Fin 2, win1_25.index t a * S512x11.size a ≤ (i a).val
      ∧ (i a).val < win1_25.index t a * S512x11.size a + S512x11.size a := by
  show i ∈ ((View.whole main_v74_1).slice (win1_25.rect t)).set ↔ _
  rw [View.set_slice_whole, Rect.mem_set_unit]
  exact Iff.rfl

theorem tiled1_25 (i : S32768x11.Idx) :
    ∃ t : Fin cfg1.N, (cfg1.win 25).flush t = true ∧ i ∈ ((cfg1.win 25).blk t).view.set := by
  have hi0 : (i 0).val < 32768 := (i 0).isLt
  have hi1 : (i 1).val < 11 := (i 1).isLt
  obtain ⟨t, ht⟩ : ∃ t : Fin cfg1.N, t.val = (i 0).val / 512 :=
    ⟨⟨(i 0).val / 512, by rw [show cfg1.N = 64 from N_1]; omega⟩, rfl⟩
  obtain ⟨e0, e1⟩ := idx1_out11 t
  refine ⟨t, flush1_25 t, ?_⟩
  rw [mem_blk1_25]
  intro a
  match a with
  | ⟨0, _⟩ =>
    show win1_25.index t (0 : Fin 2) * 512 ≤ (i 0).val ∧ (i 0).val < win1_25.index t (0 : Fin 2) * 512 + 512
    rw [e0, ht]; omega
  | ⟨1, _⟩ =>
    show win1_25.index t (1 : Fin 2) * 11 ≤ (i 1).val ∧ (i 1).val < win1_25.index t (1 : Fin 2) * 11 + 11
    rw [e1]; omega

theorem out1_24_blk_emb (t : Fin cfg1.N) (p : Fin 512) (q : Fin 24) (i : Fin 32768) (hi : i.val = 512 * t.val + p.val) :
    ((cfg1.win 26).blk t).view.emb (ix2 p q) = (ix2 i q : S32768x24.Idx) := by
  obtain ⟨e0, e1⟩ := idx1_out24 t
  funext a
  apply Fin.ext
  match a with
  | ⟨0, _⟩ => show win1_26.index t (0 : Fin 2) * 512 + 1 * p.val = i.val; rw [e0, hi]; omega
  | ⟨1, _⟩ => show win1_26.index t (1 : Fin 2) * 24 + 1 * q.val = q.val; rw [e1]; omega

theorem mem_blk1_26 (t : Fin cfg1.N) (i : S32768x24.Idx) :
    i ∈ ((cfg1.win 26).blk t).view.set ↔ ∀ a : Fin 2, win1_26.index t a * S512x24.size a ≤ (i a).val
      ∧ (i a).val < win1_26.index t a * S512x24.size a + S512x24.size a := by
  show i ∈ ((View.whole main_v74_2).slice (win1_26.rect t)).set ↔ _
  rw [View.set_slice_whole, Rect.mem_set_unit]
  exact Iff.rfl

theorem tiled1_26 (i : S32768x24.Idx) :
    ∃ t : Fin cfg1.N, (cfg1.win 26).flush t = true ∧ i ∈ ((cfg1.win 26).blk t).view.set := by
  have hi0 : (i 0).val < 32768 := (i 0).isLt
  have hi1 : (i 1).val < 24 := (i 1).isLt
  obtain ⟨t, ht⟩ : ∃ t : Fin cfg1.N, t.val = (i 0).val / 512 :=
    ⟨⟨(i 0).val / 512, by rw [show cfg1.N = 64 from N_1]; omega⟩, rfl⟩
  obtain ⟨e0, e1⟩ := idx1_out24 t
  refine ⟨t, flush1_26 t, ?_⟩
  rw [mem_blk1_26]
  intro a
  match a with
  | ⟨0, _⟩ =>
    show win1_26.index t (0 : Fin 2) * 512 ≤ (i 0).val ∧ (i 0).val < win1_26.index t (0 : Fin 2) * 512 + 512
    rw [e0, ht]; omega
  | ⟨1, _⟩ =>
    show win1_26.index t (1 : Fin 2) * 24 ≤ (i 1).val ∧ (i 1).val < win1_26.index t (1 : Fin 2) * 24 + 24
    rw [e1]; omega

theorem out1_4_blk_emb (t : Fin cfg1.N) (p : Fin 512) (q : Fin 4) (i : Fin 32768) (hi : i.val = 512 * t.val + p.val) :
    ((cfg1.win 27).blk t).view.emb (ix2 p q) = (ix2 i q : S32768x4.Idx) := by
  obtain ⟨e0, e1⟩ := idx1_out4 t
  funext a
  apply Fin.ext
  match a with
  | ⟨0, _⟩ => show win1_27.index t (0 : Fin 2) * 512 + 1 * p.val = i.val; rw [e0, hi]; omega
  | ⟨1, _⟩ => show win1_27.index t (1 : Fin 2) * 4 + 1 * q.val = q.val; rw [e1]; omega

theorem mem_blk1_27 (t : Fin cfg1.N) (i : S32768x4.Idx) :
    i ∈ ((cfg1.win 27).blk t).view.set ↔ ∀ a : Fin 2, win1_27.index t a * S512x4.size a ≤ (i a).val
      ∧ (i a).val < win1_27.index t a * S512x4.size a + S512x4.size a := by
  show i ∈ ((View.whole main_v74_3).slice (win1_27.rect t)).set ↔ _
  rw [View.set_slice_whole, Rect.mem_set_unit]
  exact Iff.rfl

theorem tiled1_27 (i : S32768x4.Idx) :
    ∃ t : Fin cfg1.N, (cfg1.win 27).flush t = true ∧ i ∈ ((cfg1.win 27).blk t).view.set := by
  have hi0 : (i 0).val < 32768 := (i 0).isLt
  have hi1 : (i 1).val < 4 := (i 1).isLt
  obtain ⟨t, ht⟩ : ∃ t : Fin cfg1.N, t.val = (i 0).val / 512 :=
    ⟨⟨(i 0).val / 512, by rw [show cfg1.N = 64 from N_1]; omega⟩, rfl⟩
  obtain ⟨e0, e1⟩ := idx1_out4 t
  refine ⟨t, flush1_27 t, ?_⟩
  rw [mem_blk1_27]
  intro a
  match a with
  | ⟨0, _⟩ =>
    show win1_27.index t (0 : Fin 2) * 512 ≤ (i 0).val ∧ (i 0).val < win1_27.index t (0 : Fin 2) * 512 + 512
    rw [e0, ht]; omega
  | ⟨1, _⟩ =>
    show win1_27.index t (1 : Fin 2) * 4 ≤ (i 1).val ∧ (i 1).val < win1_27.index t (1 : Fin 2) * 4 + 4
    rw [e1]; omega

/-! ## The input blocks

A row-blocked input's block at point t, at place (p, k), is its array at row 512·t + p, column k. -/

/-- The context rows' block at point t is rows 512·t … of the pair contexts. -/
theorem ctx1_blk_apply (c : Dev nD) (t : Fin cfg1.N) (p : Fin 512) (k : Fin 1024) (i : Fin 32768) (hi : i.val = 512 * t.val + p.val) :
    (iblk1 V c 0 t : Vec Ideal S512x1024 .f32) (ix2 p k) = (V c main_v11 : S32768x1024.Idx → EReal) (ix2 i k) := by
  obtain ⟨e0, e1⟩ := idx1_ctx t
  unfold iblk1
  rw [View.read_apply]
  show V c main_v11 _ = V c main_v11 _
  congr 1
  funext a
  apply Fin.ext
  match a with
  | ⟨0, _⟩ => show win1_0.index t (0 : Fin 2) * 512 + 1 * p.val = i.val; rw [e0, hi]; omega
  | ⟨1, _⟩ => show win1_0.index t (1 : Fin 2) * 1024 + 1 * k.val = k.val; rw [e1]; omega

/-- The visual rows' block at point t is rows 512·t … of the visual features. -/
theorem vis1_blk_apply (c : Dev nD) (t : Fin cfg1.N) (p : Fin 512) (k : Fin 4096) (i : Fin 32768) (hi : i.val = 512 * t.val + p.val) :
    (iblk1 V c 1 t : Vec Ideal S512x4096 .f32) (ix2 p k) = (V c main_arg2 : S32768x4096.Idx → EReal) (ix2 i k) := by
  obtain ⟨e0, e1⟩ := idx1_vis t
  unfold iblk1
  rw [View.read_apply]
  show V c main_arg2 _ = V c main_arg2 _
  congr 1
  funext a
  apply Fin.ext
  match a with
  | ⟨0, _⟩ => show win1_1.index t (0 : Fin 2) * 512 + 1 * p.val = i.val; rw [e0, hi]; omega
  | ⟨1, _⟩ => show win1_1.index t (1 : Fin 2) * 4096 + 1 * k.val = k.val; rw [e1]; omega

/-- The additive bias block of width 15 at point t is rows 512·t … of its array. -/
theorem bias1_15_blk_apply (c : Dev nD) (t : Fin cfg1.N) (p : Fin 512) (k : Fin 15) (i : Fin 32768) (hi : i.val = 512 * t.val + p.val) :
    (iblk1 V c 2 t : Vec Ideal S512x15 .f32) (ix2 p k) = (V c main_v26 : S32768x15.Idx → EReal) (ix2 i k) := by
  obtain ⟨e0, e1⟩ := idx1_bias15 t
  unfold iblk1
  rw [View.read_apply]
  show V c main_v26 _ = V c main_v26 _
  congr 1
  funext a
  apply Fin.ext
  match a with
  | ⟨0, _⟩ => show win1_2.index t (0 : Fin 2) * 512 + 1 * p.val = i.val; rw [e0, hi]; omega
  | ⟨1, _⟩ => show win1_2.index t (1 : Fin 2) * 15 + 1 * k.val = k.val; rw [e1]; omega

/-- The additive bias block of width 11 at point t is rows 512·t … of its array. -/
theorem bias1_11_blk_apply (c : Dev nD) (t : Fin cfg1.N) (p : Fin 512) (k : Fin 11) (i : Fin 32768) (hi : i.val = 512 * t.val + p.val) :
    (iblk1 V c 3 t : Vec Ideal S512x11 .f32) (ix2 p k) = (V c main_v33 : S32768x11.Idx → EReal) (ix2 i k) := by
  obtain ⟨e0, e1⟩ := idx1_bias11 t
  unfold iblk1
  rw [View.read_apply]
  show V c main_v33 _ = V c main_v33 _
  congr 1
  funext a
  apply Fin.ext
  match a with
  | ⟨0, _⟩ => show win1_3.index t (0 : Fin 2) * 512 + 1 * p.val = i.val; rw [e0, hi]; omega
  | ⟨1, _⟩ => show win1_3.index t (1 : Fin 2) * 11 + 1 * k.val = k.val; rw [e1]; omega

/-- The additive bias block of width 24 at point t is rows 512·t … of its array. -/
theorem bias1_24_blk_apply (c : Dev nD) (t : Fin cfg1.N) (p : Fin 512) (k : Fin 24) (i : Fin 32768) (hi : i.val = 512 * t.val + p.val) :
    (iblk1 V c 4 t : Vec Ideal S512x24 .f32) (ix2 p k) = (V c main_v40 : S32768x24.Idx → EReal) (ix2 i k) := by
  obtain ⟨e0, e1⟩ := idx1_bias24 t
  unfold iblk1
  rw [View.read_apply]
  show V c main_v40 _ = V c main_v40 _
  congr 1
  funext a
  apply Fin.ext
  match a with
  | ⟨0, _⟩ => show win1_4.index t (0 : Fin 2) * 512 + 1 * p.val = i.val; rw [e0, hi]; omega
  | ⟨1, _⟩ => show win1_4.index t (1 : Fin 2) * 24 + 1 * k.val = k.val; rw [e1]; omega

/-- The additive bias block of width 4 at point t is rows 512·t … of its array. -/
theorem bias1_4_blk_apply (c : Dev nD) (t : Fin cfg1.N) (p : Fin 512) (k : Fin 4) (i : Fin 32768) (hi : i.val = 512 * t.val + p.val) :
    (iblk1 V c 5 t : Vec Ideal S512x4 .f32) (ix2 p k) = (V c main_v55 : S32768x4.Idx → EReal) (ix2 i k) := by
  obtain ⟨e0, e1⟩ := idx1_bias4 t
  unfold iblk1
  rw [View.read_apply]
  show V c main_v55 _ = V c main_v55 _
  congr 1
  funext a
  apply Fin.ext
  match a with
  | ⟨0, _⟩ => show win1_5.index t (0 : Fin 2) * 512 + 1 * p.val = i.val; rw [e0, hi]; omega
  | ⟨1, _⟩ => show win1_5.index t (1 : Fin 2) * 4 + 1 * k.val = k.val; rw [e1]; omega

/-! A whole array's block at any point is the whole array. -/

theorem post1_blk_apply (c : Dev nD) (t : Fin cfg1.N) (j : Fin 1024) (k : Fin 4096) :
    (iblk1 V c 6 t : Vec Ideal S1024x4096 .bf16) (ix2 j k) = (V c main_v56 : S1024x4096.Idx → EReal) (ix2 j k) := by
  obtain ⟨e0, e1⟩ := idx1_post t
  unfold iblk1
  rw [View.read_apply]
  show V c main_v56 _ = V c main_v56 _
  congr 1
  funext a
  apply Fin.ext
  match a with
  | ⟨0, _⟩ => show win1_6.index t (0 : Fin 2) * 1024 + 1 * j.val = j.val; rw [e0]; omega
  | ⟨1, _⟩ => show win1_6.index t (1 : Fin 2) * 4096 + 1 * k.val = k.val; rw [e1]; omega

theorem postRow1_blk_apply (c : Dev nD) (t : Fin cfg1.N) (j : Fin 1) (k : Fin 4096) :
    (iblk1 V c 7 t : Vec Ideal S1x4096 .f32) (ix2 j k) = (V c main_v57 : S1x4096.Idx → EReal) (ix2 j k) := by
  obtain ⟨e0, e1⟩ := idx1_postRow t
  unfold iblk1
  rw [View.read_apply]
  show V c main_v57 _ = V c main_v57 _
  congr 1
  funext a
  apply Fin.ext
  match a with
  | ⟨0, _⟩ => show win1_7.index t (0 : Fin 2) * 1 + 1 * j.val = j.val; rw [e0]; omega
  | ⟨1, _⟩ => show win1_7.index t (1 : Fin 2) * 4096 + 1 * k.val = k.val; rw [e1]; omega

theorem ctxMat1_15_blk_apply (c : Dev nD) (t : Fin cfg1.N) (j : Fin 4096) (k : Fin 15) :
    (iblk1 V c 8 t : Vec Ideal S4096x15 .bf16) (ix2 j k) = (V c main_v58 : S4096x15.Idx → EReal) (ix2 j k) := by
  obtain ⟨e0, e1⟩ := idx1_ctxMat15 t
  unfold iblk1
  rw [View.read_apply]
  show V c main_v58 _ = V c main_v58 _
  congr 1
  funext a
  apply Fin.ext
  match a with
  | ⟨0, _⟩ => show win1_8.index t (0 : Fin 2) * 4096 + 1 * j.val = j.val; rw [e0]; omega
  | ⟨1, _⟩ => show win1_8.index t (1 : Fin 2) * 15 + 1 * k.val = k.val; rw [e1]; omega

theorem ctxRow1_15_blk_apply (c : Dev nD) (t : Fin cfg1.N) (j : Fin 1) (k : Fin 15) :
    (iblk1 V c 9 t : Vec Ideal S1x15 .f32) (ix2 j k) = (V c main_v66 : S1x15.Idx → EReal) (ix2 j k) := by
  obtain ⟨e0, e1⟩ := idx1_ctxRow15 t
  unfold iblk1
  rw [View.read_apply]
  show V c main_v66 _ = V c main_v66 _
  congr 1
  funext a
  apply Fin.ext
  match a with
  | ⟨0, _⟩ => show win1_9.index t (0 : Fin 2) * 1 + 1 * j.val = j.val; rw [e0]; omega
  | ⟨1, _⟩ => show win1_9.index t (1 : Fin 2) * 15 + 1 * k.val = k.val; rw [e1]; omega

theorem ctxMat1_11_blk_apply (c : Dev nD) (t : Fin cfg1.N) (j : Fin 4096) (k : Fin 11) :
    (iblk1 V c 10 t : Vec Ideal S4096x11 .bf16) (ix2 j k) = (V c main_v59 : S4096x11.Idx → EReal) (ix2 j k) := by
  obtain ⟨e0, e1⟩ := idx1_ctxMat11 t
  unfold iblk1
  rw [View.read_apply]
  show V c main_v59 _ = V c main_v59 _
  congr 1
  funext a
  apply Fin.ext
  match a with
  | ⟨0, _⟩ => show win1_10.index t (0 : Fin 2) * 4096 + 1 * j.val = j.val; rw [e0]; omega
  | ⟨1, _⟩ => show win1_10.index t (1 : Fin 2) * 11 + 1 * k.val = k.val; rw [e1]; omega

theorem ctxRow1_11_blk_apply (c : Dev nD) (t : Fin cfg1.N) (j : Fin 1) (k : Fin 11) :
    (iblk1 V c 11 t : Vec Ideal S1x11 .f32) (ix2 j k) = (V c main_v67 : S1x11.Idx → EReal) (ix2 j k) := by
  obtain ⟨e0, e1⟩ := idx1_ctxRow11 t
  unfold iblk1
  rw [View.read_apply]
  show V c main_v67 _ = V c main_v67 _
  congr 1
  funext a
  apply Fin.ext
  match a with
  | ⟨0, _⟩ => show win1_11.index t (0 : Fin 2) * 1 + 1 * j.val = j.val; rw [e0]; omega
  | ⟨1, _⟩ => show win1_11.index t (1 : Fin 2) * 11 + 1 * k.val = k.val; rw [e1]; omega

theorem ctxMat1_24_blk_apply (c : Dev nD) (t : Fin cfg1.N) (j : Fin 4096) (k : Fin 24) :
    (iblk1 V c 12 t : Vec Ideal S4096x24 .bf16) (ix2 j k) = (V c main_v60 : S4096x24.Idx → EReal) (ix2 j k) := by
  obtain ⟨e0, e1⟩ := idx1_ctxMat24 t
  unfold iblk1
  rw [View.read_apply]
  show V c main_v60 _ = V c main_v60 _
  congr 1
  funext a
  apply Fin.ext
  match a with
  | ⟨0, _⟩ => show win1_12.index t (0 : Fin 2) * 4096 + 1 * j.val = j.val; rw [e0]; omega
  | ⟨1, _⟩ => show win1_12.index t (1 : Fin 2) * 24 + 1 * k.val = k.val; rw [e1]; omega

theorem ctxRow1_24_blk_apply (c : Dev nD) (t : Fin cfg1.N) (j : Fin 1) (k : Fin 24) :
    (iblk1 V c 13 t : Vec Ideal S1x24 .f32) (ix2 j k) = (V c main_v68 : S1x24.Idx → EReal) (ix2 j k) := by
  obtain ⟨e0, e1⟩ := idx1_ctxRow24 t
  unfold iblk1
  rw [View.read_apply]
  show V c main_v68 _ = V c main_v68 _
  congr 1
  funext a
  apply Fin.ext
  match a with
  | ⟨0, _⟩ => show win1_13.index t (0 : Fin 2) * 1 + 1 * j.val = j.val; rw [e0]; omega
  | ⟨1, _⟩ => show win1_13.index t (1 : Fin 2) * 24 + 1 * k.val = k.val; rw [e1]; omega

theorem ctxMat1_4_blk_apply (c : Dev nD) (t : Fin cfg1.N) (j : Fin 4096) (k : Fin 4) :
    (iblk1 V c 14 t : Vec Ideal S4096x4 .bf16) (ix2 j k) = (V c main_v61 : S4096x4.Idx → EReal) (ix2 j k) := by
  obtain ⟨e0, e1⟩ := idx1_ctxMat4 t
  unfold iblk1
  rw [View.read_apply]
  show V c main_v61 _ = V c main_v61 _
  congr 1
  funext a
  apply Fin.ext
  match a with
  | ⟨0, _⟩ => show win1_14.index t (0 : Fin 2) * 4096 + 1 * j.val = j.val; rw [e0]; omega
  | ⟨1, _⟩ => show win1_14.index t (1 : Fin 2) * 4 + 1 * k.val = k.val; rw [e1]; omega

theorem ctxRow1_4_blk_apply (c : Dev nD) (t : Fin cfg1.N) (j : Fin 1) (k : Fin 4) :
    (iblk1 V c 15 t : Vec Ideal S1x4 .f32) (ix2 j k) = (V c main_v69 : S1x4.Idx → EReal) (ix2 j k) := by
  obtain ⟨e0, e1⟩ := idx1_ctxRow4 t
  unfold iblk1
  rw [View.read_apply]
  show V c main_v69 _ = V c main_v69 _
  congr 1
  funext a
  apply Fin.ext
  match a with
  | ⟨0, _⟩ => show win1_15.index t (0 : Fin 2) * 1 + 1 * j.val = j.val; rw [e0]; omega
  | ⟨1, _⟩ => show win1_15.index t (1 : Fin 2) * 4 + 1 * k.val = k.val; rw [e1]; omega

theorem visMat1_15_blk_apply (c : Dev nD) (t : Fin cfg1.N) (j : Fin 4096) (k : Fin 15) :
    (iblk1 V c 16 t : Vec Ideal S4096x15 .bf16) (ix2 j k) = (V c main_v62 : S4096x15.Idx → EReal) (ix2 j k) := by
  obtain ⟨e0, e1⟩ := idx1_visMat15 t
  unfold iblk1
  rw [View.read_apply]
  show V c main_v62 _ = V c main_v62 _
  congr 1
  funext a
  apply Fin.ext
  match a with
  | ⟨0, _⟩ => show win1_16.index t (0 : Fin 2) * 4096 + 1 * j.val = j.val; rw [e0]; omega
  | ⟨1, _⟩ => show win1_16.index t (1 : Fin 2) * 15 + 1 * k.val = k.val; rw [e1]; omega

theorem visRow1_15_blk_apply (c : Dev nD) (t : Fin cfg1.N) (j : Fin 1) (k : Fin 15) :
    (iblk1 V c 17 t : Vec Ideal S1x15 .f32) (ix2 j k) = (V c main_v70 : S1x15.Idx → EReal) (ix2 j k) := by
  obtain ⟨e0, e1⟩ := idx1_visRow15 t
  unfold iblk1
  rw [View.read_apply]
  show V c main_v70 _ = V c main_v70 _
  congr 1
  funext a
  apply Fin.ext
  match a with
  | ⟨0, _⟩ => show win1_17.index t (0 : Fin 2) * 1 + 1 * j.val = j.val; rw [e0]; omega
  | ⟨1, _⟩ => show win1_17.index t (1 : Fin 2) * 15 + 1 * k.val = k.val; rw [e1]; omega

theorem visMat1_11_blk_apply (c : Dev nD) (t : Fin cfg1.N) (j : Fin 4096) (k : Fin 11) :
    (iblk1 V c 18 t : Vec Ideal S4096x11 .bf16) (ix2 j k) = (V c main_v63 : S4096x11.Idx → EReal) (ix2 j k) := by
  obtain ⟨e0, e1⟩ := idx1_visMat11 t
  unfold iblk1
  rw [View.read_apply]
  show V c main_v63 _ = V c main_v63 _
  congr 1
  funext a
  apply Fin.ext
  match a with
  | ⟨0, _⟩ => show win1_18.index t (0 : Fin 2) * 4096 + 1 * j.val = j.val; rw [e0]; omega
  | ⟨1, _⟩ => show win1_18.index t (1 : Fin 2) * 11 + 1 * k.val = k.val; rw [e1]; omega

theorem visRow1_11_blk_apply (c : Dev nD) (t : Fin cfg1.N) (j : Fin 1) (k : Fin 11) :
    (iblk1 V c 19 t : Vec Ideal S1x11 .f32) (ix2 j k) = (V c main_v71 : S1x11.Idx → EReal) (ix2 j k) := by
  obtain ⟨e0, e1⟩ := idx1_visRow11 t
  unfold iblk1
  rw [View.read_apply]
  show V c main_v71 _ = V c main_v71 _
  congr 1
  funext a
  apply Fin.ext
  match a with
  | ⟨0, _⟩ => show win1_19.index t (0 : Fin 2) * 1 + 1 * j.val = j.val; rw [e0]; omega
  | ⟨1, _⟩ => show win1_19.index t (1 : Fin 2) * 11 + 1 * k.val = k.val; rw [e1]; omega

theorem visMat1_24_blk_apply (c : Dev nD) (t : Fin cfg1.N) (j : Fin 4096) (k : Fin 24) :
    (iblk1 V c 20 t : Vec Ideal S4096x24 .bf16) (ix2 j k) = (V c main_v64 : S4096x24.Idx → EReal) (ix2 j k) := by
  obtain ⟨e0, e1⟩ := idx1_visMat24 t
  unfold iblk1
  rw [View.read_apply]
  show V c main_v64 _ = V c main_v64 _
  congr 1
  funext a
  apply Fin.ext
  match a with
  | ⟨0, _⟩ => show win1_20.index t (0 : Fin 2) * 4096 + 1 * j.val = j.val; rw [e0]; omega
  | ⟨1, _⟩ => show win1_20.index t (1 : Fin 2) * 24 + 1 * k.val = k.val; rw [e1]; omega

theorem visRow1_24_blk_apply (c : Dev nD) (t : Fin cfg1.N) (j : Fin 1) (k : Fin 24) :
    (iblk1 V c 21 t : Vec Ideal S1x24 .f32) (ix2 j k) = (V c main_v72 : S1x24.Idx → EReal) (ix2 j k) := by
  obtain ⟨e0, e1⟩ := idx1_visRow24 t
  unfold iblk1
  rw [View.read_apply]
  show V c main_v72 _ = V c main_v72 _
  congr 1
  funext a
  apply Fin.ext
  match a with
  | ⟨0, _⟩ => show win1_21.index t (0 : Fin 2) * 1 + 1 * j.val = j.val; rw [e0]; omega
  | ⟨1, _⟩ => show win1_21.index t (1 : Fin 2) * 24 + 1 * k.val = k.val; rw [e1]; omega

theorem visMat1_4_blk_apply (c : Dev nD) (t : Fin cfg1.N) (j : Fin 4096) (k : Fin 4) :
    (iblk1 V c 22 t : Vec Ideal S4096x4 .bf16) (ix2 j k) = (V c main_v65 : S4096x4.Idx → EReal) (ix2 j k) := by
  obtain ⟨e0, e1⟩ := idx1_visMat4 t
  unfold iblk1
  rw [View.read_apply]
  show V c main_v65 _ = V c main_v65 _
  congr 1
  funext a
  apply Fin.ext
  match a with
  | ⟨0, _⟩ => show win1_22.index t (0 : Fin 2) * 4096 + 1 * j.val = j.val; rw [e0]; omega
  | ⟨1, _⟩ => show win1_22.index t (1 : Fin 2) * 4 + 1 * k.val = k.val; rw [e1]; omega

theorem visRow1_4_blk_apply (c : Dev nD) (t : Fin cfg1.N) (j : Fin 1) (k : Fin 4) :
    (iblk1 V c 23 t : Vec Ideal S1x4 .f32) (ix2 j k) = (V c main_v73 : S1x4.Idx → EReal) (ix2 j k) := by
  obtain ⟨e0, e1⟩ := idx1_visRow4 t
  unfold iblk1
  rw [View.read_apply]
  show V c main_v73 _ = V c main_v73 _
  congr 1
  funext a
  apply Fin.ext
  match a with
  | ⟨0, _⟩ => show win1_23.index t (0 : Fin 2) * 1 + 1 * j.val = j.val; rw [e0]; omega
  | ⟨1, _⟩ => show win1_23.index t (1 : Fin 2) * 4 + 1 * k.val = k.val; rw [e1]; omega

/-! ## The hidden activation -/

/-- The hidden activation of every pair row: the larger of zero and the contexts' affine image under the
    post-concatenation matrix and its bias row. -/
abbrev hidden1 (c : Dev nD) : Cert.Spec.Mat 32768 4096 :=
  Cert.Spec.relu 32768 4096 (Cert.Spec.affine 32768 1024 4096 (V c main_v11) (V c main_v56) (V c main_v57))

/-- The hidden block at point t is rows 512·t … of the hidden activation. -/
theorem hiddenRows1_apply (c : Dev nD) (t : Fin cfg1.N) (p : Fin 512) (k : Fin 4096) (i : Fin 32768) (hi : i.val = 512 * t.val + p.val) :
    k1_pay5 (iblk1 V c 0 t) (iblk1 V c 6 t) (iblk1 V c 7 t) (ix2 p k) = hidden1 V c (ix2 i k) := by
  rw [hiddenBlk1_apply]
  show _ = max (Cert.Spec.affine 32768 1024 4096 (V c main_v11) (V c main_v56) (V c main_v57) (ix2 i k)) 0
  rw [Cert.Spec.affine_apply]
  refine congrArg₂ max (congrArg₂ (· + ·) (Finset.sum_congr rfl fun j _ => ?_) (postRow1_blk_apply V c t 0 k)) rfl
  rw [ctx1_blk_apply V c t p j i hi, post1_blk_apply V c t j k]

/-! ## What a point writes back

Each output's block at point t is that block of ONE array of the entry contents: visual head plus context head plus
the additive bias block, the context head taken over the hidden activation. At place (p, q), with i = 512·t + p, both
sides are the same sums of products read at the same entries, term by term; no law of the extended reals is used. -/

/-- The block of width 15. -/
theorem flushed1_24_eq (c : Dev nD) (t : Fin cfg1.N) :
    (dat1 V c).flushed 24 t = ((cfg1.win 24).blk t).view.read (Elt Ideal)
      (Cert.Spec.fuse 32768 15 (Cert.Spec.affine 32768 4096 15 (V c main_arg2) (V c main_v62) (V c main_v70))
      (Cert.Spec.affine 32768 4096 15 (hidden1 V c) (V c main_v58) (V c main_v66)) (V c main_v26)) := by
  show (cfg1.win 24).cut (grid1.coords t) ((dat1 V c).after 24 t) = _
  rw [after1_24]
  unfold out1_24
  rw [View.canon_unit_zero zeroOff1]
  simp only [View.ld_unit_zero (S := S512x1024) zeroOff1, View.ld_unit_zero (S := S512x4096) zeroOff1, View.ld_unit_zero (S := S512x15) zeroOff1, View.ld_unit_zero (S := S1024x4096) zeroOff1, View.ld_unit_zero (S := S1x4096) zeroOff1, View.ld_unit_zero (S := S4096x15) zeroOff1, View.ld_unit_zero (S := S1x15) zeroOff1]
  funext y
  obtain ⟨p, q, rfl⟩ : ∃ (p : Fin 512) (q : Fin 15), y = ix2 p q := ⟨y 0, y 1, eq_ix2 y⟩
  have hrow : 512 * t.val + p.val < 32768 := by have := point1_lt t; have := p.isLt; omega
  refine (store1_15_apply _ _ _ (ix2 p q)).trans ?_
  rw [View.read_apply]
  show _ = (Cert.Spec.fuse 32768 15 (Cert.Spec.affine 32768 4096 15 (V c main_arg2) (V c main_v62) (V c main_v70))
      (Cert.Spec.affine 32768 4096 15 (hidden1 V c) (V c main_v58) (V c main_v66)) (V c main_v26)) (((cfg1.win 24).blk t).view.emb (ix2 p q))
  rw [out1_15_blk_emb t p q ⟨_, hrow⟩ rfl, Cert.Spec.fuse_apply, Cert.Spec.affine_apply, Cert.Spec.affine_apply, visHead1_15_apply, ctxHead1_15_apply]
  refine congrArg₂ (· + ·) (congrArg₂ (· + ·)
    (congrArg₂ (· + ·) (Finset.sum_congr rfl fun k _ => ?_) (visRow1_15_blk_apply V c t 0 q))
    (congrArg₂ (· + ·) (Finset.sum_congr rfl fun k _ => ?_) (ctxRow1_15_blk_apply V c t 0 q)))
    (bias1_15_blk_apply V c t p q ⟨_, hrow⟩ rfl)
  · rw [narrowVis1_apply, vis1_blk_apply V c t p k ⟨_, hrow⟩ rfl, visMat1_15_blk_apply V c t k q]
  · rw [hiddenRows1_apply V c t p k ⟨_, hrow⟩ rfl, ctxMat1_15_blk_apply V c t k q]

/-- The block of width 11. -/
theorem flushed1_25_eq (c : Dev nD) (t : Fin cfg1.N) :
    (dat1 V c).flushed 25 t = ((cfg1.win 25).blk t).view.read (Elt Ideal)
      (Cert.Spec.fuse 32768 11 (Cert.Spec.affine 32768 4096 11 (V c main_arg2) (V c main_v63) (V c main_v71))
      (Cert.Spec.affine 32768 4096 11 (hidden1 V c) (V c main_v59) (V c main_v67)) (V c main_v33)) := by
  show (cfg1.win 25).cut (grid1.coords t) ((dat1 V c).after 25 t) = _
  rw [after1_25]
  unfold out1_25
  rw [View.canon_unit_zero zeroOff1]
  simp only [View.ld_unit_zero (S := S512x1024) zeroOff1, View.ld_unit_zero (S := S512x4096) zeroOff1, View.ld_unit_zero (S := S512x11) zeroOff1, View.ld_unit_zero (S := S1024x4096) zeroOff1, View.ld_unit_zero (S := S1x4096) zeroOff1, View.ld_unit_zero (S := S4096x11) zeroOff1, View.ld_unit_zero (S := S1x11) zeroOff1]
  funext y
  obtain ⟨p, q, rfl⟩ : ∃ (p : Fin 512) (q : Fin 11), y = ix2 p q := ⟨y 0, y 1, eq_ix2 y⟩
  have hrow : 512 * t.val + p.val < 32768 := by have := point1_lt t; have := p.isLt; omega
  refine (store1_11_apply _ _ _ (ix2 p q)).trans ?_
  rw [View.read_apply]
  show _ = (Cert.Spec.fuse 32768 11 (Cert.Spec.affine 32768 4096 11 (V c main_arg2) (V c main_v63) (V c main_v71))
      (Cert.Spec.affine 32768 4096 11 (hidden1 V c) (V c main_v59) (V c main_v67)) (V c main_v33)) (((cfg1.win 25).blk t).view.emb (ix2 p q))
  rw [out1_11_blk_emb t p q ⟨_, hrow⟩ rfl, Cert.Spec.fuse_apply, Cert.Spec.affine_apply, Cert.Spec.affine_apply, visHead1_11_apply, ctxHead1_11_apply]
  refine congrArg₂ (· + ·) (congrArg₂ (· + ·)
    (congrArg₂ (· + ·) (Finset.sum_congr rfl fun k _ => ?_) (visRow1_11_blk_apply V c t 0 q))
    (congrArg₂ (· + ·) (Finset.sum_congr rfl fun k _ => ?_) (ctxRow1_11_blk_apply V c t 0 q)))
    (bias1_11_blk_apply V c t p q ⟨_, hrow⟩ rfl)
  · rw [narrowVis1_apply, vis1_blk_apply V c t p k ⟨_, hrow⟩ rfl, visMat1_11_blk_apply V c t k q]
  · rw [hiddenRows1_apply V c t p k ⟨_, hrow⟩ rfl, ctxMat1_11_blk_apply V c t k q]

/-- The block of width 24. -/
theorem flushed1_26_eq (c : Dev nD) (t : Fin cfg1.N) :
    (dat1 V c).flushed 26 t = ((cfg1.win 26).blk t).view.read (Elt Ideal)
      (Cert.Spec.fuse 32768 24 (Cert.Spec.affine 32768 4096 24 (V c main_arg2) (V c main_v64) (V c main_v72))
      (Cert.Spec.affine 32768 4096 24 (hidden1 V c) (V c main_v60) (V c main_v68)) (V c main_v40)) := by
  show (cfg1.win 26).cut (grid1.coords t) ((dat1 V c).after 26 t) = _
  rw [after1_26]
  unfold out1_26
  rw [View.canon_unit_zero zeroOff1]
  simp only [View.ld_unit_zero (S := S512x1024) zeroOff1, View.ld_unit_zero (S := S512x4096) zeroOff1, View.ld_unit_zero (S := S512x24) zeroOff1, View.ld_unit_zero (S := S1024x4096) zeroOff1, View.ld_unit_zero (S := S1x4096) zeroOff1, View.ld_unit_zero (S := S4096x24) zeroOff1, View.ld_unit_zero (S := S1x24) zeroOff1]
  funext y
  obtain ⟨p, q, rfl⟩ : ∃ (p : Fin 512) (q : Fin 24), y = ix2 p q := ⟨y 0, y 1, eq_ix2 y⟩
  have hrow : 512 * t.val + p.val < 32768 := by have := point1_lt t; have := p.isLt; omega
  refine (store1_24_apply _ _ _ (ix2 p q)).trans ?_
  rw [View.read_apply]
  show _ = (Cert.Spec.fuse 32768 24 (Cert.Spec.affine 32768 4096 24 (V c main_arg2) (V c main_v64) (V c main_v72))
      (Cert.Spec.affine 32768 4096 24 (hidden1 V c) (V c main_v60) (V c main_v68)) (V c main_v40)) (((cfg1.win 26).blk t).view.emb (ix2 p q))
  rw [out1_24_blk_emb t p q ⟨_, hrow⟩ rfl, Cert.Spec.fuse_apply, Cert.Spec.affine_apply, Cert.Spec.affine_apply, visHead1_24_apply, ctxHead1_24_apply]
  refine congrArg₂ (· + ·) (congrArg₂ (· + ·)
    (congrArg₂ (· + ·) (Finset.sum_congr rfl fun k _ => ?_) (visRow1_24_blk_apply V c t 0 q))
    (congrArg₂ (· + ·) (Finset.sum_congr rfl fun k _ => ?_) (ctxRow1_24_blk_apply V c t 0 q)))
    (bias1_24_blk_apply V c t p q ⟨_, hrow⟩ rfl)
  · rw [narrowVis1_apply, vis1_blk_apply V c t p k ⟨_, hrow⟩ rfl, visMat1_24_blk_apply V c t k q]
  · rw [hiddenRows1_apply V c t p k ⟨_, hrow⟩ rfl, ctxMat1_24_blk_apply V c t k q]

/-- The block of width 4. -/
theorem flushed1_27_eq (c : Dev nD) (t : Fin cfg1.N) :
    (dat1 V c).flushed 27 t = ((cfg1.win 27).blk t).view.read (Elt Ideal)
      (Cert.Spec.fuse 32768 4 (Cert.Spec.affine 32768 4096 4 (V c main_arg2) (V c main_v65) (V c main_v73))
      (Cert.Spec.affine 32768 4096 4 (hidden1 V c) (V c main_v61) (V c main_v69)) (V c main_v55)) := by
  show (cfg1.win 27).cut (grid1.coords t) ((dat1 V c).after 27 t) = _
  rw [after1_27]
  unfold out1_27
  rw [View.canon_unit_zero zeroOff1]
  simp only [View.ld_unit_zero (S := S512x1024) zeroOff1, View.ld_unit_zero (S := S512x4096) zeroOff1, View.ld_unit_zero (S := S512x4) zeroOff1, View.ld_unit_zero (S := S1024x4096) zeroOff1, View.ld_unit_zero (S := S1x4096) zeroOff1, View.ld_unit_zero (S := S4096x4) zeroOff1, View.ld_unit_zero (S := S1x4) zeroOff1]
  funext y
  obtain ⟨p, q, rfl⟩ : ∃ (p : Fin 512) (q : Fin 4), y = ix2 p q := ⟨y 0, y 1, eq_ix2 y⟩
  have hrow : 512 * t.val + p.val < 32768 := by have := point1_lt t; have := p.isLt; omega
  refine (store1_4_apply _ _ _ _ _ p q).trans ?_
  rw [View.read_apply]
  show _ = (Cert.Spec.fuse 32768 4 (Cert.Spec.affine 32768 4096 4 (V c main_arg2) (V c main_v65) (V c main_v73))
      (Cert.Spec.affine 32768 4096 4 (hidden1 V c) (V c main_v61) (V c main_v69)) (V c main_v55)) (((cfg1.win 27).blk t).view.emb (ix2 p q))
  rw [out1_4_blk_emb t p q ⟨_, hrow⟩ rfl, Cert.Spec.fuse_apply, Cert.Spec.affine_apply, Cert.Spec.affine_apply, ctxHead1_4_apply]
  refine congrArg₂ (· + ·) (congrArg₂ (· + ·)
    (congrArg₂ (· + ·) (Finset.sum_congr rfl fun k _ => ?_) (visRow1_4_blk_apply V c t 0 q))
    (congrArg₂ (· + ·) (Finset.sum_congr rfl fun k _ => ?_) (ctxRow1_4_blk_apply V c t 0 q)))
    (bias1_4_blk_apply V c t p q ⟨_, hrow⟩ rfl)
  · rw [narrowVis1_apply, vis1_blk_apply V c t p k ⟨_, hrow⟩ rfl, visMat1_4_blk_apply V c t k q]
  · rw [hiddenRows1_apply V c t p k ⟨_, hrow⟩ rfl, ctxMat1_4_blk_apply V c t k q]

/-! ## The arrays the region leaves

Each result array after the region: visual head plus context head plus the additive bias block, of the arrays as the
region found them. -/

theorem region1_value24 (c : Dev nD) :
    (dat1 (F := Ideal) V c).arrAt 24 cfg1.N
      = Cert.Spec.fuse 32768 15 (Cert.Spec.affine 32768 4096 15 (V c main_arg2) (V c main_v62) (V c main_v70))
      (Cert.Spec.affine 32768 4096 15 (hidden1 V c) (V c main_v58) (V c main_v66)) (V c main_v26) :=
  (dat1 V c).arrAt_eq_of_cover 24 _ (fun t _ => flushed1_24_eq V c t) tiled1_24

theorem region1_value25 (c : Dev nD) :
    (dat1 (F := Ideal) V c).arrAt 25 cfg1.N
      = Cert.Spec.fuse 32768 11 (Cert.Spec.affine 32768 4096 11 (V c main_arg2) (V c main_v63) (V c main_v71))
      (Cert.Spec.affine 32768 4096 11 (hidden1 V c) (V c main_v59) (V c main_v67)) (V c main_v33) :=
  (dat1 V c).arrAt_eq_of_cover 25 _ (fun t _ => flushed1_25_eq V c t) tiled1_25

theorem region1_value26 (c : Dev nD) :
    (dat1 (F := Ideal) V c).arrAt 26 cfg1.N
      = Cert.Spec.fuse 32768 24 (Cert.Spec.affine 32768 4096 24 (V c main_arg2) (V c main_v64) (V c main_v72))
      (Cert.Spec.affine 32768 4096 24 (hidden1 V c) (V c main_v60) (V c main_v68)) (V c main_v40) :=
  (dat1 V c).arrAt_eq_of_cover 26 _ (fun t _ => flushed1_26_eq V c t) tiled1_26

theorem region1_value27 (c : Dev nD) :
    (dat1 (F := Ideal) V c).arrAt 27 cfg1.N
      = Cert.Spec.fuse 32768 4 (Cert.Spec.affine 32768 4096 4 (V c main_arg2) (V c main_v65) (V c main_v73))
      (Cert.Spec.affine 32768 4096 4 (hidden1 V c) (V c main_v61) (V c main_v69)) (V c main_v55) :=
  (dat1 V c).arrAt_eq_of_cover 27 _ (fun t _ => flushed1_27_eq V c t) tiled1_27

end Cert.KernelIdeal.Hand

end
-- ==== Proof.KI.HostFns.lean ====
/-
  The kernel program's host stages between and around its two kernel regions, each named as a pure function of the
  arrays it reads, spelled with the very operations the program applies, for any float instance.

  * `wrapNeg n idx`: a row index with the negative-index wrap — `idx + n` where `idx < 0`, else `idx`;
    `asCol`: the wrapped indices as a column of gather start indices; `inBounds hi col`: per pair, the bit
    "0 ≤ start index ≤ hi".
  * `takeRows x idx` / `takeFreq tbl idx`: the row gather with out-of-range rows FILLED: row r is row
    `wrapNeg idx r` of the table where that index is in range, and a row of the fill pattern otherwise.
  * `col0`, `col1`: the two columns of a 32768 × 2 integer array; `labelIdx pp = 151 · col0 pp + col1 pp`.
  * `halfL`, `halfR`: the left and the right 512 columns of the projected rows; `pairCtx`: head rows and tail rows side by side.
  * `selGeo`, `selPos`, `selSem`: the 15, 11 and 24 fixed columns of the gathered frequency-bias rows;
    `logSums`: per pair the logarithm of (exp of column 0, the three sums of exps of the selected columns).
  * `narrow`: a weight matrix narrowed to bf16; `rowOf`: a bias vector as a 1 × m row.
-/
import proofs.«407185_j88871463289477_1_alg».proof.Proof.Gen.KernelIdeal

noncomputable section

namespace Cert.KernelIdeal.Hand

open Cert.KernelIdeal Cert.KernelIdeal.Facts₀ Cert.KernelIdeal.Facts Idealize.ShloMosaic

variable {F : FTy → Type} [FloatOps F]

/-! ## Indices -/

def wrapNeg (n : BitVec 32) (idx : IVec S32768 32) : IVec S32768 32 :=
  select (cmpi .slt idx (broadcastInDim S32768 ![] bcast_S_S32768 (constantI S_ 32 0#32)))
    (addi idx (broadcastInDim S32768 ![] bcast_S_S32768 (constantI S_ 32 n))) idx

def asCol (idx : IVec S32768 32) : IVec S32768x1 32 := broadcastInDim S32768x1 ![0] bcast_S32768_S32768x1_0 idx

def inBounds (hi : BitVec 32) (col : IVec S32768x1 32) : IVec S32768 1 :=
  (fun x v => Host.reduce IntOp.andi x v reducesTo_S32768x1_S32768_d1 h_S_)
    (andi (cmpi .sge col (broadcastInDim S32768x1 ![] bcast_S_S32768x1 (constantI S_ 32 0#32)))
      (cmpi .sle col (broadcastInDim S32768x1 ![0, 1] bcast_S1x1_S32768x1_0_1 (broadcastInDim S1x1 ![1] bcast_S1_S1x1_1 (constantI S1 32 hi)))))
    (constantI S_ 1 1#1)

def col0 (a : IVec S32768x2 32) : IVec S32768 32 :=
  shapeCast S32768 (extractStridedSlice S32768x1 ![0, 0] a slices_S32768x2_S32768x1_0_0) shapeCasts_S32768x1_S32768
def col1 (a : IVec S32768x2 32) : IVec S32768 32 :=
  shapeCast S32768 (extractStridedSlice S32768x1 ![0, 1] a slices_S32768x2_S32768x1_0_1) shapeCasts_S32768x1_S32768

def labelIdx (pp : IVec S32768x2 32) : IVec S32768 32 :=
  addi (muli (col0 pp) (broadcastInDim S32768 ![] bcast_S_S32768 (constantI S_ 32 151#32))) (col1 pp)

/-! ## The filled row gathers -/

def takeRows (x : FVec F S8192x512 .f32) (idx : IVec S32768 32) : FVec F S32768x512 .f32 :=
  select (broadcastInDim S32768x512 ![0] bcast_S32768_S32768x512_0 (inBounds 8191#32 (asCol (wrapNeg 8192#32 idx))))
    (Host.gather gather_S8192x512_S32768x1_S32768x512_1_0_n_n_0_1_1512 x (asCol (wrapNeg 8192#32 idx)))
    (broadcastInDim S32768x512 ![] bcast_S_S32768x512 (constant (F := F) S_ .f32 0x7FC00000#32))

def takeFreq (tbl : FVec F S22801x51 .f32) (idx : IVec S32768 32) : FVec F S32768x51 .f32 :=
  select (broadcastInDim S32768x51 ![0] bcast_S32768_S32768x51_0 (inBounds 22800#32 (asCol (wrapNeg 22801#32 idx))))
    (Host.gather gather_S22801x51_S32768x1_S32768x51_1_0_n_n_0_1_151 tbl (asCol (wrapNeg 22801#32 idx)))
    (broadcastInDim S32768x51 ![] bcast_S_S32768x51 (constant (F := F) S_ .f32 0x7FC00000#32))

/-! ## The pair context -/

def halfL (er : FVec F S8192x1024 .f32) : FVec F S8192x512 .f32 := extractStridedSlice S8192x512 ![0, 0] er slices_S8192x1024_S8192x512_0_0
def halfR (er : FVec F S8192x1024 .f32) : FVec F S8192x512 .f32 := extractStridedSlice S8192x512 ![0, 512] er slices_S8192x1024_S8192x512_0_512

def sideBySide (a b : FVec F S32768x512 .f32) : FVec F S32768x1024 .f32 :=
  concatenate S32768x1024 1 [⟨S32768x512, a⟩, ⟨S32768x512, b⟩] concatenates_S32768x512_S32768x512_S32768x1024_d1

def pairCtx (er : FVec F S8192x1024 .f32) (pi : IVec S32768x2 32) : FVec F S32768x1024 .f32 :=
  sideBySide (takeRows (halfL er) (col0 pi)) (takeRows (halfR er) (col1 pi))

/-! ## The frequency bias and its column selections -/

def geoCols : IVec S15x1 32 :=
  broadcastInDim S15x1 ![0] bcast_S15_S15x1_0
    (select (cmpi .slt (fun i => lit0 (S15.rowMajor i)) (broadcastInDim S15 ![] bcast_S_S15 (constantI S_ 32 0#32)))
      (addi (fun i => lit0 (S15.rowMajor i)) (broadcastInDim S15 ![] bcast_S_S15 (constantI S_ 32 51#32))) (fun i => lit0 (S15.rowMajor i)))
def posCols : IVec S11x1 32 :=
  broadcastInDim S11x1 ![0] bcast_S11_S11x1_0
    (select (cmpi .slt (fun i => lit1 (S11.rowMajor i)) (broadcastInDim S11 ![] bcast_S_S11 (constantI S_ 32 0#32)))
      (addi (fun i => lit1 (S11.rowMajor i)) (broadcastInDim S11 ![] bcast_S_S11 (constantI S_ 32 51#32))) (fun i => lit1 (S11.rowMajor i)))
def semCols : IVec S24x1 32 :=
  broadcastInDim S24x1 ![0] bcast_S24_S24x1_0
    (select (cmpi .slt (fun i => lit2 (S24.rowMajor i)) (broadcastInDim S24 ![] bcast_S_S24 (constantI S_ 32 0#32)))
      (addi (fun i => lit2 (S24.rowMajor i)) (broadcastInDim S24 ![] bcast_S_S24 (constantI S_ 32 51#32))) (fun i => lit2 (S24.rowMajor i)))

def selGeo (bias : FVec F S32768x51 .f32) : FVec F S32768x15 .f32 := Host.gather gather_S32768x51_S15x1_S32768x15_0_1_n_n_1_1_327681 bias geoCols
def selPos (bias : FVec F S32768x51 .f32) : FVec F S32768x11 .f32 := Host.gather gather_S32768x51_S11x1_S32768x11_0_1_n_n_1_1_327681 bias posCols
def selSem (bias : FVec F S32768x51 .f32) : FVec F S32768x24 .f32 := Host.gather gather_S32768x51_S24x1_S32768x24_0_1_n_n_1_1_327681 bias semCols

def asCol1 (v : FVec F S32768 .f32) : FVec F S32768x1 .f32 := broadcastInDim S32768x1 ![0] bcast_S32768_S32768x1_0 v

def logSums (bias : FVec F S32768x51 .f32) : FVec F S32768x4 .f32 :=
  Host.log (concatenate S32768x4 1
    [⟨S32768x1, asCol1 (Host.exp (shapeCast S32768 (extractStridedSlice S32768x1 ![0, 0] bias slices_S32768x51_S32768x1_0_0) shapeCasts_S32768x1_S32768))⟩,
     ⟨S32768x1, asCol1 (Host.reduceAdd (Host.exp (selGeo bias)) (constant (F := F) S_ .f32 0x00000000#32) reducesTo_S32768x15_S32768_d1 h_S_)⟩,
     ⟨S32768x1, asCol1 (Host.reduceAdd (Host.exp (selPos bias)) (constant (F := F) S_ .f32 0x00000000#32) reducesTo_S32768x11_S32768_d1 h_S_)⟩,
     ⟨S32768x1, asCol1 (Host.reduceAdd (Host.exp (selSem bias)) (constant (F := F) S_ .f32 0x00000000#32) reducesTo_S32768x24_S32768_d1 h_S_)⟩]
    concatenates_S32768x1_S32768x1_S32768x1_S32768x1_S32768x4_d1)

def freqBias (tbl : FVec F S22801x51 .f32) (pp : IVec S32768x2 32) : FVec F S32768x51 .f32 := takeFreq tbl (labelIdx pp)

end Cert.KernelIdeal.Hand

end
-- ==== Proof.KI.HostVals.lean ====
/-
  What the host stages of the kernel program leave in the arrays its two kernel regions read, for any float
  instance and any launch memory.

  The program is ten items: a host stage, the first kernel region, seven host stages, the second kernel region. The
  first region may change one array only, the projected rows; every host stage writes arrays of its own and no
  argument. So an array is followed backwards through the items to the one stage that writes it, and the arrays
  that stage reads are followed backwards in turn, until only launch contents and the first region's output remain.

  * Before the first region: the projection matrix is narrowed to bf16 and the bias vector is laid out as one row;
    three literal column lists (15, 11 and 24 columns) are written down for later.
  * After the first region the projected rows are cut into their left and right 512 columns. The head column and the
    tail column of the pair list each pick rows, the head rows from the left half and the tail rows from the right
    half, with the negative-index wrap and with out-of-range rows filled; the two picks side by side are the pair
    context (32768 × 1024).
  * The label list gives per pair the index 151 · (first label) + (second label); the frequency table's rows are
    picked at those indices the same filled way: the frequency bias (32768 × 51).
  * Of the frequency bias the three literal column lists select 15, 11 and 24 columns; the log sums are, per pair,
    the logarithm of the exponential of column 0 and of the three row sums of exponentials of the selections.
  * The second region's eight weight matrices and its first matrix are narrowed to bf16, and its nine bias vectors
    are laid out as single rows.

  Each theorem below states one array's contents on entry to a region as such a function of launch contents and of
  the first region's output.
-/
import proofs.«407185_j88871463289477_1_alg».proof.Proof.Gen.KernelIdeal.Regions
import proofs.«407185_j88871463289477_1_alg».proof.Proof.KI.HostFns
import Idealize.ShloMosaic.Lib.StableHlo.Run

-- decided list memberships over some two hundred references recurse past the default depth
set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (outs : Outs (F := F)) (c : Dev nD)

/-! ## Arrays no item has written yet hold their launch contents -/

theorem V1_launch (r : Ref sig .tc) (h0 : r ∉ hostOps0_W := by decide) :
    V1 m c r = m ((c : Thread nD τ).loc r) := (V1_of m c r h0).trans rfl

theorem V2_launch (r : Ref sig .tc) (h0 : r ∉ hostOps0_W := by decide)
    (h1 : r ∉ ([main_v2] : List (Ref sig .tc)) := by decide) :
    V2 m outs c r = m ((c : Thread nD τ).loc r) := (V2_of m outs c r h1).trans (V1_launch m c r h0)

theorem V3_launch (r : Ref sig .tc) (h0 : r ∉ hostOps0_W := by decide)
    (h1 : r ∉ ([main_v2] : List (Ref sig .tc)) := by decide) (h2 : r ∉ hostOps1_W := by decide) :
    V3 m outs c r = m ((c : Thread nD τ).loc r) := (V3_of m outs c r h2).trans (V2_launch m outs c r h0 h1)

theorem V4_launch (r : Ref sig .tc) (h0 : r ∉ hostOps0_W := by decide)
    (h1 : r ∉ ([main_v2] : List (Ref sig .tc)) := by decide) (h2 : r ∉ hostOps1_W := by decide)
    (h3 : r ∉ hostOps1_1_W := by decide) :
    V4 m outs c r = m ((c : Thread nD τ).loc r) := (V4_of m outs c r h3).trans (V3_launch m outs c r h0 h1 h2)

theorem V5_launch (r : Ref sig .tc) (h0 : r ∉ hostOps0_W := by decide)
    (h1 : r ∉ ([main_v2] : List (Ref sig .tc)) := by decide) (h2 : r ∉ hostOps1_W := by decide)
    (h3 : r ∉ hostOps1_1_W := by decide) (h4 : r ∉ hostOps1_2_W := by decide) :
    V5 m outs c r = m ((c : Thread nD τ).loc r) := (V5_of m outs c r h4).trans (V4_launch m outs c r h0 h1 h2 h3)

theorem V6_launch (r : Ref sig .tc) (h0 : r ∉ hostOps0_W := by decide)
    (h1 : r ∉ ([main_v2] : List (Ref sig .tc)) := by decide) (h2 : r ∉ hostOps1_W := by decide)
    (h3 : r ∉ hostOps1_1_W := by decide) (h4 : r ∉ hostOps1_2_W := by decide) (h5 : r ∉ hostOps1_3_W := by decide) :
    V6 m outs c r = m ((c : Thread nD τ).loc r) := (V6_of m outs c r h5).trans (V5_launch m outs c r h0 h1 h2 h3 h4)

theorem V7_launch (r : Ref sig .tc) (h0 : r ∉ hostOps0_W := by decide)
    (h1 : r ∉ ([main_v2] : List (Ref sig .tc)) := by decide) (h2 : r ∉ hostOps1_W := by decide)
    (h3 : r ∉ hostOps1_1_W := by decide) (h4 : r ∉ hostOps1_2_W := by decide) (h5 : r ∉ hostOps1_3_W := by decide)
    (h6 : r ∉ hostOps1_4_W := by decide) :
    V7 m outs c r = m ((c : Thread nD τ).loc r) := (V7_of m outs c r h6).trans (V6_launch m outs c r h0 h1 h2 h3 h4 h5)

theorem V8_launch (r : Ref sig .tc) (h0 : r ∉ hostOps0_W := by decide)
    (h1 : r ∉ ([main_v2] : List (Ref sig .tc)) := by decide) (h2 : r ∉ hostOps1_W := by decide)
    (h3 : r ∉ hostOps1_1_W := by decide) (h4 : r ∉ hostOps1_2_W := by decide) (h5 : r ∉ hostOps1_3_W := by decide)
    (h6 : r ∉ hostOps1_4_W := by decide) (h7 : r ∉ hostOps1_5_W := by decide) :
    V8 m outs c r = m ((c : Thread nD τ).loc r) := (V8_of m outs c r h7).trans (V7_launch m outs c r h0 h1 h2 h3 h4 h5 h6)

theorem V9_launch (r : Ref sig .tc) (h0 : r ∉ hostOps0_W := by decide)
    (h1 : r ∉ ([main_v2] : List (Ref sig .tc)) := by decide) (h2 : r ∉ hostOps1_W := by decide)
    (h3 : r ∉ hostOps1_1_W := by decide) (h4 : r ∉ hostOps1_2_W := by decide) (h5 : r ∉ hostOps1_3_W := by decide)
    (h6 : r ∉ hostOps1_4_W := by decide) (h7 : r ∉ hostOps1_5_W := by decide) (h8 : r ∉ hostOps1_6_W := by decide) :
    V9 m outs c r = m ((c : Thread nD τ).loc r) := (V9_of m outs c r h8).trans (V8_launch m outs c r h0 h1 h2 h3 h4 h5 h6 h7)

/-! ## The first region's entry -/

/-- The object contexts are as launched. -/
theorem V1_arg0 : V1 m c main_arg0 = m ((c : Thread nD τ).loc main_arg0) := V1_launch m c main_arg0

/-- The projection matrix narrowed to bf16. -/
theorem V1_v0 : V1 m c main_v0 = truncf .bf16 (m ((c : Thread nD τ).loc main_arg4)) bitsLt_bf16_f32 := by
  dsimp only [V1, hostOps0]
  after_results

/-- The bias vector as a 1 × 1024 row. -/
theorem V1_v1 : V1 m c main_v1 = shapeCast S1x1024 (m ((c : Thread nD τ).loc main_arg5)) shapeCasts_S1024_S1x1024 := by
  dsimp only [V1, hostOps0]
  after_results
  rfl

/-! ## Each later host stage as a function of the arrays it reads

Stated for an arbitrary valuation `V` of the core's arrays on entry to the stage. -/

section Stages

variable (V : Valuation τ sig (Elt F))

/-- The cutting stage: the left 512 columns of the projected rows. -/
theorem cut_v3 : StableHlo.after hostOps1 V main_v3 = halfL (V main_v2) := by
  dsimp only [hostOps1]
  after_results
  rfl

/-- The cutting stage: the right 512 columns of the projected rows. -/
theorem cut_v4 : StableHlo.after hostOps1 V main_v4 = halfR (V main_v2) := by
  dsimp only [hostOps1]
  after_results
  rfl

/-- The cutting stage: the head column of the pair list. -/
theorem cut_v6 : StableHlo.after hostOps1 V main_v6 = col0 (V main_arg1) := by
  dsimp only [hostOps1]
  after_results
  rfl

set_option maxRecDepth 65536 in
/-- The head pick: rows of the left half at the head column, wrapped and filled. -/
theorem head_v7 : StableHlo.after hostOps1_1 V main_v7 = takeRows (V main_v3) (V main_v6) := by
  dsimp only [hostOps1_1]
  after_results_simp
  rfl

/-- The tail column of the pair list. -/
theorem tailcol_v9 : StableHlo.after hostOps1_2 V main_v9 = col1 (V main_arg1) := by
  dsimp only [hostOps1_2]
  after_results
  rfl

set_option maxRecDepth 65536 in
/-- The tail pick: rows of the right half at the tail column, wrapped and filled. -/
theorem tail_v10 : StableHlo.after hostOps1_3 V main_v10 = takeRows (V main_v4) (V main_v9) := by
  dsimp only [hostOps1_3]
  after_results_simp
  rfl

/-- The joining stage: the head pick and the tail pick side by side. -/
theorem join_v11 : StableHlo.after hostOps1_4 V main_v11 = sideBySide (V main_v7) (V main_v10) := by
  dsimp only [hostOps1_4]
  after_results
  rfl

/-- The joining stage also forms the label index 151 · (first label) + (second label). -/
theorem join_v18 : StableHlo.after hostOps1_4 V main_v18 = labelIdx (V main_arg3) := by
  dsimp only [hostOps1_4]
  after_results
  rfl

set_option maxRecDepth 65536 in
/-- The frequency pick: rows of the frequency table at the label index, wrapped and filled. -/
theorem freq_v19 : StableHlo.after hostOps1_5 V main_v19 = takeFreq (V main_arg24) (V main_v18) := by
  dsimp only [hostOps1_5]
  after_results_simp
  rfl

end Stages

/-! ## The last host stage

Its sixty-three operations select columns of the frequency bias, form the log sums, narrow the second region's
matrices and lay its bias vectors out as rows. -/

section LastStage

variable (V : Valuation τ sig (Elt F))

set_option maxRecDepth 65536 in
/-- The 15 selected columns of the frequency bias, the column list being the first literal list. -/
theorem last_v26 (hc : V main_c = fun i => lit0 (S15.rowMajor i)) :
    StableHlo.after hostOps1_6 V main_v26 = selGeo (V main_v19) := by
  dsimp only [hostOps1_6]
  after_results_simp
  rw [hc]
  rfl

set_option maxRecDepth 65536 in
/-- The 11 selected columns of the frequency bias, the column list being the second literal list. -/
theorem last_v33 (hc : V main_c_0 = fun i => lit1 (S11.rowMajor i)) :
    StableHlo.after hostOps1_6 V main_v33 = selPos (V main_v19) := by
  dsimp only [hostOps1_6]
  after_results_simp
  rw [hc]
  rfl

set_option maxRecDepth 65536 in
/-- The 24 selected columns of the frequency bias, the column list being the third literal list. -/
theorem last_v40 (hc : V main_c_1 = fun i => lit2 (S24.rowMajor i)) :
    StableHlo.after hostOps1_6 V main_v40 = selSem (V main_v19) := by
  dsimp only [hostOps1_6]
  after_results_simp
  rw [hc]
  rfl

set_option maxRecDepth 65536 in
/-- A weight matrix of the second region narrowed to bf16. -/
theorem last_v56 : StableHlo.after hostOps1_6 V main_v56 = truncf .bf16 (V main_arg6) bitsLt_bf16_f32 := by
  dsimp only [hostOps1_6]
  after_results_simp

set_option maxRecDepth 65536 in
/-- A weight matrix of the second region narrowed to bf16. -/
theorem last_v58 : StableHlo.after hostOps1_6 V main_v58 = truncf .bf16 (V main_arg8) bitsLt_bf16_f32 := by
  dsimp only [hostOps1_6]
  after_results_simp

set_option maxRecDepth 65536 in
/-- A weight matrix of the second region narrowed to bf16. -/
theorem last_v59 : StableHlo.after hostOps1_6 V main_v59 = truncf .bf16 (V main_arg10) bitsLt_bf16_f32 := by
  dsimp only [hostOps1_6]
  after_results_simp

set_option maxRecDepth 65536 in
/-- A weight matrix of the second region narrowed to bf16. -/
theorem last_v60 : StableHlo.after hostOps1_6 V main_v60 = truncf .bf16 (V main_arg12) bitsLt_bf16_f32 := by
  dsimp only [hostOps1_6]
  after_results_simp

set_option maxRecDepth 65536 in
/-- A weight matrix of the second region narrowed to bf16. -/
theorem last_v61 : StableHlo.after hostOps1_6 V main_v61 = truncf .bf16 (V main_arg14) bitsLt_bf16_f32 := by
  dsimp only [hostOps1_6]
  after_results_simp

set_option maxRecDepth 65536 in
/-- A weight matrix of the second region narrowed to bf16. -/
theorem last_v62 : StableHlo.after hostOps1_6 V main_v62 = truncf .bf16 (V main_arg16) bitsLt_bf16_f32 := by
  dsimp only [hostOps1_6]
  after_results_simp

set_option maxRecDepth 65536 in
/-- A weight matrix of the second region narrowed to bf16. -/
theorem last_v63 : StableHlo.after hostOps1_6 V main_v63 = truncf .bf16 (V main_arg18) bitsLt_bf16_f32 := by
  dsimp only [hostOps1_6]
  after_results_simp

set_option maxRecDepth 65536 in
/-- A weight matrix of the second region narrowed to bf16. -/
theorem last_v64 : StableHlo.after hostOps1_6 V main_v64 = truncf .bf16 (V main_arg20) bitsLt_bf16_f32 := by
  dsimp only [hostOps1_6]
  after_results_simp

set_option maxRecDepth 65536 in
/-- A weight matrix of the second region narrowed to bf16. -/
theorem last_v65 : StableHlo.after hostOps1_6 V main_v65 = truncf .bf16 (V main_arg22) bitsLt_bf16_f32 := by
  dsimp only [hostOps1_6]
  after_results_simp

set_option maxRecDepth 65536 in
/-- A bias vector of the second region as a single row. -/
theorem last_v57 : StableHlo.after hostOps1_6 V main_v57 = shapeCast S1x4096 (V main_arg7) shapeCasts_S4096_S1x4096 := by
  dsimp only [hostOps1_6]
  after_results_simp
  rfl

set_option maxRecDepth 65536 in
/-- A bias vector of the second region as a single row. -/
theorem last_v66 : StableHlo.after hostOps1_6 V main_v66 = shapeCast S1x15 (V main_arg9) shapeCasts_S15_S1x15 := by
  dsimp only [hostOps1_6]
  after_results_simp
  rfl

set_option maxRecDepth 65536 in
/-- A bias vector of the second region as a single row. -/
theorem last_v67 : StableHlo.after hostOps1_6 V main_v67 = shapeCast S1x11 (V main_arg11) shapeCasts_S11_S1x11 := by
  dsimp only [hostOps1_6]
  after_results_simp
  rfl

set_option maxRecDepth 65536 in
/-- A bias vector of the second region as a single row. -/
theorem last_v68 : StableHlo.after hostOps1_6 V main_v68 = shapeCast S1x24 (V main_arg13) shapeCasts_S24_S1x24 := by
  dsimp only [hostOps1_6]
  after_results_simp
  rfl

set_option maxRecDepth 65536 in
/-- A bias vector of the second region as a single row. -/
theorem last_v69 : StableHlo.after hostOps1_6 V main_v69 = shapeCast S1x4 (V main_arg15) shapeCasts_S4_S1x4 := by
  dsimp only [hostOps1_6]
  after_results_simp
  rfl

set_option maxRecDepth 65536 in
/-- A bias vector of the second region as a single row. -/
theorem last_v70 : StableHlo.after hostOps1_6 V main_v70 = shapeCast S1x15 (V main_arg17) shapeCasts_S15_S1x15 := by
  dsimp only [hostOps1_6]
  after_results_simp
  rfl

set_option maxRecDepth 65536 in
/-- A bias vector of the second region as a single row. -/
theorem last_v71 : StableHlo.after hostOps1_6 V main_v71 = shapeCast S1x11 (V main_arg19) shapeCasts_S11_S1x11 := by
  dsimp only [hostOps1_6]
  after_results_simp
  rfl

set_option maxRecDepth 65536 in
/-- A bias vector of the second region as a single row. -/
theorem last_v72 : StableHlo.after hostOps1_6 V main_v72 = shapeCast S1x24 (V main_arg21) shapeCasts_S24_S1x24 := by
  dsimp only [hostOps1_6]
  after_results_simp
  rfl

set_option maxRecDepth 65536 in
/-- A bias vector of the second region as a single row. -/
theorem last_v73 : StableHlo.after hostOps1_6 V main_v73 = shapeCast S1x4 (V main_arg23) shapeCasts_S4_S1x4 := by
  dsimp only [hostOps1_6]
  after_results_simp
  rfl

end LastStage

/-- Four columns side by side depend only on the four columns. -/
theorem cat4_congr {a a' b b' c' d d' : FVec F S32768x1 .f32} {c₀ : FVec F S32768x1 .f32}
    (ha : a = a') (hb : b = b') (hc : c₀ = c') (hd : d = d') :
    concatenate S32768x4 1 [⟨S32768x1, a⟩, ⟨S32768x1, b⟩, ⟨S32768x1, c₀⟩, ⟨S32768x1, d⟩]
        concatenates_S32768x1_S32768x1_S32768x1_S32768x1_S32768x4_d1
      = concatenate S32768x4 1 [⟨S32768x1, a'⟩, ⟨S32768x1, b'⟩, ⟨S32768x1, c'⟩, ⟨S32768x1, d'⟩]
        concatenates_S32768x1_S32768x1_S32768x1_S32768x1_S32768x4_d1 := by
  subst ha hb hc hd; rfl

section LogSums

variable (V : Valuation τ sig (Elt F))

set_option maxRecDepth 65536 in
/-- The log sums: the logarithm of four columns side by side — the exponential of column 0 of the frequency bias and
    the three row sums of exponentials of its selected columns. The four columns are read one by one. -/
theorem last_v55 (h0 : V main_c = fun i => lit0 (S15.rowMajor i)) (h1 : V main_c_0 = fun i => lit1 (S11.rowMajor i))
    (h2 : V main_c_1 = fun i => lit2 (S24.rowMajor i)) :
    StableHlo.after hostOps1_6 V main_v55 = logSums (V main_v19) := by
  dsimp only [hostOps1_6]
  after_results_simp
  dsimp only [Matrix.cons_val]
  unfold logSums
  refine congrArg Host.log (cat4_congr ?_ ?_ ?_ ?_)
  · after_results_simp
    rfl
  · after_results_simp
    rw [h0]
    rfl
  · after_results_simp
    rw [h1]
    rfl
  · after_results_simp
    rw [h2]
    rfl

end LogSums

/-! ## The arrays followed through the items -/

/-- The projected rows after the first region are what the region left. -/
theorem V2_at_v2 : V2 m outs c main_v2 = outs 2 main_v2 c := Function.update_self _ _ _

/-- The left half of the projected rows. -/
theorem V3_v3 : V3 m outs c main_v3 = halfL (outs 2 main_v2 c) :=
  (cut_v3 (V2 m outs c)).trans (by rw [V2_at_v2])

/-- The right half of the projected rows. -/
theorem V3_v4 : V3 m outs c main_v4 = halfR (outs 2 main_v2 c) :=
  (cut_v4 (V2 m outs c)).trans (by rw [V2_at_v2])

/-- The head column of the pair list. -/
theorem V3_v6 : V3 m outs c main_v6 = col0 (m ((c : Thread nD τ).loc main_arg1)) :=
  (cut_v6 (V2 m outs c)).trans (by rw [V2_launch m outs c main_arg1])

/-- The head pick: it reads the left half and the head column as the cutting stage left them. -/
theorem V4_v7 : V4 m outs c main_v7 = takeRows (halfL (outs 2 main_v2 c)) (col0 (m ((c : Thread nD τ).loc main_arg1))) :=
  (head_v7 (V3 m outs c)).trans (by rw [V3_v3, V3_v6])

/-- The tail column of the pair list. -/
theorem V5_v9 : V5 m outs c main_v9 = col1 (m ((c : Thread nD τ).loc main_arg1)) :=
  (tailcol_v9 (V4 m outs c)).trans (by rw [V4_launch m outs c main_arg1])

/-- The right half is not touched by the head pick nor by the tail column's stage. -/
theorem V5_v4 : V5 m outs c main_v4 = halfR (outs 2 main_v2 c) :=
  (V5_of m outs c main_v4 (by decide)).trans ((V4_of m outs c main_v4 (by decide)).trans (V3_v4 m outs c))

/-- The tail pick. -/
theorem V6_v10 : V6 m outs c main_v10 = takeRows (halfR (outs 2 main_v2 c)) (col1 (m ((c : Thread nD τ).loc main_arg1))) :=
  (tail_v10 (V5 m outs c)).trans (by rw [V5_v4, V5_v9])

/-- The head pick is not touched by the two stages after it. -/
theorem V6_v7 : V6 m outs c main_v7 = takeRows (halfL (outs 2 main_v2 c)) (col0 (m ((c : Thread nD τ).loc main_arg1))) :=
  (V6_of m outs c main_v7 (by decide)).trans ((V5_of m outs c main_v7 (by decide)).trans (V4_v7 m outs c))

/-- The pair context when the joining stage has run. -/
theorem V7_v11 : V7 m outs c main_v11 = pairCtx (outs 2 main_v2 c) (m ((c : Thread nD τ).loc main_arg1)) :=
  (join_v11 (V6 m outs c)).trans (by rw [V6_v7, V6_v10]; rfl)

/-- The label index. -/
theorem V7_v18 : V7 m outs c main_v18 = labelIdx (m ((c : Thread nD τ).loc main_arg3)) :=
  (join_v18 (V6 m outs c)).trans (by rw [V6_launch m outs c main_arg3])

/-- The frequency bias. -/
theorem V8_v19 : V8 m outs c main_v19 = freqBias (m ((c : Thread nD τ).loc main_arg24)) (m ((c : Thread nD τ).loc main_arg3)) :=
  (freq_v19 (V7 m outs c)).trans (by rw [V7_v18, V7_launch m outs c main_arg24]; rfl)

/-! The three literal column lists, written before the first region and never again. -/

/-- An array the first stage wrote and no later item writes holds, before the last stage, what the first stage left. -/
theorem V8_early (r : Ref sig .tc) (h1 : r ∉ ([main_v2] : List (Ref sig .tc)) := by decide)
    (h2 : r ∉ hostOps1_W := by decide) (h3 : r ∉ hostOps1_1_W := by decide) (h4 : r ∉ hostOps1_2_W := by decide)
    (h5 : r ∉ hostOps1_3_W := by decide) (h6 : r ∉ hostOps1_4_W := by decide) (h7 : r ∉ hostOps1_5_W := by decide) :
    V8 m outs c r = V1 m c r :=
  (V8_of m outs c r h7).trans <| (V7_of m outs c r h6).trans <| (V6_of m outs c r h5).trans <|
    (V5_of m outs c r h4).trans <| (V4_of m outs c r h3).trans <| (V3_of m outs c r h2).trans (V2_of m outs c r h1)

/-- The first literal column list (15 columns). -/
theorem V8_c : V8 m outs c main_c = fun i => lit0 (S15.rowMajor i) :=
  (V8_early m outs c main_c).trans (by dsimp only [V1, hostOps0]; after_results; rfl)

/-- The second literal column list (11 columns). -/
theorem V8_c_0 : V8 m outs c main_c_0 = fun i => lit1 (S11.rowMajor i) :=
  (V8_early m outs c main_c_0).trans (by dsimp only [V1, hostOps0]; after_results; rfl)

/-- The third literal column list (24 columns). -/
theorem V8_c_1 : V8 m outs c main_c_1 = fun i => lit2 (S24.rowMajor i) :=
  (V8_early m outs c main_c_1).trans (by dsimp only [V1, hostOps0]; after_results; rfl)

/-! ## The second region's entry -/

/-- The pair context: head rows and tail rows of the first region's output, side by side. -/
theorem V9_v11 : V9 m outs c main_v11 = pairCtx (outs 2 main_v2 c) (m ((c : Thread nD τ).loc main_arg1)) :=
  (V9_of m outs c main_v11 (by decide)).trans ((V8_of m outs c main_v11 (by decide)).trans (V7_v11 m outs c))

/-- The second input array is as launched. -/
theorem V9_arg2 : V9 m outs c main_arg2 = m ((c : Thread nD τ).loc main_arg2) := V9_launch m outs c main_arg2

/-- The 15 selected columns of the frequency bias. -/
theorem V9_v26 : V9 m outs c main_v26 = selGeo (freqBias (m ((c : Thread nD τ).loc main_arg24)) (m ((c : Thread nD τ).loc main_arg3))) :=
  (last_v26 (V8 m outs c) (V8_c m outs c)).trans (by rw [V8_v19])

/-- The 11 selected columns of the frequency bias. -/
theorem V9_v33 : V9 m outs c main_v33 = selPos (freqBias (m ((c : Thread nD τ).loc main_arg24)) (m ((c : Thread nD τ).loc main_arg3))) :=
  (last_v33 (V8 m outs c) (V8_c_0 m outs c)).trans (by rw [V8_v19])

/-- The 24 selected columns of the frequency bias. -/
theorem V9_v40 : V9 m outs c main_v40 = selSem (freqBias (m ((c : Thread nD τ).loc main_arg24)) (m ((c : Thread nD τ).loc main_arg3))) :=
  (last_v40 (V8 m outs c) (V8_c_1 m outs c)).trans (by rw [V8_v19])

/-- The log sums of the frequency bias. -/
theorem V9_v55 : V9 m outs c main_v55 = logSums (freqBias (m ((c : Thread nD τ).loc main_arg24)) (m ((c : Thread nD τ).loc main_arg3))) :=
  (last_v55 (V8 m outs c) (V8_c m outs c) (V8_c_0 m outs c) (V8_c_1 m outs c)).trans (by rw [V8_v19])

/-- A weight matrix narrowed to bf16. -/
theorem V9_v56 : V9 m outs c main_v56 = truncf .bf16 (m ((c : Thread nD τ).loc main_arg6)) bitsLt_bf16_f32 :=
  (last_v56 (V8 m outs c)).trans (by rw [V8_launch m outs c main_arg6])

/-- A weight matrix narrowed to bf16. -/
theorem V9_v58 : V9 m outs c main_v58 = truncf .bf16 (m ((c : Thread nD τ).loc main_arg8)) bitsLt_bf16_f32 :=
  (last_v58 (V8 m outs c)).trans (by rw [V8_launch m outs c main_arg8])

/-- A weight matrix narrowed to bf16. -/
theorem V9_v59 : V9 m outs c main_v59 = truncf .bf16 (m ((c : Thread nD τ).loc main_arg10)) bitsLt_bf16_f32 :=
  (last_v59 (V8 m outs c)).trans (by rw [V8_launch m outs c main_arg10])

/-- A weight matrix narrowed to bf16. -/
theorem V9_v60 : V9 m outs c main_v60 = truncf .bf16 (m ((c : Thread nD τ).loc main_arg12)) bitsLt_bf16_f32 :=
  (last_v60 (V8 m outs c)).trans (by rw [V8_launch m outs c main_arg12])

/-- A weight matrix narrowed to bf16. -/
theorem V9_v61 : V9 m outs c main_v61 = truncf .bf16 (m ((c : Thread nD τ).loc main_arg14)) bitsLt_bf16_f32 :=
  (last_v61 (V8 m outs c)).trans (by rw [V8_launch m outs c main_arg14])

/-- A weight matrix narrowed to bf16. -/
theorem V9_v62 : V9 m outs c main_v62 = truncf .bf16 (m ((c : Thread nD τ).loc main_arg16)) bitsLt_bf16_f32 :=
  (last_v62 (V8 m outs c)).trans (by rw [V8_launch m outs c main_arg16])

/-- A weight matrix narrowed to bf16. -/
theorem V9_v63 : V9 m outs c main_v63 = truncf .bf16 (m ((c : Thread nD τ).loc main_arg18)) bitsLt_bf16_f32 :=
  (last_v63 (V8 m outs c)).trans (by rw [V8_launch m outs c main_arg18])

/-- A weight matrix narrowed to bf16. -/
theorem V9_v64 : V9 m outs c main_v64 = truncf .bf16 (m ((c : Thread nD τ).loc main_arg20)) bitsLt_bf16_f32 :=
  (last_v64 (V8 m outs c)).trans (by rw [V8_launch m outs c main_arg20])

/-- A weight matrix narrowed to bf16. -/
theorem V9_v65 : V9 m outs c main_v65 = truncf .bf16 (m ((c : Thread nD τ).loc main_arg22)) bitsLt_bf16_f32 :=
  (last_v65 (V8 m outs c)).trans (by rw [V8_launch m outs c main_arg22])

/-- A bias vector as a single row. -/
theorem V9_v57 : V9 m outs c main_v57 = shapeCast S1x4096 (m ((c : Thread nD τ).loc main_arg7)) shapeCasts_S4096_S1x4096 :=
  (last_v57 (V8 m outs c)).trans (by rw [V8_launch m outs c main_arg7])

/-- A bias vector as a single row. -/
theorem V9_v66 : V9 m outs c main_v66 = shapeCast S1x15 (m ((c : Thread nD τ).loc main_arg9)) shapeCasts_S15_S1x15 :=
  (last_v66 (V8 m outs c)).trans (by rw [V8_launch m outs c main_arg9])

/-- A bias vector as a single row. -/
theorem V9_v67 : V9 m outs c main_v67 = shapeCast S1x11 (m ((c : Thread nD τ).loc main_arg11)) shapeCasts_S11_S1x11 :=
  (last_v67 (V8 m outs c)).trans (by rw [V8_launch m outs c main_arg11])

/-- A bias vector as a single row. -/
theorem V9_v68 : V9 m outs c main_v68 = shapeCast S1x24 (m ((c : Thread nD τ).loc main_arg13)) shapeCasts_S24_S1x24 :=
  (last_v68 (V8 m outs c)).trans (by rw [V8_launch m outs c main_arg13])

/-- A bias vector as a single row. -/
theorem V9_v69 : V9 m outs c main_v69 = shapeCast S1x4 (m ((c : Thread nD τ).loc main_arg15)) shapeCasts_S4_S1x4 :=
  (last_v69 (V8 m outs c)).trans (by rw [V8_launch m outs c main_arg15])

/-- A bias vector as a single row. -/
theorem V9_v70 : V9 m outs c main_v70 = shapeCast S1x15 (m ((c : Thread nD τ).loc main_arg17)) shapeCasts_S15_S1x15 :=
  (last_v70 (V8 m outs c)).trans (by rw [V8_launch m outs c main_arg17])

/-- A bias vector as a single row. -/
theorem V9_v71 : V9 m outs c main_v71 = shapeCast S1x11 (m ((c : Thread nD τ).loc main_arg19)) shapeCasts_S11_S1x11 :=
  (last_v71 (V8 m outs c)).trans (by rw [V8_launch m outs c main_arg19])

/-- A bias vector as a single row. -/
theorem V9_v72 : V9 m outs c main_v72 = shapeCast S1x24 (m ((c : Thread nD τ).loc main_arg21)) shapeCasts_S24_S1x24 :=
  (last_v72 (V8 m outs c)).trans (by rw [V8_launch m outs c main_arg21])

/-- A bias vector as a single row. -/
theorem V9_v73 : V9 m outs c main_v73 = shapeCast S1x4 (m ((c : Thread nD τ).loc main_arg23)) shapeCasts_S4_S1x4 :=
  (last_v73 (V8 m outs c)).trans (by rw [V8_launch m outs c main_arg23])

end Cert.KernelIdeal.Hand

end
-- ==== Proof.KI.PreIdx.lean ====
/-
  What the statement's precondition says of the two integer inputs, and what follows for the row gathers of the kernel
  program's host stages.

  The precondition is one bit: a chain of conjunctions (`and` of all-reductions by `and`). Its first 23 conjuncts say
  every float input is finite and are never opened here. The last two say, entry by entry and in SIGNED 32-bit order,
  that the pair index array lies in [0, 8192) and the pair label array in [0, 151): each is the all-reduction of the
  bit array "0 ≤ a and a < n". The bit being 1 forces both halves of the last conjunction to be 1, then the second
  half of the one before; an all-reduction by `and` that is 1 had a 1 at every entry; a conjunction bit that is 1 has both
  compares 1; and a signed compare that is 1 orders the two words as integers. `InRange n v` is that conclusion:
  0 ≤ v < n with v read as a signed integer.

  Under those ranges:
  * a column of an in-range 32768 × 2 array is in range (a column entry IS an entry of the array);
  * the negative-index wrap leaves a non-negative index alone (its "index < 0" bit is not 1);
  * the bounds bit "0 ≤ start ≤ hi" of a column of start indices is an `and`-reduction over an axis of extent 1 from 1:
    a left fold of `and` from 1 over entries that are all 1 is 1; so for indices in [0, hi] the bit is 1 at every pair,
    the fill row is never chosen, and the FILLED row gather is the plain gather at the wrapped indices;
  * the label index 151 · (label 0) + (label 1) of two labels in [0, 151) does not wrap in 32 bits (the product is at
    most 22650, the sum at most 22800), so it lies in [0, 22801), the row count of the frequency table.
-/
import proofs.«407185_j88871463289477_1_alg».proof.Proof.KI.HostFns
import proofs.«407185_j88871463289477_1_alg».proof.Pre_finite_inputs
import proofs.«407185_j88871463289477_1_alg».proof.Proof.Gen.Pre_finite_inputs
import Idealize.ShloMosaic.Lib.ReduceAll
import Idealize.ShloMosaic.Lib.StableHlo.Predicate
import Idealize.ShloMosaic.Lib.ValueIdx

noncomputable section

namespace Cert.KernelIdeal.Hand

open Cert.KernelIdeal Cert.KernelIdeal.Facts₀ Cert.KernelIdeal.Facts Idealize.ShloMosaic

variable {F : FTy → Type} [FloatOps F]

/-- The word `v`, read as a signed 32-bit integer, lies in [0, n). -/
def InRange (n : Int) (v : BitVec 32) : Prop := 0 ≤ v.toInt ∧ v.toInt < n

/-- The scalar shape has one index. -/
instance : Subsingleton S_.Idx := ⟨fun a b => funext fun d => d.elim0⟩

theorem toInt_zero32 : (0#32 : BitVec 32).toInt = 0 := by decide

/-! ## The precondition read back -/

/-- One range conjunct: if the all-reduction by `and` of the bit array "0 ≤ a and a < n" (signed, against the two splat
    literals) is 1, every entry of `a` is in [0, n). -/
theorem range_of_all {s : Shape} {axes : List (Fin s.rank)} (n : ℕ) (hn : n < 2 ^ 31) (hb : S_.BroadcastsInDim s (![] : Fin 0 → Fin s.rank))
    (hr : s.ReducesTo axes S_) (hu : 0 < S_.numel) (a : IVec s 32) (init : IVec S_ 1) (j : S_.Idx)
    (e : Host.reduce IntOp.andi
          (andi (cmpi .sge a (broadcastInDim s ![] hb (constantI S_ 32 0#32)))
            (cmpi .slt a (broadcastInDim s ![] hb (constantI S_ 32 (BitVec.ofNat 32 n))))) init hr hu j = 1#1) :
    ∀ i, InRange n (a i) := by
  intro i
  have hi : IntOp.andi (IntOp.cmpi .sge (a i) 0#32) (IntOp.cmpi .slt (a i) (BitVec.ofNat 32 n)) = 1#1 :=
    Host.reduce_andi_all _ init hr hu j e i
  obtain ⟨hge, hlt⟩ := IntOp.andi_eq_one.1 hi
  have h0 := IntOp.cmpi_sge.1 hge
  have h1 := IntOp.cmpi_slt.1 hlt
  rw [toInt_zero32] at h0
  rw [StableHlo.Predicate.toInt_ofNat_small n hn] at h1
  exact ⟨h0, h1⟩

/-- THE PRECONDITION DECODED: every pair index is in [0, 8192) and every pair label in [0, 151). -/
theorem idx_ranges_of_pre
    (a0 : FVec F Cert.Pre_finite_inputs.S8192x512 .f32) (a1 : IVec Cert.Pre_finite_inputs.S32768x2 32) (a2 : FVec F Cert.Pre_finite_inputs.S32768x4096 .f32)
    (a3 : IVec Cert.Pre_finite_inputs.S32768x2 32) (a4 : FVec F Cert.Pre_finite_inputs.S512x1024 .f32) (a5 : FVec F Cert.Pre_finite_inputs.S1024 .f32)
    (a6 : FVec F Cert.Pre_finite_inputs.S1024x4096 .f32) (a7 : FVec F Cert.Pre_finite_inputs.S4096 .f32) (a8 : FVec F Cert.Pre_finite_inputs.S4096x15 .f32)
    (a9 : FVec F Cert.Pre_finite_inputs.S15 .f32) (a10 : FVec F Cert.Pre_finite_inputs.S4096x11 .f32) (a11 : FVec F Cert.Pre_finite_inputs.S11 .f32)
    (a12 : FVec F Cert.Pre_finite_inputs.S4096x24 .f32) (a13 : FVec F Cert.Pre_finite_inputs.S24 .f32) (a14 : FVec F Cert.Pre_finite_inputs.S4096x4 .f32)
    (a15 : FVec F Cert.Pre_finite_inputs.S4 .f32) (a16 : FVec F Cert.Pre_finite_inputs.S4096x15 .f32) (a17 : FVec F Cert.Pre_finite_inputs.S15 .f32)
    (a18 : FVec F Cert.Pre_finite_inputs.S4096x11 .f32) (a19 : FVec F Cert.Pre_finite_inputs.S11 .f32) (a20 : FVec F Cert.Pre_finite_inputs.S4096x24 .f32)
    (a21 : FVec F Cert.Pre_finite_inputs.S24 .f32) (a22 : FVec F Cert.Pre_finite_inputs.S4096x4 .f32) (a23 : FVec F Cert.Pre_finite_inputs.S4 .f32)
    (a24 : FVec F Cert.Pre_finite_inputs.S22801x51 .f32)
    (h : Cert.Pre_finite_inputs.fn (F := F) a0 a1 a2 a3 a4 a5 a6 a7 a8 a9 a10 a11 a12 a13 a14 a15 a16 a17 a18 a19 a20 a21 a22 a23 a24 = fun _ => 1#1) :
    (∀ i, InRange 8192 (a1 i)) ∧ (∀ i, InRange 151 (a3 i)) := by
  have e := congrFun h ValueIdx.ix0
  -- the result is (… ∧ all(0 ≤ a1 < 8192)) ∧ all(0 ≤ a3 < 151); the float conjuncts stay closed
  change IntOp.andi (IntOp.andi _ (Host.reduce IntOp.andi _ _ _ _ _)) (Host.reduce IntOp.andi _ _ _ _ _) = 1#1 at e
  obtain ⟨h120, h126⟩ := IntOp.andi_eq_one.1 e
  obtain ⟨-, h119⟩ := IntOp.andi_eq_one.1 h120
  exact ⟨range_of_all 8192 (by norm_num) _ _ _ a1 _ _ h119, range_of_all 151 (by norm_num) _ _ _ a3 _ _ h126⟩

/-! ## Columns, the wrap, the bounds bit -/

theorem col0_range (a : IVec S32768x2 32) (n : Int) (h : ∀ i, InRange n (a i)) : ∀ r, InRange n (col0 a r) :=
  fun r => h _

theorem col1_range (a : IVec S32768x2 32) (n : Int) (h : ∀ i, InRange n (a i)) : ∀ r, InRange n (col1 a r) :=
  fun r => h _

/-- An entry of the column of start indices is an entry of the index vector. -/
theorem asCol_range (idx : IVec S32768 32) (n : Int) (h : ∀ r, InRange n (idx r)) : ∀ i, InRange n (asCol idx i) :=
  fun i => h _

/-- The wrap is the identity on non-negative indices. -/
theorem wrapNeg_of_range (n : BitVec 32) (idx : IVec S32768 32) (k : Int) (h : ∀ r, InRange k (idx r)) : wrapNeg n idx = idx := by
  funext r
  have hc : ¬ IntOp.cmpi .slt (idx r) 0#32 = 1#1 := by
    rw [IntOp.cmpi_slt, toInt_zero32]
    have := (h r).1
    omega
  show Scalar.select (IntOp.cmpi .slt (idx r) 0#32) (IntOp.addi (idx r) n) (idx r) = idx r
  exact if_neg hc

/-- A left fold of `and` from 1 over bits that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    have h11 : IntOp.andi 1#1 1#1 = 1#1 := by decide
    rw [List.foldl_cons, h a List.mem_cons_self, h11]
    exact foldl_andi_ones f l (fun n hn => h n (List.mem_cons_of_mem _ hn))

/-- The bounds bit of a column of start indices that all lie in [0, hi] is 1 at every pair. -/
theorem inBounds_of_range (hi : ℕ) (hhi : hi < 2 ^ 31) (col : IVec S32768x1 32)
    (h : ∀ i, 0 ≤ (col i).toInt ∧ (col i).toInt ≤ hi) (r : S32768.Idx) : inBounds (BitVec.ofNat 32 hi) col r = 1#1 := by
  unfold inBounds
  show Host.reduce IntOp.andi _ _ _ _ r = 1#1
  rw [Host.reduce_eq_foldl]
  refine foldl_andi_ones _ _ ?_
  intro i _
  show IntOp.andi (IntOp.cmpi .sge (col i) 0#32) (IntOp.cmpi .sle (col i) (BitVec.ofNat 32 hi)) = 1#1
  rw [IntOp.andi_eq_one, IntOp.cmpi_sge, IntOp.cmpi_sle, toInt_zero32, StableHlo.Predicate.toInt_ofNat_small hi hhi]
  exact h i

/-! ## The filled row gathers are plain gathers -/

theorem takeRows_eq_gather (x : FVec F S8192x512 .f32) (idx : IVec S32768 32) (h : ∀ r, InRange 8192 (idx r)) :
    takeRows x idx = Host.gather gather_S8192x512_S32768x1_S32768x512_1_0_n_n_0_1_1512 x (asCol (wrapNeg 8192#32 idx)) := by
  have hb : ∀ r, inBounds 8191#32 (asCol (wrapNeg 8192#32 idx)) r = 1#1 := by
    rw [wrapNeg_of_range _ _ _ h]
    exact inBounds_of_range 8191 (by norm_num) _ (fun i => ⟨(asCol_range idx _ h i).1, by have := (asCol_range idx _ h i).2; omega⟩)
  funext j
  unfold takeRows
  show Scalar.select (inBounds 8191#32 (asCol (wrapNeg 8192#32 idx)) _) _ _ = _
  rw [hb]
  exact if_pos rfl

/-- The label index 151 · (label 0) + (label 1) of labels in [0, 151) is a row of the 22801-row frequency table. -/
theorem labelIdx_range (pp : IVec S32768x2 32) (h : ∀ i, InRange 151 (pp i)) : ∀ r, InRange 22801 (labelIdx pp r) := by
  intro r
  obtain ⟨a0, a1⟩ := col0_range pp 151 h r
  obtain ⟨b0, b1⟩ := col1_range pp 151 h r
  have h151 : (151#32 : BitVec 32).toInt = 151 := by decide
  have hm : (col0 pp r * 151#32).toInt = (col0 pp r).toInt * 151 := by
    rw [BitVec.toInt_mul, h151]
    exact Int.bmod_eq_of_le (by omega) (by omega)
  have hs : (col0 pp r * 151#32 + col1 pp r).toInt = (col0 pp r).toInt * 151 + (col1 pp r).toInt := by
    rw [BitVec.toInt_add, hm]
    exact Int.bmod_eq_of_le (by omega) (by omega)
  show InRange 22801 (col0 pp r * 151#32 + col1 pp r)
  exact ⟨by rw [hs]; omega, by rw [hs]; omega⟩

theorem takeFreq_eq_gather (tbl : FVec F S22801x51 .f32) (idx : IVec S32768 32) (h : ∀ r, InRange 22801 (idx r)) :
    takeFreq tbl idx = Host.gather gather_S22801x51_S32768x1_S32768x51_1_0_n_n_0_1_151 tbl (asCol (wrapNeg 22801#32 idx)) := by
  have hb : ∀ r, inBounds 22800#32 (asCol (wrapNeg 22801#32 idx)) r = 1#1 := by
    rw [wrapNeg_of_range _ _ _ h]
    exact inBounds_of_range 22800 (by norm_num) _ (fun i => ⟨(asCol_range idx _ h i).1, by have := (asCol_range idx _ h i).2; omega⟩)
  funext j
  unfold takeFreq
  show Scalar.select (inBounds 22800#32 (asCol (wrapNeg 22801#32 idx)) _) _ _ = _
  rw [hb]
  exact if_pos rfl

end Cert.KernelIdeal.Hand

end
-- ==== Proof.RI.RefSpec.lean ====
/-
  The arithmetic stages of the reference program, and the host casts of the kernel program, each read at the ideal
  values as the index-level map it is.

  * An affine stage of the reference is a plain matrix product (M × K by K × N, the left factor's columns contracted
    with the right factor's rows), plus the bias vector laid out as a 1 × N row and that row repeated on each of the
    M rows. Entry (i, j) of the product is the sum over q of x(i, q) · w(q, j); entry (i, j) of the repeated row is
    entry (0, j) of the row, which is entry j of the vector. So entry (i, j) of the stage is
    Σ_q x(i, q) · w(q, j) + b(j): the affine map of x, w and b as a row. Only the reading of the three operations at
    an entry is used, no law of the extended reals, so the entries may be infinite. Ten stages of the program have
    this form, over six distinct triples of extents: the object projection (8192 × 512 by 512 × 1024), the hidden
    layer (32768 × 1024 by 1024 × 4096), and the heads of widths 15, 11, 24 and 4 (32768 × 4096 by 4096 × width),
    each width once on the hidden activation and once on the visual features.
  * The rectifier takes, entry by entry, the larger of the entry and a scalar spread over the whole array; the scalar
    is the all-zero bit pattern, which is the number zero.
  * A result is the visual head plus the context head, then plus the bias block, entry by entry, in that order.
  * On the kernel program's side, a weight matrix is narrowed to a 16-bit format before a kernel region reads it, and
    over the extended reals a change of float format changes nothing; a bias vector of length m is recast as a 1 × m
    array, which keeps row-major positions: place (0, j) of the row is position j, entry j of the vector.
-/
import proofs.«407185_j88871463289477_1_alg».proof.Proof.Gen.ReferenceIdeal
import proofs.«407185_j88871463289477_1_alg».proof.Proof.Gen.KernelIdeal
import proofs.«407185_j88871463289477_1_alg».proof.Proof.Spec
import proofs.«407185_j88871463289477_1_alg».proof.Proof.LibDotPlain
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost
import Idealize.ShloMosaic.PureOps.Ideal.Laws

noncomputable section

open scoped BigOperators

namespace Cert.Bridge

open Idealize.ShloMosaic Idealize.ShloMosaic.ValueIdx

/-! ## The readings over any extents -/

section AnyExtents

variable {M K N : Nat}

/-- A vector of length N laid out as a 1 × N row reads, at place (u, j), the vector's entry j. -/
theorem vecAsRow_apply {α : Type} (h : (⟨1, ![N]⟩ : Shape).BroadcastsInDim ⟨2, ![1, N]⟩ ![1])
    (b : (⟨1, ![N]⟩ : Shape).Idx → α) (u : Fin 1) (j : Fin N) :
    broadcastInDim ⟨2, ![1, N]⟩ ![1] h b (ix2 u j) = b (ix1 j) := by
  refine broadcastInDim_apply ![1] h b (ix2 u j) (ix1 j) fun a => ?_
  match a with
  | ⟨0, _⟩ =>
    show j.val = if N = 1 then 0 else j.val
    split
    · have := j.isLt; omega
    · rfl

/-- The plain M × K by K × N product, plus a length-N vector laid out as a row and repeated on every row, is the
    affine map: entry (i, j) is Σ_q x(i, q) · w(q, j) + b(j). -/
theorem affine_of_plain (x : FVec Ideal ⟨2, ![M, K]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (DotDims.plain M K N) none x w)
        (broadcastInDim ⟨2, ![M, N]⟩ ![0, 1] h2 (broadcastInDim ⟨2, ![1, N]⟩ ![1] h1 b))
      = Cert.Spec.affine M K N x w (Cert.Spec.asRow N b) := by
  funext y
  obtain ⟨i, j, rfl⟩ : ∃ (i : Fin M) (j : Fin N), y = ix2 i j := ⟨y 0, y 1, eq_ix2 y⟩
  rw [Cert.Spec.affine_apply, Cert.Spec.asRow_apply]
  refine (addf_apply _ _ _).trans (congrArg₂ (· + ·) ?_ ?_)
  · exact Cert.LibDotPlain.dotGeneral_plain M K N none .single x w i j
  · exact (broadcastInDim_oneRow_apply h2 _ i j).trans (vecAsRow_apply h1 b 0 j)

/-- The larger of each entry and the all-zero pattern spread over an n × m array is the larger of the entry and
    zero. -/
theorem relu_of_max (n m : Nat) (y : FVec Ideal ⟨2, ![n, m]⟩ .f32)
    (h : (⟨0, ![]⟩ : Shape).BroadcastsInDim ⟨2, ![n, m]⟩ ![]) :
    maximumf y (broadcastInDim ⟨2, ![n, m]⟩ ![] h (constant ⟨0, ![]⟩ .f32 0x00000000#32)) = Cert.Spec.relu n m y := by
  funext j
  rw [Cert.Spec.relu_apply]
  refine (maximumf_apply _ _ j).trans (congrArg (max (y j)) ?_)
  exact (broadcastInDim_scalar_apply h _ j).trans ((constant_apply _ _).trans Ideal.ofBits_zero_f32)

/-- Two additions in a row, entry by entry: (v + c) + b. -/
theorem fuse_of_adds (n m : Nat) (v c b : FVec Ideal ⟨2, ![n, m]⟩ .f32) :
    addf (addf v c) b = Cert.Spec.fuse n m v c b := rfl

/-- Over the extended reals a float array narrowed to the 16-bit format is the same array. -/
theorem narrow_id {s : Shape} (w : FVec Ideal s .f32) (h : FTy.bits .bf16 < FTy.bits .f32) :
    (truncf .bf16 w h : FVec Ideal s .bf16) = w := rfl

/-- A vector of length m recast as a 1 × m array is the vector as a row: place (u, j) holds entry j. -/
theorem rowCast_eq {m : Nat} (b : FVec Ideal ⟨1, ![m]⟩ .f32) (h : (⟨1, ![m]⟩ : Shape).ShapeCasts ⟨2, ![1, m]⟩) :
    shapeCast ⟨2, ![1, m]⟩ b h = Cert.Spec.asRow m b := by
  funext y
  obtain ⟨u, j, rfl⟩ : ∃ (u : Fin 1) (j : Fin m), y = ix2 u j := ⟨y 0, y 1, eq_ix2 y⟩
  rw [Cert.Spec.asRow_apply]
  exact shapeCast_a_1a_apply b h u j

end AnyExtents

/-! ## The reference program's stages, at its own extents -/

section Reference

open Cert.ReferenceIdeal Cert.ReferenceIdeal.Facts₀

/-- The object projection, 8192 × 512 by 512 × 1024 plus the bias on every row, is the affine map. -/
theorem ref_affine_8192_512_1024 (x : FVec Ideal S8192x512 .f32) (w : FVec Ideal S512x1024 .f32)
    (b : FVec Ideal S1024 .f32) :
    addf (Host.dotGeneral dot_S8192x512_S512x1024_S8192x1024_1_0_0_1_n_n none x w)
        (broadcastInDim S8192x1024 ![0, 1] bcast_S1x1024_S8192x1024_0_1
          (broadcastInDim S1x1024 ![1] bcast_S1024_S1x1024_1 b))
      = Cert.Spec.affine 8192 512 1024 x w (Cert.Spec.asRow 1024 b) :=
  affine_of_plain (M := 8192) (K := 512) (N := 1024) x w b _ _

/-- The hidden layer before its rectifier, 32768 × 1024 by 1024 × 4096 plus the bias on every row, is the affine
    map. -/
theorem ref_affine_32768_1024_4096 (x : FVec Ideal S32768x1024 .f32) (w : FVec Ideal S1024x4096 .f32)
    (b : FVec Ideal S4096 .f32) :
    addf (Host.dotGeneral dot_S32768x1024_S1024x4096_S32768x4096_1_0_0_1_n_n none x w)
        (broadcastInDim S32768x4096 ![0, 1] bcast_S1x4096_S32768x4096_0_1
          (broadcastInDim S1x4096 ![1] bcast_S4096_S1x4096_1 b))
      = Cert.Spec.affine 32768 1024 4096 x w (Cert.Spec.asRow 4096 b) :=
  affine_of_plain (M := 32768) (K := 1024) (N := 4096) x w b _ _

/-- A head of width 15, 32768 × 4096 by 4096 × 15 plus the bias on every row, is the affine map. -/
theorem ref_affine_32768_4096_15 (x : FVec Ideal S32768x4096 .f32) (w : FVec Ideal S4096x15 .f32)
    (b : FVec Ideal S15 .f32) :
    addf (Host.dotGeneral dot_S32768x4096_S4096x15_S32768x15_1_0_0_1_n_n none x w)
        (broadcastInDim S32768x15 ![0, 1] bcast_S1x15_S32768x15_0_1
          (broadcastInDim S1x15 ![1] bcast_S15_S1x15_1 b))
      = Cert.Spec.affine 32768 4096 15 x w (Cert.Spec.asRow 15 b) :=
  affine_of_plain (M := 32768) (K := 4096) (N := 15) x w b _ _

/-- A head of width 11, 32768 × 4096 by 4096 × 11 plus the bias on every row, is the affine map. -/
theorem ref_affine_32768_4096_11 (x : FVec Ideal S32768x4096 .f32) (w : FVec Ideal S4096x11 .f32)
    (b : FVec Ideal S11 .f32) :
    addf (Host.dotGeneral dot_S32768x4096_S4096x11_S32768x11_1_0_0_1_n_n none x w)
        (broadcastInDim S32768x11 ![0, 1] bcast_S1x11_S32768x11_0_1
          (broadcastInDim S1x11 ![1] bcast_S11_S1x11_1 b))
      = Cert.Spec.affine 32768 4096 11 x w (Cert.Spec.asRow 11 b) :=
  affine_of_plain (M := 32768) (K := 4096) (N := 11) x w b _ _

/-- A head of width 24, 32768 × 4096 by 4096 × 24 plus the bias on every row, is the affine map. -/
theorem ref_affine_32768_4096_24 (x : FVec Ideal S32768x4096 .f32) (w : FVec Ideal S4096x24 .f32)
    (b : FVec Ideal S24 .f32) :
    addf (Host.dotGeneral dot_S32768x4096_S4096x24_S32768x24_1_0_0_1_n_n none x w)
        (broadcastInDim S32768x24 ![0, 1] bcast_S1x24_S32768x24_0_1
          (broadcastInDim S1x24 ![1] bcast_S24_S1x24_1 b))
      = Cert.Spec.affine 32768 4096 24 x w (Cert.Spec.asRow 24 b) :=
  affine_of_plain (M := 32768) (K := 4096) (N := 24) x w b _ _

/-- A head of width 4, 32768 × 4096 by 4096 × 4 plus the bias on every row, is the affine map. -/
theorem ref_affine_32768_4096_4 (x : FVec Ideal S32768x4096 .f32) (w : FVec Ideal S4096x4 .f32)
    (b : FVec Ideal S4 .f32) :
    addf (Host.dotGeneral dot_S32768x4096_S4096x4_S32768x4_1_0_0_1_n_n none x w)
        (broadcastInDim S32768x4 ![0, 1] bcast_S1x4_S32768x4_0_1
          (broadcastInDim S1x4 ![1] bcast_S4_S1x4_1 b))
      = Cert.Spec.affine 32768 4096 4 x w (Cert.Spec.asRow 4 b) :=
  affine_of_plain (M := 32768) (K := 4096) (N := 4) x w b _ _

/-- The rectifier on the 32768 × 4096 hidden layer: each entry replaced by the larger of itself and zero. -/
theorem ref_relu (y : FVec Ideal S32768x4096 .f32) :
    maximumf y (broadcastInDim S32768x4096 ![] bcast_S_S32768x4096 (constant S_ .f32 0x00000000#32))
      = Cert.Spec.relu 32768 4096 y :=
  relu_of_max 32768 4096 y _

/-- The result of width 15: visual head plus context head, then plus the bias block. -/
theorem ref_fuse_15 (v c b : FVec Ideal S32768x15 .f32) : addf (addf v c) b = Cert.Spec.fuse 32768 15 v c b :=
  fuse_of_adds 32768 15 v c b

/-- The result of width 11: visual head plus context head, then plus the bias block. -/
theorem ref_fuse_11 (v c b : FVec Ideal S32768x11 .f32) : addf (addf v c) b = Cert.Spec.fuse 32768 11 v c b :=
  fuse_of_adds 32768 11 v c b

/-- The result of width 24: visual head plus context head, then plus the bias block. -/
theorem ref_fuse_24 (v c b : FVec Ideal S32768x24 .f32) : addf (addf v c) b = Cert.Spec.fuse 32768 24 v c b :=
  fuse_of_adds 32768 24 v c b

/-- The result of width 4: visual head plus context head, then plus the bias block. -/
theorem ref_fuse_4 (v c b : FVec Ideal S32768x4 .f32) : addf (addf v c) b = Cert.Spec.fuse 32768 4 v c b :=
  fuse_of_adds 32768 4 v c b

end Reference

/-! ## The kernel program's host casts, at its own extents -/

section Kernel

open Cert.KernelIdeal Cert.KernelIdeal.Facts₀

/-- The 512 × 1024 projection matrix narrowed to the 16-bit format is the matrix. -/
theorem narrow_512_1024 (w : FVec Ideal S512x1024 .f32) :
    (truncf .bf16 w bitsLt_bf16_f32 : FVec Ideal S512x1024 .bf16) = w := narrow_id w _

/-- The 1024 × 4096 hidden-layer matrix narrowed to the 16-bit format is the matrix. -/
theorem narrow_1024_4096 (w : FVec Ideal S1024x4096 .f32) :
    (truncf .bf16 w bitsLt_bf16_f32 : FVec Ideal S1024x4096 .bf16) = w := narrow_id w _

/-- A 4096 × 15 head matrix narrowed to the 16-bit format is the matrix. -/
theorem narrow_4096_15 (w : FVec Ideal S4096x15 .f32) :
    (truncf .bf16 w bitsLt_bf16_f32 : FVec Ideal S4096x15 .bf16) = w := narrow_id w _

/-- A 4096 × 11 head matrix narrowed to the 16-bit format is the matrix. -/
theorem narrow_4096_11 (w : FVec Ideal S4096x11 .f32) :
    (truncf .bf16 w bitsLt_bf16_f32 : FVec Ideal S4096x11 .bf16) = w := narrow_id w _

/-- A 4096 × 24 head matrix narrowed to the 16-bit format is the matrix. -/
theorem narrow_4096_24 (w : FVec Ideal S4096x24 .f32) :
    (truncf .bf16 w bitsLt_bf16_f32 : FVec Ideal S4096x24 .bf16) = w := narrow_id w _

/-- A 4096 × 4 head matrix narrowed to the 16-bit format is the matrix. -/
theorem narrow_4096_4 (w : FVec Ideal S4096x4 .f32) :
    (truncf .bf16 w bitsLt_bf16_f32 : FVec Ideal S4096x4 .bf16) = w := narrow_id w _

/-- The bias vector of length 1024 recast as a 1 × 1024 array is the vector as a row. -/
theorem rowCast_1024 (b : FVec Ideal S1024 .f32) :
    shapeCast S1x1024 b shapeCasts_S1024_S1x1024 = Cert.Spec.asRow 1024 b := rowCast_eq b _

/-- The bias vector of length 4096 recast as a 1 × 4096 array is the vector as a row. -/
theorem rowCast_4096 (b : FVec Ideal S4096 .f32) :
    shapeCast S1x4096 b shapeCasts_S4096_S1x4096 = Cert.Spec.asRow 4096 b := rowCast_eq b _

/-- A bias vector of length 15 recast as a 1 × 15 array is the vector as a row. -/
theorem rowCast_15 (b : FVec Ideal S15 .f32) :
    shapeCast S1x15 b shapeCasts_S15_S1x15 = Cert.Spec.asRow 15 b := rowCast_eq b _

/-- A bias vector of length 11 recast as a 1 × 11 array is the vector as a row. -/
theorem rowCast_11 (b : FVec Ideal S11 .f32) :
    shapeCast S1x11 b shapeCasts_S11_S1x11 = Cert.Spec.asRow 11 b := rowCast_eq b _

/-- A bias vector of length 24 recast as a 1 × 24 array is the vector as a row. -/
theorem rowCast_24 (b : FVec Ideal S24 .f32) :
    shapeCast S1x24 b shapeCasts_S24_S1x24 = Cert.Spec.asRow 24 b := rowCast_eq b _

/-- A bias vector of length 4 recast as a 1 × 4 array is the vector as a row. -/
theorem rowCast_4 (b : FVec Ideal S4 .f32) :
    shapeCast S1x4 b shapeCasts_S4_S1x4 = Cert.Spec.asRow 4 b := rowCast_eq b _

end Kernel

end Cert.Bridge

end
-- ==== Proof.KI.Vals.lean ====
/-
  The idealized kernel program's four results as functions of the launch contents alone, at the ideal instance.

  Region 0 leaves the projected rows `affine contexts matrix bias` (the host's narrowing of the matrix is the identity on
  extended reals, its reshape of the bias the bias read as a row). Under the two index ranges the statement assumes —
  every pair index a row number of the projected rows, every label below 151 — the host's FILLED row gathers never
  fill, so the pair context is the gathered head rows beside the gathered tail rows and the frequency rows are plainly
  gathered at 151 · subject + object. Region 1 then leaves, for each head, visual head + context head + bias block,
  the context head taken of `relu (affine pairContext mixMatrix mixBias)`.
-/
import proofs.«407185_j88871463289477_1_alg».proof.Proof.KI.Regs
import proofs.«407185_j88871463289477_1_alg».proof.Proof.KI.ValR0
import proofs.«407185_j88871463289477_1_alg».proof.Proof.KI.ValR1
import proofs.«407185_j88871463289477_1_alg».proof.Proof.KI.HostVals
import proofs.«407185_j88871463289477_1_alg».proof.Proof.KI.PreIdx
import proofs.«407185_j88871463289477_1_alg».proof.Proof.RI.RefSpec

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Core `c`'s launch contents of a buffer. -/
abbrev arg (r : Ref sig .tc) : Buf (Elt Ideal) ((c : Thread nD τ).loc r) := m ((c : Thread nD τ).loc r)

/-- The projected object rows. -/
def projK : Cert.Spec.Mat 8192 1024 :=
  Cert.Spec.affine 8192 512 1024 (arg m c main_arg0) (arg m c main_arg4) (Cert.Spec.asRow 1024 (arg m c main_arg5))

theorem erOut_eq : erOut m c = projK m c := by
  unfold erOut projK
  rw [region0_value (En0 m) c]
  dsimp only [En0]
  rw [V1_arg0, V1_v0, V1_v1]
  simp only [Cert.Bridge.narrow_512_1024]
  exact congrArg (fun r : Cert.Spec.Mat 1 1024 => Cert.Spec.affine 8192 512 1024 (arg m c main_arg0) (arg m c main_arg4) r)
    (Cert.Bridge.rowCast_1024 _)

/-- The pair context: per pair the head half of the subject's projected row beside the tail half of the object's. -/
def ctxK : FVec Ideal S32768x1024 .f32 :=
  sideBySide
    (Host.gather gather_S8192x512_S32768x1_S32768x512_1_0_n_n_0_1_1512 (halfL (projK m c)) (asCol (wrapNeg 8192#32 (col0 (arg m c main_arg1)))))
    (Host.gather gather_S8192x512_S32768x1_S32768x512_1_0_n_n_0_1_1512 (halfR (projK m c)) (asCol (wrapNeg 8192#32 (col1 (arg m c main_arg1)))))

/-- The pair's frequency row: row 151 · subject + object of the table. -/
def freqK : FVec Ideal S32768x51 .f32 :=
  Host.gather gather_S22801x51_S32768x1_S32768x51_1_0_n_n_0_1_151 (arg m c main_arg24) (asCol (wrapNeg 22801#32 (labelIdx (arg m c main_arg3))))

/-- The hidden activation. -/
def hiddenK : Cert.Spec.Mat 32768 4096 :=
  Cert.Spec.relu 32768 4096 (Cert.Spec.affine 32768 1024 4096 (ctxK m c) (arg m c main_arg6) (Cert.Spec.asRow 4096 (arg m c main_arg7)))

variable (h1 : ∀ i, InRange 8192 (arg m c main_arg1 i)) (h3 : ∀ i, InRange 151 (arg m c main_arg3 i))

include h1 in
theorem ctx_eq : V9 m (outsA m) c main_v11 = ctxK m c := by
  rw [V9_v11, outsA_v2, erOut_eq]
  unfold pairCtx ctxK
  rw [takeRows_eq_gather _ _ (col0_range _ 8192 h1), takeRows_eq_gather _ _ (col1_range _ 8192 h1)]

include h3 in
theorem freq_eq : freqBias (m ((c : Thread nD τ).loc main_arg24)) (m ((c : Thread nD τ).loc main_arg3)) = freqK m c := by
  unfold freqBias freqK
  rw [takeFreq_eq_gather _ _ (labelIdx_range _ h3)]

include h1 in
theorem hidden_eq : hidden1 (En1 m) c = hiddenK m c := by
  unfold hiddenK
  dsimp only [hidden1, En1]
  rw [ctx_eq m c h1, V9_v56, V9_v57]
  simp only [Cert.Bridge.narrow_1024_4096]
  exact congrArg (fun r : Cert.Spec.Mat 1 4096 => Cert.Spec.relu 32768 4096 (Cert.Spec.affine 32768 1024 4096 (ctxK m c) (arg m c main_arg6) r))
    (Cert.Bridge.rowCast_4096 _)

include h1 h3

/-- Result array 0 (32768 × 15) from the launch contents. -/
theorem value24 : (dat1 (F := Ideal) (En1 m) c).arrAt 24 cfg1.N
    = Cert.Spec.fuse 32768 15
        (Cert.Spec.affine 32768 4096 15 (arg m c main_arg2) (arg m c main_arg16) (Cert.Spec.asRow 15 (arg m c main_arg17)))
        (Cert.Spec.affine 32768 4096 15 (hiddenK m c) (arg m c main_arg8) (Cert.Spec.asRow 15 (arg m c main_arg9)))
        (selGeo (freqK m c)) := by
  rw [region1_value24 (En1 m) c, hidden_eq m c h1]
  dsimp only [En1]
  rw [V9_arg2, V9_v62, V9_v70, V9_v58, V9_v66, V9_v26, freq_eq m c h3]
  simp only [Cert.Bridge.narrow_4096_15]
  exact congrArg₂ (fun r1 r2 : Cert.Spec.Mat 1 15 => Cert.Spec.fuse 32768 15
      (Cert.Spec.affine 32768 4096 15 (arg m c main_arg2) (arg m c main_arg16) r1)
      (Cert.Spec.affine 32768 4096 15 (hiddenK m c) (arg m c main_arg8) r2) (selGeo (freqK m c)))
    (Cert.Bridge.rowCast_15 _) (Cert.Bridge.rowCast_15 _)

/-- Result array 1 (32768 × 11) from the launch contents. -/
theorem value25 : (dat1 (F := Ideal) (En1 m) c).arrAt 25 cfg1.N
    = Cert.Spec.fuse 32768 11
        (Cert.Spec.affine 32768 4096 11 (arg m c main_arg2) (arg m c main_arg18) (Cert.Spec.asRow 11 (arg m c main_arg19)))
        (Cert.Spec.affine 32768 4096 11 (hiddenK m c) (arg m c main_arg10) (Cert.Spec.asRow 11 (arg m c main_arg11)))
        (selPos (freqK m c)) := by
  rw [region1_value25 (En1 m) c, hidden_eq m c h1]
  dsimp only [En1]
  rw [V9_arg2, V9_v63, V9_v71, V9_v59, V9_v67, V9_v33, freq_eq m c h3]
  simp only [Cert.Bridge.narrow_4096_11]
  exact congrArg₂ (fun r1 r2 : Cert.Spec.Mat 1 11 => Cert.Spec.fuse 32768 11
      (Cert.Spec.affine 32768 4096 11 (arg m c main_arg2) (arg m c main_arg18) r1)
      (Cert.Spec.affine 32768 4096 11 (hiddenK m c) (arg m c main_arg10) r2) (selPos (freqK m c)))
    (Cert.Bridge.rowCast_11 _) (Cert.Bridge.rowCast_11 _)

/-- Result array 2 (32768 × 24) from the launch contents. -/
theorem value26 : (dat1 (F := Ideal) (En1 m) c).arrAt 26 cfg1.N
    = Cert.Spec.fuse 32768 24
        (Cert.Spec.affine 32768 4096 24 (arg m c main_arg2) (arg m c main_arg20) (Cert.Spec.asRow 24 (arg m c main_arg21)))
        (Cert.Spec.affine 32768 4096 24 (hiddenK m c) (arg m c main_arg12) (Cert.Spec.asRow 24 (arg m c main_arg13)))
        (selSem (freqK m c)) := by
  rw [region1_value26 (En1 m) c, hidden_eq m c h1]
  dsimp only [En1]
  rw [V9_arg2, V9_v64, V9_v72, V9_v60, V9_v68, V9_v40, freq_eq m c h3]
  simp only [Cert.Bridge.narrow_4096_24]
  exact congrArg₂ (fun r1 r2 : Cert.Spec.Mat 1 24 => Cert.Spec.fuse 32768 24
      (Cert.Spec.affine 32768 4096 24 (arg m c main_arg2) (arg m c main_arg20) r1)
      (Cert.Spec.affine 32768 4096 24 (hiddenK m c) (arg m c main_arg12) r2) (selSem (freqK m c)))
    (Cert.Bridge.rowCast_24 _) (Cert.Bridge.rowCast_24 _)

/-- Result array 3 (32768 × 4) from the launch contents. -/
theorem value27 : (dat1 (F := Ideal) (En1 m) c).arrAt 27 cfg1.N
    = Cert.Spec.fuse 32768 4
        (Cert.Spec.affine 32768 4096 4 (arg m c main_arg2) (arg m c main_arg22) (Cert.Spec.asRow 4 (arg m c main_arg23)))
        (Cert.Spec.affine 32768 4096 4 (hiddenK m c) (arg m c main_arg14) (Cert.Spec.asRow 4 (arg m c main_arg15)))
        (logSums (freqK m c)) := by
  rw [region1_value27 (En1 m) c, hidden_eq m c h1]
  dsimp only [En1]
  rw [V9_arg2, V9_v65, V9_v73, V9_v61, V9_v69, V9_v55, freq_eq m c h3]
  simp only [Cert.Bridge.narrow_4096_4]
  exact congrArg₂ (fun r1 r2 : Cert.Spec.Mat 1 4 => Cert.Spec.fuse 32768 4
      (Cert.Spec.affine 32768 4096 4 (arg m c main_arg2) (arg m c main_arg22) r1)
      (Cert.Spec.affine 32768 4096 4 (hiddenK m c) (arg m c main_arg14) r2) (logSums (freqK m c)))
    (Cert.Bridge.rowCast_4 _) (Cert.Bridge.rowCast_4 _)

end Cert.KernelIdeal.Hand

end
-- ==== Proof.Bridge.lean ====
/-
  The two idealized programs compute the same four results.

  Both read through one specification. The reference's ten "matrix product, bias row on every row" stages are the
  specification's affine map and its relu and two additions the specification's; the kernel's two regions leave the same
  affine maps block by block. What is left between them is spelling: the pair context (head rows beside tail rows,
  gathered at the pair's row numbers), the frequency row (gathered at 151 · subject + object), its three column
  selections and the log-sum-exp block are the SAME compositions of the same host operations in the two programs,
  written once in each program's own names. Under the statement's index ranges the kernel's filled gathers are the plain
  gathers, so the two sides are one term.
-/
import proofs.«407185_j88871463289477_1_alg».proof.Proof.KI.Vals
import proofs.«407185_j88871463289477_1_alg».proof.Proof.RI.Run
import proofs.«407185_j88871463289477_1_alg».proof.Proof.RI.RefSpec
import proofs.«407185_j88871463289477_1_alg».proof.Defs

set_option maxRecDepth 16384

noncomputable section

namespace Cert.Bridge

open Idealize.ShloMosaic Idealize.ShloMosaic.TcCoe Idealize.SL.Sem

/-! ## The shared host chains, in the two programs' spellings -/

/-- The pair context. -/
theorem ctx_same (E : FVec Ideal Cert.KernelIdeal.S8192x1024 .f32) (a1 : IVec Cert.KernelIdeal.S32768x2 32) :
    Cert.ReferenceIdeal.Hand.pairCtx (Cert.ReferenceIdeal.Hand.pickRows (Cert.ReferenceIdeal.Hand.headHalf E) (Cert.ReferenceIdeal.Hand.objRow (Cert.ReferenceIdeal.Hand.column0 a1)))
        (Cert.ReferenceIdeal.Hand.pickRows (Cert.ReferenceIdeal.Hand.tailHalf E) (Cert.ReferenceIdeal.Hand.objRow (Cert.ReferenceIdeal.Hand.column1 a1)))
      = Cert.KernelIdeal.Hand.sideBySide
          (Host.gather Cert.KernelIdeal.gather_S8192x512_S32768x1_S32768x512_1_0_n_n_0_1_1512 (Cert.KernelIdeal.Hand.halfL E) (Cert.KernelIdeal.Hand.asCol (Cert.KernelIdeal.Hand.wrapNeg 8192#32 (Cert.KernelIdeal.Hand.col0 a1))))
          (Host.gather Cert.KernelIdeal.gather_S8192x512_S32768x1_S32768x512_1_0_n_n_0_1_1512 (Cert.KernelIdeal.Hand.halfR E) (Cert.KernelIdeal.Hand.asCol (Cert.KernelIdeal.Hand.wrapNeg 8192#32 (Cert.KernelIdeal.Hand.col1 a1)))) := rfl

/-- The frequency row. -/
theorem freq_same (tbl : FVec Ideal Cert.KernelIdeal.S22801x51 .f32) (a3 : IVec Cert.KernelIdeal.S32768x2 32) :
    Cert.ReferenceIdeal.Hand.freqRow tbl a3
      = Host.gather Cert.KernelIdeal.gather_S22801x51_S32768x1_S32768x51_1_0_n_n_0_1_151 tbl (Cert.KernelIdeal.Hand.asCol (Cert.KernelIdeal.Hand.wrapNeg 22801#32 (Cert.KernelIdeal.Hand.labelIdx a3))) := rfl

/-- The three column selections and the log-sum-exp block of a frequency row. -/
theorem bias15_same (row : FVec Ideal Cert.KernelIdeal.S32768x51 .f32) : Cert.ReferenceIdeal.Hand.bias15 row Cert.ReferenceIdeal.Hand.cols15 = Cert.KernelIdeal.Hand.selGeo row := rfl
theorem bias11_same (row : FVec Ideal Cert.KernelIdeal.S32768x51 .f32) : Cert.ReferenceIdeal.Hand.bias11 row Cert.ReferenceIdeal.Hand.cols11 = Cert.KernelIdeal.Hand.selPos row := rfl
theorem bias24_same (row : FVec Ideal Cert.KernelIdeal.S32768x51 .f32) : Cert.ReferenceIdeal.Hand.bias24 row Cert.ReferenceIdeal.Hand.cols24 = Cert.KernelIdeal.Hand.selSem row := rfl
theorem bias4_same (row : FVec Ideal Cert.KernelIdeal.S32768x51 .f32) :
    Cert.ReferenceIdeal.Hand.bias4 row (Cert.ReferenceIdeal.Hand.bias15 row Cert.ReferenceIdeal.Hand.cols15) (Cert.ReferenceIdeal.Hand.bias11 row Cert.ReferenceIdeal.Hand.cols11) (Cert.ReferenceIdeal.Hand.bias24 row Cert.ReferenceIdeal.Hand.cols24) = Cert.KernelIdeal.Hand.logSums row := rfl

/-! ## The reference's results through the specification -/

/-- The reference's result 113, read through the specification: visual head + context head + bias block. -/
theorem out113_spec (a0 : FVec Ideal Cert.KernelIdeal.S8192x512 .f32) (a1 : IVec Cert.KernelIdeal.S32768x2 32) (a2 : FVec Ideal Cert.KernelIdeal.S32768x4096 .f32) (a3 : IVec Cert.KernelIdeal.S32768x2 32) (a4 : FVec Ideal Cert.KernelIdeal.S512x1024 .f32) (a5 : FVec Ideal Cert.KernelIdeal.S1024 .f32) (a6 : FVec Ideal Cert.KernelIdeal.S1024x4096 .f32) (a7 : FVec Ideal Cert.KernelIdeal.S4096 .f32) (a8 : FVec Ideal Cert.KernelIdeal.S4096x15 .f32) (a9 : FVec Ideal Cert.KernelIdeal.S15 .f32) (a10 : FVec Ideal Cert.KernelIdeal.S4096x11 .f32) (a11 : FVec Ideal Cert.KernelIdeal.S11 .f32) (a12 : FVec Ideal Cert.KernelIdeal.S4096x24 .f32) (a13 : FVec Ideal Cert.KernelIdeal.S24 .f32) (a14 : FVec Ideal Cert.KernelIdeal.S4096x4 .f32) (a15 : FVec Ideal Cert.KernelIdeal.S4 .f32) (a16 : FVec Ideal Cert.KernelIdeal.S4096x15 .f32) (a17 : FVec Ideal Cert.KernelIdeal.S15 .f32) (a18 : FVec Ideal Cert.KernelIdeal.S4096x11 .f32) (a19 : FVec Ideal Cert.KernelIdeal.S11 .f32) (a20 : FVec Ideal Cert.KernelIdeal.S4096x24 .f32) (a21 : FVec Ideal Cert.KernelIdeal.S24 .f32) (a22 : FVec Ideal Cert.KernelIdeal.S4096x4 .f32) (a23 : FVec Ideal Cert.KernelIdeal.S4 .f32) (a24 : FVec Ideal Cert.KernelIdeal.S22801x51 .f32) :
    Cert.ReferenceIdeal.Hand.out113 (F := Ideal) a0 a1 a2 a3 a4 a5 a6 a7 a8 a9 a10 a11 a12 a13 a14 a15 a16 a17 a18 a19 a20 a21 a22 a23 a24
      = Cert.Spec.fuse 32768 15
          (Cert.Spec.affine 32768 4096 15 a2 a16 (Cert.Spec.asRow 15 a17))
          (Cert.Spec.affine 32768 4096 15 (Cert.Spec.relu 32768 4096 (Cert.Spec.affine 32768 1024 4096 (Cert.KernelIdeal.Hand.sideBySide (F := Ideal)
      (Host.gather Cert.KernelIdeal.gather_S8192x512_S32768x1_S32768x512_1_0_n_n_0_1_1512 (Cert.KernelIdeal.Hand.halfL (F := Ideal) (Cert.Spec.affine 8192 512 1024 a0 a4 (Cert.Spec.asRow 1024 a5))) (Cert.KernelIdeal.Hand.asCol (Cert.KernelIdeal.Hand.wrapNeg 8192#32 (Cert.KernelIdeal.Hand.col0 a1))))
      (Host.gather Cert.KernelIdeal.gather_S8192x512_S32768x1_S32768x512_1_0_n_n_0_1_1512 (Cert.KernelIdeal.Hand.halfR (F := Ideal) (Cert.Spec.affine 8192 512 1024 a0 a4 (Cert.Spec.asRow 1024 a5))) (Cert.KernelIdeal.Hand.asCol (Cert.KernelIdeal.Hand.wrapNeg 8192#32 (Cert.KernelIdeal.Hand.col1 a1))))) a6 (Cert.Spec.asRow 4096 a7))) a8 (Cert.Spec.asRow 15 a9))
          (Cert.KernelIdeal.Hand.selGeo (Host.gather Cert.KernelIdeal.gather_S22801x51_S32768x1_S32768x51_1_0_n_n_0_1_151 a24 (Cert.KernelIdeal.Hand.asCol (Cert.KernelIdeal.Hand.wrapNeg 22801#32 (Cert.KernelIdeal.Hand.labelIdx a3))))) := by
  unfold Cert.ReferenceIdeal.Hand.out113 Cert.ReferenceIdeal.Hand.fused Cert.ReferenceIdeal.Hand.head15 Cert.ReferenceIdeal.Hand.hiddenOf Cert.ReferenceIdeal.Hand.hiddenAct Cert.ReferenceIdeal.Hand.objProj
  rw [ref_affine_32768_4096_15, ref_affine_32768_4096_15, ref_affine_32768_1024_4096, ref_relu, ref_affine_8192_512_1024, ref_fuse_15,
    ctx_same, freq_same, bias15_same]

/-- The reference's result 115, read through the specification: visual head + context head + bias block. -/
theorem out115_spec (a0 : FVec Ideal Cert.KernelIdeal.S8192x512 .f32) (a1 : IVec Cert.KernelIdeal.S32768x2 32) (a2 : FVec Ideal Cert.KernelIdeal.S32768x4096 .f32) (a3 : IVec Cert.KernelIdeal.S32768x2 32) (a4 : FVec Ideal Cert.KernelIdeal.S512x1024 .f32) (a5 : FVec Ideal Cert.KernelIdeal.S1024 .f32) (a6 : FVec Ideal Cert.KernelIdeal.S1024x4096 .f32) (a7 : FVec Ideal Cert.KernelIdeal.S4096 .f32) (a8 : FVec Ideal Cert.KernelIdeal.S4096x15 .f32) (a9 : FVec Ideal Cert.KernelIdeal.S15 .f32) (a10 : FVec Ideal Cert.KernelIdeal.S4096x11 .f32) (a11 : FVec Ideal Cert.KernelIdeal.S11 .f32) (a12 : FVec Ideal Cert.KernelIdeal.S4096x24 .f32) (a13 : FVec Ideal Cert.KernelIdeal.S24 .f32) (a14 : FVec Ideal Cert.KernelIdeal.S4096x4 .f32) (a15 : FVec Ideal Cert.KernelIdeal.S4 .f32) (a16 : FVec Ideal Cert.KernelIdeal.S4096x15 .f32) (a17 : FVec Ideal Cert.KernelIdeal.S15 .f32) (a18 : FVec Ideal Cert.KernelIdeal.S4096x11 .f32) (a19 : FVec Ideal Cert.KernelIdeal.S11 .f32) (a20 : FVec Ideal Cert.KernelIdeal.S4096x24 .f32) (a21 : FVec Ideal Cert.KernelIdeal.S24 .f32) (a22 : FVec Ideal Cert.KernelIdeal.S4096x4 .f32) (a23 : FVec Ideal Cert.KernelIdeal.S4 .f32) (a24 : FVec Ideal Cert.KernelIdeal.S22801x51 .f32) :
    Cert.ReferenceIdeal.Hand.out115 (F := Ideal) a0 a1 a2 a3 a4 a5 a6 a7 a8 a9 a10 a11 a12 a13 a14 a15 a16 a17 a18 a19 a20 a21 a22 a23 a24
      = Cert.Spec.fuse 32768 11
          (Cert.Spec.affine 32768 4096 11 a2 a18 (Cert.Spec.asRow 11 a19))
          (Cert.Spec.affine 32768 4096 11 (Cert.Spec.relu 32768 4096 (Cert.Spec.affine 32768 1024 4096 (Cert.KernelIdeal.Hand.sideBySide (F := Ideal)
      (Host.gather Cert.KernelIdeal.gather_S8192x512_S32768x1_S32768x512_1_0_n_n_0_1_1512 (Cert.KernelIdeal.Hand.halfL (F := Ideal) (Cert.Spec.affine 8192 512 1024 a0 a4 (Cert.Spec.asRow 1024 a5))) (Cert.KernelIdeal.Hand.asCol (Cert.KernelIdeal.Hand.wrapNeg 8192#32 (Cert.KernelIdeal.Hand.col0 a1))))
      (Host.gather Cert.KernelIdeal.gather_S8192x512_S32768x1_S32768x512_1_0_n_n_0_1_1512 (Cert.KernelIdeal.Hand.halfR (F := Ideal) (Cert.Spec.affine 8192 512 1024 a0 a4 (Cert.Spec.asRow 1024 a5))) (Cert.KernelIdeal.Hand.asCol (Cert.KernelIdeal.Hand.wrapNeg 8192#32 (Cert.KernelIdeal.Hand.col1 a1))))) a6 (Cert.Spec.asRow 4096 a7))) a10 (Cert.Spec.asRow 11 a11))
          (Cert.KernelIdeal.Hand.selPos (Host.gather Cert.KernelIdeal.gather_S22801x51_S32768x1_S32768x51_1_0_n_n_0_1_151 a24 (Cert.KernelIdeal.Hand.asCol (Cert.KernelIdeal.Hand.wrapNeg 22801#32 (Cert.KernelIdeal.Hand.labelIdx a3))))) := by
  unfold Cert.ReferenceIdeal.Hand.out115 Cert.ReferenceIdeal.Hand.fused Cert.ReferenceIdeal.Hand.head11 Cert.ReferenceIdeal.Hand.hiddenOf Cert.ReferenceIdeal.Hand.hiddenAct Cert.ReferenceIdeal.Hand.objProj
  rw [ref_affine_32768_4096_11, ref_affine_32768_4096_11, ref_affine_32768_1024_4096, ref_relu, ref_affine_8192_512_1024, ref_fuse_11,
    ctx_same, freq_same, bias11_same]

/-- The reference's result 117, read through the specification: visual head + context head + bias block. -/
theorem out117_spec (a0 : FVec Ideal Cert.KernelIdeal.S8192x512 .f32) (a1 : IVec Cert.KernelIdeal.S32768x2 32) (a2 : FVec Ideal Cert.KernelIdeal.S32768x4096 .f32) (a3 : IVec Cert.KernelIdeal.S32768x2 32) (a4 : FVec Ideal Cert.KernelIdeal.S512x1024 .f32) (a5 : FVec Ideal Cert.KernelIdeal.S1024 .f32) (a6 : FVec Ideal Cert.KernelIdeal.S1024x4096 .f32) (a7 : FVec Ideal Cert.KernelIdeal.S4096 .f32) (a8 : FVec Ideal Cert.KernelIdeal.S4096x15 .f32) (a9 : FVec Ideal Cert.KernelIdeal.S15 .f32) (a10 : FVec Ideal Cert.KernelIdeal.S4096x11 .f32) (a11 : FVec Ideal Cert.KernelIdeal.S11 .f32) (a12 : FVec Ideal Cert.KernelIdeal.S4096x24 .f32) (a13 : FVec Ideal Cert.KernelIdeal.S24 .f32) (a14 : FVec Ideal Cert.KernelIdeal.S4096x4 .f32) (a15 : FVec Ideal Cert.KernelIdeal.S4 .f32) (a16 : FVec Ideal Cert.KernelIdeal.S4096x15 .f32) (a17 : FVec Ideal Cert.KernelIdeal.S15 .f32) (a18 : FVec Ideal Cert.KernelIdeal.S4096x11 .f32) (a19 : FVec Ideal Cert.KernelIdeal.S11 .f32) (a20 : FVec Ideal Cert.KernelIdeal.S4096x24 .f32) (a21 : FVec Ideal Cert.KernelIdeal.S24 .f32) (a22 : FVec Ideal Cert.KernelIdeal.S4096x4 .f32) (a23 : FVec Ideal Cert.KernelIdeal.S4 .f32) (a24 : FVec Ideal Cert.KernelIdeal.S22801x51 .f32) :
    Cert.ReferenceIdeal.Hand.out117 (F := Ideal) a0 a1 a2 a3 a4 a5 a6 a7 a8 a9 a10 a11 a12 a13 a14 a15 a16 a17 a18 a19 a20 a21 a22 a23 a24
      = Cert.Spec.fuse 32768 24
          (Cert.Spec.affine 32768 4096 24 a2 a20 (Cert.Spec.asRow 24 a21))
          (Cert.Spec.affine 32768 4096 24 (Cert.Spec.relu 32768 4096 (Cert.Spec.affine 32768 1024 4096 (Cert.KernelIdeal.Hand.sideBySide (F := Ideal)
      (Host.gather Cert.KernelIdeal.gather_S8192x512_S32768x1_S32768x512_1_0_n_n_0_1_1512 (Cert.KernelIdeal.Hand.halfL (F := Ideal) (Cert.Spec.affine 8192 512 1024 a0 a4 (Cert.Spec.asRow 1024 a5))) (Cert.KernelIdeal.Hand.asCol (Cert.KernelIdeal.Hand.wrapNeg 8192#32 (Cert.KernelIdeal.Hand.col0 a1))))
      (Host.gather Cert.KernelIdeal.gather_S8192x512_S32768x1_S32768x512_1_0_n_n_0_1_1512 (Cert.KernelIdeal.Hand.halfR (F := Ideal) (Cert.Spec.affine 8192 512 1024 a0 a4 (Cert.Spec.asRow 1024 a5))) (Cert.KernelIdeal.Hand.asCol (Cert.KernelIdeal.Hand.wrapNeg 8192#32 (Cert.KernelIdeal.Hand.col1 a1))))) a6 (Cert.Spec.asRow 4096 a7))) a12 (Cert.Spec.asRow 24 a13))
          (Cert.KernelIdeal.Hand.selSem (Host.gather Cert.KernelIdeal.gather_S22801x51_S32768x1_S32768x51_1_0_n_n_0_1_151 a24 (Cert.KernelIdeal.Hand.asCol (Cert.KernelIdeal.Hand.wrapNeg 22801#32 (Cert.KernelIdeal.Hand.labelIdx a3))))) := by
  unfold Cert.ReferenceIdeal.Hand.out117 Cert.ReferenceIdeal.Hand.fused Cert.ReferenceIdeal.Hand.head24 Cert.ReferenceIdeal.Hand.hiddenOf Cert.ReferenceIdeal.Hand.hiddenAct Cert.ReferenceIdeal.Hand.objProj
  rw [ref_affine_32768_4096_24, ref_affine_32768_4096_24, ref_affine_32768_1024_4096, ref_relu, ref_affine_8192_512_1024, ref_fuse_24,
    ctx_same, freq_same, bias24_same]

/-- The reference's result 119, read through the specification: visual head + context head + bias block. -/
theorem out119_spec (a0 : FVec Ideal Cert.KernelIdeal.S8192x512 .f32) (a1 : IVec Cert.KernelIdeal.S32768x2 32) (a2 : FVec Ideal Cert.KernelIdeal.S32768x4096 .f32) (a3 : IVec Cert.KernelIdeal.S32768x2 32) (a4 : FVec Ideal Cert.KernelIdeal.S512x1024 .f32) (a5 : FVec Ideal Cert.KernelIdeal.S1024 .f32) (a6 : FVec Ideal Cert.KernelIdeal.S1024x4096 .f32) (a7 : FVec Ideal Cert.KernelIdeal.S4096 .f32) (a8 : FVec Ideal Cert.KernelIdeal.S4096x15 .f32) (a9 : FVec Ideal Cert.KernelIdeal.S15 .f32) (a10 : FVec Ideal Cert.KernelIdeal.S4096x11 .f32) (a11 : FVec Ideal Cert.KernelIdeal.S11 .f32) (a12 : FVec Ideal Cert.KernelIdeal.S4096x24 .f32) (a13 : FVec Ideal Cert.KernelIdeal.S24 .f32) (a14 : FVec Ideal Cert.KernelIdeal.S4096x4 .f32) (a15 : FVec Ideal Cert.KernelIdeal.S4 .f32) (a16 : FVec Ideal Cert.KernelIdeal.S4096x15 .f32) (a17 : FVec Ideal Cert.KernelIdeal.S15 .f32) (a18 : FVec Ideal Cert.KernelIdeal.S4096x11 .f32) (a19 : FVec Ideal Cert.KernelIdeal.S11 .f32) (a20 : FVec Ideal Cert.KernelIdeal.S4096x24 .f32) (a21 : FVec Ideal Cert.KernelIdeal.S24 .f32) (a22 : FVec Ideal Cert.KernelIdeal.S4096x4 .f32) (a23 : FVec Ideal Cert.KernelIdeal.S4 .f32) (a24 : FVec Ideal Cert.KernelIdeal.S22801x51 .f32) :
    Cert.ReferenceIdeal.Hand.out119 (F := Ideal) a0 a1 a2 a3 a4 a5 a6 a7 a8 a9 a10 a11 a12 a13 a14 a15 a16 a17 a18 a19 a20 a21 a22 a23 a24
      = Cert.Spec.fuse 32768 4
          (Cert.Spec.affine 32768 4096 4 a2 a22 (Cert.Spec.asRow 4 a23))
          (Cert.Spec.affine 32768 4096 4 (Cert.Spec.relu 32768 4096 (Cert.Spec.affine 32768 1024 4096 (Cert.KernelIdeal.Hand.sideBySide (F := Ideal)
      (Host.gather Cert.KernelIdeal.gather_S8192x512_S32768x1_S32768x512_1_0_n_n_0_1_1512 (Cert.KernelIdeal.Hand.halfL (F := Ideal) (Cert.Spec.affine 8192 512 1024 a0 a4 (Cert.Spec.asRow 1024 a5))) (Cert.KernelIdeal.Hand.asCol (Cert.KernelIdeal.Hand.wrapNeg 8192#32 (Cert.KernelIdeal.Hand.col0 a1))))
      (Host.gather Cert.KernelIdeal.gather_S8192x512_S32768x1_S32768x512_1_0_n_n_0_1_1512 (Cert.KernelIdeal.Hand.halfR (F := Ideal) (Cert.Spec.affine 8192 512 1024 a0 a4 (Cert.Spec.asRow 1024 a5))) (Cert.KernelIdeal.Hand.asCol (Cert.KernelIdeal.Hand.wrapNeg 8192#32 (Cert.KernelIdeal.Hand.col1 a1))))) a6 (Cert.Spec.asRow 4096 a7))) a14 (Cert.Spec.asRow 4 a15))
          (Cert.KernelIdeal.Hand.logSums (Host.gather Cert.KernelIdeal.gather_S22801x51_S32768x1_S32768x51_1_0_n_n_0_1_151 a24 (Cert.KernelIdeal.Hand.asCol (Cert.KernelIdeal.Hand.wrapNeg 22801#32 (Cert.KernelIdeal.Hand.labelIdx a3))))) := by
  unfold Cert.ReferenceIdeal.Hand.out119 Cert.ReferenceIdeal.Hand.fused Cert.ReferenceIdeal.Hand.head4 Cert.ReferenceIdeal.Hand.hiddenOf Cert.ReferenceIdeal.Hand.hiddenAct Cert.ReferenceIdeal.Hand.objProj
  rw [ref_affine_32768_4096_4, ref_affine_32768_4096_4, ref_affine_32768_1024_4096, ref_relu, ref_affine_8192_512_1024, ref_fuse_4,
    ctx_same, freq_same, bias4_same]

/-! ## The kernel's results are the reference's -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal m)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))

include hpre hagree in
theorem result24 (c : Dev Cert.KernelIdeal.nD) :
    Cert.ReferenceIdeal.Hand.out113 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24))
      = (Cert.KernelIdeal.Hand.dat1 (F := Ideal) (Cert.KernelIdeal.Hand.En1 m) c).arrAt 24 Cert.KernelIdeal.cfg1.N := by
  have hr := Cert.KernelIdeal.Hand.idx_ranges_of_pre _ _ _ _ _ _ _ _ _ _ _ _ _ _ _ _ _ _ _ _ _ _ _ _ _ (hpre c)
  rw [Cert.KernelIdeal.Hand.value24 m c hr.1 hr.2]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]
  unfold Cert.KernelIdeal.Hand.hiddenK Cert.KernelIdeal.Hand.ctxK Cert.KernelIdeal.Hand.freqK Cert.KernelIdeal.Hand.projK Cert.KernelIdeal.Hand.arg
  exact out113_spec _ _ _ _ _ _ _ _ _ _ _ _ _ _ _ _ _ _ _ _ _ _ _ _ _

include hpre hagree in
theorem result25 (c : Dev Cert.KernelIdeal.nD) :
    Cert.ReferenceIdeal.Hand.out115 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24))
      = (Cert.KernelIdeal.Hand.dat1 (F := Ideal) (Cert.KernelIdeal.Hand.En1 m) c).arrAt 25 Cert.KernelIdeal.cfg1.N := by
  have hr := Cert.KernelIdeal.Hand.idx_ranges_of_pre _ _ _ _ _ _ _ _ _ _ _ _ _ _ _ _ _ _ _ _ _ _ _ _ _ (hpre c)
  rw [Cert.KernelIdeal.Hand.value25 m c hr.1 hr.2]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]
  unfold Cert.KernelIdeal.Hand.hiddenK Cert.KernelIdeal.Hand.ctxK Cert.KernelIdeal.Hand.freqK Cert.KernelIdeal.Hand.projK Cert.KernelIdeal.Hand.arg
  exact out115_spec _ _ _ _ _ _ _ _ _ _ _ _ _ _ _ _ _ _ _ _ _ _ _ _ _

include hpre hagree in
theorem result26 (c : Dev Cert.KernelIdeal.nD) :
    Cert.ReferenceIdeal.Hand.out117 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24))
      = (Cert.KernelIdeal.Hand.dat1 (F := Ideal) (Cert.KernelIdeal.Hand.En1 m) c).arrAt 26 Cert.KernelIdeal.cfg1.N := by
  have hr := Cert.KernelIdeal.Hand.idx_ranges_of_pre _ _ _ _ _ _ _ _ _ _ _ _ _ _ _ _ _ _ _ _ _ _ _ _ _ (hpre c)
  rw [Cert.KernelIdeal.Hand.value26 m c hr.1 hr.2]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]
  unfold Cert.KernelIdeal.Hand.hiddenK Cert.KernelIdeal.Hand.ctxK Cert.KernelIdeal.Hand.freqK Cert.KernelIdeal.Hand.projK Cert.KernelIdeal.Hand.arg
  exact out117_spec _ _ _ _ _ _ _ _ _ _ _ _ _ _ _ _ _ _ _ _ _ _ _ _ _

include hpre hagree in
theorem result27 (c : Dev Cert.KernelIdeal.nD) :
    Cert.ReferenceIdeal.Hand.out119 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24))
      = (Cert.KernelIdeal.Hand.dat1 (F := Ideal) (Cert.KernelIdeal.Hand.En1 m) c).arrAt 27 Cert.KernelIdeal.cfg1.N := by
  have hr := Cert.KernelIdeal.Hand.idx_ranges_of_pre _ _ _ _ _ _ _ _ _ _ _ _ _ _ _ _ _ _ _ _ _ _ _ _ _ (hpre c)
  rw [Cert.KernelIdeal.Hand.value27 m c hr.1 hr.2]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]
  unfold Cert.KernelIdeal.Hand.hiddenK Cert.KernelIdeal.Hand.ctxK Cert.KernelIdeal.Hand.freqK Cert.KernelIdeal.Hand.projK Cert.KernelIdeal.Hand.arg
  exact out119_spec _ _ _ _ _ _ _ _ _ _ _ _ _ _ _ _ _ _ _ _ _ _ _ _ _

end Cert.Bridge

end
-- ==== Proof.lean ====
/-
  The certificate's five claims.

  The kernel program projects every object context (rows times a matrix plus a bias row, computed by a first kernel
  region block by block), gathers for each pair the head half of its subject's projected row and the tail half of its
  object's, mixes the pair context through a matrix, a bias and a relu, and — in a second kernel region, block by block
  — takes four heads of that hidden activation and four heads of the pair's visual features and adds to each pair of
  heads a block of the pair's frequency-table row (three fixed column selections, and the logarithms of their
  exponentials' sums). The reference computes the same with whole-array operations.

  * The three frames: each program runs to the end, faults nowhere, and leaves its arguments unchanged. The kernel
    programs run as ten items — host stretches and the two kernel regions — over named buffer contents; the reference is
    a straight line of host operations.
  * The idealization rewrote nothing, so there is nothing to preserve.
  * Over the extended reals the two idealized programs agree: a block of rows of an affine map is the affine map of the
    block; narrowing a float format changes no extended real; and the kernel's row gathers, which fill an out-of-range
    row, never fill under the statement's ranges (pair indices are row numbers of the 8192 projected rows, labels are
    below 151), so they are the reference's plain gathers. No law of the extended reals beyond reading sums term by term
    is used, so the float inputs may be anything.
-/
import proofs.«407185_j88871463289477_1_alg».proof.Defs
import proofs.«407185_j88871463289477_1_alg».proof.Proof.Gen.Kernel
import proofs.«407185_j88871463289477_1_alg».proof.Proof.Gen.KernelIdeal
import proofs.«407185_j88871463289477_1_alg».proof.Proof.Gen.ReferenceIdeal
import proofs.«407185_j88871463289477_1_alg».proof.Proof.Gen.Pre_finite_inputs
import proofs.«407185_j88871463289477_1_alg».proof.Proof.K.Frame
import proofs.«407185_j88871463289477_1_alg».proof.Proof.KI.Ends
import proofs.«407185_j88871463289477_1_alg».proof.Proof.RI.Run
import proofs.«407185_j88871463289477_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame_all (F := Bits) m ρ

theorem frame_kernelIdeal : Cert.frame_KernelIdeal := fun m ρ _ => Cert.KernelIdeal.Hand.frame_all (F := Ideal) m ρ

theorem frame_referenceIdeal : Cert.frame_ReferenceIdeal := fun m ρ _ =>
  (θ_run Cert.ReferenceIdeal.defs _ _).mono (fun _ h c => (h c).2.2.2.2) (Cert.ReferenceIdeal.Hand.run (F := Ideal) m ρ)

theorem preserves : Cert.preserves_Kernel_KernelIdeal := trivial

theorem algebraic : Cert.algebraic_KernelIdeal_ReferenceIdeal := by
  intro m ρ m' ρ' hpre hagree
  refine ⟨fun c => (Cert.KernelIdeal.Hand.dat1 (F := Ideal) (Cert.KernelIdeal.Hand.En1 m) c).arrAt 24 Cert.KernelIdeal.cfg1.N,
    fun c => (Cert.KernelIdeal.Hand.dat1 (F := Ideal) (Cert.KernelIdeal.Hand.En1 m) c).arrAt 25 Cert.KernelIdeal.cfg1.N,
    fun c => (Cert.KernelIdeal.Hand.dat1 (F := Ideal) (Cert.KernelIdeal.Hand.En1 m) c).arrAt 26 Cert.KernelIdeal.cfg1.N,
    fun c => (Cert.KernelIdeal.Hand.dat1 (F := Ideal) (Cert.KernelIdeal.Hand.En1 m) c).arrAt 27 Cert.KernelIdeal.cfg1.N,
    Cert.KernelIdeal.Hand.run_results (F := Ideal) m ρ, ?_⟩
  refine (θ_run Cert.ReferenceIdeal.defs _ _).mono (fun r h c => ?_) (Cert.ReferenceIdeal.Hand.run (F := Ideal) m' ρ')
  obtain ⟨h0, h1, h2, h3, hargs⟩ := h c
  exact ⟨h0.trans (Cert.Bridge.result24 m m' hpre hagree c), h1.trans (Cert.Bridge.result25 m m' hpre hagree c),
    h2.trans (Cert.Bridge.result26 m m' hpre hagree c), h3.trans (Cert.Bridge.result27 m m' hpre hagree c), hargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
